-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v5_1)) (v3 : (c : Dev Cert.KernelIdeal.nD) → Buf (Elt Ideal) ((c.tc : Thread Cert.KernelIdeal.nD Cert.KernelIdeal.τ).loc Cert.KernelIdeal.main_v33_0)) (v4 : (c : Dev Cert.KernelIdeal.nD) → Buf (Elt Ideal) ((c.tc : Thread Cert.KernelIdeal.nD Cert.KernelIdeal.τ).loc Cert.KernelIdeal.main_v33_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_v33_0) = v3 c
          ∧ r.2.mem ((c.tc : Thread Cert.KernelIdeal.nD Cert.KernelIdeal.τ).loc Cert.KernelIdeal.main_v33_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v117) = v3 c
          ∧ r.2.mem ((c.tc : Thread Cert.ReferenceIdeal.nD Cert.ReferenceIdeal.τ).loc Cert.ReferenceIdeal.main_v109) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S50000x32 : Shape := ⟨2, ![50000, 32]⟩
abbrev S2x800000 : Shape := ⟨2, ![2, 800000]⟩
abbrev S800000x4 : Shape := ⟨2, ![800000, 4]⟩
abbrev S50000x20 : Shape := ⟨2, ![50000, 20]⟩
abbrev S50000x8 : Shape := ⟨2, ![50000, 8]⟩
abbrev S80x37 : Shape := ⟨2, ![80, 37]⟩
abbrev S80x20 : Shape := ⟨2, ![80, 20]⟩
abbrev S80 : Shape := ⟨1, ![80]⟩
abbrev S32x32 : Shape := ⟨2, ![32, 32]⟩
abbrev S32x8 : Shape := ⟨2, ![32, 8]⟩
abbrev S32 : Shape := ⟨1, ![32]⟩
abbrev S78x64 : Shape := ⟨2, ![78, 64]⟩
abbrev S64 : Shape := ⟨1, ![64]⟩
abbrev S64x32 : Shape := ⟨2, ![64, 32]⟩
abbrev S60x64 : Shape := ⟨2, ![60, 64]⟩
abbrev S64x4 : Shape := ⟨2, ![64, 4]⟩
abbrev S4 : Shape := ⟨1, ![4]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S50000x32 : S_.BroadcastsInDim S50000x32 (![] : Fin 0 → Fin S50000x32.rank)
  reducesTo_S50000x32_S_d0_1 : S50000x32.ReducesTo [0, 1] S_
  bcast_S_S800000x4 : S_.BroadcastsInDim S800000x4 (![] : Fin 0 → Fin S800000x4.rank)
  reducesTo_S800000x4_S_d0_1 : S800000x4.ReducesTo [0, 1] S_
  bcast_S_S50000x20 : S_.BroadcastsInDim S50000x20 (![] : Fin 0 → Fin S50000x20.rank)
  reducesTo_S50000x20_S_d0_1 : S50000x20.ReducesTo [0, 1] S_
  bcast_S_S50000x8 : S_.BroadcastsInDim S50000x8 (![] : Fin 0 → Fin S50000x8.rank)
  reducesTo_S50000x8_S_d0_1 : S50000x8.ReducesTo [0, 1] S_
  bcast_S_S80x37 : S_.BroadcastsInDim S80x37 (![] : Fin 0 → Fin S80x37.rank)
  reducesTo_S80x37_S_d0_1 : S80x37.ReducesTo [0, 1] S_
  bcast_S_S80x20 : S_.BroadcastsInDim S80x20 (![] : Fin 0 → Fin S80x20.rank)
  reducesTo_S80x20_S_d0_1 : S80x20.ReducesTo [0, 1] S_
  bcast_S_S80 : S_.BroadcastsInDim S80 (![] : Fin 0 → Fin S80.rank)
  reducesTo_S80_S_d0 : S80.ReducesTo [0] S_
  bcast_S_S32x32 : S_.BroadcastsInDim S32x32 (![] : Fin 0 → Fin S32x32.rank)
  reducesTo_S32x32_S_d0_1 : S32x32.ReducesTo [0, 1] S_
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S78x64 : S_.BroadcastsInDim S78x64 (![] : Fin 0 → Fin S78x64.rank)
  reducesTo_S78x64_S_d0_1 : S78x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S60x64 : S_.BroadcastsInDim S60x64 (![] : Fin 0 → Fin S60x64.rank)
  reducesTo_S60x64_S_d0_1 : S60x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_
  bcast_S_S2x800000 : S_.BroadcastsInDim S2x800000 (![] : Fin 0 → Fin S2x800000.rank)
  reducesTo_S2x800000_S_d0_1 : S2x800000.ReducesTo [0, 1] S_

variable [Facts]

def fn_part8 {F : FTy → Type} [FloatOps F] (main_arg2 : IVec S2x800000 32) (main_v133 : IVec S_ 1) (main_v135 : IVec S2x800000 1) (main_c_53 : IVec S_ 32) : IVec S_ 1 :=
  let main_v136 : IVec S2x800000 32 := broadcastInDim S2x800000 ![] bcast_S_S2x800000 main_c_53
  let main_v137 : IVec S2x800000 1 := cmpi .slt main_arg2 main_v136
  let main_v138 : IVec S2x800000 1 := andi main_v135 main_v137
  let main_c_54 : IVec S_ 1 := constantI S_ 1 1#1
  let main_v139 : IVec S_ 1 := (fun x v => Host.reduce IntOp.andi x v reducesTo_S2x800000_S_d0_1 h_S_) main_v138 main_c_54
  let main_v140 : IVec S_ 1 := andi main_v133 main_v139
  main_v140

def fn_part7 {F : FTy → Type} [FloatOps F] (main_arg2 : IVec S2x800000 32) (main_arg26 : FVec F S64x4 .f32) (main_arg27 : FVec F S4 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64x4 .f32 := Host.absf main_arg26
  let main_cst_48 : FVec F S_ .f32 := constant S_ .f32 0x7F800000#32
  let main_v125 : FVec F S64x4 .f32 := broadcastInDim S64x4 ![] bcast_S_S64x4 main_cst_48
  let main_v126 : IVec S64x4 1 := cmpf .olt main_v124 main_v125
  let main_c_49 : IVec S_ 1 := constantI S_ 1 1#1
  let main_v127 : IVec S_ 1 := (fun x v => Host.reduce IntOp.andi x v reducesTo_S64x4_S_d0_1 h_S_) main_v126 main_c_49
  let main_v128 : IVec S_ 1 := andi main_v123 main_v127
  let main_v129 : FVec F S4 .f32 := Host.absf main_arg27
  let main_cst_50 : FVec F S_ .f32 := constant S_ .f32 0x7F800000#32
  let main_v130 : FVec F S4 .f32 := broadcastInDim S4 ![] bcast_S_S4 main_cst_50
  let main_v131 : IVec S4 1 := cmpf .olt main_v129 main_v130
  let main_c_51 : IVec S_ 1 := constantI S_ 1 1#1
  let main_v132 : IVec S_ 1 := (fun x v => Host.reduce IntOp.andi x v reducesTo_S4_S_d0 h_S_) main_v131 main_c_51
  let main_v133 : IVec S_ 1 := andi main_v128 main_v132
  let main_c_52 : IVec S_ 32 := constantI S_ 32 0#32
  let main_v134 : IVec S2x800000 32 := broadcastInDim S2x800000 ![] bcast_S_S2x800000 main_c_52
  let main_v135 : IVec S2x800000 1 := cmpi .sge main_arg2 main_v134
  let main_c_53 : IVec S_ 32 := constantI S_ 32 50000#32
  fn_part8 (F := F) main_arg2 main_v133 main_v135 main_c_53

def fn_part6 {F : FTy → Type} [FloatOps F] (main_arg2 : IVec S2x800000 32) (main_arg22 : FVec F S64x32 .f32) (main_arg23 : FVec F S32 .f32) (main_arg24 : FVec F S60x64 .f32) (main_arg25 : FVec F S64 .f32) (main_arg26 : FVec F S64x4 .f32) (main_arg27 : FVec F S4 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64x32 .f32 := Host.absf main_arg22
  let main_cst_40 : FVec F S_ .f32 := constant S_ .f32 0x7F800000#32
  let main_v105 : FVec F S64x32 .f32 := broadcastInDim S64x32 ![] bcast_S_S64x32 main_cst_40
  let main_v106 : IVec S64x32 1 := cmpf .olt main_v104 main_v105
  let main_c_41 : IVec S_ 1 := constantI S_ 1 1#1
  let main_v107 : IVec S_ 1 := (fun x v => Host.reduce IntOp.andi x v reducesTo_S64x32_S_d0_1 h_S_) main_v106 main_c_41
  let main_v108 : IVec S_ 1 := andi main_v103 main_v107
  let main_v109 : FVec F S32 .f32 := Host.absf main_arg23
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S60x64 .f32 := Host.absf main_arg24
  let main_cst_44 : FVec F S_ .f32 := constant S_ .f32 0x7F800000#32
  let main_v115 : FVec F S60x64 .f32 := broadcastInDim S60x64 ![] bcast_S_S60x64 main_cst_44
  let main_v116 : IVec S60x64 1 := cmpf .olt main_v114 main_v115
  let main_c_45 : IVec S_ 1 := constantI S_ 1 1#1
  let main_v117 : IVec S_ 1 := (fun x v => Host.reduce IntOp.andi x v reducesTo_S60x64_S_d0_1 h_S_) main_v116 main_c_45
  let main_v118 : IVec S_ 1 := andi main_v113 main_v117
  let main_v119 : FVec F S64 .f32 := Host.absf main_arg25
  fn_part7 (F := F) main_arg2 main_arg26 main_arg27 main_v118 main_v119

def fn_part5 {F : FTy → Type} [FloatOps F] (main_arg2 : IVec S2x800000 32) (main_arg19 : FVec F S32 .f32) (main_arg20 : FVec F S60x64 .f32) (main_arg21 : FVec F S64 .f32) (main_arg22 : FVec F S64x32 .f32) (main_arg23 : FVec F S32 .f32) (main_arg24 : FVec F S60x64 .f32) (main_arg25 : FVec F S64 .f32) (main_arg26 : FVec F S64x4 .f32) (main_arg27 : FVec F S4 .f32) (main_v83 : IVec S_ 1) (main_v84 : FVec F S64x32 .f32) (main_cst_32 : FVec F S_ .f32) : IVec S_ 1 :=
  let main_v85 : FVec F S64x32 .f32 := broadcastInDim S64x32 ![] bcast_S_S64x32 main_cst_32
  let main_v86 : IVec S64x32 1 := cmpf .olt main_v84 main_v85
  let main_c_33 : IVec S_ 1 := constantI S_ 1 1#1
  let main_v87 : IVec S_ 1 := (fun x v => Host.reduce IntOp.andi x v reducesTo_S64x32_S_d0_1 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S60x64 .f32 := Host.absf main_arg20
  let main_cst_36 : FVec F S_ .f32 := constant S_ .f32 0x7F800000#32
  let main_v95 : FVec F S60x64 .f32 := broadcastInDim S60x64 ![] bcast_S_S60x64 main_cst_36
  let main_v96 : IVec S60x64 1 := cmpf .olt main_v94 main_v95
  let main_c_37 : IVec S_ 1 := constantI S_ 1 1#1
  let main_v97 : IVec S_ 1 := (fun x v => Host.reduce IntOp.andi x v reducesTo_S60x64_S_d0_1 h_S_) main_v96 main_c_37
  let main_v98 : IVec S_ 1 := andi main_v93 main_v97
  let main_v99 : FVec F S64 .f32 := Host.absf main_arg21
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg2 main_arg22 main_arg23 main_arg24 main_arg25 main_arg26 main_arg27 main_v98 main_v101 main_c_39

def fn_part4 {F : FTy → Type} [FloatOps F] (main_arg2 : IVec S2x800000 32) (main_arg15 : FVec F S32 .f32) (main_arg16 : FVec F S78x64 .f32) (main_arg17 : FVec F S64 .f32) (main_arg18 : FVec F S64x32 .f32) (main_arg19 : FVec F S32 .f32) (main_arg20 : FVec F S60x64 .f32) (main_arg21 : FVec F S64 .f32) (main_arg22 : FVec F S64x32 .f32) (main_arg23 : FVec F S32 .f32) (main_arg24 : FVec F S60x64 .f32) (main_arg25 : FVec F S64 .f32) (main_arg26 : FVec F S64x4 .f32) (main_arg27 : FVec F S4 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S78x64 .f32 := Host.absf main_arg16
  let main_cst_28 : FVec F S_ .f32 := constant S_ .f32 0x7F800000#32
  let main_v75 : FVec F S78x64 .f32 := broadcastInDim S78x64 ![] bcast_S_S78x64 main_cst_28
  let main_v76 : IVec S78x64 1 := cmpf .olt main_v74 main_v75
  let main_c_29 : IVec S_ 1 := constantI S_ 1 1#1
  let main_v77 : IVec S_ 1 := (fun x v => Host.reduce IntOp.andi x v reducesTo_S78x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x32 .f32 := Host.absf main_arg18
  let main_cst_32 : FVec F S_ .f32 := constant S_ .f32 0x7F800000#32
  fn_part5 (F := F) main_arg2 main_arg19 main_arg20 main_arg21 main_arg22 main_arg23 main_arg24 main_arg25 main_arg26 main_arg27 main_v83 main_v84 main_cst_32

def fn_part3 {F : FTy → Type} [FloatOps F] (main_arg2 : IVec S2x800000 32) (main_arg12 : FVec F S32x32 .f32) (main_arg13 : FVec F S32x8 .f32) (main_arg14 : FVec F S32 .f32) (main_arg15 : FVec F S32 .f32) (main_arg16 : FVec F S78x64 .f32) (main_arg17 : FVec F S64 .f32) (main_arg18 : FVec F S64x32 .f32) (main_arg19 : FVec F S32 .f32) (main_arg20 : FVec F S60x64 .f32) (main_arg21 : FVec F S64 .f32) (main_arg22 : FVec F S64x32 .f32) (main_arg23 : FVec F S32 .f32) (main_arg24 : FVec F S60x64 .f32) (main_arg25 : FVec F S64 .f32) (main_arg26 : FVec F S64x4 .f32) (main_arg27 : FVec F S4 .f32) (main_v48 : IVec S_ 1) (main_v49 : FVec F S80 .f32) (main_v50 : FVec F S80 .f32) : IVec S_ 1 :=
  let main_v51 : IVec S80 1 := cmpf .olt main_v49 main_v50
  let main_c_19 : IVec S_ 1 := constantI S_ 1 1#1
  let main_v52 : IVec S_ 1 := (fun x v => Host.reduce IntOp.andi x v reducesTo_S80_S_d0 h_S_) main_v51 main_c_19
  let main_v53 : IVec S_ 1 := andi main_v48 main_v52
  let main_v54 : FVec F S32x32 .f32 := Host.absf main_arg12
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32x8 .f32 := Host.absf main_arg13
  let main_cst_22 : FVec F S_ .f32 := constant S_ .f32 0x7F800000#32
  let main_v60 : FVec F S32x8 .f32 := broadcastInDim S32x8 ![] bcast_S_S32x8 main_cst_22
  let main_v61 : IVec S32x8 1 := cmpf .olt main_v59 main_v60
  let main_c_23 : IVec S_ 1 := constantI S_ 1 1#1
  let main_v62 : IVec S_ 1 := (fun x v => Host.reduce IntOp.andi x v reducesTo_S32x8_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg2 main_arg15 main_arg16 main_arg17 main_arg18 main_arg19 main_arg20 main_arg21 main_arg22 main_arg23 main_arg24 main_arg25 main_arg26 main_arg27 main_v63 main_v67

def fn_part2 {F : FTy → Type} [FloatOps F] (main_arg2 : IVec S2x800000 32) (main_arg8 : FVec F S80x37 .f32) (main_arg9 : FVec F S80x20 .f32) (main_arg10 : FVec F S80 .f32) (main_arg11 : FVec F S80 .f32) (main_arg12 : FVec F S32x32 .f32) (main_arg13 : FVec F S32x8 .f32) (main_arg14 : FVec F S32 .f32) (main_arg15 : FVec F S32 .f32) (main_arg16 : FVec F S78x64 .f32) (main_arg17 : FVec F S64 .f32) (main_arg18 : FVec F S64x32 .f32) (main_arg19 : FVec F S32 .f32) (main_arg20 : FVec F S60x64 .f32) (main_arg21 : FVec F S64 .f32) (main_arg22 : FVec F S64x32 .f32) (main_arg23 : FVec F S32 .f32) (main_arg24 : FVec F S60x64 .f32) (main_arg25 : FVec F S64 .f32) (main_arg26 : FVec F S64x4 .f32) (main_arg27 : FVec F S4 .f32) (main_v33 : IVec S_ 1) : IVec S_ 1 :=
  let main_v34 : FVec F S80x37 .f32 := Host.absf main_arg8
  let main_cst_12 : FVec F S_ .f32 := constant S_ .f32 0x7F800000#32
  let main_v35 : FVec F S80x37 .f32 := broadcastInDim S80x37 ![] bcast_S_S80x37 main_cst_12
  let main_v36 : IVec S80x37 1 := cmpf .olt main_v34 main_v35
  let main_c_13 : IVec S_ 1 := constantI S_ 1 1#1
  let main_v37 : IVec S_ 1 := (fun x v => Host.reduce IntOp.andi x v reducesTo_S80x37_S_d0_1 h_S_) main_v36 main_c_13
  let main_v38 : IVec S_ 1 := andi main_v33 main_v37
  let main_v39 : FVec F S80x20 .f32 := Host.absf main_arg9
  let main_cst_14 : FVec F S_ .f32 := constant S_ .f32 0x7F800000#32
  let main_v40 : FVec F S80x20 .f32 := broadcastInDim S80x20 ![] bcast_S_S80x20 main_cst_14
  let main_v41 : IVec S80x20 1 := cmpf .olt main_v39 main_v40
  let main_c_15 : IVec S_ 1 := constantI S_ 1 1#1
  let main_v42 : IVec S_ 1 := (fun x v => Host.reduce IntOp.andi x v reducesTo_S80x20_S_d0_1 h_S_) main_v41 main_c_15
  let main_v43 : IVec S_ 1 := andi main_v38 main_v42
  let main_v44 : FVec F S80 .f32 := Host.absf main_arg10
  let main_cst_16 : FVec F S_ .f32 := constant S_ .f32 0x7F800000#32
  let main_v45 : FVec F S80 .f32 := broadcastInDim S80 ![] bcast_S_S80 main_cst_16
  let main_v46 : IVec S80 1 := cmpf .olt main_v44 main_v45
  let main_c_17 : IVec S_ 1 := constantI S_ 1 1#1
  let main_v47 : IVec S_ 1 := (fun x v => Host.reduce IntOp.andi x v reducesTo_S80_S_d0 h_S_) main_v46 main_c_17
  let main_v48 : IVec S_ 1 := andi main_v43 main_v47
  let main_v49 : FVec F S80 .f32 := Host.absf main_arg11
  let main_cst_18 : FVec F S_ .f32 := constant S_ .f32 0x7F800000#32
  let main_v50 : FVec F S80 .f32 := broadcastInDim S80 ![] bcast_S_S80 main_cst_18
  fn_part3 (F := F) main_arg2 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg2 : IVec S2x800000 32) (main_arg5 : FVec F S50000x20 .f32) (main_arg6 : FVec F S50000x8 .f32) (main_arg7 : FVec F S50000x8 .f32) (main_arg8 : FVec F S80x37 .f32) (main_arg9 : FVec F S80x20 .f32) (main_arg10 : FVec F S80 .f32) (main_arg11 : FVec F S80 .f32) (main_arg12 : FVec F S32x32 .f32) (main_arg13 : FVec F S32x8 .f32) (main_arg14 : FVec F S32 .f32) (main_arg15 : FVec F S32 .f32) (main_arg16 : FVec F S78x64 .f32) (main_arg17 : FVec F S64 .f32) (main_arg18 : FVec F S64x32 .f32) (main_arg19 : FVec F S32 .f32) (main_arg20 : FVec F S60x64 .f32) (main_arg21 : FVec F S64 .f32) (main_arg22 : FVec F S64x32 .f32) (main_arg23 : FVec F S32 .f32) (main_arg24 : FVec F S60x64 .f32) (main_arg25 : FVec F S64 .f32) (main_arg26 : FVec F S64x4 .f32) (main_arg27 : FVec F S4 .f32) (main_v13 : IVec S_ 1) (main_v16 : IVec S50000x20 1) : IVec S_ 1 :=
  let main_c_5 : IVec S_ 1 := constantI S_ 1 1#1
  let main_v17 : IVec S_ 1 := (fun x v => Host.reduce IntOp.andi x v reducesTo_S50000x20_S_d0_1 h_S_) main_v16 main_c_5
  let main_v18 : IVec S_ 1 := andi main_v13 main_v17
  let main_v19 : FVec F S50000x20 .f32 := Host.absf main_arg5
  let main_cst_6 : FVec F S_ .f32 := constant S_ .f32 0x7F800000#32
  let main_v20 : FVec F S50000x20 .f32 := broadcastInDim S50000x20 ![] bcast_S_S50000x20 main_cst_6
  let main_v21 : IVec S50000x20 1 := cmpf .olt main_v19 main_v20
  let main_c_7 : IVec S_ 1 := constantI S_ 1 1#1
  let main_v22 : IVec S_ 1 := (fun x v => Host.reduce IntOp.andi x v reducesTo_S50000x20_S_d0_1 h_S_) main_v21 main_c_7
  let main_v23 : IVec S_ 1 := andi main_v18 main_v22
  let main_v24 : FVec F S50000x8 .f32 := Host.absf main_arg6
  let main_cst_8 : FVec F S_ .f32 := constant S_ .f32 0x7F800000#32
  let main_v25 : FVec F S50000x8 .f32 := broadcastInDim S50000x8 ![] bcast_S_S50000x8 main_cst_8
  let main_v26 : IVec S50000x8 1 := cmpf .olt main_v24 main_v25
  let main_c_9 : IVec S_ 1 := constantI S_ 1 1#1
  let main_v27 : IVec S_ 1 := (fun x v => Host.reduce IntOp.andi x v reducesTo_S50000x8_S_d0_1 h_S_) main_v26 main_c_9
  let main_v28 : IVec S_ 1 := andi main_v23 main_v27
  let main_v29 : FVec F S50000x8 .f32 := Host.absf main_arg7
  let main_cst_10 : FVec F S_ .f32 := constant S_ .f32 0x7F800000#32
  let main_v30 : FVec F S50000x8 .f32 := broadcastInDim S50000x8 ![] bcast_S_S50000x8 main_cst_10
  let main_v31 : IVec S50000x8 1 := cmpf .olt main_v29 main_v30
  let main_c_11 : IVec S_ 1 := constantI S_ 1 1#1
  let main_v32 : IVec S_ 1 := (fun x v => Host.reduce IntOp.andi x v reducesTo_S50000x8_S_d0_1 h_S_) main_v31 main_c_11
  let main_v33 : IVec S_ 1 := andi main_v28 main_v32
  fn_part2 (F := F) main_arg2 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S50000x5 .f32) (main_arg1 : FVec F S50000x32 .f32) (main_arg2 : IVec S2x800000 32) (main_arg3 : FVec F S800000x4 .f32) (main_arg4 : FVec F S50000x20 .f32) (main_arg5 : FVec F S50000x20 .f32) (main_arg6 : FVec F S50000x8 .f32) (main_arg7 : FVec F S50000x8 .f32) (main_arg8 : FVec F S80x37 .f32) (main_arg9 : FVec F S80x20 .f32) (main_arg10 : FVec F S80 .f32) (main_arg11 : FVec F S80 .f32) (main_arg12 : FVec F S32x32 .f32) (main_arg13 : FVec F S32x8 .f32) (main_arg14 : FVec F S32 .f32) (main_arg15 : FVec F S32 .f32) (main_arg16 : FVec F S78x64 .f32) (main_arg17 : FVec F S64 .f32) (main_arg18 : FVec F S64x32 .f32) (main_arg19 : FVec F S32 .f32) (main_arg20 : FVec F S60x64 .f32) (main_arg21 : FVec F S64 .f32) (main_arg22 : FVec F S64x32 .f32) (main_arg23 : FVec F S32 .f32) (main_arg24 : FVec F S60x64 .f32) (main_arg25 : FVec F S64 .f32) (main_arg26 : FVec F S64x4 .f32) (main_arg27 : FVec F S4 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S50000x32 .f32 := Host.absf main_arg1
  let main_cst_0 : FVec F S_ .f32 := constant S_ .f32 0x7F800000#32
  let main_v5 : FVec F S50000x32 .f32 := broadcastInDim S50000x32 ![] bcast_S_S50000x32 main_cst_0
  let main_v6 : IVec S50000x32 1 := cmpf .olt main_v4 main_v5
  let main_c_1 : IVec S_ 1 := constantI S_ 1 1#1
  let main_v7 : IVec S_ 1 := (fun x v => Host.reduce IntOp.andi x v reducesTo_S50000x32_S_d0_1 h_S_) main_v6 main_c_1
  let main_v8 : IVec S_ 1 := andi main_v3 main_v7
  let main_v9 : FVec F S800000x4 .f32 := Host.absf main_arg3
  let main_cst_2 : FVec F S_ .f32 := constant S_ .f32 0x7F800000#32
  let main_v10 : FVec F S800000x4 .f32 := broadcastInDim S800000x4 ![] bcast_S_S800000x4 main_cst_2
  let main_v11 : IVec S800000x4 1 := cmpf .olt main_v9 main_v10
  let main_c_3 : IVec S_ 1 := constantI S_ 1 1#1
  let main_v12 : IVec S_ 1 := (fun x v => Host.reduce IntOp.andi x v reducesTo_S800000x4_S_d0_1 h_S_) main_v11 main_c_3
  let main_v13 : IVec S_ 1 := andi main_v8 main_v12
  let main_v14 : FVec F S50000x20 .f32 := Host.absf main_arg4
  let main_cst_4 : FVec F S_ .f32 := constant S_ .f32 0x7F800000#32
  let main_v15 : FVec F S50000x20 .f32 := broadcastInDim S50000x20 ![] bcast_S_S50000x20 main_cst_4
  let main_v16 : IVec S50000x20 1 := cmpf .olt main_v14 main_v15
  fn_part1 (F := F) main_arg2 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S50000x5 : Shape := ⟨2, ![50000, 5]⟩
abbrev S50000x32 : Shape := ⟨2, ![50000, 32]⟩
abbrev S2x800000 : Shape := ⟨2, ![2, 800000]⟩
abbrev S800000x4 : Shape := ⟨2, ![800000, 4]⟩
abbrev S50000x20 : Shape := ⟨2, ![50000, 20]⟩
abbrev S50000x8 : Shape := ⟨2, ![50000, 8]⟩
abbrev S80x37 : Shape := ⟨2, ![80, 37]⟩
abbrev S80x20 : Shape := ⟨2, ![80, 20]⟩
abbrev S80 : Shape := ⟨1, ![80]⟩
abbrev S32x32 : Shape := ⟨2, ![32, 32]⟩
abbrev S32x8 : Shape := ⟨2, ![32, 8]⟩
abbrev S32 : Shape := ⟨1, ![32]⟩
abbrev S78x64 : Shape := ⟨2, ![78, 64]⟩
abbrev S64 : Shape := ⟨1, ![64]⟩
abbrev S64x32 : Shape := ⟨2, ![64, 32]⟩
abbrev S60x64 : Shape := ⟨2, ![60, 64]⟩
abbrev S64x4 : Shape := ⟨2, ![64, 4]⟩
abbrev S4 : Shape := ⟨1, ![4]⟩
abbrev S50000x37 : Shape := ⟨2, ![50000, 37]⟩
abbrev S37x80 : Shape := ⟨2, ![37, 80]⟩
abbrev S20x80 : Shape := ⟨2, ![20, 80]⟩
abbrev S1x80 : Shape := ⟨2, ![1, 80]⟩
abbrev S2000x37 : Shape := ⟨2, ![2000, 37]⟩
abbrev S2000x20 : Shape := ⟨2, ![2000, 20]⟩
abbrev S2000x80 : Shape := ⟨2, ![2000, 80]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x37 : Shape := ⟨2, ![800000, 37]⟩
abbrev S37x64 : Shape := ⟨2, ![37, 64]⟩
abbrev S4x64 : Shape := ⟨2, ![4, 64]⟩
abbrev S1x64 : Shape := ⟨2, ![1, 64]⟩
abbrev S1x32 : Shape := ⟨2, ![1, 32]⟩
abbrev S800000x32 : Shape := ⟨2, ![800000, 32]⟩
abbrev S4000x37 : Shape := ⟨2, ![4000, 37]⟩
abbrev S4000x4 : Shape := ⟨2, ![4000, 4]⟩
abbrev S4000x32 : Shape := ⟨2, ![4000, 32]⟩
abbrev S4000x64 : Shape := ⟨2, ![4000, 64]⟩
abbrev S50000x1 : Shape := ⟨2, ![50000, 1]⟩
abbrev S8x32 : Shape := ⟨2, ![8, 32]⟩
abbrev S2000x32 : Shape := ⟨2, ![2000, 32]⟩
abbrev S2000x8 : Shape := ⟨2, ![2000, 8]⟩
abbrev S50000x28 : Shape := ⟨2, ![50000, 28]⟩
abbrev S800000x28 : Shape := ⟨2, ![800000, 28]⟩
abbrev S28x64 : Shape := ⟨2, ![28, 64]⟩
abbrev S4000x28 : Shape := ⟨2, ![4000, 28]⟩
abbrev S32x64 : Shape := ⟨2, ![32, 64]⟩
abbrev S1x4 : Shape := ⟨2, ![1, 4]⟩
abbrev S50000x4 : Shape := ⟨2, ![50000, 4]⟩
abbrev S2000x28 : Shape := ⟨2, ![2000, 28]⟩
abbrev S2000x4 : Shape := ⟨2, ![2000, 4]⟩
abbrev S2000x64 : Shape := ⟨2, ![2000, 64]⟩

abbrev nBuf : Space → Nat
  | .hbm => 176
  | .vmem => 65
  | .smem => 0
  | _ => 0

abbrev hbmTy0_0 (i : Nat) : BufTy := match i % 128 with
  | 0 => ⟨S50000x5, .f32⟩
  | 1 => ⟨S50000x32, .f32⟩
  | 2 => ⟨S2x800000, .i32⟩
  | 3 => ⟨S800000x4, .f32⟩
  | 4 => ⟨S50000x20, .f32⟩
  | 5 => ⟨S50000x20, .f32⟩
  | 6 => ⟨S50000x8, .f32⟩
  | 7 => ⟨S50000x8, .f32⟩
  | 8 => ⟨S80x37, .f32⟩
  | 9 => ⟨S80x20, .f32⟩
  | 10 => ⟨S80, .f32⟩
  | 11 => ⟨S80, .f32⟩
  | 12 => ⟨S32x32, .f32⟩
  | 13 => ⟨S32x8, .f32⟩
  | 14 => ⟨S32, .f32⟩
  | 15 => ⟨S32, .f32⟩
  | 16 => ⟨S78x64, .f32⟩
  | 17 => ⟨S64, .f32⟩
  | 18 => ⟨S64x32, .f32⟩
  | 19 => ⟨S32, .f32⟩
  | 20 => ⟨S60x64, .f32⟩
  | 21 => ⟨S64, .f32⟩
  | 22 => ⟨S64x32, .f32⟩
  | 23 => ⟨S32, .f32⟩
  | 24 => ⟨S60x64, .f32⟩
  | 25 => ⟨S64, .f32⟩
  | 26 => ⟨S64x4, .f32⟩
  | 27 => ⟨S4, .f32⟩
  | 28 => ⟨S50000x37, .f32⟩
  | 29 => ⟨S37x80, .f32⟩
  | 30 => ⟨S20x80, .f32⟩
  | 31 => ⟨S80, .f32⟩
  | 32 => ⟨S1x80, .f32⟩
  | 33 => ⟨S50000x20, .f32⟩
  | 34 => ⟨S50000x20, .f32⟩
  | 35 => ⟨S1x800000, .i32⟩
  | 36 => ⟨S800000, .i32⟩
  | 37 => ⟨S1x800000, .i32⟩
  | 38 => ⟨S800000, .i32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S1, .i32⟩
  | 48 => ⟨S_, .i32⟩
  | 49 => ⟨S800000x1, .i32⟩
  | 50 => ⟨S800000x1, .i1⟩
  | 51 => ⟨S1x1, .i32⟩
  | 52 => ⟨S800000x1, .i32⟩
  | 53 => ⟨S800000x1, .i1⟩
  | 54 => ⟨S800000x1, .i1⟩
  | 55 => ⟨S_, .i1⟩
  | 56 => ⟨S800000, .i1⟩
  | 57 => ⟨S800000x37, .f32⟩
  | 58 => ⟨S800000x37, .i1⟩
  | 59 => ⟨S_, .f32⟩
  | 60 => ⟨S800000x37, .f32⟩
  | 61 => ⟨S800000x37, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S1, .i32⟩
  | 71 => ⟨S_, .i32⟩
  | 72 => ⟨S800000x1, .i32⟩
  | 73 => ⟨S800000x1, .i1⟩
  | 74 => ⟨S1x1, .i32⟩
  | 75 => ⟨S800000x1, .i32⟩
  | 76 => ⟨S800000x1, .i1⟩
  | 77 => ⟨S800000x1, .i1⟩
  | 78 => ⟨S_, .i1⟩
  | 79 => ⟨S800000, .i1⟩
  | 80 => ⟨S800000x37, .f32⟩
  | 81 => ⟨S800000x37, .i1⟩
  | 82 => ⟨S_, .f32⟩
  | 83 => ⟨S800000x37, .f32⟩
  | 84 => ⟨S800000x37, .f32⟩
  | 85 => ⟨S37x64, .f32⟩
  | 86 => ⟨S37x64, .f32⟩
  | 87 => ⟨S4x64, .f32⟩
  | 88 => ⟨S1x64, .f32⟩
  | 89 => ⟨S1x32, .f32⟩
  | 90 => ⟨S800000x32, .f32⟩
  | 91 => ⟨S_, .f32⟩
  | 92 => ⟨S800000x1, .f32⟩
  | 93 => ⟨S_, .f32⟩
  | 94 => ⟨S50000x1, .f32⟩
  | 95 => ⟨S800000x1, .i32⟩
  | 96 => ⟨S50000x1, .f32⟩
  | 97 => ⟨S_, .f32⟩
  | 98 => ⟨S50000x1, .f32⟩
  | 99 => ⟨S50000x1, .f32⟩
  | 100 => ⟨S_, .f32⟩
  | 101 => ⟨S50000x32, .f32⟩
  | 102 => ⟨S800000x1, .i32⟩
  | 103 => ⟨S50000x32, .f32⟩
  | 104 => ⟨S50000x32, .f32⟩
  | 105 => ⟨S50000x32, .f32⟩
  | 106 => ⟨S32x32, .f32⟩
  | 107 => ⟨S8x32, .f32⟩
  | 108 => ⟨S32, .f32⟩
  | 109 => ⟨S1x32, .f32⟩
  | 110 => ⟨S50000x8, .f32⟩
  | 111 => ⟨S50000x8, .f32⟩
  | 112 => ⟨S50000x28, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S1, .i32⟩
  | 122 => ⟨S_, .i32⟩
  | 123 => ⟨S800000x1, .i32⟩
  | 124 => ⟨S800000x1, .i1⟩
  | 125 => ⟨S1x1, .i32⟩
  | 126 => ⟨S800000x1, .i32⟩
  | 127 => ⟨S800000x1, .i1⟩
  | _ => ⟨S50000x5, .f32⟩

abbrev hbmTy0_1 (i : Nat) : BufTy := match i % 128 with
  | 0 => ⟨S800000x1, .i1⟩
  | 1 => ⟨S_, .i1⟩
  | 2 => ⟨S800000, .i1⟩
  | 3 => ⟨S800000x28, .f32⟩
  | 4 => ⟨S800000x28, .i1⟩
  | 5 => ⟨S_, .f32⟩
  | 6 => ⟨S800000x28, .f32⟩
  | 7 => ⟨S800000x28, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S1, .i32⟩
  | 17 => ⟨S_, .i32⟩
  | 18 => ⟨S800000x1, .i32⟩
  | 19 => ⟨S800000x1, .i1⟩
  | 20 => ⟨S1x1, .i32⟩
  | 21 => ⟨S800000x1, .i32⟩
  | 22 => ⟨S800000x1, .i1⟩
  | 23 => ⟨S800000x1, .i1⟩
  | 24 => ⟨S_, .i1⟩
  | 25 => ⟨S800000, .i1⟩
  | 26 => ⟨S800000x28, .f32⟩
  | 27 => ⟨S800000x28, .i1⟩
  | 28 => ⟨S_, .f32⟩
  | 29 => ⟨S800000x28, .f32⟩
  | 30 => ⟨S800000x28, .f32⟩
  | 31 => ⟨S28x64, .f32⟩
  | 32 => ⟨S28x64, .f32⟩
  | 33 => ⟨S4x64, .f32⟩
  | 34 => ⟨S1x64, .f32⟩
  | 35 => ⟨S1x32, .f32⟩
  | 36 => ⟨S800000x32, .f32⟩
  | 37 => ⟨S_, .f32⟩
  | 38 => ⟨S50000x32, .f32⟩
  | 39 => ⟨S800000x1, .i32⟩
  | 40 => ⟨S50000x32, .f32⟩
  | 41 => ⟨S50000x32, .f32⟩
  | 42 => ⟨S50000x32, .f32⟩
  | 43 => ⟨S28x64, .f32⟩
  | 44 => ⟨S32x64, .f32⟩
  | 45 => ⟨S1x64, .f32⟩
  | 46 => ⟨S1x4, .f32⟩
  | 47 => ⟨S50000x4, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | .local _ .vmem, ⟨0, _⟩ => ⟨S2000x37, .f32⟩
  | .local _ .vmem, ⟨1, _⟩ => ⟨S2000x37, .f32⟩
  | .local _ .vmem, ⟨2, _⟩ => ⟨S2000x20, .f32⟩
  | .local _ .vmem, ⟨3, _⟩ => ⟨S2000x20, .f32⟩
  | .local _ .vmem, ⟨4, _⟩ => ⟨S2000x20, .f32⟩
  | .local _ .vmem, ⟨5, _⟩ => ⟨S2000x20, .f32⟩
  | .local _ .vmem, ⟨6, _⟩ => ⟨S37x80, .f32⟩
  | .local _ .vmem, ⟨7, _⟩ => ⟨S20x80, .f32⟩
  | .local _ .vmem, ⟨8, _⟩ => ⟨S1x80, .f32⟩
  | .local _ .vmem, ⟨9, _⟩ => ⟨S2000x20, .f32⟩
  | .local _ .vmem, ⟨10, _⟩ => ⟨S2000x20, .f32⟩
  | .local _ .vmem, ⟨11, _⟩ => ⟨S2000x20, .f32⟩
  | .local _ .vmem, ⟨12, _⟩ => ⟨S2000x20, .f32⟩
  | .local _ .vmem, ⟨13, _⟩ => ⟨S4000x37, .f32⟩
  | .local _ .vmem, ⟨14, _⟩ => ⟨S4000x37, .f32⟩
  | .local _ .vmem, ⟨15, _⟩ => ⟨S4000x37, .f32⟩
  | .local _ .vmem, ⟨16, _⟩ => ⟨S4000x37, .f32⟩
  | .local _ .vmem, ⟨17, _⟩ => ⟨S4000x4, .f32⟩
  | .local _ .vmem, ⟨18, _⟩ => ⟨S4000x4, .f32⟩
  | .local _ .vmem, ⟨19, _⟩ => ⟨S37x64, .f32⟩
  | .local _ .vmem, ⟨20, _⟩ => ⟨S37x64, .f32⟩
  | .local _ .vmem, ⟨21, _⟩ => ⟨S4x64, .f32⟩
  | .local _ .vmem, ⟨22, _⟩ => ⟨S1x64, .f32⟩
  | .local _ .vmem, ⟨23, _⟩ => ⟨S64x32, .f32⟩
  | .local _ .vmem, ⟨24, _⟩ => ⟨S1x32, .f32⟩
  | .local _ .vmem, ⟨25, _⟩ => ⟨S4000x32, .f32⟩
  | .local _ .vmem, ⟨26, _⟩ => ⟨S4000x32, .f32⟩
  | .local _ .vmem, ⟨27, _⟩ => ⟨S2000x32, .f32⟩
  | .local _ .vmem, ⟨28, _⟩ => ⟨S2000x32, .f32⟩
  | .local _ .vmem, ⟨29, _⟩ => ⟨S2000x8, .f32⟩
  | .local _ .vmem, ⟨30, _⟩ => ⟨S2000x8, .f32⟩
  | .local _ .vmem, ⟨31, _⟩ => ⟨S2000x8, .f32⟩
  | .local _ .vmem, ⟨32, _⟩ => ⟨S2000x8, .f32⟩
  | .local _ .vmem, ⟨33, _⟩ => ⟨S32x32, .f32⟩
  | .local _ .vmem, ⟨34, _⟩ => ⟨S8x32, .f32⟩
  | .local _ .vmem, ⟨35, _⟩ => ⟨S1x32, .f32⟩
  | .local _ .vmem, ⟨36, _⟩ => ⟨S2000x8, .f32⟩
  | .local _ .vmem, ⟨37, _⟩ => ⟨S2000x8, .f32⟩
  | .local _ .vmem, ⟨38, _⟩ => ⟨S2000x8, .f32⟩
  | .local _ .vmem, ⟨39, _⟩ => ⟨S2000x8, .f32⟩
  | .local _ .vmem, ⟨40, _⟩ => ⟨S4000x28, .f32⟩
  | .local _ .vmem, ⟨41, _⟩ => ⟨S4000x28, .f32⟩
  | .local _ .vmem, ⟨42, _⟩ => ⟨S4000x28, .f32⟩
  | .local _ .vmem, ⟨43, _⟩ => ⟨S4000x28, .f32⟩
  | .local _ .vmem, ⟨44, _⟩ => ⟨S4000x4, .f32⟩
  | .local _ .vmem, ⟨45, _⟩ => ⟨S4000x4, .f32⟩
  | .local _ .vmem, ⟨46, _⟩ => ⟨S28x64, .f32⟩
  | .local _ .vmem, ⟨47, _⟩ => ⟨S28x64, .f32⟩
  | .local _ .vmem, ⟨48, _⟩ => ⟨S4x64, .f32⟩
  | .local _ .vmem, ⟨49, _⟩ => ⟨S1x64, .f32⟩
  | .local _ .vmem, ⟨50, _⟩ => ⟨S64x32, .f32⟩
  | .local _ .vmem, ⟨51, _⟩ => ⟨S1x32, .f32⟩
  | .local _ .vmem, ⟨52, _⟩ => ⟨S4000x32, .f32⟩
  | .local _ .vmem, ⟨53, _⟩ => ⟨S4000x32, .f32⟩
  | .local _ .vmem, ⟨54, _⟩ => ⟨S2000x28, .f32⟩
  | .local _ .vmem, ⟨55, _⟩ => ⟨S2000x28, .f32⟩
  | .local _ .vmem, ⟨56, _⟩ => ⟨S2000x32, .f32⟩
  | .local _ .vmem, ⟨57, _⟩ => ⟨S2000x32, .f32⟩
  | .local _ .vmem, ⟨58, _⟩ => ⟨S28x64, .f32⟩
  | .local _ .vmem, ⟨59, _⟩ => ⟨S32x64, .f32⟩
  | .local _ .vmem, ⟨60, _⟩ => ⟨S1x64, .f32⟩
  | .local _ .vmem, ⟨61, _⟩ => ⟨S64x4, .f32⟩
  | .local _ .vmem, ⟨62, _⟩ => ⟨S1x4, .f32⟩
  | .local _ .vmem, ⟨63, _⟩ => ⟨S2000x4, .f32⟩
  | .local _ .vmem, ⟨64, _⟩ => ⟨S2000x4, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5_0 : Ref sig .tc := ⟨.hbm, 33, rfl⟩
abbrev main_v5_1 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_cst : Ref sig .tc := ⟨.hbm, 59, rfl⟩
abbrev main_call0_v15 : Ref sig .tc := ⟨.hbm, 60, rfl⟩
abbrev main_v10 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v11 : Ref sig .tc := ⟨.hbm, 84, rfl⟩
abbrev main_v12 : Ref sig .tc := ⟨.hbm, 85, rfl⟩
abbrev main_v13 : Ref sig .tc := ⟨.hbm, 86, rfl⟩
abbrev main_v14 : Ref sig .tc := ⟨.hbm, 87, rfl⟩
abbrev main_v15 : Ref sig .tc := ⟨.hbm, 88, rfl⟩
abbrev main_v16 : Ref sig .tc := ⟨.hbm, 89, rfl⟩
abbrev main_v17 : Ref sig .tc := ⟨.hbm, 90, rfl⟩
abbrev main_cst : Ref sig .tc := ⟨.hbm, 91, rfl⟩
abbrev main_v18 : Ref sig .tc := ⟨.hbm, 92, rfl⟩
abbrev main_cst_0 : Ref sig .tc := ⟨.hbm, 93, rfl⟩
abbrev main_v19 : Ref sig .tc := ⟨.hbm, 94, rfl⟩
abbrev main_v20 : Ref sig .tc := ⟨.hbm, 95, rfl⟩
abbrev main_v21 : Ref sig .tc := ⟨.hbm, 96, rfl⟩
abbrev main_cst_1 : Ref sig .tc := ⟨.hbm, 97, rfl⟩
abbrev main_v22 : Ref sig .tc := ⟨.hbm, 98, rfl⟩
abbrev main_v23 : Ref sig .tc := ⟨.hbm, 99, rfl⟩
abbrev main_cst_2 : Ref sig .tc := ⟨.hbm, 100, rfl⟩
abbrev main_v24 : Ref sig .tc := ⟨.hbm, 101, rfl⟩
abbrev main_v25 : Ref sig .tc := ⟨.hbm, 102, rfl⟩
abbrev main_v26 : Ref sig .tc := ⟨.hbm, 103, rfl⟩
abbrev main_v27 : Ref sig .tc := ⟨.hbm, 104, rfl⟩
abbrev main_v28 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_v32 : Ref sig .tc := ⟨.hbm, 109, rfl⟩
abbrev main_v33_0 : Ref sig .tc := ⟨.hbm, 110, rfl⟩
abbrev main_v33_1 : Ref sig .tc := ⟨.hbm, 111, rfl⟩
abbrev main_v34 : Ref sig .tc := ⟨.hbm, 112, rfl⟩
abbrev main_call2_c : Ref sig .tc := ⟨.hbm, 113, rfl⟩
abbrev main_call2_v0 : Ref sig .tc := ⟨.hbm, 114, rfl⟩
abbrev main_call2_v1 : Ref sig .tc := ⟨.hbm, 115, rfl⟩
abbrev main_call2_c_0 : Ref sig .tc := ⟨.hbm, 116, rfl⟩
abbrev main_call2_v2 : Ref sig .tc := ⟨.hbm, 117, rfl⟩
abbrev main_call2_v3 : Ref sig .tc := ⟨.hbm, 118, rfl⟩
abbrev main_call2_v4 : Ref sig .tc := ⟨.hbm, 119, rfl⟩
abbrev main_call2_v5 : Ref sig .tc := ⟨.hbm, 120, rfl⟩
abbrev main_call2_c_1 : Ref sig .tc := ⟨.hbm, 121, rfl⟩
abbrev main_call2_c_2 : Ref sig .tc := ⟨.hbm, 122, rfl⟩
abbrev main_call2_v6 : Ref sig .tc := ⟨.hbm, 123, rfl⟩
abbrev main_call2_v7 : Ref sig .tc := ⟨.hbm, 124, rfl⟩
abbrev main_call2_v8 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_c_3 : Ref sig .tc := ⟨.hbm, 129, rfl⟩
abbrev main_call2_v12 : Ref sig .tc := ⟨.hbm, 130, rfl⟩
abbrev main_call2_v13 : Ref sig .tc := ⟨.hbm, 131, rfl⟩
abbrev main_call2_v14 : Ref sig .tc := ⟨.hbm, 132, rfl⟩
abbrev main_call2_cst : Ref sig .tc := ⟨.hbm, 133, rfl⟩
abbrev main_call2_v15 : Ref sig .tc := ⟨.hbm, 134, rfl⟩
abbrev main_v35 : Ref sig .tc := ⟨.hbm, 135, rfl⟩
abbrev main_call3_c : Ref sig .tc := ⟨.hbm, 136, rfl⟩
abbrev main_call3_v0 : Ref sig .tc := ⟨.hbm, 137, rfl⟩
abbrev main_call3_v1 : Ref sig .tc := ⟨.hbm, 138, rfl⟩
abbrev main_call3_c_0 : Ref sig .tc := ⟨.hbm, 139, rfl⟩
abbrev main_call3_v2 : Ref sig .tc := ⟨.hbm, 140, rfl⟩
abbrev main_call3_v3 : Ref sig .tc := ⟨.hbm, 141, rfl⟩
abbrev main_call3_v4 : Ref sig .tc := ⟨.hbm, 142, rfl⟩
abbrev main_call3_v5 : Ref sig .tc := ⟨.hbm, 143, rfl⟩
abbrev main_call3_c_1 : Ref sig .tc := ⟨.hbm, 144, rfl⟩
abbrev main_call3_c_2 : Ref sig .tc := ⟨.hbm, 145, rfl⟩
abbrev main_call3_v6 : Ref sig .tc := ⟨.hbm, 146, rfl⟩
abbrev main_call3_v7 : Ref sig .tc := ⟨.hbm, 147, rfl⟩
abbrev main_call3_v8 : Ref sig .tc := ⟨.hbm, 148, rfl⟩
abbrev main_call3_v9 : Ref sig .tc := ⟨.hbm, 149, rfl⟩
abbrev main_call3_v10 : Ref sig .tc := ⟨.hbm, 150, rfl⟩
abbrev main_call3_v11 : Ref sig .tc := ⟨.hbm, 151, rfl⟩
abbrev main_call3_c_3 : Ref sig .tc := ⟨.hbm, 152, rfl⟩
abbrev main_call3_v12 : Ref sig .tc := ⟨.hbm, 153, rfl⟩
abbrev main_call3_v13 : Ref sig .tc := ⟨.hbm, 154, rfl⟩
abbrev main_call3_v14 : Ref sig .tc := ⟨.hbm, 155, rfl⟩
abbrev main_call3_cst : Ref sig .tc := ⟨.hbm, 156, rfl⟩
abbrev main_call3_v15 : Ref sig .tc := ⟨.hbm, 157, rfl⟩
abbrev main_v36 : Ref sig .tc := ⟨.hbm, 158, rfl⟩
abbrev main_v37 : Ref sig .tc := ⟨.hbm, 159, rfl⟩
abbrev main_v38 : Ref sig .tc := ⟨.hbm, 160, rfl⟩
abbrev main_v39 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_cst_3 : Ref sig .tc := ⟨.hbm, 165, rfl⟩
abbrev main_v43 : Ref sig .tc := ⟨.hbm, 166, rfl⟩
abbrev main_v44 : Ref sig .tc := ⟨.hbm, 167, rfl⟩
abbrev main_v45 : Ref sig .tc := ⟨.hbm, 168, rfl⟩
abbrev main_v46 : Ref sig .tc := ⟨.hbm, 169, rfl⟩
abbrev main_v47 : Ref sig .tc := ⟨.hbm, 170, rfl⟩
abbrev main_v48 : Ref sig .tc := ⟨.hbm, 171, rfl⟩
abbrev main_v49 : Ref sig .tc := ⟨.hbm, 172, rfl⟩
abbrev main_v50 : Ref sig .tc := ⟨.hbm, 173, rfl⟩
abbrev main_v51 : Ref sig .tc := ⟨.hbm, 174, rfl⟩
abbrev main_v52 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg9_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg2_1 : Ref sig .tc := ⟨.vmem, 45, rfl⟩
abbrev cc3_stg3_0 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg6_0 : Ref sig .tc := ⟨.vmem, 49, rfl⟩
abbrev cc3_stg7_0 : Ref sig .tc := ⟨.vmem, 50, rfl⟩
abbrev cc3_stg8_0 : Ref sig .tc := ⟨.vmem, 51, rfl⟩
abbrev cc3_stg9_0 : Ref sig .tc := ⟨.vmem, 52, rfl⟩
abbrev cc3_stg9_1 : Ref sig .tc := ⟨.vmem, 53, rfl⟩
abbrev cc4_stg0_0 : Ref sig .tc := ⟨.vmem, 54, rfl⟩
abbrev cc4_stg0_1 : Ref sig .tc := ⟨.vmem, 55, rfl⟩
abbrev cc4_stg1_0 : Ref sig .tc := ⟨.vmem, 56, rfl⟩
abbrev cc4_stg1_1 : Ref sig .tc := ⟨.vmem, 57, rfl⟩
abbrev cc4_stg2_0 : Ref sig .tc := ⟨.vmem, 58, rfl⟩
abbrev cc4_stg3_0 : Ref sig .tc := ⟨.vmem, 59, rfl⟩
abbrev cc4_stg4_0 : Ref sig .tc := ⟨.vmem, 60, rfl⟩
abbrev cc4_stg5_0 : Ref sig .tc := ⟨.vmem, 61, rfl⟩
abbrev cc4_stg6_0 : Ref sig .tc := ⟨.vmem, 62, rfl⟩
abbrev cc4_stg7_0 : Ref sig .tc := ⟨.vmem, 63, rfl⟩
abbrev cc4_stg7_1 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem9_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem6_1 : DmaSem sig := 37
abbrev cc2_sem7_0 : DmaSem sig := 38
abbrev cc2_sem7_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem4_0 : DmaSem sig := 47
abbrev cc3_sem5_0 : DmaSem sig := 48
abbrev cc3_sem6_0 : DmaSem sig := 49
abbrev cc3_sem7_0 : DmaSem sig := 50
abbrev cc3_sem8_0 : DmaSem sig := 51
abbrev cc3_sem9_0 : DmaSem sig := 52
abbrev cc3_sem9_1 : DmaSem sig := 53
abbrev cc4_sem0_0 : DmaSem sig := 54
abbrev cc4_sem0_1 : DmaSem sig := 55
abbrev cc4_sem1_0 : DmaSem sig := 56
abbrev cc4_sem1_1 : DmaSem sig := 57
abbrev cc4_sem2_0 : DmaSem sig := 58
abbrev cc4_sem3_0 : DmaSem sig := 59
abbrev cc4_sem4_0 : DmaSem sig := 60
abbrev cc4_sem5_0 : DmaSem sig := 61
abbrev cc4_sem6_0 : DmaSem sig := 62
abbrev cc4_sem7_0 : DmaSem sig := 63
abbrev cc4_sem7_1 : DmaSem sig := 64

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x37 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x20 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S37x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x20 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x20 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x37 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x37 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x4 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S37x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S37x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S8x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x8 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x8 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x28 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x28 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x4 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S28x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S28x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S4x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x32 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S4000x32 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x28 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S28x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x4 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x4 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x4 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  concatenates_S50000x5_S50000x32_S50000x37_d1 : Shape.Concatenates [S50000x5, S50000x32] S50000x37 1
  transposes_S80x37_S37x80_1_0 : S80x37.Transposes [1, 0] S37x80
  transposes_S80x20_S20x80_1_0 : S80x20.Transposes [1, 0] S20x80
  shapeCasts_S80_S1x80 : S80.ShapeCasts S1x80
  inb_S2000x37_S2000x37_0_0 : ∀ a, (![0, 0] : Fin 2 → Nat) a + S2000x37.size a ≤ S2000x37.size a
  h_S2000x37 : 0 < S2000x37.numel
  shapeCasts_S2000x37_S2000x37 : S2000x37.ShapeCasts S2000x37
  bitsLt_bf16_f32 : FTy.bits .bf16 < FTy.bits .f32
  inb_S2000x20_S2000x20_0_0 : ∀ a, (![0, 0] : Fin 2 → Nat) a + S2000x20.size a ≤ S2000x20.size a
  h_S2000x20 : 0 < S2000x20.numel
  inb_S37x80_S37x80_0_0 : ∀ a, (![0, 0] : Fin 2 → Nat) a + S37x80.size a ≤ S37x80.size a
  h_S37x80 : 0 < S37x80.numel
  shapeCasts_S37x80_S37x80 : S37x80.ShapeCasts S37x80
  inb_S20x80_S20x80_0_0 : ∀ a, (![0, 0] : Fin 2 → Nat) a + S20x80.size a ≤ S20x80.size a
  h_S20x80 : 0 < S20x80.numel
  shapeCasts_S20x80_S20x80 : S20x80.ShapeCasts S20x80
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S2000x80 : S1x80.Broadcasts S2000x80
  slices_S2000x80_o0_0_S2000x20 : S2000x80.Slices ![0, 0] S2000x20
  slices_S2000x80_o0_20_S2000x20 : S2000x80.Slices ![0, 20] S2000x20
  slices_S2000x80_o0_40_S2000x20 : S2000x80.Slices ![0, 40] S2000x20
  slices_S2000x80_o0_60_S2000x20 : S2000x80.Slices ![0, 60] S2000x20
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x37_0 : S800000.BroadcastsInDim S800000x37 (![0] : Fin 1 → Fin S800000x37.rank)
  bcast_S_S800000x37 : S_.BroadcastsInDim S800000x37 (![] : Fin 0 → Fin S800000x37.rank)
  slices_S78x64_S37x64_0_0 : S78x64.Slices ![0, 0] S37x64
  slices_S78x64_S37x64_37_0 : S78x64.Slices ![37, 0] S37x64
  slices_S78x64_S4x64_74_0 : S78x64.Slices ![74, 0] S4x64
  shapeCasts_S64_S1x64 : S64.ShapeCasts S1x64
  shapeCasts_S32_S1x32 : S32.ShapeCasts S1x32
  inb_S4000x37_S4000x37_0_0 : ∀ a, (![0, 0] : Fin 2 → Nat) a + S4000x37.size a ≤ S4000x37.size a
  h_S4000x37 : 0 < S4000x37.numel
  shapeCasts_S4000x37_S4000x37 : S4000x37.ShapeCasts S4000x37
  inb_S4000x4_S4000x4_0_0 : ∀ a, (![0, 0] : Fin 2 → Nat) a + S4000x4.size a ≤ S4000x4.size a
  h_S4000x4 : 0 < S4000x4.numel
  inb_S37x64_S37x64_0_0 : ∀ a, (![0, 0] : Fin 2 → Nat) a + S37x64.size a ≤ S37x64.size a
  h_S37x64 : 0 < S37x64.numel
  shapeCasts_S37x64_S37x64 : S37x64.ShapeCasts S37x64
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  bcast_S_S50000x1 : S_.BroadcastsInDim S50000x1 (![] : Fin 0 → Fin S50000x1.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  transposes_S32x32_S32x32_1_0 : S32x32.Transposes [1, 0] S32x32
  transposes_S32x8_S8x32_1_0 : S32x8.Transposes [1, 0] S8x32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S2000x8_S2000x8_0_0 : ∀ a, (![0, 0] : Fin 2 → Nat) a + S2000x8.size a ≤ S2000x8.size a
  h_S2000x8 : 0 < S2000x8.numel
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S8x32_S8x32_0_0 : ∀ a, (![0, 0] : Fin 2 → Nat) a + S8x32.size a ≤ S8x32.size a
  h_S8x32 : 0 < S8x32.numel
  shapeCasts_S8x32_S8x32 : S8x32.ShapeCasts S8x32
  broadcasts_S1x32_S2000x32 : S1x32.Broadcasts S2000x32
  slices_S2000x32_o0_0_S2000x8 : S2000x32.Slices ![0, 0] S2000x8
  slices_S2000x32_o0_8_S2000x8 : S2000x32.Slices ![0, 8] S2000x8
  slices_S2000x32_o0_16_S2000x8 : S2000x32.Slices ![0, 16] S2000x8
  slices_S2000x32_o0_24_S2000x8 : S2000x32.Slices ![0, 24] S2000x8
  concatenates_S50000x20_S50000x8_S50000x28_d1 : Shape.Concatenates [S50000x20, S50000x8] S50000x28 1
  bcast_S800000_S800000x28_0 : S800000.BroadcastsInDim S800000x28 (![0] : Fin 1 → Fin S800000x28.rank)
  bcast_S_S800000x28 : S_.BroadcastsInDim S800000x28 (![] : Fin 0 → Fin S800000x28.rank)
  slices_S60x64_S28x64_0_0 : S60x64.Slices ![0, 0] S28x64
  slices_S60x64_S28x64_28_0 : S60x64.Slices ![28, 0] S28x64
  slices_S60x64_S4x64_56_0 : S60x64.Slices ![56, 0] S4x64
  inb_S4000x28_S4000x28_0_0 : ∀ a, (![0, 0] : Fin 2 → Nat) a + S4000x28.size a ≤ S4000x28.size a
  h_S4000x28 : 0 < S4000x28.numel
  shapeCasts_S4000x28_S4000x28 : S4000x28.ShapeCasts S4000x28
  inb_S28x64_S28x64_0_0 : ∀ a, (![0, 0] : Fin 2 → Nat) a + S28x64.size a ≤ S28x64.size a
  h_S28x64 : 0 < S28x64.numel
  shapeCasts_S28x64_S28x64 : S28x64.ShapeCasts S28x64
  slices_S60x64_S32x64_28_0 : S60x64.Slices ![28, 0] S32x64
  shapeCasts_S4_S1x4 : S4.ShapeCasts S1x4
  inb_S2000x28_S2000x28_0_0 : ∀ a, (![0, 0] : Fin 2 → Nat) a + S2000x28.size a ≤ S2000x28.size a
  h_S2000x28 : 0 < S2000x28.numel
  shapeCasts_S2000x28_S2000x28 : S2000x28.ShapeCasts S2000x28
  inb_S32x64_S32x64_0_0 : ∀ a, (![0, 0] : Fin 2 → Nat) a + S32x64.size a ≤ S32x64.size a
  h_S32x64 : 0 < S32x64.numel
  shapeCasts_S32x64_S32x64 : S32x64.ShapeCasts S32x64
  broadcasts_S1x64_S2000x64 : S1x64.Broadcasts S2000x64
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2000x4 : S1x4.Broadcasts S2000x4
  inb_S2000x4_S2000x4_0_0 : ∀ a, (![0, 0] : Fin 2 → Nat) a + S2000x4.size a ≤ S2000x4.size a
  h_S2000x4 : 0 < S2000x4.numel
  dot_S2000x37_S37x80_S2000x80_1_0_0_1_n_n_wf : DotDims.WF S2000x37 S37x80 S2000x80 [1] [0] [0] [1] [] []
  dot_S2000x20_S20x80_S2000x80_1_0_0_1_n_n_wf : DotDims.WF S2000x20 S20x80 S2000x80 [1] [0] [0] [1] [] []
  gather_S50000x37_S800000x1_S800000x37_1_0_n_n_0_1_137_wf : GatherDims.WF S50000x37 S800000x1 S800000x37 [1] [0] [] [0] [] 1 ![1, 37]
  dot_S4000x37_S37x64_S4000x64_1_0_0_1_n_n_wf : DotDims.WF S4000x37 S37x64 S4000x64 [1] [0] [0] [1] [] []
  dot_S4000x4_S4x64_S4000x64_1_0_0_1_n_n_wf : DotDims.WF S4000x4 S4x64 S4000x64 [1] [0] [0] [1] [] []
  dot_S4000x64_S64x32_S4000x32_1_0_0_1_n_n_wf : DotDims.WF S4000x64 S64x32 S4000x32 [1] [0] [0] [1] [] []
  scatter_S50000x1_S800000x1_S800000x1_1_0_0_1_wf : ScatterDims.WF S50000x1 S800000x1 S800000x1 [1] [0] [0] 1
  scatter_S50000x32_S800000x1_S800000x32_1_0_0_1_wf : ScatterDims.WF S50000x32 S800000x1 S800000x32 [1] [0] [0] 1
  dot_S2000x32_S32x32_S2000x32_1_0_0_1_n_n_wf : DotDims.WF S2000x32 S32x32 S2000x32 [1] [0] [0] [1] [] []
  dot_S2000x8_S8x32_S2000x32_1_0_0_1_n_n_wf : DotDims.WF S2000x8 S8x32 S2000x32 [1] [0] [0] [1] [] []
  gather_S50000x28_S800000x1_S800000x28_1_0_n_n_0_1_128_wf : GatherDims.WF S50000x28 S800000x1 S800000x28 [1] [0] [] [0] [] 1 ![1, 28]
  dot_S4000x28_S28x64_S4000x64_1_0_0_1_n_n_wf : DotDims.WF S4000x28 S28x64 S4000x64 [1] [0] [0] [1] [] []
  dot_S2000x28_S28x64_S2000x64_1_0_0_1_n_n_wf : DotDims.WF S2000x28 S28x64 S2000x64 [1] [0] [0] [1] [] []
  dot_S2000x32_S32x64_S2000x64_1_0_0_1_n_n_wf : DotDims.WF S2000x32 S32x64 S2000x64 [1] [0] [0] [1] [] []
  dot_S2000x64_S64x4_S2000x4_1_0_0_1_n_n_wf : DotDims.WF S2000x64 S64x4 S2000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x37.size a ≤ S50000x37.size a
  hwx0_0 : ∀ i : grid0.Coords, EltTy.bits .f32 = 32 ∨ (Rect.block (s := S50000x37) S2000x37.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x20.size a ≤ S50000x20.size a
  hwx0_1 : ∀ i : grid0.Coords, EltTy.bits .f32 = 32 ∨ (Rect.block (s := S50000x20) S2000x20.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x20.size a ≤ S50000x20.size a
  hwx0_2 : ∀ i : grid0.Coords, EltTy.bits .f32 = 32 ∨ (Rect.block (s := S50000x20) S2000x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S37x80.size a ≤ S37x80.size a
  hwx0_3 : ∀ i : grid0.Coords, EltTy.bits .f32 = 32 ∨ (Rect.block (s := S37x80) S37x80.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x80.size a ≤ S20x80.size a
  hwx0_4 : ∀ i : grid0.Coords, EltTy.bits .f32 = 32 ∨ (Rect.block (s := S20x80) S20x80.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x80.size a ≤ S1x80.size a
  hwx0_5 : ∀ i : grid0.Coords, EltTy.bits .f32 = 32 ∨ (Rect.block (s := S1x80) S1x80.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x20.size a ≤ S50000x20.size a
  hwx0_6 : ∀ i : grid0.Coords, EltTy.bits .f32 = 32 ∨ (Rect.block (s := S50000x20) S2000x20.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x20.size a ≤ S50000x20.size a
  hwx0_7 : ∀ i : grid0.Coords, EltTy.bits .f32 = 32 ∨ (Rect.block (s := S50000x20) S2000x20.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x37.size a ≤ S800000x37.size a
  hwx1_0 : ∀ i : grid1.Coords, EltTy.bits .f32 = 32 ∨ (Rect.block (s := S800000x37) S4000x37.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x37.size a ≤ S800000x37.size a
  hwx1_1 : ∀ i : grid1.Coords, EltTy.bits .f32 = 32 ∨ (Rect.block (s := S800000x37) S4000x37.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x4.size a ≤ S800000x4.size a
  hwx1_2 : ∀ i : grid1.Coords, EltTy.bits .f32 = 32 ∨ (Rect.block (s := S800000x4) S4000x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S37x64.size a ≤ S37x64.size a
  hwx1_3 : ∀ i : grid1.Coords, EltTy.bits .f32 = 32 ∨ (Rect.block (s := S37x64) S37x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S37x64.size a ≤ S37x64.size a
  hwx1_4 : ∀ i : grid1.Coords, EltTy.bits .f32 = 32 ∨ (Rect.block (s := S37x64) S37x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4x64.size a ≤ S4x64.size a
  hwx1_5 : ∀ i : grid1.Coords, EltTy.bits .f32 = 32 ∨ (Rect.block (s := S4x64) S4x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x32.size a ≤ S64x32.size a
  hwx1_7 : ∀ i : grid1.Coords, EltTy.bits .f32 = 32 ∨ (Rect.block (s := S64x32) S64x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x32.size a ≤ S800000x32.size a
  hwx1_9 : ∀ i : grid1.Coords, EltTy.bits .f32 = 32 ∨ (Rect.block (s := S800000x32) S4000x32.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S50000x32.size a
  hwx2_0 : ∀ i : grid2.Coords, EltTy.bits .f32 = 32 ∨ (Rect.block (s := S50000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x8.size a ≤ S50000x8.size a
  hwx2_1 : ∀ i : grid2.Coords, EltTy.bits .f32 = 32 ∨ (Rect.block (s := S50000x8) S2000x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x8.size a ≤ S50000x8.size a
  hwx2_2 : ∀ i : grid2.Coords, EltTy.bits .f32 = 32 ∨ (Rect.block (s := S50000x8) S2000x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S8x32.size a ≤ S8x32.size a
  hwx2_4 : ∀ i : grid2.Coords, EltTy.bits .f32 = 32 ∨ (Rect.block (s := S8x32) S8x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x8.size a ≤ S50000x8.size a
  hwx2_6 : ∀ i : grid2.Coords, EltTy.bits .f32 = 32 ∨ (Rect.block (s := S50000x8) S2000x8.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x8.size a ≤ S50000x8.size a
  hwx2_7 : ∀ i : grid2.Coords, EltTy.bits .f32 = 32 ∨ (Rect.block (s := S50000x8) S2000x8.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x28.size a ≤ S800000x28.size a
  hwx3_0 : ∀ i : grid3.Coords, EltTy.bits .f32 = 32 ∨ (Rect.block (s := S800000x28) S4000x28.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x28.size a ≤ S800000x28.size a
  hwx3_1 : ∀ i : grid3.Coords, EltTy.bits .f32 = 32 ∨ (Rect.block (s := S800000x28) S4000x28.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x4.size a ≤ S800000x4.size a
  hwx3_2 : ∀ i : grid3.Coords, EltTy.bits .f32 = 32 ∨ (Rect.block (s := S800000x4) S4000x4.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S28x64.size a ≤ S28x64.size a
  hwx3_3 : ∀ i : grid3.Coords, EltTy.bits .f32 = 32 ∨ (Rect.block (s := S28x64) S28x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S28x64.size a ≤ S28x64.size a
  hwx3_4 : ∀ i : grid3.Coords, EltTy.bits .f32 = 32 ∨ (Rect.block (s := S28x64) S28x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S4x64.size a ≤ S4x64.size a
  hwx3_5 : ∀ i : grid3.Coords, EltTy.bits .f32 = 32 ∨ (Rect.block (s := S4x64) S4x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x32.size a ≤ S64x32.size a
  hwx3_7 : ∀ i : grid3.Coords, EltTy.bits .f32 = 32 ∨ (Rect.block (s := S64x32) S64x32.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x32.size a ≤ S1x32.size a
  hwx3_8 : ∀ i : grid3.Coords, EltTy.bits .f32 = 32 ∨ (Rect.block (s := S1x32) S1x32.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4000x32.size a ≤ S800000x32.size a
  hwx3_9 : ∀ i : grid3.Coords, EltTy.bits .f32 = 32 ∨ (Rect.block (s := S800000x32) S4000x32.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x28.size a ≤ S50000x28.size a
  hwx4_0 : ∀ i : grid4.Coords, EltTy.bits .f32 = 32 ∨ (Rect.block (s := S50000x28) S2000x28.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x32.size a ≤ S50000x32.size a
  hwx4_1 : ∀ i : grid4.Coords, EltTy.bits .f32 = 32 ∨ (Rect.block (s := S50000x32) S2000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S28x64.size a ≤ S28x64.size a
  hwx4_2 : ∀ i : grid4.Coords, EltTy.bits .f32 = 32 ∨ (Rect.block (s := S28x64) S28x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x64.size a ≤ S32x64.size a
  hwx4_3 : ∀ i : grid4.Coords, EltTy.bits .f32 = 32 ∨ (Rect.block (s := S32x64) S32x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x4.size a ≤ S64x4.size a
  hwx4_5 : ∀ i : grid4.Coords, EltTy.bits .f32 = 32 ∨ (Rect.block (s := S64x4) S64x4.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x4.size a ≤ S1x4.size a
  hwx4_6 : ∀ i : grid4.Coords, EltTy.bits .f32 = 32 ∨ (Rect.block (s := S1x4) S1x4.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x4.size a ≤ S50000x4.size a
  hwx4_7 : ∀ i : grid4.Coords, EltTy.bits .f32 = 32 ∨ (Rect.block (s := S50000x4) S2000x4.size (cc4_transform_7 i) (hinb4_7 i)).WholeWords (EltTy.packing .f32)

variable [Facts₀]

def dot_S2000x37_S37x80_S2000x80_1_0_0_1_n_n : DotDims S2000x37 S37x80 S2000x80 where
  lhsContracting := [1]
  rhsContracting := [0]
  lhsNonContracting := [0]
  rhsNonContracting := [1]
  lhsBatch := []
  rhsBatch := []
  wf := dot_S2000x37_S37x80_S2000x80_1_0_0_1_n_n_wf
def dot_S2000x20_S20x80_S2000x80_1_0_0_1_n_n : DotDims S2000x20 S20x80 S2000x80 where
  lhsContracting := [1]
  rhsContracting := [0]
  lhsNonContracting := [0]
  rhsNonContracting := [1]
  lhsBatch := []
  rhsBatch := []
  wf := dot_S2000x20_S20x80_S2000x80_1_0_0_1_n_n_wf
def gather_S50000x37_S800000x1_S800000x37_1_0_n_n_0_1_137 : GatherDims S50000x37 S800000x1 S800000x37 where
  offsetDims := [1]
  collapsedSliceDims := [0]
  operandBatchingDims := []
  startIndicesBatchingDims := []
  startIndexMap := [0]
  indexVectorDim := 1
  sliceSizes := ![1, 37]
  wf := gather_S50000x37_S800000x1_S800000x37_1_0_n_n_0_1_137_wf
def dot_S4000x37_S37x64_S4000x64_1_0_0_1_n_n : DotDims S4000x37 S37x64 S4000x64 where
  lhsContracting := [1]
  rhsContracting := [0]
  lhsNonContracting := [0]
  rhsNonContracting := [1]
  lhsBatch := []
  rhsBatch := []
  wf := dot_S4000x37_S37x64_S4000x64_1_0_0_1_n_n_wf
def dot_S4000x4_S4x64_S4000x64_1_0_0_1_n_n : DotDims S4000x4 S4x64 S4000x64 where
  lhsContracting := [1]
  rhsContracting := [0]
  lhsNonContracting := [0]
  rhsNonContracting := [1]
  lhsBatch := []
  rhsBatch := []
  wf := dot_S4000x4_S4x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S2000x8_S8x32_S2000x32_1_0_0_1_n_n : DotDims S2000x8 S8x32 S2000x32 where
  lhsContracting := [1]
  rhsContracting := [0]
  lhsNonContracting := [0]
  rhsNonContracting := [1]
  lhsBatch := []
  rhsBatch := []
  wf := dot_S2000x8_S8x32_S2000x32_1_0_0_1_n_n_wf
def gather_S50000x28_S800000x1_S800000x28_1_0_n_n_0_1_128 : GatherDims S50000x28 S800000x1 S800000x28 where
  offsetDims := [1]
  collapsedSliceDims := [0]
  operandBatchingDims := []
  startIndicesBatchingDims := []
  startIndexMap := [0]
  indexVectorDim := 1
  sliceSizes := ![1, 28]
  wf := gather_S50000x28_S800000x1_S800000x28_1_0_n_n_0_1_128_wf
def dot_S4000x28_S28x64_S4000x64_1_0_0_1_n_n : DotDims S4000x28 S28x64 S4000x64 where
  lhsContracting := [1]
  rhsContracting := [0]
  lhsNonContracting := [0]
  rhsNonContracting := [1]
  lhsBatch := []
  rhsBatch := []
  wf := dot_S4000x28_S28x64_S4000x64_1_0_0_1_n_n_wf
def dot_S2000x28_S28x64_S2000x64_1_0_0_1_n_n : DotDims S2000x28 S28x64 S2000x64 where
  lhsContracting := [1]
  rhsContracting := [0]
  lhsNonContracting := [0]
  rhsNonContracting := [1]
  lhsBatch := []
  rhsBatch := []
  wf := dot_S2000x28_S28x64_S2000x64_1_0_0_1_n_n_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S2000x64_S64x4_S2000x4_1_0_0_1_n_n : DotDims S2000x64 S64x4 S2000x4 where
  lhsContracting := [1]
  rhsContracting := [0]
  lhsNonContracting := [0]
  rhsNonContracting := [1]
  lhsBatch := []
  rhsBatch := []
  wf := dot_S2000x64_S64x4_S2000x4_1_0_0_1_n_n_wf

abbrev win0_0 : Pipeline.Window sig grid0 :=
  Pipeline.Window.ofSpec (Memref.whole main_v0) S2000x37.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2000x20.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S2000x20.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S37x80.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S20x80.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x80.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S2000x20.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S2000x20.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v10) S4000x37.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4000x37.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S4000x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S37x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S37x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S4x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg18) S64x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v16) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v17) S4000x32.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v28) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S2000x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S2000x8.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S8x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v33_0) S2000x8.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v33_1) S2000x8.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v35) S4000x28.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S4000x28.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg3) S4000x4.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v37) S28x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v38) S28x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S4x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v40) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg22) S64x32.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v41) S1x32.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v42) S4000x32.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v34) S2000x28.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v47) S2000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v48) S28x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v49) S32x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v50) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg26) S64x4.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v51) S1x4.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v52) S2000x4.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x5 : Shape := ⟨2, ![50000, 5]⟩
abbrev S50000x32 : Shape := ⟨2, ![50000, 32]⟩
abbrev S2x800000 : Shape := ⟨2, ![2, 800000]⟩
abbrev S800000x4 : Shape := ⟨2, ![800000, 4]⟩
abbrev S50000x20 : Shape := ⟨2, ![50000, 20]⟩
abbrev S50000x8 : Shape := ⟨2, ![50000, 8]⟩
abbrev S80x37 : Shape := ⟨2, ![80, 37]⟩
abbrev S80x20 : Shape := ⟨2, ![80, 20]⟩
abbrev S80 : Shape := ⟨1, ![80]⟩
abbrev S32x32 : Shape := ⟨2, ![32, 32]⟩
abbrev S32x8 : Shape := ⟨2, ![32, 8]⟩
abbrev S32 : Shape := ⟨1, ![32]⟩
abbrev S78x64 : Shape := ⟨2, ![78, 64]⟩
abbrev S64 : Shape := ⟨1, ![64]⟩
abbrev S64x32 : Shape := ⟨2, ![64, 32]⟩
abbrev S60x64 : Shape := ⟨2, ![60, 64]⟩
abbrev S64x4 : Shape := ⟨2, ![64, 4]⟩
abbrev S4 : Shape := ⟨1, ![4]⟩
abbrev S50000x37 : Shape := ⟨2, ![50000, 37]⟩
abbrev S37x80 : Shape := ⟨2, ![37, 80]⟩
abbrev S50000x80 : Shape := ⟨2, ![50000, 80]⟩
abbrev S20x80 : Shape := ⟨2, ![20, 80]⟩
abbrev S1x80 : Shape := ⟨2, ![1, 80]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x37 : Shape := ⟨2, ![800000, 37]⟩
abbrev S800000x78 : Shape := ⟨2, ![800000, 78]⟩
abbrev S800000x64 : Shape := ⟨2, ![800000, 64]⟩
abbrev S1x64 : Shape := ⟨2, ![1, 64]⟩
abbrev S800000x32 : Shape := ⟨2, ![800000, 32]⟩
abbrev S1x32 : Shape := ⟨2, ![1, 32]⟩
abbrev S50000x1 : Shape := ⟨2, ![50000, 1]⟩
abbrev S8x32 : Shape := ⟨2, ![8, 32]⟩
abbrev S50000x28 : Shape := ⟨2, ![50000, 28]⟩
abbrev S800000x28 : Shape := ⟨2, ![800000, 28]⟩
abbrev S800000x60 : Shape := ⟨2, ![800000, 60]⟩
abbrev S50000x60 : Shape := ⟨2, ![50000, 60]⟩
abbrev S50000x64 : Shape := ⟨2, ![50000, 64]⟩
abbrev S50000x4 : Shape := ⟨2, ![50000, 4]⟩
abbrev S1x4 : Shape := ⟨2, ![1, 4]⟩

abbrev nBuf : Space → Nat
  | .hbm => 226
  | .vmem => 0
  | .smem => 0
  | _ => 0

abbrev hbmTy0_0 (i : Nat) : BufTy := match i % 128 with
  | 0 => ⟨S50000x5, .f32⟩
  | 1 => ⟨S50000x32, .f32⟩
  | 2 => ⟨S2x800000, .i32⟩
  | 3 => ⟨S800000x4, .f32⟩
  | 4 => ⟨S50000x20, .f32⟩
  | 5 => ⟨S50000x20, .f32⟩
  | 6 => ⟨S50000x8, .f32⟩
  | 7 => ⟨S50000x8, .f32⟩
  | 8 => ⟨S80x37, .f32⟩
  | 9 => ⟨S80x20, .f32⟩
  | 10 => ⟨S80, .f32⟩
  | 11 => ⟨S80, .f32⟩
  | 12 => ⟨S32x32, .f32⟩
  | 13 => ⟨S32x8, .f32⟩
  | 14 => ⟨S32, .f32⟩
  | 15 => ⟨S32, .f32⟩
  | 16 => ⟨S78x64, .f32⟩
  | 17 => ⟨S64, .f32⟩
  | 18 => ⟨S64x32, .f32⟩
  | 19 => ⟨S32, .f32⟩
  | 20 => ⟨S60x64, .f32⟩
  | 21 => ⟨S64, .f32⟩
  | 22 => ⟨S64x32, .f32⟩
  | 23 => ⟨S32, .f32⟩
  | 24 => ⟨S60x64, .f32⟩
  | 25 => ⟨S64, .f32⟩
  | 26 => ⟨S64x4, .f32⟩
  | 27 => ⟨S4, .f32⟩
  | 28 => ⟨S50000x37, .f32⟩
  | 29 => ⟨S37x80, .f32⟩
  | 30 => ⟨S50000x80, .f32⟩
  | 31 => ⟨S20x80, .f32⟩
  | 32 => ⟨S50000x80, .f32⟩
  | 33 => ⟨S50000x80, .f32⟩
  | 34 => ⟨S1x80, .f32⟩
  | 35 => ⟨S50000x80, .f32⟩
  | 36 => ⟨S50000x80, .f32⟩
  | 37 => ⟨S1x80, .f32⟩
  | 38 => ⟨S50000x80, .f32⟩
  | 39 => ⟨S50000x80, .f32⟩
  | 40 => ⟨S50000x20, .f32⟩
  | 41 => ⟨S50000x20, .f32⟩
  | 42 => ⟨S50000x20, .f32⟩
  | 43 => ⟨S50000x20, .f32⟩
  | 44 => ⟨S50000x20, .f32⟩
  | 45 => ⟨S50000x20, .f32⟩
  | 46 => ⟨S_, .f32⟩
  | 47 => ⟨S50000x20, .f32⟩
  | 48 => ⟨S50000x20, .f32⟩
  | 49 => ⟨S_, .f32⟩
  | 50 => ⟨S50000x20, .f32⟩
  | 51 => ⟨S50000x20, .f32⟩
  | 52 => ⟨S50000x20, .f32⟩
  | 53 => ⟨S50000x20, .f32⟩
  | 54 => ⟨S50000x20, .f32⟩
  | 55 => ⟨S_, .f32⟩
  | 56 => ⟨S50000x20, .f32⟩
  | 57 => ⟨S50000x20, .f32⟩
  | 58 => ⟨S_, .f32⟩
  | 59 => ⟨S50000x20, .f32⟩
  | 60 => ⟨S50000x20, .f32⟩
  | 61 => ⟨S50000x20, .f32⟩
  | 62 => ⟨S50000x20, .f32⟩
  | 63 => ⟨S50000x20, .f32⟩
  | 64 => ⟨S50000x20, .f32⟩
  | 65 => ⟨S50000x20, .f32⟩
  | 66 => ⟨S_, .f32⟩
  | 67 => ⟨S50000x20, .f32⟩
  | 68 => ⟨S50000x20, .f32⟩
  | 69 => ⟨S_, .f32⟩
  | 70 => ⟨S50000x20, .f32⟩
  | 71 => ⟨S50000x20, .f32⟩
  | 72 => ⟨S50000x20, .f32⟩
  | 73 => ⟨S50000x20, .f32⟩
  | 74 => ⟨S1x800000, .i32⟩
  | 75 => ⟨S800000, .i32⟩
  | 76 => ⟨S1x800000, .i32⟩
  | 77 => ⟨S800000, .i32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x37, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x37, .f32⟩
  | 96 => ⟨S800000x78, .f32⟩
  | 97 => ⟨S800000x64, .f32⟩
  | 98 => ⟨S1x64, .f32⟩
  | 99 => ⟨S800000x64, .f32⟩
  | 100 => ⟨S800000x64, .f32⟩
  | 101 => ⟨S_, .f32⟩
  | 102 => ⟨S800000x64, .f32⟩
  | 103 => ⟨S800000x64, .f32⟩
  | 104 => ⟨S800000x32, .f32⟩
  | 105 => ⟨S1x32, .f32⟩
  | 106 => ⟨S800000x32, .f32⟩
  | 107 => ⟨S800000x32, .f32⟩
  | 108 => ⟨S_, .f32⟩
  | 109 => ⟨S50000x32, .f32⟩
  | 110 => ⟨S800000x1, .i32⟩
  | 111 => ⟨S50000x32, .f32⟩
  | 112 => ⟨S_, .f32⟩
  | 113 => ⟨S800000x1, .f32⟩
  | 114 => ⟨S_, .f32⟩
  | 115 => ⟨S50000x1, .f32⟩
  | 116 => ⟨S800000x1, .i32⟩
  | 117 => ⟨S50000x1, .f32⟩
  | 118 => ⟨S_, .f32⟩
  | 119 => ⟨S50000x1, .f32⟩
  | 120 => ⟨S50000x1, .f32⟩
  | 121 => ⟨S50000x32, .f32⟩
  | 122 => ⟨S50000x32, .f32⟩
  | 123 => ⟨S32x32, .f32⟩
  | 124 => ⟨S50000x32, .f32⟩
  | 125 => ⟨S8x32, .f32⟩
  | 126 => ⟨S50000x32, .f32⟩
  | 127 => ⟨S50000x32, .f32⟩
  | _ => ⟨S50000x5, .f32⟩

abbrev hbmTy0_1 (i : Nat) : BufTy := match i % 128 with
  | 0 => ⟨S1x32, .f32⟩
  | 1 => ⟨S50000x32, .f32⟩
  | 2 => ⟨S50000x32, .f32⟩
  | 3 => ⟨S1x32, .f32⟩
  | 4 => ⟨S50000x32, .f32⟩
  | 5 => ⟨S50000x32, .f32⟩
  | 6 => ⟨S50000x8, .f32⟩
  | 7 => ⟨S50000x8, .f32⟩
  | 8 => ⟨S50000x8, .f32⟩
  | 9 => ⟨S50000x8, .f32⟩
  | 10 => ⟨S50000x8, .f32⟩
  | 11 => ⟨S50000x8, .f32⟩
  | 12 => ⟨S_, .f32⟩
  | 13 => ⟨S50000x8, .f32⟩
  | 14 => ⟨S50000x8, .f32⟩
  | 15 => ⟨S_, .f32⟩
  | 16 => ⟨S50000x8, .f32⟩
  | 17 => ⟨S50000x8, .f32⟩
  | 18 => ⟨S50000x8, .f32⟩
  | 19 => ⟨S50000x8, .f32⟩
  | 20 => ⟨S50000x8, .f32⟩
  | 21 => ⟨S_, .f32⟩
  | 22 => ⟨S50000x8, .f32⟩
  | 23 => ⟨S50000x8, .f32⟩
  | 24 => ⟨S_, .f32⟩
  | 25 => ⟨S50000x8, .f32⟩
  | 26 => ⟨S50000x8, .f32⟩
  | 27 => ⟨S50000x8, .f32⟩
  | 28 => ⟨S50000x8, .f32⟩
  | 29 => ⟨S50000x8, .f32⟩
  | 30 => ⟨S50000x8, .f32⟩
  | 31 => ⟨S50000x8, .f32⟩
  | 32 => ⟨S_, .f32⟩
  | 33 => ⟨S50000x8, .f32⟩
  | 34 => ⟨S50000x8, .f32⟩
  | 35 => ⟨S_, .f32⟩
  | 36 => ⟨S50000x8, .f32⟩
  | 37 => ⟨S50000x8, .f32⟩
  | 38 => ⟨S50000x8, .f32⟩
  | 39 => ⟨S50000x8, .f32⟩
  | 40 => ⟨S50000x28, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x28, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x28, .f32⟩
  | 59 => ⟨S800000x60, .f32⟩
  | 60 => ⟨S800000x64, .f32⟩
  | 61 => ⟨S1x64, .f32⟩
  | 62 => ⟨S800000x64, .f32⟩
  | 63 => ⟨S800000x64, .f32⟩
  | 64 => ⟨S_, .f32⟩
  | 65 => ⟨S800000x64, .f32⟩
  | 66 => ⟨S800000x64, .f32⟩
  | 67 => ⟨S800000x32, .f32⟩
  | 68 => ⟨S1x32, .f32⟩
  | 69 => ⟨S800000x32, .f32⟩
  | 70 => ⟨S800000x32, .f32⟩
  | 71 => ⟨S_, .f32⟩
  | 72 => ⟨S50000x32, .f32⟩
  | 73 => ⟨S800000x1, .i32⟩
  | 74 => ⟨S50000x32, .f32⟩
  | 75 => ⟨S_, .f32⟩
  | 76 => ⟨S800000x1, .f32⟩
  | 77 => ⟨S_, .f32⟩
  | 78 => ⟨S50000x1, .f32⟩
  | 79 => ⟨S800000x1, .i32⟩
  | 80 => ⟨S50000x1, .f32⟩
  | 81 => ⟨S_, .f32⟩
  | 82 => ⟨S50000x1, .f32⟩
  | 83 => ⟨S50000x1, .f32⟩
  | 84 => ⟨S50000x32, .f32⟩
  | 85 => ⟨S50000x32, .f32⟩
  | 86 => ⟨S50000x60, .f32⟩
  | 87 => ⟨S50000x64, .f32⟩
  | 88 => ⟨S1x64, .f32⟩
  | 89 => ⟨S50000x64, .f32⟩
  | 90 => ⟨S50000x64, .f32⟩
  | 91 => ⟨S_, .f32⟩
  | 92 => ⟨S50000x64, .f32⟩
  | 93 => ⟨S50000x64, .f32⟩
  | 94 => ⟨S50000x4, .f32⟩
  | 95 => ⟨S1x4, .f32⟩
  | 96 => ⟨S50000x4, .f32⟩
  | 97 => ⟨S50000x4, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst : Ref sig .tc := ⟨.hbm, 46, rfl⟩
abbrev main_v18 : Ref sig .tc := ⟨.hbm, 47, rfl⟩
abbrev main_v19 : Ref sig .tc := ⟨.hbm, 48, rfl⟩
abbrev main_cst_0 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_1 : Ref sig .tc := ⟨.hbm, 55, rfl⟩
abbrev main_v25 : Ref sig .tc := ⟨.hbm, 56, rfl⟩
abbrev main_v26 : Ref sig .tc := ⟨.hbm, 57, rfl⟩
abbrev main_cst_2 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_3 : Ref sig .tc := ⟨.hbm, 66, rfl⟩
abbrev main_v34 : Ref sig .tc := ⟨.hbm, 67, rfl⟩
abbrev main_v35 : Ref sig .tc := ⟨.hbm, 68, rfl⟩
abbrev main_cst_4 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_c : Ref sig .tc := ⟨.hbm, 78, rfl⟩
abbrev main_v44 : Ref sig .tc := ⟨.hbm, 79, rfl⟩
abbrev main_v45 : Ref sig .tc := ⟨.hbm, 80, rfl⟩
abbrev main_c_5 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_c_6 : Ref sig .tc := ⟨.hbm, 87, rfl⟩
abbrev main_v51 : Ref sig .tc := ⟨.hbm, 88, rfl⟩
abbrev main_v52 : Ref sig .tc := ⟨.hbm, 89, rfl⟩
abbrev main_c_7 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_call0_cst : Ref sig .tc := ⟨.hbm, 101, rfl⟩
abbrev main_call0_v0 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_8 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_9 : Ref sig .tc := ⟨.hbm, 112, rfl⟩
abbrev main_v71 : Ref sig .tc := ⟨.hbm, 113, rfl⟩
abbrev main_cst_10 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_cst_11 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_12 : Ref sig .tc := ⟨.hbm, 140, rfl⟩
abbrev main_v96 : Ref sig .tc := ⟨.hbm, 141, rfl⟩
abbrev main_v97 : Ref sig .tc := ⟨.hbm, 142, rfl⟩
abbrev main_cst_13 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_14 : Ref sig .tc := ⟨.hbm, 149, rfl⟩
abbrev main_v103 : Ref sig .tc := ⟨.hbm, 150, rfl⟩
abbrev main_v104 : Ref sig .tc := ⟨.hbm, 151, rfl⟩
abbrev main_cst_15 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_cst_16 : Ref sig .tc := ⟨.hbm, 160, rfl⟩
abbrev main_v112 : Ref sig .tc := ⟨.hbm, 161, rfl⟩
abbrev main_v113 : Ref sig .tc := ⟨.hbm, 162, rfl⟩
abbrev main_cst_17 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_c_18 : Ref sig .tc := ⟨.hbm, 169, rfl⟩
abbrev main_v119 : Ref sig .tc := ⟨.hbm, 170, rfl⟩
abbrev main_v120 : Ref sig .tc := ⟨.hbm, 171, rfl⟩
abbrev main_c_19 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_c_20 : Ref sig .tc := ⟨.hbm, 178, rfl⟩
abbrev main_v126 : Ref sig .tc := ⟨.hbm, 179, rfl⟩
abbrev main_v127 : Ref sig .tc := ⟨.hbm, 180, rfl⟩
abbrev main_c_21 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_call1_cst : Ref sig .tc := ⟨.hbm, 192, rfl⟩
abbrev main_call1_v0 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_22 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_cst_23 : Ref sig .tc := ⟨.hbm, 203, rfl⟩
abbrev main_v146 : Ref sig .tc := ⟨.hbm, 204, rfl⟩
abbrev main_cst_24 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_cst_25 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_call2_cst : Ref sig .tc := ⟨.hbm, 219, rfl⟩
abbrev main_call2_v0 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩

abbrev nD : Nat := 1
abbrev τ : Topo := Topo.v7x

variable {F : FTy → Type} [FloatOps F]

class Facts₀ : Prop where
  concatenates_S50000x5_S50000x32_S50000x37_d1 : Shape.Concatenates [S50000x5, S50000x32] S50000x37 1
  transposes_S80x37_S37x80_1_0 : S80x37.Transposes [1, 0] S37x80
  transposes_S80x20_S20x80_1_0 : S80x20.Transposes [1, 0] S20x80
  bcast_S80_S1x80_1 : S80.BroadcastsInDim S1x80 (![1] : Fin 1 → Fin S1x80.rank)
  bcast_S1x80_S50000x80_0_1 : S1x80.BroadcastsInDim S50000x80 (![0, 1] : Fin 2 → Fin S50000x80.rank)
  slices_S50000x80_S50000x20_0_0 : S50000x80.Slices ![0, 0] S50000x20
  slices_S50000x80_S50000x20_0_20 : S50000x80.Slices ![0, 20] S50000x20
  slices_S50000x80_S50000x20_0_40 : S50000x80.Slices ![0, 40] S50000x20
  slices_S50000x80_S50000x20_0_60 : S50000x80.Slices ![0, 60] S50000x20
  bcast_S_S50000x20 : S_.BroadcastsInDim S50000x20 (![] : Fin 0 → Fin S50000x20.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x37_S800000x37_S800000x4_S800000x78_d1 : Shape.Concatenates [S800000x37, S800000x37, S800000x4] S800000x78 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S50000x32 : S_.BroadcastsInDim S50000x32 (![] : Fin 0 → Fin S50000x32.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  transposes_S32x32_S32x32_1_0 : S32x32.Transposes [1, 0] S32x32
  transposes_S32x8_S8x32_1_0 : S32x8.Transposes [1, 0] S8x32
  bcast_S1x32_S50000x32_0_1 : S1x32.BroadcastsInDim S50000x32 (![0, 1] : Fin 2 → Fin S50000x32.rank)
  slices_S50000x32_S50000x8_0_0 : S50000x32.Slices ![0, 0] S50000x8
  slices_S50000x32_S50000x8_0_8 : S50000x32.Slices ![0, 8] S50000x8
  slices_S50000x32_S50000x8_0_16 : S50000x32.Slices ![0, 16] S50000x8
  slices_S50000x32_S50000x8_0_24 : S50000x32.Slices ![0, 24] S50000x8
  bcast_S_S50000x8 : S_.BroadcastsInDim S50000x8 (![] : Fin 0 → Fin S50000x8.rank)
  concatenates_S50000x20_S50000x8_S50000x28_d1 : Shape.Concatenates [S50000x20, S50000x8] S50000x28 1
  concatenates_S800000x28_S800000x28_S800000x4_S800000x60_d1 : Shape.Concatenates [S800000x28, S800000x28, S800000x4] S800000x60 1
  concatenates_S50000x28_S50000x32_S50000x60_d1 : Shape.Concatenates [S50000x28, S50000x32] S50000x60 1
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  dot_S50000x37_S37x80_S50000x80_1_0_0_1_n_n_wf : DotDims.WF S50000x37 S37x80 S50000x80 [1] [0] [0] [1] [] []
  dot_S50000x20_S20x80_S50000x80_1_0_0_1_n_n_wf : DotDims.WF S50000x20 S20x80 S50000x80 [1] [0] [0] [1] [] []
  gather_S50000x37_S800000x1_S800000x37_1_0_n_n_0_1_137_wf : GatherDims.WF S50000x37 S800000x1 S800000x37 [1] [0] [] [0] [] 1 ![1, 37]
  dot_S800000x78_S78x64_S800000x64_1_0_0_1_n_n_wf : DotDims.WF S800000x78 S78x64 S800000x64 [1] [0] [0] [1] [] []
  dot_S800000x64_S64x32_S800000x32_1_0_0_1_n_n_wf : DotDims.WF S800000x64 S64x32 S800000x32 [1] [0] [0] [1] [] []
  scatter_S50000x32_S800000x1_S800000x32_1_0_0_1_wf : ScatterDims.WF S50000x32 S800000x1 S800000x32 [1] [0] [0] 1
  scatter_S50000x1_S800000x1_S800000x1_1_0_0_1_wf : ScatterDims.WF S50000x1 S800000x1 S800000x1 [1] [0] [0] 1
  dot_S50000x32_S32x32_S50000x32_1_0_0_1_n_n_wf : DotDims.WF S50000x32 S32x32 S50000x32 [1] [0] [0] [1] [] []
  dot_S50000x8_S8x32_S50000x32_1_0_0_1_n_n_wf : DotDims.WF S50000x8 S8x32 S50000x32 [1] [0] [0] [1] [] []
  gather_S50000x28_S800000x1_S800000x28_1_0_n_n_0_1_128_wf : GatherDims.WF S50000x28 S800000x1 S800000x28 [1] [0] [] [0] [] 1 ![1, 28]
  dot_S800000x60_S60x64_S800000x64_1_0_0_1_n_n_wf : DotDims.WF S800000x60 S60x64 S800000x64 [1] [0] [0] [1] [] []
  dot_S50000x60_S60x64_S50000x64_1_0_0_1_n_n_wf : DotDims.WF S50000x60 S60x64 S50000x64 [1] [0] [0] [1] [] []
  dot_S50000x64_S64x4_S50000x4_1_0_0_1_n_n_wf : DotDims.WF S50000x64 S64x4 S50000x4 [1] [0] [0] [1] [] []

variable [Facts₀]

def dot_S50000x37_S37x80_S50000x80_1_0_0_1_n_n : DotDims S50000x37 S37x80 S50000x80 where
  lhsContracting := [1]
  rhsContracting := [0]
  lhsNonContracting := [0]
  rhsNonContracting := [1]
  lhsBatch := []
  rhsBatch := []
  wf := dot_S50000x37_S37x80_S50000x80_1_0_0_1_n_n_wf
def dot_S50000x20_S20x80_S50000x80_1_0_0_1_n_n : DotDims S50000x20 S20x80 S50000x80 where
  lhsContracting := [1]
  rhsContracting := [0]
  lhsNonContracting := [0]
  rhsNonContracting := [1]
  lhsBatch := []
  rhsBatch := []
  wf := dot_S50000x20_S20x80_S50000x80_1_0_0_1_n_n_wf
def gather_S50000x37_S800000x1_S800000x37_1_0_n_n_0_1_137 : GatherDims S50000x37 S800000x1 S800000x37 where
  offsetDims := [1]
  collapsedSliceDims := [0]
  operandBatchingDims := []
  startIndicesBatchingDims := []
  startIndexMap := [0]
  indexVectorDim := 1
  sliceSizes := ![1, 37]
  wf := gather_S50000x37_S800000x1_S800000x37_1_0_n_n_0_1_137_wf
def dot_S800000x78_S78x64_S800000x64_1_0_0_1_n_n : DotDims S800000x78 S78x64 S800000x64 where
  lhsContracting := [1]
  rhsContracting := [0]
  lhsNonContracting := [0]
  rhsNonContracting := [1]
  lhsBatch := []
  rhsBatch := []
  wf := dot_S800000x78_S78x64_S800000x64_1_0_0_1_n_n_wf
def dot_S800000x64_S64x32_S800000x32_1_0_0_1_n_n : DotDims S800000x64 S64x32 S800000x32 where
  lhsContracting := [1]
  rhsContracting := [0]
  lhsNonContracting := [0]
  rhsNonContracting := [1]
  lhsBatch := []
  rhsBatch := []
  wf := dot_S800000x64_S64x32_S800000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def dot_S50000x8_S8x32_S50000x32_1_0_0_1_n_n : DotDims S50000x8 S8x32 S50000x32 where
  lhsContracting := [1]
  rhsContracting := [0]
  lhsNonContracting := [0]
  rhsNonContracting := [1]
  lhsBatch := []
  rhsBatch := []
  wf := dot_S50000x8_S8x32_S50000x32_1_0_0_1_n_n_wf
def gather_S50000x28_S800000x1_S800000x28_1_0_n_n_0_1_128 : GatherDims S50000x28 S800000x1 S800000x28 where
  offsetDims := [1]
  collapsedSliceDims := [0]
  operandBatchingDims := []
  startIndicesBatchingDims := []
  startIndexMap := [0]
  indexVectorDim := 1
  sliceSizes := ![1, 28]
  wf := gather_S50000x28_S800000x1_S800000x28_1_0_n_n_0_1_128_wf
def dot_S800000x60_S60x64_S800000x64_1_0_0_1_n_n : DotDims S800000x60 S60x64 S800000x64 where
  lhsContracting := [1]
  rhsContracting := [0]
  lhsNonContracting := [0]
  rhsNonContracting := [1]
  lhsBatch := []
  rhsBatch := []
  wf := dot_S800000x60_S60x64_S800000x64_1_0_0_1_n_n_wf
def dot_S50000x60_S60x64_S50000x64_1_0_0_1_n_n : DotDims S50000x60 S60x64 S50000x64 where
  lhsContracting := [1]
  rhsContracting := [0]
  lhsNonContracting := [0]
  rhsNonContracting := [1]
  lhsBatch := []
  rhsBatch := []
  wf := dot_S50000x60_S60x64_S50000x64_1_0_0_1_n_n_wf
def dot_S50000x64_S64x4_S50000x4_1_0_0_1_n_n : DotDims S50000x64 S64x4 S50000x4 where
  lhsContracting := [1]
  rhsContracting := [0]
  lhsNonContracting := [0]
  rhsNonContracting := [1]
  lhsBatch := []
  rhsBatch := []
  wf := dot_S50000x64_S64x4_S50000x4_1_0_0_1_n_n_wf

class Facts : Prop extends Facts₀ where

variable [Facts]
-- ==== Proof.SpecRow.lean ====
/-
  The mathematics of the graph network's dense stages, row by row, on the extended reals.

  Every dense stage of the network acts on ONE row of its inputs at a time: an LSTM cell's gates at a node are a
  function of that node's input row, hidden row and cell row; an edge's message is a function of the edge's source
  row, destination row and attribute row; a node's output is a function of its two feature rows. The functions
  below are those row functions over plain finite families (`Fin a → EReal`, weights as `Fin a → Fin b → EReal`),
  so that a block of rows and the whole array are the same function read at different rows.
-/
import Idealize.ShloMosaic.PureOps.Ideal
import Mathlib.Algebra.BigOperators.Fin

noncomputable section

namespace Cert.GNN

open Idealize.ShloMosaic

/-- The zero word of f32 at the ideal values (the rectifier's floor): kept as the word, never evaluated. -/
abbrev Z : EReal := Ideal.ofBits .f32 0x00000000#32

/-- An LSTM cell's four gate pre-activations at one node: input row times input weights, plus hidden row times
    hidden weights, plus the bias, column by column (`f` columns: the gates `i, f, g, o` side by side). -/
def lstmPre {i h f : ℕ} (xr : Fin i → EReal) (hr : Fin h → EReal) (wih : Fin i → Fin f → EReal)
    (whh : Fin h → Fin f → EReal) (b : Fin f → EReal) (j : Fin f) : EReal :=
  ((∑ k : Fin i, xr k * wih k j) + (∑ k : Fin h, hr k * whh k j)) + b j

/-- The new cell state: `σ(f) · c + σ(i) · tanh(g)`, the gates read at offsets `h`, `0` and `2h` of the pre-activation. -/
def lstmCell {h f : ℕ} (pre : Fin f → EReal) (cr : Fin h → EReal) (hf : f = 4 * h) (q : Fin h) : EReal :=
  Ideal.logistic (pre ⟨h + q.val, by omega⟩) * cr q
    + Ideal.logistic (pre ⟨q.val, by omega⟩) * Ideal.tanh (pre ⟨2 * h + q.val, by omega⟩)

/-- The new hidden state: `σ(o) · tanh(c')`, the output gate read at offset `3h`. -/
def lstmHid {h f : ℕ} (pre : Fin f → EReal) (cr : Fin h → EReal) (hf : f = 4 * h) (q : Fin h) : EReal :=
  Ideal.logistic (pre ⟨3 * h + q.val, by omega⟩) * Ideal.tanh (lstmCell pre cr hf q)

/-- An edge network's hidden layer at one edge, the first weight matrix split by input rows: source row, destination
    row and attribute row each against its own slab, the three partial sums added, the bias added, rectified. -/
def mlp3Hid {a b c o : ℕ} (sr : Fin a → EReal) (dr : Fin b → EReal) (er : Fin c → EReal)
    (wa : Fin a → Fin o → EReal) (wb : Fin b → Fin o → EReal) (wc : Fin c → Fin o → EReal) (b1 : Fin o → EReal)
    (j : Fin o) : EReal :=
  max ((((∑ k : Fin a, sr k * wa k j) + (∑ k : Fin b, dr k * wb k j)) + (∑ k : Fin c, er k * wc k j)) + b1 j) Z

/-- A node network's hidden layer at one node: two feature rows, each against its own slab of the first weight matrix. -/
def mlp2Hid {a b o : ℕ} (ar : Fin a → EReal) (br : Fin b → EReal)
    (wa : Fin a → Fin o → EReal) (wb : Fin b → Fin o → EReal) (b1 : Fin o → EReal) (j : Fin o) : EReal :=
  max (((∑ k : Fin a, ar k * wa k j) + (∑ k : Fin b, br k * wb k j)) + b1 j) Z

/-- A network's output layer at one row: hidden row times the second weight matrix, plus the bias. -/
def mlpOut {o r : ℕ} (hid : Fin o → EReal) (w2 : Fin o → Fin r → EReal) (b2 : Fin r → EReal) (q : Fin r) : EReal :=
  (∑ j : Fin o, hid j * w2 j q) + b2 q

/-- A sum over `a + b` terms is the sum of its first `a` and its last `b` (no finiteness: only regrouping). -/
theorem sum_split2 {M : Type*} [AddCommMonoid M] (a b : ℕ) (g : Fin (a + b) → M) :
    ∑ k, g k = (∑ k : Fin a, g ⟨k.val, by omega⟩) + ∑ k : Fin b, g ⟨a + k.val, by omega⟩ := by
  rw [Fin.sum_univ_add]
  rfl

/-- A sum over `a + b + c` terms in three stretches. -/
theorem sum_split3 {M : Type*} [AddCommMonoid M] (a b c : ℕ) (g : Fin (a + b + c) → M) :
    ∑ k, g k = ((∑ k : Fin a, g ⟨k.val, by omega⟩) + ∑ k : Fin b, g ⟨a + k.val, by omega⟩)
      + ∑ k : Fin c, g ⟨a + b + k.val, by omega⟩ := by
  rw [sum_split2 (a + b) c g, sum_split2 a b fun k => g ⟨k.val, by omega⟩]

end Cert.GNN

end
-- ==== Proof.SpecArr.lean ====
/-
  The graph network, stage by stage, as functions of its twenty-eight argument arrays at the ideal values.

  Dense stages (two LSTM cells, two edge networks, the node network) are the row functions of `SpecRow` applied to every
  row. The irregular stages are carried as the host operations themselves: the feature concatenations, the row gathers
  at the edges' endpoints (negative indices wrapped first), and the mean over each node's incoming edges (a scatter-add
  of the messages over the scatter-add of ones floored at one). Both programs apply those same operations, so nothing
  about them is opened here; they are spelled with the reference program's dimension records.
-/
import proofs.«417163_j44495861187273_2_alg».proof.ReferenceIdeal
import proofs.«417163_j44495861187273_2_alg».proof.Proof.SpecRow
import Idealize.ShloMosaic.Lib.ValueIdx

noncomputable section

namespace Cert.GNN

open Idealize.ShloMosaic Idealize.ShloMosaic.ValueIdx Cert.ReferenceIdeal Cert.ReferenceIdeal.Facts₀ Cert.ReferenceIdeal.Facts

/-! ## Arrays by coordinates -/

abbrev A2 (a b : ℕ) := (⟨2, ![a, b]⟩ : Shape).Idx → EReal
abbrev A1 (a : ℕ) := (⟨1, ![a]⟩ : Shape).Idx → EReal

/-- Row `r` of a matrix. -/
abbrev rowOf {a b : ℕ} (X : A2 a b) (r : Fin a) : Fin b → EReal := fun k => X (ix2 r k)
/-- A matrix by its two coordinates. -/
abbrev mat {a b : ℕ} (X : A2 a b) : Fin a → Fin b → EReal := fun i j => X (ix2 i j)
/-- The array of a function of two coordinates. -/
abbrev arr2 {a b : ℕ} (g : Fin a → Fin b → EReal) : A2 a b := fun j => g (j 0) (j 1)

/-- The transposed matrix. -/
def tr {a b : ℕ} (W : A2 a b) : A2 b a := fun j => W (ix2 (j 1) (j 0))
/-- Two bias vectors added, as one row. -/
def biasSum {f : ℕ} (b1 b2 : A1 f) : A2 1 f := fun j => b1 (ix1 (j 1)) + b2 (ix1 (j 1))
/-- A bias vector as one row. -/
def bias1 {f : ℕ} (b : A1 f) : A2 1 f := fun j => b (ix1 (j 1))
/-- The `m` rows of a matrix from row `o` on. -/
def rowsFrom {a b : ℕ} (o m : ℕ) (h : o + m ≤ a) (W : A2 a b) : A2 m b :=
  fun j => W (ix2 ⟨o + (j 0).val, by have := idx2_lt0 j; omega⟩ (j 1))

/-! ## The dense stages over all rows (a block of rows and the whole array alike) -/

/-- An LSTM cell's new hidden state at every row; weights already transposed (`i × f`, `h × f`), the bias one row. -/
def lstmHArr {n i h f : ℕ} (hf : f = 4 * h) (X : A2 n i) (H C : A2 n h) (WihT : A2 i f) (WhhT : A2 h f) (B : A2 1 f) : A2 n h :=
  arr2 fun r q => lstmHid (lstmPre (rowOf X r) (rowOf H r) (mat WihT) (mat WhhT) (rowOf B 0)) (rowOf C r) hf q
/-- An LSTM cell's new cell state at every row. -/
def lstmCArr {n i h f : ℕ} (hf : f = 4 * h) (X : A2 n i) (H C : A2 n h) (WihT : A2 i f) (WhhT : A2 h f) (B : A2 1 f) : A2 n h :=
  arr2 fun r q => lstmCell (lstmPre (rowOf X r) (rowOf H r) (mat WihT) (mat WhhT) (rowOf B 0)) (rowOf C r) hf q
/-- An edge network at every edge: three input rows against their slabs of the first matrix, rectified, then the second layer. -/
def mlp3Arr {n a b c o r : ℕ} (S : A2 n a) (D : A2 n b) (E : A2 n c) (Wa : A2 a o) (Wb : A2 b o) (Wc : A2 c o) (B1 : A2 1 o)
    (W2 : A2 o r) (B2 : A2 1 r) : A2 n r :=
  arr2 fun e q => mlpOut (mlp3Hid (rowOf S e) (rowOf D e) (rowOf E e) (mat Wa) (mat Wb) (mat Wc) (rowOf B1 0)) (mat W2) (rowOf B2 0) q
/-- The node network at every node: two input rows against their slabs of the first matrix, rectified, then the second layer. -/
def mlp2Arr {n a b o r : ℕ} (A : A2 n a) (Bv : A2 n b) (Wa : A2 a o) (Wb : A2 b o) (B1 : A2 1 o) (W2 : A2 o r) (B2 : A2 1 r) : A2 n r :=
  arr2 fun e q => mlpOut (mlp2Hid (rowOf A e) (rowOf Bv e) (mat Wa) (mat Wb) (rowOf B1 0)) (mat W2) (rowOf B2 0) q

/-! ## The irregular stages: the host operations themselves -/

section Host
variable [Cert.ReferenceIdeal.Facts]

/-- Row `r` (0: sources, 1: receivers) of the edge list as a vector of node indices. -/
def endIdx0 (ei : IVec S2x800000 32) : IVec S800000 32 :=
  shapeCast _ (extractStridedSlice S1x800000 ![0, 0] ei slices_S2x800000_S1x800000_0_0) shapeCasts_S1x800000_S800000
def endIdx1 (ei : IVec S2x800000 32) : IVec S800000 32 :=
  shapeCast _ (extractStridedSlice S1x800000 ![1, 0] ei slices_S2x800000_S1x800000_1_0) shapeCasts_S1x800000_S800000

/-- A negative index counts from the end: `idx + 50000` where `idx < 0`. -/
def wrapIdx (idx : IVec S800000 32) : IVec S800000 32 :=
  select (cmpi .slt idx (broadcastInDim S800000 ![] bcast_S_S800000 (constantI S_ 32 0#32)))
    (addi idx (broadcastInDim S800000 ![] bcast_S_S800000 (constantI S_ 32 50000#32))) idx

/-- The rows of a 37-column table at the (wrapped) indices. -/
def gath37 (X : FVec Ideal S50000x37 .f32) (idx : IVec S800000 32) : FVec Ideal S800000x37 .f32 :=
  Host.gather gather_S50000x37_S800000x1_S800000x37_1_0_n_n_0_1_137 X
    (broadcastInDim S800000x1 ![0] bcast_S800000_S800000x1_0 (wrapIdx idx))
/-- The rows of a 28-column table at the (wrapped) indices. -/
def gath28 (X : FVec Ideal S50000x28 .f32) (idx : IVec S800000 32) : FVec Ideal S800000x28 .f32 :=
  Host.gather gather_S50000x28_S800000x1_S800000x28_1_0_n_n_0_1_128 X
    (broadcastInDim S800000x1 ![0] bcast_S800000_S800000x1_0 (wrapIdx idx))

/-- Each node's number of incoming edges, floored at one. -/
def inDeg (col : IVec S800000 32) : FVec Ideal S50000x1 .f32 :=
  maximumf
    (Host.scatterAdd scatter_S50000x1_S800000x1_S800000x1_1_0_0_1
      (broadcastInDim S50000x1 ![] bcast_S_S50000x1 (constant (F := Ideal) S_ .f32 0x00000000#32))
      (broadcastInDim S800000x1 ![0] bcast_S800000_S800000x1_0 col)
      (broadcastInDim S800000x1 ![] bcast_S_S800000x1 (constant (F := Ideal) S_ .f32 0x3F800000#32)))
    (broadcastInDim S50000x1 ![] bcast_S_S50000x1 (constant (F := Ideal) S_ .f32 0x3F800000#32))

/-- The mean of the edge rows `msg` over each node's incoming edges. -/
def segMean (col : IVec S800000 32) (msg : FVec Ideal S800000x32 .f32) : FVec Ideal S50000x32 .f32 :=
  Host.divf
    (Host.scatterAdd scatter_S50000x32_S800000x1_S800000x32_1_0_0_1
      (broadcastInDim S50000x32 ![] bcast_S_S50000x32 (constant (F := Ideal) S_ .f32 0x00000000#32))
      (broadcastInDim S800000x1 ![0] bcast_S800000_S800000x1_0 col) msg)
    (broadcastInDim S50000x32 ![0, 1] bcast_S50000x1_S50000x32_0_1 (inDeg col))

/-- Every edge endpoint is a node index: as an unsigned word it is below 50000 (so it is non-negative as a signed one). -/
def IdxOK (ei : IVec S2x800000 32) : Prop := ∀ j : S2x800000.Idx, (ei j).toNat < 50000

/-! ## The network -/

/-- The twenty-eight argument arrays. -/
structure Inp where
  x : FVec Ideal S50000x5 .f32
  u : FVec Ideal S50000x32 .f32
  ei : IVec S2x800000 32
  ea : FVec Ideal S800000x4 .f32
  hnh : FVec Ideal S50000x20 .f32
  hnc : FVec Ideal S50000x20 .f32
  heh : FVec Ideal S50000x8 .f32
  hec : FVec Ideal S50000x8 .f32
  wihn : FVec Ideal S80x37 .f32
  whhn : FVec Ideal S80x20 .f32
  bihn : FVec Ideal S80 .f32
  bhhn : FVec Ideal S80 .f32
  wihe : FVec Ideal S32x32 .f32
  whhe : FVec Ideal S32x8 .f32
  bihe : FVec Ideal S32 .f32
  bhhe : FVec Ideal S32 .f32
  we1 : FVec Ideal S78x64 .f32
  be1 : FVec Ideal S64 .f32
  we2 : FVec Ideal S64x32 .f32
  be2 : FVec Ideal S32 .f32
  wo1 : FVec Ideal S60x64 .f32
  bo1 : FVec Ideal S64 .f32
  wo2 : FVec Ideal S64x32 .f32
  bo2 : FVec Ideal S32 .f32
  wn1 : FVec Ideal S60x64 .f32
  bn1 : FVec Ideal S64 .f32
  wn2 : FVec Ideal S64x4 .f32
  bn2 : FVec Ideal S4 .f32

variable (I : Inp)

/-- Node features: `x` and `u` side by side. -/
def XU : FVec Ideal S50000x37 .f32 :=
  concatenate S50000x37 1 [⟨S50000x5, I.x⟩, ⟨S50000x32, I.u⟩] concatenates_S50000x5_S50000x32_S50000x37_d1
/-- The node-history cell's new hidden and cell states. -/
def NH : FVec Ideal S50000x20 .f32 := lstmHArr (by norm_num) (XU I) I.hnh I.hnc (tr I.wihn) (tr I.whhn) (biasSum I.bihn I.bhhn)
def NC : FVec Ideal S50000x20 .f32 := lstmCArr (by norm_num) (XU I) I.hnh I.hnc (tr I.wihn) (tr I.whhn) (biasSum I.bihn I.bhhn)
/-- The message of every edge. -/
def MSG : FVec Ideal S800000x32 .f32 :=
  mlp3Arr (gath37 (XU I) (endIdx0 I.ei)) (gath37 (XU I) (endIdx1 I.ei)) I.ea
    (rowsFrom 0 37 (by norm_num) I.we1) (rowsFrom 37 37 (by norm_num) I.we1) (rowsFrom 74 4 (by norm_num) I.we1) (bias1 I.be1) I.we2 (bias1 I.be2)
/-- The mean message at every node. -/
def AGG : FVec Ideal S50000x32 .f32 := segMean (endIdx1 I.ei) (MSG I)
/-- The edge-history cell's new hidden and cell states. -/
def EH : FVec Ideal S50000x8 .f32 := lstmHArr (by norm_num) (AGG I) I.heh I.hec (tr I.wihe) (tr I.whhe) (biasSum I.bihe I.bhhe)
def EC : FVec Ideal S50000x8 .f32 := lstmCArr (by norm_num) (AGG I) I.heh I.hec (tr I.wihe) (tr I.whhe) (biasSum I.bihe I.bhhe)
/-- Both histories side by side. -/
def FULL : FVec Ideal S50000x28 .f32 :=
  concatenate S50000x28 1 [⟨S50000x20, NH I⟩, ⟨S50000x8, EH I⟩] concatenates_S50000x20_S50000x8_S50000x28_d1
/-- The output block's edge rows. -/
def E2 : FVec Ideal S800000x32 .f32 :=
  mlp3Arr (gath28 (FULL I) (endIdx0 I.ei)) (gath28 (FULL I) (endIdx1 I.ei)) I.ea
    (rowsFrom 0 28 (by norm_num) I.wo1) (rowsFrom 28 28 (by norm_num) I.wo1) (rowsFrom 56 4 (by norm_num) I.wo1) (bias1 I.bo1) I.wo2 (bias1 I.bo2)
def AGG2 : FVec Ideal S50000x32 .f32 := segMean (endIdx1 I.ei) (E2 I)
/-- The network's output at every node. -/
def OUT : FVec Ideal S50000x4 .f32 :=
  mlp2Arr (FULL I) (AGG2 I) (rowsFrom 0 28 (by norm_num) I.wn1) (rowsFrom 28 32 (by norm_num) I.wn1) (bias1 I.bn1) I.wn2 (bias1 I.bn2)

end Host

end Cert.GNN

end
-- ==== Proof.KIface.lean ====
/-
  The kernel program's side of the interface: its twenty-eight argument arrays as one record, and what the buffers hold
  where the first edge network's region has just ended (the messages, the two node-history results, the two endpoint
  index vectors), which is all the rest of the program reads of what came before.
-/
import proofs.«417163_j44495861187273_2_alg».proof.Proof.Gen.KernelIdeal.Frame
import proofs.«417163_j44495861187273_2_alg».proof.Proof.SpecArr
import proofs.«417163_j44495861187273_2_alg».proof.Proof.Gen.ReferenceIdeal

noncomputable section
namespace Cert.KernelIdeal.KV
open Idealize.ShloMosaic Idealize.ShloMosaic.TcCoe Idealize.SL.Sem Cert.KernelIdeal Cert.KernelIdeal.Gen Cert.GNN

/-- The kernel program's argument arrays on device `c`, as launched. -/
def inpK (m : (ℓ : Loc nD τ sig) → Buf (Elt Ideal) ℓ) (c : Dev nD) : Inp where
  x := m ((c : Thread nD τ).loc main_arg0)
  u := m ((c : Thread nD τ).loc main_arg1)
  ei := m ((c : Thread nD τ).loc main_arg2)
  ea := m ((c : Thread nD τ).loc main_arg3)
  hnh := m ((c : Thread nD τ).loc main_arg4)
  hnc := m ((c : Thread nD τ).loc main_arg5)
  heh := m ((c : Thread nD τ).loc main_arg6)
  hec := m ((c : Thread nD τ).loc main_arg7)
  wihn := m ((c : Thread nD τ).loc main_arg8)
  whhn := m ((c : Thread nD τ).loc main_arg9)
  bihn := m ((c : Thread nD τ).loc main_arg10)
  bhhn := m ((c : Thread nD τ).loc main_arg11)
  wihe := m ((c : Thread nD τ).loc main_arg12)
  whhe := m ((c : Thread nD τ).loc main_arg13)
  bihe := m ((c : Thread nD τ).loc main_arg14)
  bhhe := m ((c : Thread nD τ).loc main_arg15)
  we1 := m ((c : Thread nD τ).loc main_arg16)
  be1 := m ((c : Thread nD τ).loc main_arg17)
  we2 := m ((c : Thread nD τ).loc main_arg18)
  be2 := m ((c : Thread nD τ).loc main_arg19)
  wo1 := m ((c : Thread nD τ).loc main_arg20)
  bo1 := m ((c : Thread nD τ).loc main_arg21)
  wo2 := m ((c : Thread nD τ).loc main_arg22)
  bo2 := m ((c : Thread nD τ).loc main_arg23)
  wn1 := m ((c : Thread nD τ).loc main_arg24)
  bn1 := m ((c : Thread nD τ).loc main_arg25)
  wn2 := m ((c : Thread nD τ).loc main_arg26)
  bn2 := m ((c : Thread nD τ).loc main_arg27)

/-- The buffers the later stages read, where the first edge network's region ends. -/
structure At7 (m : (ℓ : Loc nD τ sig) → Buf (Elt Ideal) ℓ) (ρ : Dev nD → PrngReg) (c : Dev nD) : Prop where
  msg : W7 (F := Ideal) m ρ c (Proc.devRef .tc main_v17) = MSG (inpK m c)
  nh : W7 (F := Ideal) m ρ c (Proc.devRef .tc main_v5_0) = NH (inpK m c)
  nc : W7 (F := Ideal) m ρ c (Proc.devRef .tc main_v5_1) = NC (inpK m c)
  row : W7 (F := Ideal) m ρ c (Proc.devRef .tc main_v7) = endIdx0 (inpK m c).ei
  col : W7 (F := Ideal) m ρ c (Proc.devRef .tc main_v9) = endIdx1 (inpK m c).ei

end Cert.KernelIdeal.KV
end
-- ==== Proof.PreIdx.lean ====
/-
  From the printed precondition to the index range: the last conjunct of the precondition says every word of the edge
  list is at least 0 and below 50000 as a signed number, so as an unsigned number it is below 50000.
-/
import proofs.«417163_j44495861187273_2_alg».proof.Defs
import proofs.«417163_j44495861187273_2_alg».proof.Proof.Gen.Pre_finite_inputs
import proofs.«417163_j44495861187273_2_alg».proof.Proof.KIface
import Idealize.ShloMosaic.Lib.ReduceAll
import Idealize.ShloMosaic.Lib.StableHlo.Predicate

noncomputable section
namespace Cert.KernelIdeal.KV
open Idealize.ShloMosaic Idealize.ShloMosaic.TcCoe Idealize.SL.Sem Cert.KernelIdeal Cert.GNN

/-- A 32-bit word that is at least 0 and below 50000 as a signed number is below 50000 as an unsigned number:
    being at least 0 signed, its top bit is clear, so it reads the same signed and unsigned. -/
theorem toNat_lt_of_signed_range (w : BitVec 32) (h0 : IntOp.cmpi .sge w 0#32 = 1#1)
    (h1 : IntOp.cmpi .slt w 50000#32 = 1#1) : w.toNat < 50000 := by
  rw [IntOp.cmpi_sge, show (0#32 : BitVec 32).toInt = 0 from by decide] at h0
  rw [IntOp.cmpi_slt, show (50000#32 : BitVec 32).toInt = 50000 from by decide] at h1
  have hm : 2 * w.toNat < 2 ^ 32 := BitVec.toInt_pos_iff.1 h0
  rw [BitVec.toInt_eq_toNat_of_lt hm] at h1
  omega

/-- Under the precondition every edge endpoint is a node index. -/
theorem idxOK_of_pre (m : (ℓ : Loc nD τ sig) → Buf (Elt Ideal) ℓ) (h : Cert.Pre_KernelIdeal m) (c : Dev nD) :
    IdxOK (inpK m c).ei := by
  intro j
  -- the scalar shape has exactly one index
  haveI : Subsingleton Cert.Pre_finite_inputs.S_.Idx := ⟨fun a b => funext fun d => d.elim0⟩
  have h1 := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Cert.Pre_finite_inputs.fn_part8] at h1
  -- the whole precondition is a conjunction whose last conjunct is the reduction by "and" over the edge list
  change IntOp.andi _ _ = 1#1 at h1
  have h2 := (IntOp.andi_eq_one.1 h1).2
  -- that reduction runs over both axes and is 1, so the element at j is 1
  have h3 := Host.reduce_andi_all _ _ _ _ _ h2 j
  -- the element at j is the conjunction of the two signed comparisons of the word at j with 0 and with 50000
  change IntOp.andi (IntOp.cmpi .sge _ _) (IntOp.cmpi .slt _ _) = 1#1 at h3
  obtain ⟨h4, h5⟩ := IntOp.andi_eq_one.1 h3
  exact toNat_lt_of_signed_range _ h4 h5

end Cert.KernelIdeal.KV
end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.K0.lean ====
/-
  Region 0: the node-history LSTM cell, over 25 blocks of 2000 rows.

  At the ideal values the region's body, on one block of rows, is the cell's row function applied to every row of the
  block: the gates' pre-activation is the input rows times the input weights plus the hidden rows times the hidden
  weights (two products into zero accumulators, the narrowing casts being the identity) plus the bias row; the four
  gates are four stretches of 20 columns of it; the new cell state is σ(f)·c + σ(i)·tanh(g) and the new hidden state
  σ(o)·tanh(c'). The cell at a row reads that row of the three moving inputs only, and each point of the grid writes
  back its own 2000 rows, so the 25 blocks together are the cell applied to every row of the arrays the region finds.
-/
import proofs.«417163_j44495861187273_2_alg».proof.Proof.Gen.KernelIdeal.Frame
import proofs.«417163_j44495861187273_2_alg».proof.Proof.SpecArr
import proofs.«417163_j44495861187273_2_alg».proof.Proof.LibDot
import Idealize.ShloMosaic.Lib.ValueLayout
import Idealize.ShloMosaic.Lib.Pipeline.Value

noncomputable section
namespace Cert.KernelIdeal.KV
open Idealize.ShloMosaic Idealize.ShloMosaic.TcCoe Idealize.ShloMosaic.ValueIdx Idealize.SL.Sem Cert.KernelIdeal Cert.KernelIdeal.Gen Cert.GNN
open Idealize.ShloMosaic.Pipeline (Dat Cfg Window)

variable (V : (c : Dev nD) → (b : Ref sig .tc) → Buf (Elt Ideal) ((c : Thread nD τ).loc b))

/-! ## One block of rows: the body's result is the cell's row function -/

/-- A product of a block of rows against a weight matrix, into the zero accumulator, at an entry. -/
theorem mm0_37_apply (lhs : FVec Ideal S2000x37 .bf16) (rhs : FVec Ideal S37x80 .bf16) (p : Fin 2000) (q : Fin 80) :
    matmul dot_S2000x37_S37x80_S2000x80_1_0_0_1_n_n none lhs rhs (constant S2000x80 .f32 0x00000000#32) (ix2 p q)
      = ∑ k : Fin 37, lhs (ix2 p k) * rhs (ix2 k q) :=
  matmul_plain_zero_apply (M := 2000) (K := 37) (N := 80) none lhs rhs p q

/-- The same for the hidden rows against the hidden weights. -/
theorem mm0_20_apply (lhs : FVec Ideal S2000x20 .bf16) (rhs : FVec Ideal S20x80 .bf16) (p : Fin 2000) (q : Fin 80) :
    matmul dot_S2000x20_S20x80_S2000x80_1_0_0_1_n_n none lhs rhs (constant S2000x80 .f32 0x00000000#32) (ix2 p q)
      = ∑ k : Fin 20, lhs (ix2 p k) * rhs (ix2 k q) :=
  matmul_plain_zero_apply (M := 2000) (K := 20) (N := 80) none lhs rhs p q

/-- The gates' pre-activation at row p, column j: the two products added, plus the bias. -/
theorem pay0_1_apply (x0 : Vec Ideal S2000x37 .f32) (x1 : Vec Ideal S2000x20 .f32) (x3 : Vec Ideal S37x80 .f32)
    (x4 : Vec Ideal S20x80 .f32) (x5 : Vec Ideal S1x80 .f32) (p : Fin 2000) (j : Fin 80) :
    k0_pay1 (F := Ideal) x0 x1 x3 x4 x5 (ix2 p j)
      = lstmPre (rowOf x0 p) (rowOf x1 p) (mat x3) (mat x4) (rowOf x5 0) j := by
  unfold k0_pay1
  rw [addf_apply, addf_apply, broadcastTo_1b_ab_apply, mm0_37_apply, mm0_20_apply]
  simp only [shapeCast_self, truncf_apply]
  rfl

/-- The logistic function and the hyperbolic tangent of an array, at an entry. -/
theorem logistic0_apply {s : Shape} {φ : FTy} (a : FVec Ideal s φ) (i : s.Idx) : logistic a i = Ideal.logistic (a i) := rfl
theorem tanh0_apply {s : Shape} {φ : FTy} (a : FVec Ideal s φ) (i : s.Idx) : tanh a i = Ideal.tanh (a i) := rfl

/-- A stretch of 20 columns from column o, at an entry. -/
theorem gate0_at (o : Nat) (X : FVec Ideal S2000x80 .f32) (h : S2000x80.Slices ![0, o] S2000x20) (p : Fin 2000) (q : Fin 20)
    (ho : o + q.val < 80) : extractStridedSlice S2000x20 ![0, o] X h (ix2 p q) = X (ix2 p ⟨o + q.val, ho⟩) :=
  slice2_axis1_apply o X h p q ⟨o + q.val, ho⟩ rfl

/-- The first stretch of 20 columns, at an entry. -/
theorem gate0_first (X : FVec Ideal S2000x80 .f32) (h : S2000x80.Slices ![0, 0] S2000x20) (p : Fin 2000) (q : Fin 20)
    (ho : q.val < 80) : extractStridedSlice S2000x20 ![0, 0] X h (ix2 p q) = X (ix2 p ⟨q.val, ho⟩) :=
  slice2_axis1_apply 0 X h p q ⟨q.val, ho⟩ (Nat.zero_add _).symm

/-- The new cell state at row p, column q. -/
theorem pay0_2_apply (x0 : Vec Ideal S2000x37 .f32) (x1 x2 : Vec Ideal S2000x20 .f32) (x3 : Vec Ideal S37x80 .f32)
    (x4 : Vec Ideal S20x80 .f32) (x5 : Vec Ideal S1x80 .f32) (p : Fin 2000) (q : Fin 20) :
    k0_pay2 (F := Ideal) x0 x1 x2 x3 x4 x5 (ix2 p q)
      = lstmCell (lstmPre (rowOf x0 p) (rowOf x1 p) (mat x3) (mat x4) (rowOf x5 0)) (rowOf x2 p) (by norm_num) q := by
  unfold k0_pay2
  rw [addf_apply, mulf_apply, mulf_apply, logistic0_apply, logistic0_apply, tanh0_apply,
    gate0_at 20 _ _ p q (by omega), gate0_first _ _ p q (by omega), gate0_at 40 _ _ p q (by omega),
    pay0_1_apply, pay0_1_apply, pay0_1_apply]
  rfl

/-- The new hidden state at row p, column q. -/
theorem pay0_3_apply (x0 : Vec Ideal S2000x37 .f32) (x1 x2 : Vec Ideal S2000x20 .f32) (x3 : Vec Ideal S37x80 .f32)
    (x4 : Vec Ideal S20x80 .f32) (x5 : Vec Ideal S1x80 .f32) (p : Fin 2000) (q : Fin 20) :
    k0_pay3 (F := Ideal) x0 x1 x2 x3 x4 x5 (ix2 p q)
      = lstmHid (lstmPre (rowOf x0 p) (rowOf x1 p) (mat x3) (mat x4) (rowOf x5 0)) (rowOf x2 p) (by norm_num) q := by
  unfold k0_pay3
  rw [mulf_apply, logistic0_apply, tanh0_apply, gate0_at 60 _ _ p q (by omega), pay0_1_apply, pay0_2_apply]
  rfl

/-- The zero offsets, however spelt. -/
theorem hz0 : (![0, 0] : Fin 2 → Nat) = fun _ => 0 := funext fun a => by fin_cases a <;> rfl

/-- The block of new hidden states the body leaves is the cell at every row of the blocks it read. -/
theorem out0_6_eq (x0 : Vec Ideal S2000x37 .f32) (x1 x2 : Vec Ideal S2000x20 .f32) (x3 : Vec Ideal S37x80 .f32)
    (x4 : Vec Ideal S20x80 .f32) (x5 : Vec Ideal S1x80 .f32) :
    out0_6 (F := Ideal) x0 x1 x2 x3 x4 x5 = lstmHArr (by norm_num) x0 x1 x2 x3 x4 x5 := by
  unfold out0_6
  rw [View.canon_unit_zero hz0]
  simp only [View.ld_unit_zero (S := S2000x37) hz0, View.ld_unit_zero (S := S2000x20) hz0, View.ld_unit_zero (S := S37x80) hz0,
    View.ld_unit_zero (S := S20x80) hz0, View.ld_unit_zero (S := S1x80) hz0]
  funext j
  obtain ⟨p, q, rfl⟩ : ∃ p q, j = ix2 p q := ⟨j 0, j 1, eq_ix2 j⟩
  rw [pay0_3_apply]
  rfl

/-- The block of new cell states the body leaves, likewise. -/
theorem out0_7_eq (x0 : Vec Ideal S2000x37 .f32) (x1 x2 : Vec Ideal S2000x20 .f32) (x3 : Vec Ideal S37x80 .f32)
    (x4 : Vec Ideal S20x80 .f32) (x5 : Vec Ideal S1x80 .f32) :
    out0_7 (F := Ideal) x0 x1 x2 x3 x4 x5 = lstmCArr (by norm_num) x0 x1 x2 x3 x4 x5 := by
  unfold out0_7
  rw [View.canon_unit_zero hz0]
  simp only [View.ld_unit_zero (S := S2000x37) hz0, View.ld_unit_zero (S := S2000x20) hz0, View.ld_unit_zero (S := S37x80) hz0,
    View.ld_unit_zero (S := S20x80) hz0, View.ld_unit_zero (S := S1x80) hz0]
  funext j
  obtain ⟨p, q, rfl⟩ : ∃ p q, j = ix2 p q := ⟨j 0, j 1, eq_ix2 j⟩
  rw [pay0_2_apply]
  rfl

/-! ## All blocks together -/

/-- The cell's new hidden state at a row depends on that row of the three moving arrays only: two families of arrays
    that agree on a row (and have the same weights and bias) give the same state there. -/
theorem lstmHArr_at0 {n m i h f : ℕ} (hf : f = 4 * h) (X' : A2 m i) (H' C' : A2 m h) (X : A2 n i) (H C : A2 n h)
    (W1' W1 : A2 i f) (W2' W2 : A2 h f) (B' B : A2 1 f) (y : (⟨2, ![m, h]⟩ : Shape).Idx) (j : (⟨2, ![n, h]⟩ : Shape).Idx)
    (hX : ∀ k, X' (ix2 (y 0) k) = X (ix2 (j 0) k)) (hH : ∀ k, H' (ix2 (y 0) k) = H (ix2 (j 0) k))
    (hC : ∀ k, C' (ix2 (y 0) k) = C (ix2 (j 0) k)) (hW1 : W1' = W1) (hW2 : W2' = W2) (hB : B' = B)
    (hq : (y 1).val = (j 1).val) :
    lstmHArr hf X' H' C' W1' W2' B' y = lstmHArr hf X H C W1 W2 B j := by
  subst hW1 hW2 hB
  have hq' : (y 1 : Fin h) = j 1 := Fin.ext hq
  show lstmHid (lstmPre (rowOf X' (y 0)) (rowOf H' (y 0)) (mat W1') (mat W2') (rowOf B' 0)) (rowOf C' (y 0)) hf (y 1)
    = lstmHid (lstmPre (rowOf X (j 0)) (rowOf H (j 0)) (mat W1') (mat W2') (rowOf B' 0)) (rowOf C (j 0)) hf (j 1)
  rw [show rowOf X' (y 0) = rowOf X (j 0) from funext hX, show rowOf H' (y 0) = rowOf H (j 0) from funext hH,
    show rowOf C' (y 0) = rowOf C (j 0) from funext hC, hq']

/-- The same for the new cell state. -/
theorem lstmCArr_at0 {n m i h f : ℕ} (hf : f = 4 * h) (X' : A2 m i) (H' C' : A2 m h) (X : A2 n i) (H C : A2 n h)
    (W1' W1 : A2 i f) (W2' W2 : A2 h f) (B' B : A2 1 f) (y : (⟨2, ![m, h]⟩ : Shape).Idx) (j : (⟨2, ![n, h]⟩ : Shape).Idx)
    (hX : ∀ k, X' (ix2 (y 0) k) = X (ix2 (j 0) k)) (hH : ∀ k, H' (ix2 (y 0) k) = H (ix2 (j 0) k))
    (hC : ∀ k, C' (ix2 (y 0) k) = C (ix2 (j 0) k)) (hW1 : W1' = W1) (hW2 : W2' = W2) (hB : B' = B)
    (hq : (y 1).val = (j 1).val) :
    lstmCArr hf X' H' C' W1' W2' B' y = lstmCArr hf X H C W1 W2 B j := by
  subst hW1 hW2 hB
  have hq' : (y 1 : Fin h) = j 1 := Fin.ext hq
  show lstmCell (lstmPre (rowOf X' (y 0)) (rowOf H' (y 0)) (mat W1') (mat W2') (rowOf B' 0)) (rowOf C' (y 0)) hf (y 1)
    = lstmCell (lstmPre (rowOf X (j 0)) (rowOf H (j 0)) (mat W1') (mat W2') (rowOf B' 0)) (rowOf C (j 0)) hf (j 1)
  rw [show rowOf X' (y 0) = rowOf X (j 0) from funext hX, show rowOf H' (y 0) = rowOf H (j 0) from funext hH,
    show rowOf C' (y 0) = rowOf C (j 0) from funext hC, hq']

/-- The block index of every window at every point of the grid: the three row-block inputs and the two outputs move
    with the point along the rows; the weights and the bias stay at the one block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- A block of 2000 rows of the node features, read at an entry, is the array at the block's row offset. -/
theorem blk0_0 (c : Dev nD) (t : Fin cfg0.N) (y : S2000x37.Idx) (i : S50000x37.Idx)
    (h0 : (i 0).val = t.val * 2000 + (y 0).val) (h1 : (i 1).val = (y 1).val) :
    iblk0 V c 0 t y = V c main_v0 i := by
  show V c main_v0 (((cfg0.win 0).blk t).view.emb y) = V c main_v0 i
  congr 1
  funext a; apply Fin.ext
  obtain ⟨e0, e1, -⟩ := idx_facts0 t
  match a with
  | ⟨0, _⟩ => show win0_0.index t (0 : Fin 2) * 2000 + 1 * (y 0).val = (i 0).val; omega
  | ⟨1, _⟩ => show win0_0.index t (1 : Fin 2) * 37 + 1 * (y 1).val = (i 1).val; omega

/-- The same for the hidden-state and cell-state blocks (20 columns). -/
theorem blk0_1 (c : Dev nD) (t : Fin cfg0.N) (y : S2000x20.Idx) (i : S50000x20.Idx)
    (h0 : (i 0).val = t.val * 2000 + (y 0).val) (h1 : (i 1).val = (y 1).val) :
    iblk0 V c 1 t y = V c main_arg4 i := by
  show V c main_arg4 (((cfg0.win 1).blk t).view.emb y) = V c main_arg4 i
  congr 1
  funext a; apply Fin.ext
  obtain ⟨-, -, e0, e1, -⟩ := idx_facts0 t
  match a with
  | ⟨0, _⟩ => show win0_1.index t (0 : Fin 2) * 2000 + 1 * (y 0).val = (i 0).val; omega
  | ⟨1, _⟩ => show win0_1.index t (1 : Fin 2) * 20 + 1 * (y 1).val = (i 1).val; omega

/-- The cell-state block. -/
theorem blk0_2 (c : Dev nD) (t : Fin cfg0.N) (y : S2000x20.Idx) (i : S50000x20.Idx)
    (h0 : (i 0).val = t.val * 2000 + (y 0).val) (h1 : (i 1).val = (y 1).val) :
    iblk0 V c 2 t y = V c main_arg5 i := by
  show V c main_arg5 (((cfg0.win 2).blk t).view.emb y) = V c main_arg5 i
  congr 1
  funext a; apply Fin.ext
  obtain ⟨-, -, -, -, e0, e1, -⟩ := idx_facts0 t
  match a with
  | ⟨0, _⟩ => show win0_2.index t (0 : Fin 2) * 2000 + 1 * (y 0).val = (i 0).val; omega
  | ⟨1, _⟩ => show win0_2.index t (1 : Fin 2) * 20 + 1 * (y 1).val = (i 1).val; omega

/-- A weight matrix's one block is the matrix. -/
theorem blk0_3 (c : Dev nD) (t : Fin cfg0.N) : (iblk0 V c 3 t : Vec Ideal S37x80 .f32) = V c main_v1 := by
  funext y
  show V c main_v1 (((cfg0.win 3).blk t).view.emb y) = V c main_v1 y
  congr 1
  funext a; apply Fin.ext
  obtain ⟨-, -, -, -, -, -, e0, e1, -⟩ := idx_facts0 t
  match a with
  | ⟨0, _⟩ => show win0_3.index t (0 : Fin 2) * 37 + 1 * (y 0).val = (y 0).val; omega
  | ⟨1, _⟩ => show win0_3.index t (1 : Fin 2) * 80 + 1 * (y 1).val = (y 1).val; omega

/-- The hidden weights' one block is the matrix. -/
theorem blk0_4 (c : Dev nD) (t : Fin cfg0.N) : (iblk0 V c 4 t : Vec Ideal S20x80 .f32) = V c main_v2 := by
  funext y
  show V c main_v2 (((cfg0.win 4).blk t).view.emb y) = V c main_v2 y
  congr 1
  funext a; apply Fin.ext
  obtain ⟨-, -, -, -, -, -, -, -, e0, e1, -⟩ := idx_facts0 t
  match a with
  | ⟨0, _⟩ => show win0_4.index t (0 : Fin 2) * 20 + 1 * (y 0).val = (y 0).val; omega
  | ⟨1, _⟩ => show win0_4.index t (1 : Fin 2) * 80 + 1 * (y 1).val = (y 1).val; omega

/-- The bias row's one block is the row. -/
theorem blk0_5 (c : Dev nD) (t : Fin cfg0.N) : (iblk0 V c 5 t : Vec Ideal S1x80 .f32) = V c main_v4 := by
  funext y
  show V c main_v4 (((cfg0.win 5).blk t).view.emb y) = V c main_v4 y
  congr 1
  funext a; apply Fin.ext
  obtain ⟨-, -, -, -, -, -, -, -, -, -, e0, e1, -⟩ := idx_facts0 t
  match a with
  | ⟨0, _⟩ => show win0_5.index t (0 : Fin 2) * 1 + 1 * (y 0).val = (y 0).val; omega
  | ⟨1, _⟩ => show win0_5.index t (1 : Fin 2) * 80 + 1 * (y 1).val = (y 1).val; omega

/-- What a point writes back to the hidden-state array is its block of rows of the cell applied to every row of the
    arrays the region finds. -/
theorem flushed0_6_eq (c : Dev nD) (t : Fin cfg0.N) :
    (dat0 (F := Ideal) V c).flushed 6 t = ((cfg0.win 6).blk t).view.read (Elt Ideal)
      (lstmHArr (by norm_num) (V c main_v0) (V c main_arg4) (V c main_arg5) (V c main_v1) (V c main_v2) (V c main_v4)) := by
  show (cfg0.win 6).cut (grid0.coords t) ((dat0 V c).after 6 t) = _
  rw [after0_6, out0_6_eq]
  funext y
  show lstmHArr (by norm_num) (iblk0 V c 0 t) (iblk0 V c 1 t) (iblk0 V c 2 t) (iblk0 V c 3 t) (iblk0 V c 4 t) (iblk0 V c 5 t) y
    = lstmHArr (by norm_num) (V c main_v0) (V c main_arg4) (V c main_arg5) (V c main_v1) (V c main_v2) (V c main_v4)
        (((cfg0.win 6).blk t).view.emb y)
  obtain ⟨-, -, -, -, -, -, -, -, -, -, -, -, e0, e1, -⟩ := idx_facts0 t
  have h0 : ((((cfg0.win 6).blk t).view.emb y) 0).val = t.val * 2000 + (y 0).val := by
    show win0_6.index t (0 : Fin 2) * 2000 + 1 * (y 0).val = _; omega
  have h1 : ((((cfg0.win 6).blk t).view.emb y) 1).val = (y 1).val := by
    show win0_6.index t (1 : Fin 2) * 20 + 1 * (y 1).val = _; omega
  exact lstmHArr_at0 _ _ _ _ _ _ _ _ _ _ _ _ _ y _ (fun k => blk0_0 V c t _ _ h0 rfl) (fun k => blk0_1 V c t _ _ h0 rfl)
    (fun k => blk0_2 V c t _ _ h0 rfl) (blk0_3 V c t) (blk0_4 V c t) (blk0_5 V c t) h1.symm

/-- The same for the cell-state array. -/
theorem flushed0_7_eq (c : Dev nD) (t : Fin cfg0.N) :
    (dat0 (F := Ideal) V c).flushed 7 t = ((cfg0.win 7).blk t).view.read (Elt Ideal)
      (lstmCArr (by norm_num) (V c main_v0) (V c main_arg4) (V c main_arg5) (V c main_v1) (V c main_v2) (V c main_v4)) := by
  show (cfg0.win 7).cut (grid0.coords t) ((dat0 V c).after 7 t) = _
  rw [after0_7, out0_7_eq]
  funext y
  show lstmCArr (by norm_num) (iblk0 V c 0 t) (iblk0 V c 1 t) (iblk0 V c 2 t) (iblk0 V c 3 t) (iblk0 V c 4 t) (iblk0 V c 5 t) y
    = lstmCArr (by norm_num) (V c main_v0) (V c main_arg4) (V c main_arg5) (V c main_v1) (V c main_v2) (V c main_v4)
        (((cfg0.win 7).blk t).view.emb y)
  obtain ⟨-, -, -, -, -, -, -, -, -, -, -, -, -, -, e0, e1⟩ := idx_facts0 t
  have h0 : ((((cfg0.win 7).blk t).view.emb y) 0).val = t.val * 2000 + (y 0).val := by
    show win0_7.index t (0 : Fin 2) * 2000 + 1 * (y 0).val = _; omega
  have h1 : ((((cfg0.win 7).blk t).view.emb y) 1).val = (y 1).val := by
    show win0_7.index t (1 : Fin 2) * 20 + 1 * (y 1).val = _; omega
  exact lstmCArr_at0 _ _ _ _ _ _ _ _ _ _ _ _ _ y _ (fun k => blk0_0 V c t _ _ h0 rfl) (fun k => blk0_1 V c t _ _ h0 rfl)
    (fun k => blk0_2 V c t _ _ h0 rfl) (blk0_3 V c t) (blk0_4 V c t) (blk0_5 V c t) h1.symm

/-- An index of the hidden-state array is in a point's block iff each coordinate is in the block's range on its axis. -/
theorem mem_blk0_6 (t : Fin cfg0.N) (i : S50000x20.Idx) :
    i ∈ ((cfg0.win 6).blk t).view.set ↔ ∀ a : Fin 2, win0_6.index t a * S2000x20.size a ≤ (i a).val
      ∧ (i a).val < win0_6.index t a * S2000x20.size a + S2000x20.size a := by
  show i ∈ ((View.whole main_v5_0).slice (win0_6.rect t)).set ↔ _
  rw [View.set_slice_whole, Rect.mem_set_unit]
  exact Iff.rfl

/-- The same for the cell-state array. -/
theorem mem_blk0_7 (t : Fin cfg0.N) (i : S50000x20.Idx) :
    i ∈ ((cfg0.win 7).blk t).view.set ↔ ∀ a : Fin 2, win0_7.index t a * S2000x20.size a ≤ (i a).val
      ∧ (i a).val < win0_7.index t a * S2000x20.size a + S2000x20.size a := by
  show i ∈ ((View.whole main_v5_1).slice (win0_7.rect t)).set ↔ _
  rw [View.set_slice_whole, Rect.mem_set_unit]
  exact Iff.rfl

/-- Row i of the array is in the block of the point i / 2000: the 25 blocks of 2000 rows fill the 50000 rows. -/
theorem cover0_6_arr (i : S50000x20.Idx) :
    ∃ t : Fin cfg0.N, (cfg0.win 6).flush t = true ∧ i ∈ ((cfg0.win 6).blk t).view.set := by
  have hi0 : (i 0).val < 50000 := (i 0).isLt
  have hi1 : (i 1).val < 20 := (i 1).isLt
  have hN : grid0.N = 25 := N_0
  obtain ⟨t, ht⟩ : ∃ t : Fin cfg0.N, t.val = (i 0).val / 2000 :=
    ⟨⟨(i 0).val / 2000, by show _ < grid0.N; omega⟩, rfl⟩
  refine ⟨t, flush0_6 t, ?_⟩
  rw [mem_blk0_6]
  obtain ⟨-, -, -, -, -, -, -, -, -, -, -, -, e0, e1, -⟩ := idx_facts0 t
  intro a
  match a with
  | ⟨0, _⟩ =>
    show win0_6.index t (0 : Fin 2) * 2000 ≤ (i 0).val ∧ (i 0).val < win0_6.index t (0 : Fin 2) * 2000 + 2000
    omega
  | ⟨1, _⟩ =>
    show win0_6.index t (1 : Fin 2) * 20 ≤ (i 1).val ∧ (i 1).val < win0_6.index t (1 : Fin 2) * 20 + 20
    omega

/-- The same for the cell-state array. -/
theorem cover0_7_arr (i : S50000x20.Idx) :
    ∃ t : Fin cfg0.N, (cfg0.win 7).flush t = true ∧ i ∈ ((cfg0.win 7).blk t).view.set := by
  have hi0 : (i 0).val < 50000 := (i 0).isLt
  have hi1 : (i 1).val < 20 := (i 1).isLt
  have hN : grid0.N = 25 := N_0
  obtain ⟨t, ht⟩ : ∃ t : Fin cfg0.N, t.val = (i 0).val / 2000 :=
    ⟨⟨(i 0).val / 2000, by show _ < grid0.N; omega⟩, rfl⟩
  refine ⟨t, flush0_7 t, ?_⟩
  rw [mem_blk0_7]
  obtain ⟨-, -, -, -, -, -, -, -, -, -, -, -, -, -, e0, e1⟩ := idx_facts0 t
  intro a
  match a with
  | ⟨0, _⟩ =>
    show win0_7.index t (0 : Fin 2) * 2000 ≤ (i 0).val ∧ (i 0).val < win0_7.index t (0 : Fin 2) * 2000 + 2000
    omega
  | ⟨1, _⟩ =>
    show win0_7.index t (1 : Fin 2) * 20 ≤ (i 1).val ∧ (i 1).val < win0_7.index t (1 : Fin 2) * 20 + 20
    omega

/-- The new hidden states of all nodes, after the region: the cell applied to every row of the arrays the region finds. -/
theorem arr0_6 (c : Dev nD) :
    (dat0 (F := Ideal) V c).arrAt 6 cfg0.N
      = lstmHArr (by norm_num) (V c main_v0) (V c main_arg4) (V c main_arg5) (V c main_v1) (V c main_v2) (V c main_v4) :=
  (dat0 V c).arrAt_eq_of_cover 6 _ (fun t _ => flushed0_6_eq V c t) cover0_6_arr

/-- The new cell states of all nodes, after the region. -/
theorem arr0_7 (c : Dev nD) :
    (dat0 (F := Ideal) V c).arrAt 7 cfg0.N
      = lstmCArr (by norm_num) (V c main_v0) (V c main_arg4) (V c main_arg5) (V c main_v1) (V c main_v2) (V c main_v4) :=
  (dat0 V c).arrAt_eq_of_cover 7 _ (fun t _ => flushed0_7_eq V c t) cover0_7_arr

end Cert.KernelIdeal.KV
end
-- ==== Proof.K1.lean ====
/-
  Region 1: the message edge network over 200 blocks of 4000 edges.

  The region's body computes, for a block of 4000 edges, the two-layer edge network of the block's source rows,
  destination rows and attribute rows: three products against the three slabs of the first weight matrix added left to
  right, the bias row, the rectifier, the product against the second weight matrix, the second bias row. At the ideal
  values every format change is the identity and a product into a zero accumulator is the plain sum over the shared
  axis, so the body's result at row `p`, column `q` of a block is the row function `mlpOut (mlp3Hid …)` of row `p` of
  the three moving blocks (first part). Block `t` of a moving array is its rows `4000 t … 4000 t + 3999`, the weights and
  biases are read whole at every point, and the output's 200 blocks tile its 800000 rows: so after the region the
  output array is the edge network applied to every row of the arrays the region finds (second part).
-/
import proofs.«417163_j44495861187273_2_alg».proof.Proof.Gen.KernelIdeal.Frame
import proofs.«417163_j44495861187273_2_alg».proof.Proof.SpecArr
import proofs.«417163_j44495861187273_2_alg».proof.Proof.LibDot
import Idealize.ShloMosaic.Lib.ValueLayout
import Idealize.ShloMosaic.Lib.Pipeline.Value

noncomputable section
namespace Cert.KernelIdeal.KV
open Idealize.ShloMosaic Idealize.ShloMosaic.TcCoe Idealize.ShloMosaic.ValueIdx Idealize.SL.Sem Cert.KernelIdeal Cert.KernelIdeal.Gen Cert.GNN
open Idealize.ShloMosaic.Pipeline (Dat Cfg Window)

variable (V : (c : Dev nD) → (b : Ref sig .tc) → Buf (Elt Ideal) ((c : Thread nD τ).loc b))

/-! ## The body's result at one entry -/

/-- The zero offsets of a whole-block access, as the constant function. -/
theorem hz1 : (![0, 0] : Fin 2 → Nat) = fun _ => 0 := funext fun a => by fin_cases a <;> rfl

/-- A block of 4000 rows against a 37-row slab of the first weight matrix, into the zero accumulator, at an entry:
    the sum over the shared axis. -/
theorem mmA1 (l : FVec Ideal S4000x37 .bf16) (r : FVec Ideal S37x64 .bf16) (p : Fin 4000) (q : Fin 64) :
    matmul dot_S4000x37_S37x64_S4000x64_1_0_0_1_n_n none l r (constant (F := Ideal) S4000x64 .f32 0x00000000#32) (ix2 p q)
      = ∑ k : Fin 37, l (ix2 p k) * r (ix2 k q) :=
  matmul_plain_zero_apply none l r p q

/-- The attribute rows against their 4-row slab. -/
theorem mmB1 (l : FVec Ideal S4000x4 .bf16) (r : FVec Ideal S4x64 .bf16) (p : Fin 4000) (q : Fin 64) :
    matmul dot_S4000x4_S4x64_S4000x64_1_0_0_1_n_n none l r (constant (F := Ideal) S4000x64 .f32 0x00000000#32) (ix2 p q)
      = ∑ k : Fin 4, l (ix2 p k) * r (ix2 k q) :=
  matmul_plain_zero_apply none l r p q

/-- The hidden rows against the second weight matrix. -/
theorem mmC1 (l : FVec Ideal S4000x64 .bf16) (r : FVec Ideal S64x32 .bf16) (p : Fin 4000) (q : Fin 32) :
    matmul dot_S4000x64_S64x32_S4000x32_1_0_0_1_n_n none l r (constant (F := Ideal) S4000x32 .f32 0x00000000#32) (ix2 p q)
      = ∑ k : Fin 64, l (ix2 p k) * r (ix2 k q) :=
  matmul_plain_zero_apply none l r p q

/-- The body's value at row `p`, column `q` of a block: the format changes are the identity at the ideal values, each
    product into a zero accumulator is the plain sum, a broadcast bias row reads its one row, and what is left is the
    edge network's row function of row `p` of the three moving blocks. -/
theorem pay1_apply (x0 x1 : Vec Ideal S4000x37 .f32) (x2 : Vec Ideal S4000x4 .f32) (x3 x4 : Vec Ideal S37x64 .f32)
    (x5 : Vec Ideal S4x64 .f32) (x6 : Vec Ideal S1x64 .f32) (x7 : Vec Ideal S64x32 .f32) (x8 : Vec Ideal S1x32 .f32)
    (p : Fin 4000) (q : Fin 32) :
    k1_pay1 (F := Ideal) x0 x1 x2 x3 x4 x5 x6 x7 x8 (ix2 p q)
      = mlpOut (mlp3Hid (rowOf x0 p) (rowOf x1 p) (rowOf x2 p) (mat x3) (mat x4) (mat x5) (rowOf x6 0)) (mat x7) (rowOf x8 0) q := by
  unfold k1_pay1
  simp only [addf_apply, mmC1, truncf_apply, maximumf_apply, broadcast_apply, mmA1, mmB1, broadcastTo_1b_ab_apply, shapeCast_self]
  rfl

/-- What the body leaves in the output block: the edge network applied to every row of the input blocks. -/
theorem out1_9_eq (x0 x1 : Vec Ideal S4000x37 .f32) (x2 : Vec Ideal S4000x4 .f32) (x3 x4 : Vec Ideal S37x64 .f32)
    (x5 : Vec Ideal S4x64 .f32) (x6 : Vec Ideal S1x64 .f32) (x7 : Vec Ideal S64x32 .f32) (x8 : Vec Ideal S1x32 .f32) :
    out1_9 (F := Ideal) x0 x1 x2 x3 x4 x5 x6 x7 x8 = mlp3Arr x0 x1 x2 x3 x4 x5 x6 x7 x8 := by
  unfold out1_9
  rw [View.canon_unit_zero hz1]
  simp only [View.ld_unit_zero (S := S4000x37) hz1, View.ld_unit_zero (S := S4000x4) hz1, View.ld_unit_zero (S := S37x64) hz1,
    View.ld_unit_zero (S := S4x64) hz1, View.ld_unit_zero (S := S1x64) hz1, View.ld_unit_zero (S := S64x32) hz1,
    View.ld_unit_zero (S := S1x32) hz1]
  funext j
  obtain ⟨p, q, rfl⟩ : ∃ p q, j = ix2 p q := ⟨j 0, j 1, eq_ix2 j⟩
  rw [pay1_apply]
  rfl

/-! ## The blocks, read off their arrays -/

/-- The grid has 200 points. -/
theorem lt200_1 (t : Fin cfg1.N) : t.val < 200 := lt_of_lt_of_eq t.isLt N_1

/-- Row `p` of block `t`, as a row of an array of 800000 rows. -/
def row1 (t : Fin cfg1.N) (p : Fin 4000) : Fin 800000 :=
  ⟨t.val * 4000 + p.val, by have := lt200_1 t; have := p.isLt; omega⟩

/-- The index maps over the grid: a moving window's block index at point `t` is `(t, 0)`, a weight's or bias's `(0, 0)`. -/
theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = t.val ∧ win1_1.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = 0 ∧ win1_6.index t (1 : Fin 2) = 0 :=
  (by decide +kernel : ∀ t : Fin grid1.N, _)
theorem idx1_7 : ∀ t : Fin cfg1.N, win1_7.index t (0 : Fin 2) = 0 ∧ win1_7.index t (1 : Fin 2) = 0 :=
  (by decide +kernel : ∀ t : Fin grid1.N, _)
theorem idx1_8 : ∀ t : Fin cfg1.N, win1_8.index t (0 : Fin 2) = 0 ∧ win1_8.index t (1 : Fin 2) = 0 :=
  (by decide +kernel : ∀ t : Fin grid1.N, _)
theorem idx1_9 : ∀ t : Fin cfg1.N, win1_9.index t (0 : Fin 2) = t.val ∧ win1_9.index t (1 : Fin 2) = 0 :=
  (by decide +kernel : ∀ t : Fin grid1.N, _)

/-- Block `t` of the source rows at `(p, k)` is the array at `(4000 t + p, k)`: a block's coordinate is the block index
    times the block's size plus the coordinate inside the block. -/
theorem rd1_0 (c : Dev nD) (t : Fin cfg1.N) (p : Fin 4000) (k : Fin 37) :
    (iblk1 (F := Ideal) V c 0 t : Vec Ideal S4000x37 .f32) (ix2 p k)
      = (V c main_v10 : Vec Ideal S800000x37 .f32) (ix2 (row1 t p) k) := by
  show V c main_v10 (((cfg1.win 0).blk t).view.emb (ix2 p k)) = V c main_v10 (ix2 (row1 t p) k)
  refine congrArg (V c main_v10) ?_
  funext a; apply Fin.ext
  obtain ⟨e0, e1⟩ := idx1_0 t
  match a with
  | ⟨0, _⟩ => show win1_0.index t (0 : Fin 2) * 4000 + 1 * p.val = t.val * 4000 + p.val; omega
  | ⟨1, _⟩ => show win1_0.index t (1 : Fin 2) * 37 + 1 * k.val = k.val; omega

/-- Likewise the destination rows, -/
theorem rd1_1 (c : Dev nD) (t : Fin cfg1.N) (p : Fin 4000) (k : Fin 37) :
    (iblk1 (F := Ideal) V c 1 t : Vec Ideal S4000x37 .f32) (ix2 p k)
      = (V c main_v11 : Vec Ideal S800000x37 .f32) (ix2 (row1 t p) k) := by
  show V c main_v11 (((cfg1.win 1).blk t).view.emb (ix2 p k)) = V c main_v11 (ix2 (row1 t p) k)
  refine congrArg (V c main_v11) ?_
  funext a; apply Fin.ext
  obtain ⟨e0, e1⟩ := idx1_1 t
  match a with
  | ⟨0, _⟩ => show win1_1.index t (0 : Fin 2) * 4000 + 1 * p.val = t.val * 4000 + p.val; omega
  | ⟨1, _⟩ => show win1_1.index t (1 : Fin 2) * 37 + 1 * k.val = k.val; omega

/-- and the attribute rows. -/
theorem rd1_2 (c : Dev nD) (t : Fin cfg1.N) (p : Fin 4000) (k : Fin 4) :
    (iblk1 (F := Ideal) V c 2 t : Vec Ideal S4000x4 .f32) (ix2 p k)
      = (V c main_arg3 : Vec Ideal S800000x4 .f32) (ix2 (row1 t p) k) := by
  show V c main_arg3 (((cfg1.win 2).blk t).view.emb (ix2 p k)) = V c main_arg3 (ix2 (row1 t p) k)
  refine congrArg (V c main_arg3) ?_
  funext a; apply Fin.ext
  obtain ⟨e0, e1⟩ := idx1_2 t
  match a with
  | ⟨0, _⟩ => show win1_2.index t (0 : Fin 2) * 4000 + 1 * p.val = t.val * 4000 + p.val; omega
  | ⟨1, _⟩ => show win1_2.index t (1 : Fin 2) * 4 + 1 * k.val = k.val; omega

/-- A weight or bias window's block is the whole array at every point: its block index is `(0, 0)`. -/
theorem rdW1_3 (c : Dev nD) (t : Fin cfg1.N) : (iblk1 (F := Ideal) V c 3 t : Vec Ideal S37x64 .f32) = V c main_v12 := by
  funext y
  show V c main_v12 (((cfg1.win 3).blk t).view.emb y) = V c main_v12 y
  refine congrArg (V c main_v12) ?_
  funext a; apply Fin.ext
  obtain ⟨e0, e1⟩ := idx1_3 t
  match a with
  | ⟨0, _⟩ => show win1_3.index t (0 : Fin 2) * 37 + 1 * (y 0).val = (y 0).val; omega
  | ⟨1, _⟩ => show win1_3.index t (1 : Fin 2) * 64 + 1 * (y 1).val = (y 1).val; omega
theorem rdW1_4 (c : Dev nD) (t : Fin cfg1.N) : (iblk1 (F := Ideal) V c 4 t : Vec Ideal S37x64 .f32) = V c main_v13 := by
  funext y
  show V c main_v13 (((cfg1.win 4).blk t).view.emb y) = V c main_v13 y
  refine congrArg (V c main_v13) ?_
  funext a; apply Fin.ext
  obtain ⟨e0, e1⟩ := idx1_4 t
  match a with
  | ⟨0, _⟩ => show win1_4.index t (0 : Fin 2) * 37 + 1 * (y 0).val = (y 0).val; omega
  | ⟨1, _⟩ => show win1_4.index t (1 : Fin 2) * 64 + 1 * (y 1).val = (y 1).val; omega
theorem rdW1_5 (c : Dev nD) (t : Fin cfg1.N) : (iblk1 (F := Ideal) V c 5 t : Vec Ideal S4x64 .f32) = V c main_v14 := by
  funext y
  show V c main_v14 (((cfg1.win 5).blk t).view.emb y) = V c main_v14 y
  refine congrArg (V c main_v14) ?_
  funext a; apply Fin.ext
  obtain ⟨e0, e1⟩ := idx1_5 t
  match a with
  | ⟨0, _⟩ => show win1_5.index t (0 : Fin 2) * 4 + 1 * (y 0).val = (y 0).val; omega
  | ⟨1, _⟩ => show win1_5.index t (1 : Fin 2) * 64 + 1 * (y 1).val = (y 1).val; omega
theorem rdW1_6 (c : Dev nD) (t : Fin cfg1.N) : (iblk1 (F := Ideal) V c 6 t : Vec Ideal S1x64 .f32) = V c main_v15 := by
  funext y
  show V c main_v15 (((cfg1.win 6).blk t).view.emb y) = V c main_v15 y
  refine congrArg (V c main_v15) ?_
  funext a; apply Fin.ext
  obtain ⟨e0, e1⟩ := idx1_6 t
  match a with
  | ⟨0, _⟩ => show win1_6.index t (0 : Fin 2) * 1 + 1 * (y 0).val = (y 0).val; omega
  | ⟨1, _⟩ => show win1_6.index t (1 : Fin 2) * 64 + 1 * (y 1).val = (y 1).val; omega
theorem rdW1_7 (c : Dev nD) (t : Fin cfg1.N) : (iblk1 (F := Ideal) V c 7 t : Vec Ideal S64x32 .f32) = V c main_arg18 := by
  funext y
  show V c main_arg18 (((cfg1.win 7).blk t).view.emb y) = V c main_arg18 y
  refine congrArg (V c main_arg18) ?_
  funext a; apply Fin.ext
  obtain ⟨e0, e1⟩ := idx1_7 t
  match a with
  | ⟨0, _⟩ => show win1_7.index t (0 : Fin 2) * 64 + 1 * (y 0).val = (y 0).val; omega
  | ⟨1, _⟩ => show win1_7.index t (1 : Fin 2) * 32 + 1 * (y 1).val = (y 1).val; omega
theorem rdW1_8 (c : Dev nD) (t : Fin cfg1.N) : (iblk1 (F := Ideal) V c 8 t : Vec Ideal S1x32 .f32) = V c main_v16 := by
  funext y
  show V c main_v16 (((cfg1.win 8).blk t).view.emb y) = V c main_v16 y
  refine congrArg (V c main_v16) ?_
  funext a; apply Fin.ext
  obtain ⟨e0, e1⟩ := idx1_8 t
  match a with
  | ⟨0, _⟩ => show win1_8.index t (0 : Fin 2) * 1 + 1 * (y 0).val = (y 0).val; omega
  | ⟨1, _⟩ => show win1_8.index t (1 : Fin 2) * 32 + 1 * (y 1).val = (y 1).val; omega

/-- Where entry `(p, q)` of the output's block `t` sits in the output array: at `(4000 t + p, q)`. -/
theorem emb1_9 (t : Fin cfg1.N) (p : Fin 4000) (q : Fin 32) :
    ((cfg1.win 9).blk t).view.emb (ix2 p q) = (ix2 (row1 t p) q : S800000x32.Idx) := by
  funext a; apply Fin.ext
  obtain ⟨e0, e1⟩ := idx1_9 t
  match a with
  | ⟨0, _⟩ => show win1_9.index t (0 : Fin 2) * 4000 + 1 * p.val = t.val * 4000 + p.val; omega
  | ⟨1, _⟩ => show win1_9.index t (1 : Fin 2) * 32 + 1 * q.val = q.val; omega

/-- The edge network at a row reads only that row of its three moving inputs: two families of moving inputs that
    agree on a row give the same output row. -/
theorem mlp3Arr_row1 {n n' a b c o r : ℕ} (S : A2 n a) (S' : A2 n' a) (D : A2 n b) (D' : A2 n' b) (E : A2 n c) (E' : A2 n' c)
    (Wa : A2 a o) (Wb : A2 b o) (Wc : A2 c o) (B1 : A2 1 o) (W2 : A2 o r) (B2 : A2 1 r) (e : Fin n) (e' : Fin n') (q : Fin r)
    (hS : ∀ k, S (ix2 e k) = S' (ix2 e' k)) (hD : ∀ k, D (ix2 e k) = D' (ix2 e' k)) (hE : ∀ k, E (ix2 e k) = E' (ix2 e' k)) :
    mlp3Arr S D E Wa Wb Wc B1 W2 B2 (ix2 e q) = mlp3Arr S' D' E' Wa Wb Wc B1 W2 B2 (ix2 e' q) := by
  show mlpOut (mlp3Hid (rowOf S e) (rowOf D e) (rowOf E e) (mat Wa) (mat Wb) (mat Wc) (rowOf B1 0)) (mat W2) (rowOf B2 0) q
    = mlpOut (mlp3Hid (rowOf S' e') (rowOf D' e') (rowOf E' e') (mat Wa) (mat Wb) (mat Wc) (rowOf B1 0)) (mat W2) (rowOf B2 0) q
  rw [show rowOf S e = rowOf S' e' from funext hS, show rowOf D e = rowOf D' e' from funext hD,
    show rowOf E e = rowOf E' e' from funext hE]

/-! ## All blocks together -/

/-- What point `t` writes back is block `t` of the edge network applied to every row of the arrays the region finds. -/
theorem flushed1_9_eq (c : Dev nD) (t : Fin cfg1.N) :
    (dat1 (F := Ideal) V c).flushed 9 t = ((cfg1.win 9).blk t).view.read (Elt Ideal)
      (mlp3Arr (V c main_v10) (V c main_v11) (V c main_arg3) (V c main_v12) (V c main_v13) (V c main_v14) (V c main_v15) (V c main_arg18) (V c main_v16)) := by
  show (cfg1.win 9).cut (grid1.coords t) ((dat1 V c).after 9 t) = _
  rw [after1_9, out1_9_eq, rdW1_3, rdW1_4, rdW1_5, rdW1_6, rdW1_7, rdW1_8]
  refine funext fun (y : S4000x32.Idx) => ?_
  obtain ⟨p, q, rfl⟩ : ∃ p q, y = ix2 p q := ⟨y 0, y 1, eq_ix2 y⟩
  show mlp3Arr (iblk1 V c 0 t) (iblk1 V c 1 t) (iblk1 V c 2 t) (V c main_v12) (V c main_v13) (V c main_v14) (V c main_v15) (V c main_arg18) (V c main_v16) (ix2 p q)
    = mlp3Arr (V c main_v10) (V c main_v11) (V c main_arg3) (V c main_v12) (V c main_v13) (V c main_v14) (V c main_v15) (V c main_arg18) (V c main_v16)
        (((cfg1.win 9).blk t).view.emb (ix2 p q))
  rw [emb1_9 t p q]
  exact mlp3Arr_row1 _ _ _ _ _ _ _ _ _ _ _ _ p (row1 t p) q (rd1_0 V c t p) (rd1_1 V c t p) (rd1_2 V c t p)

/-- An index of the output array is in point `t`'s block iff each coordinate is in the block's range on its axis. -/
theorem mem_blk1_9 (t : Fin cfg1.N) (i : S800000x32.Idx) :
    i ∈ ((cfg1.win 9).blk t).view.set ↔ ∀ a : Fin 2, win1_9.index t a * S4000x32.size a ≤ (i a).val
      ∧ (i a).val < win1_9.index t a * S4000x32.size a + S4000x32.size a := by
  show i ∈ ((View.whole main_v17).slice (win1_9.rect t)).set ↔ _
  rw [View.set_slice_whole, Rect.mem_set_unit]
  exact Iff.rfl

/-- The output's blocks tile its array: row `i` is in block `i / 4000`, and every point writes its block back. -/
theorem cover1_9_all (i : S800000x32.Idx) :
    ∃ t : Fin cfg1.N, (cfg1.win 9).flush t = true ∧ i ∈ ((cfg1.win 9).blk t).view.set := by
  have hi0 : (i 0).val < 800000 := (i 0).isLt
  have hi1 : (i 1).val < 32 := (i 1).isLt
  have hN : (i 0).val / 4000 < cfg1.N := lt_of_lt_of_eq (b := 200) (by omega) N_1.symm
  refine ⟨⟨(i 0).val / 4000, hN⟩, flush1_9 _, ?_⟩
  rw [mem_blk1_9]
  obtain ⟨e0, e1⟩ := idx1_9 ⟨(i 0).val / 4000, hN⟩
  have ht : (⟨(i 0).val / 4000, hN⟩ : Fin cfg1.N).val = (i 0).val / 4000 := rfl
  intro a
  match a with
  | ⟨0, _⟩ =>
    show win1_9.index ⟨(i 0).val / 4000, hN⟩ (0 : Fin 2) * 4000 ≤ (i 0).val
      ∧ (i 0).val < win1_9.index ⟨(i 0).val / 4000, hN⟩ (0 : Fin 2) * 4000 + 4000
    omega
  | ⟨1, _⟩ =>
    show win1_9.index ⟨(i 0).val / 4000, hN⟩ (1 : Fin 2) * 32 ≤ (i 1).val
      ∧ (i 1).val < win1_9.index ⟨(i 0).val / 4000, hN⟩ (1 : Fin 2) * 32 + 32
    omega

/-- The edge rows of all edges, after the region: the edge network applied to every row of the arrays the region finds. -/
theorem arr1_9 (c : Dev nD) :
    (dat1 (F := Ideal) V c).arrAt 9 cfg1.N
      = mlp3Arr (V c main_v10) (V c main_v11) (V c main_arg3) (V c main_v12) (V c main_v13) (V c main_v14) (V c main_v15) (V c main_arg18) (V c main_v16) :=
  (dat1 (F := Ideal) V c).arrAt_eq_of_cover 9 _ (fun t _ => flushed1_9_eq V c t) cover1_9_all

end Cert.KernelIdeal.KV
end
-- ==== Proof.KHostA.lean ====
/-
  The host operations up to the end of the first edge network's region, read at the ideal values: what each buffer a
  region or a later stage reads holds, as a function of the argument arrays.
-/
import proofs.«417163_j44495861187273_2_alg».proof.Proof.KIface
import proofs.«417163_j44495861187273_2_alg».proof.Proof.K0
import proofs.«417163_j44495861187273_2_alg».proof.Proof.K1
import Idealize.ShloMosaic.Lib.StableHlo.Predicate
import Idealize.ShloMosaic.Lib.ValueIdx
import Idealize.ShloMosaic.Lib.ValueLayout
import Idealize.ShloMosaic.Lib.ReduceAll

noncomputable section
namespace Cert.KernelIdeal.KV
open Idealize.ShloMosaic Idealize.ShloMosaic.TcCoe Idealize.ShloMosaic.ValueIdx Idealize.SL.Sem Cert.KernelIdeal Cert.KernelIdeal.Gen Cert.GNN

namespace HostA

/-! ## Words: an index below 50000 is in range and is not wrapped -/

theorem andi_one_one : IntOp.andi (1#1) (1#1) = 1#1 := by decide

theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, andi_one_one]
    exact foldl_andi_one f l (fun n hn => h n (List.mem_cons_of_mem _ hn))

/-- A reduction by `and` from 1 of an array of ones is 1 everywhere. -/
theorem reduce_andi_of_all_one {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x _ (fun n _ => hx n)

/-- A word below 50000 is at least 0 and at most 49999 as a signed number. -/
theorem inrange_word (a : BitVec 32) (ha : a.toNat < 50000) :
    IntOp.andi (IntOp.cmpi .sge a 0#32) (IntOp.cmpi .sle a 49999#32) = 1#1 := by
  have h1 : IntOp.cmpi .sge a 0#32 = 1#1 := (StableHlo.Predicate.sge_iff_toNat (by omega) (by decide)).mpr (by simp)
  have h2 : IntOp.cmpi .sle a 49999#32 = 1#1 := (StableHlo.Predicate.sle_iff_toNat (by omega) (by decide)).mpr (by
    show a.toNat ≤ 49999; omega)
  rw [h1, h2, andi_one_one]

/-- A word below 50000 is not negative, so counting from the end leaves it. -/
theorem wrap_word (a : BitVec 32) (ha : a.toNat < 50000) :
    Scalar.select (IntOp.cmpi .slt a 0#32) (IntOp.addi a 50000#32) a = a := by
  have h1 : ¬ IntOp.cmpi .slt a 0#32 = 1#1 := fun e => by
    have := (StableHlo.Predicate.slt_iff_toNat (by omega) (by decide)).mp e
    simp at this
  rw [eq_zero_of_ne_one h1, select_zero]

variable (m : (ℓ : Loc nD τ sig) → Buf (Elt Ideal) ℓ) (ρ : Dev nD → PrngReg)

/-- A buffer none of a stretch's operations writes keeps its contents. -/
local macro "carry_host " h:ident : tactic =>
  `(tactic| (refine StableHlo.after_of_forall_not_mem _ _ (List.forall_iff_forall_mem.mp ?_)
             simp only [$h:ident, List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-! ## Weight preparation on the host, as the stage functions' arguments -/

theorem transpose_eq_tr {a b : ℕ} (W : A2 a b) (h : (⟨2, ![a, b]⟩ : Shape).Transposes [1, 0] ⟨2, ![b, a]⟩) :
    transpose ⟨2, ![b, a]⟩ [1, 0] W h = tr W := by
  funext j; rw [eq_ix2 j]; exact transpose_ix2_apply W h _ _

theorem slice_eq_rowsFrom {a b : ℕ} (o k : ℕ) (hle : o + k ≤ a) (W : A2 a b)
    (h : (⟨2, ![a, b]⟩ : Shape).Slices ![o, 0] ⟨2, ![k, b]⟩) :
    extractStridedSlice ⟨2, ![k, b]⟩ ![o, 0] W h = rowsFrom o k hle W := by
  funext j; rw [eq_ix2 j]
  exact slice2_axis0_apply o W h (j 0) (j 1) ⟨o + (j 0).val, by have := idx2_lt0 j; omega⟩ rfl

theorem reshape_eq_bias1 {f : ℕ} (b : A1 f) (h : (⟨1, ![f]⟩ : Shape).ShapeCasts ⟨2, ![1, f]⟩) :
    shapeCast ⟨2, ![1, f]⟩ b h = bias1 b := by
  funext j; rw [eq_ix2 j]; exact shapeCast_a_1a_apply b h _ _

theorem reshape_add_eq_biasSum {f : ℕ} (b1 b2 : A1 f) (h : (⟨1, ![f]⟩ : Shape).ShapeCasts ⟨2, ![1, f]⟩) :
    shapeCast ⟨2, ![1, f]⟩ (addf (F := Ideal) (φ := .f32) b1 b2) h = biasSum b1 b2 := by
  funext j; rw [eq_ix2 j]; exact shapeCast_a_1a_apply _ h _ _

/-! ## Region 0's entry -/

theorem W1_v0 (c : Dev nD) : W1 (F := Ideal) m ρ c (Proc.devRef .tc main_v0) = XU (inpK m c) := by
  show StableHlo.after hostOps0 (W0 m ρ c) (Proc.devRef .tc main_v0) = _
  simp only [hostOps0]
  after_results
  rfl

theorem W1_v1 (c : Dev nD) : W1 (F := Ideal) m ρ c (Proc.devRef .tc main_v1) = tr (inpK m c).wihn := by
  show StableHlo.after hostOps0 (W0 m ρ c) (Proc.devRef .tc main_v1) = _
  simp only [hostOps0]
  after_results
  exact transpose_eq_tr _ _

theorem W1_v2 (c : Dev nD) : W1 (F := Ideal) m ρ c (Proc.devRef .tc main_v2) = tr (inpK m c).whhn := by
  show StableHlo.after hostOps0 (W0 m ρ c) (Proc.devRef .tc main_v2) = _
  simp only [hostOps0]
  after_results
  exact transpose_eq_tr _ _

theorem W1_v4 (c : Dev nD) :
    W1 (F := Ideal) m ρ c (Proc.devRef .tc main_v4) = biasSum (inpK m c).bihn (inpK m c).bhhn := by
  show StableHlo.after hostOps0 (W0 m ρ c) (Proc.devRef .tc main_v4) = _
  simp only [hostOps0]
  after_results
  exact reshape_add_eq_biasSum _ _ _

theorem W1_arg4 (c : Dev nD) : W1 (F := Ideal) m ρ c (Proc.devRef .tc main_arg4) = (inpK m c).hnh := by
  show StableHlo.after hostOps0 (W0 m ρ c) (Proc.devRef .tc main_arg4) = _
  carry_host hostOps0

theorem W1_arg5 (c : Dev nD) : W1 (F := Ideal) m ρ c (Proc.devRef .tc main_arg5) = (inpK m c).hnc := by
  show StableHlo.after hostOps0 (W0 m ρ c) (Proc.devRef .tc main_arg5) = _
  carry_host hostOps0

/-! ## Region 0's exit -/

theorem W2_v5_0 (c : Dev nD) : W2 (F := Ideal) m ρ c (Proc.devRef .tc main_v5_0) = NH (inpK m c) := by
  refine (W2_arr m ρ c 6).trans ((arr0_6 (V1 m ρ) c).trans ?_)
  show lstmHArr _ (W1 m ρ c (Proc.devRef .tc main_v0)) (W1 m ρ c (Proc.devRef .tc main_arg4)) (W1 m ρ c (Proc.devRef .tc main_arg5))
    (W1 m ρ c (Proc.devRef .tc main_v1)) (W1 m ρ c (Proc.devRef .tc main_v2)) (W1 m ρ c (Proc.devRef .tc main_v4)) = _
  rw [W1_v0, W1_arg4, W1_arg5, W1_v1, W1_v2, W1_v4]
  rfl

theorem W2_v5_1 (c : Dev nD) : W2 (F := Ideal) m ρ c (Proc.devRef .tc main_v5_1) = NC (inpK m c) := by
  refine (W2_arr m ρ c 7).trans ((arr0_7 (V1 m ρ) c).trans ?_)
  show lstmCArr _ (W1 m ρ c (Proc.devRef .tc main_v0)) (W1 m ρ c (Proc.devRef .tc main_arg4)) (W1 m ρ c (Proc.devRef .tc main_arg5))
    (W1 m ρ c (Proc.devRef .tc main_v1)) (W1 m ρ c (Proc.devRef .tc main_v2)) (W1 m ρ c (Proc.devRef .tc main_v4)) = _
  rw [W1_v0, W1_arg4, W1_arg5, W1_v1, W1_v2, W1_v4]
  rfl

theorem W2_v0 (c : Dev nD) : W2 (F := Ideal) m ρ c (Proc.devRef .tc main_v0) = XU (inpK m c) :=
  ((W2_arr m ρ c 0).trans (((dat0 (V1 m ρ) c).arrAt_in 0 rfl _).trans (A_eq0 (V1 m ρ) c 0))).trans (W1_v0 m ρ c)

/-! ## The edge list's two rows -/

theorem W2_arg2 (c : Dev nD) : W2 (F := Ideal) m ρ c (Proc.devRef .tc main_arg2) = (inpK m c).ei := by
  refine (W2_of_ne m ρ c main_arg2 (by decide)).trans ?_
  show StableHlo.after hostOps0 (W0 m ρ c) (Proc.devRef .tc main_arg2) = _
  carry_host hostOps0

theorem W3_v7 (c : Dev nD) : W3 (F := Ideal) m ρ c (Proc.devRef .tc main_v7) = endIdx0 (inpK m c).ei := by
  show StableHlo.after hostOps1 (W2 m ρ c) (Proc.devRef .tc main_v7) = _
  simp only [hostOps1]
  after_results
  rw [W2_arg2]
  rfl

theorem W3_v9 (c : Dev nD) : W3 (F := Ideal) m ρ c (Proc.devRef .tc main_v9) = endIdx1 (inpK m c).ei := by
  show StableHlo.after hostOps1 (W2 m ρ c) (Proc.devRef .tc main_v9) = _
  simp only [hostOps1]
  after_results
  rw [W2_arg2]
  rfl

theorem W3_v0 (c : Dev nD) : W3 (F := Ideal) m ρ c (Proc.devRef .tc main_v0) = XU (inpK m c) := by
  refine Eq.trans ?_ (W2_v0 m ρ c)
  show StableHlo.after hostOps1 (W2 m ρ c) (Proc.devRef .tc main_v0) = _
  carry_host hostOps1

theorem W3_v5_0 (c : Dev nD) : W3 (F := Ideal) m ρ c (Proc.devRef .tc main_v5_0) = NH (inpK m c) := by
  refine Eq.trans ?_ (W2_v5_0 m ρ c)
  show StableHlo.after hostOps1 (W2 m ρ c) (Proc.devRef .tc main_v5_0) = _
  carry_host hostOps1

theorem W3_v5_1 (c : Dev nD) : W3 (F := Ideal) m ρ c (Proc.devRef .tc main_v5_1) = NC (inpK m c) := by
  refine Eq.trans ?_ (W2_v5_1 m ρ c)
  show StableHlo.after hostOps1 (W2 m ρ c) (Proc.devRef .tc main_v5_1) = _
  carry_host hostOps1

/-! ## Typed references at literal buffers: the transport along the buffer's type is the identity -/

theorem ofBuf_toBuf' {T : BufTy} (x : StableHlo.TRef sig T) (v : T.Contents (Elt Ideal)) : x.ofBuf (x.toBuf v) = v := by
  obtain ⟨r, rfl, _, _⟩ := x
  rfl

theorem ofBuf_main_v0 (v : (⟨S50000x37, .f32⟩ : BufTy).Contents (Elt Ideal)) :
    (.of main_v0 : StableHlo.TRef sig ⟨S50000x37, .f32⟩).ofBuf v = v := eq_of_heq (cast_heq _ _)
theorem ofBuf_main_v7 (v : (⟨S800000, .i32⟩ : BufTy).Contents (Elt Ideal)) :
    (.of main_v7 : StableHlo.TRef sig ⟨S800000, .i32⟩).ofBuf v = v := eq_of_heq (cast_heq _ _)
theorem ofBuf_main_v9 (v : (⟨S800000, .i32⟩ : BufTy).Contents (Elt Ideal)) :
    (.of main_v9 : StableHlo.TRef sig ⟨S800000, .i32⟩).ofBuf v = v := eq_of_heq (cast_heq _ _)
theorem toBuf_main_v10 (v : (⟨S800000x37, .f32⟩ : BufTy).Contents (Elt Ideal)) :
    (.of main_v10 : StableHlo.TRef sig ⟨S800000x37, .f32⟩).toBuf v = v := eq_of_heq (cast_heq _ _)
theorem toBuf_main_v11 (v : (⟨S800000x37, .f32⟩ : BufTy).Contents (Elt Ideal)) :
    (.of main_v11 : StableHlo.TRef sig ⟨S800000x37, .f32⟩).toBuf v = v := eq_of_heq (cast_heq _ _)

/-! ## `take` as the kernel program spells it: wrap, in-range mask, gather, select -/

/-- The index vector with negative entries counted from the end. -/
def wrapK (idx : IVec S800000 32) : IVec S800000 32 :=
  select (cmpi .slt idx (broadcastInDim S800000 ![] bcast_S_S800000 (constantI S_ 32 0#32)))
    (addi idx (broadcastInDim S800000 ![] bcast_S_S800000 (constantI S_ 32 50000#32))) idx

/-- The wrapped indices as one column. -/
def colK (idx : IVec S800000 32) : IVec S800000x1 32 :=
  broadcastInDim S800000x1 ![0] bcast_S800000_S800000x1_0 (wrapK idx)

/-- Which rows' index is at least 0 and at most 49999. -/
def maskK (v : IVec S800000x1 32) : IVec S800000 1 :=
  Host.reduce IntOp.andi
    (andi (cmpi .sge v (broadcastInDim S800000x1 ![] bcast_S_S800000x1 (constantI S_ 32 0#32)))
      (cmpi .sle v (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of a 37-column table at the wrapped indices, the NaN pattern where an index is out of range. -/
def takeK37 (X : FVec Ideal S50000x37 .f32) (idx : IVec S800000 32) : FVec Ideal S800000x37 .f32 :=
  select (broadcastInDim S800000x37 ![0] bcast_S800000_S800000x37_0 (maskK (colK idx)))
    (Host.gather gather_S50000x37_S800000x1_S800000x37_1_0_n_n_0_1_137 X (colK idx))
    (broadcastInDim S800000x37 ![] bcast_S_S800000x37 (constant (F := Ideal) S_ .f32 0x7FC00000#32))

theorem wrapK_eq (idx : IVec S800000 32) (h : ∀ e, (idx e).toNat < 50000) : wrapK idx = idx := by
  funext e
  exact wrap_word (idx e) (h e)

theorem maskK_one (v : IVec S800000x1 32) (h : ∀ i, (v i).toNat < 50000) (j : S800000.Idx) : maskK v j = 1#1 :=
  reduce_andi_of_all_one _ _ _ _ (fun i => inrange_word (v i) (h i)) rfl j

theorem colK_lt (idx : IVec S800000 32) (h : ∀ e, (idx e).toNat < 50000) (i : S800000x1.Idx) : (colK idx i).toNat < 50000 := by
  unfold colK; rw [wrapK_eq idx h]; exact h _

/-- The kernel program's gather record is the reference's. -/
theorem gather37_eq : gather_S50000x37_S800000x1_S800000x37_1_0_n_n_0_1_137
    = Cert.ReferenceIdeal.gather_S50000x37_S800000x1_S800000x37_1_0_n_n_0_1_137 := rfl

/-- With every index a node index the kernel program's `take` is the plain gather at the wrapped indices. -/
theorem takeK37_eq (X : FVec Ideal S50000x37 .f32) (idx : IVec S800000 32) (h : ∀ e, (idx e).toNat < 50000) :
    takeK37 X idx = gath37 X idx := by
  funext i
  unfold takeK37
  rw [select_apply]
  have hm : broadcastInDim S800000x37 ![0] bcast_S800000_S800000x37_0 (maskK (colK idx)) i = 1#1 :=
    maskK_one (colK idx) (colK_lt idx h) _
  rw [hm, select_one, gather37_eq]
  rfl

theorem after_take0 (V : Valuation τ sig (Elt Ideal)) :
    StableHlo.after hostOps1_1 V (Proc.devRef .tc main_v10)
      = takeK37 (V (Proc.devRef .tc main_v0)) (V (Proc.devRef .tc main_v7)) := by
  have key : ∀ R, takeK37 (V (Proc.devRef .tc main_v0)) (V (Proc.devRef .tc main_v7)) = R →
      StableHlo.after hostOps1_1 V (Proc.devRef .tc main_v10) = R := by
    intro R hR
    simp only [hostOps1_1]
    after_results_simp
    simp only [ofBuf_toBuf', ofBuf_main_v0, ofBuf_main_v7, toBuf_main_v10]
    exact hR
  exact key _ rfl

theorem after_take1 (V : Valuation τ sig (Elt Ideal)) :
    StableHlo.after hostOps1_2 V (Proc.devRef .tc main_v11)
      = takeK37 (V (Proc.devRef .tc main_v0)) (V (Proc.devRef .tc main_v9)) := by
  have key : ∀ R, takeK37 (V (Proc.devRef .tc main_v0)) (V (Proc.devRef .tc main_v9)) = R →
      StableHlo.after hostOps1_2 V (Proc.devRef .tc main_v11) = R := by
    intro R hR
    simp only [hostOps1_2]
    after_results_simp
    simp only [ofBuf_toBuf', ofBuf_main_v0, ofBuf_main_v9, toBuf_main_v11]
    exact hR
  exact key _ rfl

/-! ## The two endpoint index vectors are node indices -/

theorem endIdx0_lt (ei : IVec Cert.ReferenceIdeal.S2x800000 32) (h : IdxOK ei) (e : Cert.ReferenceIdeal.S800000.Idx) :
    (endIdx0 ei e).toNat < 50000 := by
  unfold endIdx0 shapeCast extractStridedSlice; exact h _

theorem endIdx1_lt (ei : IVec Cert.ReferenceIdeal.S2x800000 32) (h : IdxOK ei) (e : Cert.ReferenceIdeal.S800000.Idx) :
    (endIdx1 ei e).toNat < 50000 := by
  unfold endIdx1 shapeCast extractStridedSlice; exact h _

/-! ## After the first take -/

theorem W4_v10 (c : Dev nD) (hidx : IdxOK (inpK m c).ei) :
    W4 (F := Ideal) m ρ c (Proc.devRef .tc main_v10) = gath37 (XU (inpK m c)) (endIdx0 (inpK m c).ei) := by
  refine (after_take0 (W3 m ρ c)).trans ?_
  rw [W3_v0, W3_v7]
  exact takeK37_eq _ _ (endIdx0_lt _ hidx)

theorem W4_v0 (c : Dev nD) : W4 (F := Ideal) m ρ c (Proc.devRef .tc main_v0) = XU (inpK m c) := by
  refine Eq.trans ?_ (W3_v0 m ρ c)
  show StableHlo.after hostOps1_1 (W3 m ρ c) (Proc.devRef .tc main_v0) = _
  carry_host hostOps1_1

theorem W4_v9 (c : Dev nD) : W4 (F := Ideal) m ρ c (Proc.devRef .tc main_v9) = endIdx1 (inpK m c).ei := by
  refine Eq.trans ?_ (W3_v9 m ρ c)
  show StableHlo.after hostOps1_1 (W3 m ρ c) (Proc.devRef .tc main_v9) = _
  carry_host hostOps1_1

/-! ## After the second take -/

theorem W5_v11 (c : Dev nD) (hidx : IdxOK (inpK m c).ei) :
    W5 (F := Ideal) m ρ c (Proc.devRef .tc main_v11) = gath37 (XU (inpK m c)) (endIdx1 (inpK m c).ei) := by
  refine (after_take1 (W4 m ρ c)).trans ?_
  rw [W4_v0, W4_v9]
  exact takeK37_eq _ _ (endIdx1_lt _ hidx)

theorem W5_v10 (c : Dev nD) (hidx : IdxOK (inpK m c).ei) :
    W5 (F := Ideal) m ρ c (Proc.devRef .tc main_v10) = gath37 (XU (inpK m c)) (endIdx0 (inpK m c).ei) := by
  refine Eq.trans ?_ (W4_v10 m ρ c hidx)
  show StableHlo.after hostOps1_2 (W4 m ρ c) (Proc.devRef .tc main_v10) = _
  carry_host hostOps1_2

/-! ## An argument no host operation has written yet, and region 0 does not hold, is as launched -/

set_option hygiene false in
local macro "arg_as_launched_W5" : tactic =>
  `(tactic| (refine Eq.trans (b := W4 (F := Ideal) m ρ c _) (by carry_host hostOps1_2) ?_
             refine Eq.trans (b := W3 (F := Ideal) m ρ c _) (by carry_host hostOps1_1) ?_
             refine Eq.trans (b := W2 (F := Ideal) m ρ c _) (by carry_host hostOps1) ?_
             refine Eq.trans (W2_of_ne m ρ c _ (by decide)) ?_
             show StableHlo.after hostOps0 (W0 m ρ c) _ = _
             carry_host hostOps0))

theorem W5_arg3 (c : Dev nD) : W5 (F := Ideal) m ρ c (Proc.devRef .tc main_arg3) = (inpK m c).ea := by
  arg_as_launched_W5
theorem W5_arg18 (c : Dev nD) : W5 (F := Ideal) m ρ c (Proc.devRef .tc main_arg18) = (inpK m c).we2 := by
  arg_as_launched_W5

theorem W2_arg16 (c : Dev nD) : W2 (F := Ideal) m ρ c (Proc.devRef .tc main_arg16) = (inpK m c).we1 := by
  refine (W2_of_ne m ρ c main_arg16 (by decide)).trans ?_
  show StableHlo.after hostOps0 (W0 m ρ c) (Proc.devRef .tc main_arg16) = _
  carry_host hostOps0
theorem W2_arg17 (c : Dev nD) : W2 (F := Ideal) m ρ c (Proc.devRef .tc main_arg17) = (inpK m c).be1 := by
  refine (W2_of_ne m ρ c main_arg17 (by decide)).trans ?_
  show StableHlo.after hostOps0 (W0 m ρ c) (Proc.devRef .tc main_arg17) = _
  carry_host hostOps0
theorem W2_arg19 (c : Dev nD) : W2 (F := Ideal) m ρ c (Proc.devRef .tc main_arg19) = (inpK m c).be2 := by
  refine (W2_of_ne m ρ c main_arg19 (by decide)).trans ?_
  show StableHlo.after hostOps0 (W0 m ρ c) (Proc.devRef .tc main_arg19) = _
  carry_host hostOps0

/-! ## Region 1's entry -/

theorem W6_v10 (c : Dev nD) (hidx : IdxOK (inpK m c).ei) :
    W6 (F := Ideal) m ρ c (Proc.devRef .tc main_v10) = gath37 (XU (inpK m c)) (endIdx0 (inpK m c).ei) := by
  refine Eq.trans ?_ (W5_v10 m ρ c hidx)
  show StableHlo.after hostOps1_3 (W5 m ρ c) (Proc.devRef .tc main_v10) = _
  carry_host hostOps1_3

theorem W6_v11 (c : Dev nD) (hidx : IdxOK (inpK m c).ei) :
    W6 (F := Ideal) m ρ c (Proc.devRef .tc main_v11) = gath37 (XU (inpK m c)) (endIdx1 (inpK m c).ei) := by
  refine Eq.trans ?_ (W5_v11 m ρ c hidx)
  show StableHlo.after hostOps1_3 (W5 m ρ c) (Proc.devRef .tc main_v11) = _
  carry_host hostOps1_3

theorem W6_arg3 (c : Dev nD) : W6 (F := Ideal) m ρ c (Proc.devRef .tc main_arg3) = (inpK m c).ea := by
  refine Eq.trans ?_ (W5_arg3 m ρ c)
  show StableHlo.after hostOps1_3 (W5 m ρ c) (Proc.devRef .tc main_arg3) = _
  carry_host hostOps1_3

theorem W6_arg18 (c : Dev nD) : W6 (F := Ideal) m ρ c (Proc.devRef .tc main_arg18) = (inpK m c).we2 := by
  refine Eq.trans ?_ (W5_arg18 m ρ c)
  show StableHlo.after hostOps1_3 (W5 m ρ c) (Proc.devRef .tc main_arg18) = _
  carry_host hostOps1_3

theorem W6_v12 (c : Dev nD) :
    W6 (F := Ideal) m ρ c (Proc.devRef .tc main_v12) = rowsFrom 0 37 (by norm_num) (inpK m c).we1 := by
  show StableHlo.after hostOps1_3 (W5 m ρ c) (Proc.devRef .tc main_v12) = _
  simp only [hostOps1_3]
  after_results
  rw [W2_arg16]
  exact slice_eq_rowsFrom 0 37 _ _ _

theorem W6_v13 (c : Dev nD) :
    W6 (F := Ideal) m ρ c (Proc.devRef .tc main_v13) = rowsFrom 37 37 (by norm_num) (inpK m c).we1 := by
  show StableHlo.after hostOps1_3 (W5 m ρ c) (Proc.devRef .tc main_v13) = _
  simp only [hostOps1_3]
  after_results
  rw [W2_arg16]
  exact slice_eq_rowsFrom 37 37 _ _ _

theorem W6_v14 (c : Dev nD) :
    W6 (F := Ideal) m ρ c (Proc.devRef .tc main_v14) = rowsFrom 74 4 (by norm_num) (inpK m c).we1 := by
  show StableHlo.after hostOps1_3 (W5 m ρ c) (Proc.devRef .tc main_v14) = _
  simp only [hostOps1_3]
  after_results
  rw [W2_arg16]
  exact slice_eq_rowsFrom 74 4 _ _ _

theorem W6_v15 (c : Dev nD) : W6 (F := Ideal) m ρ c (Proc.devRef .tc main_v15) = bias1 (inpK m c).be1 := by
  show StableHlo.after hostOps1_3 (W5 m ρ c) (Proc.devRef .tc main_v15) = _
  simp only [hostOps1_3]
  after_results
  rw [W2_arg17]
  exact reshape_eq_bias1 _ _

theorem W6_v16 (c : Dev nD) : W6 (F := Ideal) m ρ c (Proc.devRef .tc main_v16) = bias1 (inpK m c).be2 := by
  show StableHlo.after hostOps1_3 (W5 m ρ c) (Proc.devRef .tc main_v16) = _
  simp only [hostOps1_3]
  after_results
  rw [W2_arg19]
  exact reshape_eq_bias1 _ _

/-! ## What the first edge network's region leaves untouched, carried from the edge list's rows on -/

set_option hygiene false in
local macro "carried_W3_to_W7" : tactic =>
  `(tactic| (refine Eq.trans (W7_of_ne m ρ c _ (by decide)) ?_
             refine Eq.trans (b := W5 (F := Ideal) m ρ c _) (by carry_host hostOps1_3) ?_
             refine Eq.trans (b := W4 (F := Ideal) m ρ c _) (by carry_host hostOps1_2) ?_
             show StableHlo.after hostOps1_1 (W3 m ρ c) _ = _
             carry_host hostOps1_1))

theorem W7_v5_0 (c : Dev nD) : W7 (F := Ideal) m ρ c (Proc.devRef .tc main_v5_0) = NH (inpK m c) := by
  refine Eq.trans ?_ (W3_v5_0 m ρ c); carried_W3_to_W7
theorem W7_v5_1 (c : Dev nD) : W7 (F := Ideal) m ρ c (Proc.devRef .tc main_v5_1) = NC (inpK m c) := by
  refine Eq.trans ?_ (W3_v5_1 m ρ c); carried_W3_to_W7
theorem W7_v7 (c : Dev nD) : W7 (F := Ideal) m ρ c (Proc.devRef .tc main_v7) = endIdx0 (inpK m c).ei := by
  refine Eq.trans ?_ (W3_v7 m ρ c); carried_W3_to_W7
theorem W7_v9 (c : Dev nD) : W7 (F := Ideal) m ρ c (Proc.devRef .tc main_v9) = endIdx1 (inpK m c).ei := by
  refine Eq.trans ?_ (W3_v9 m ρ c); carried_W3_to_W7

/-! ## The messages -/

theorem W7_v17 (c : Dev nD) (hidx : IdxOK (inpK m c).ei) :
    W7 (F := Ideal) m ρ c (Proc.devRef .tc main_v17) = MSG (inpK m c) := by
  refine (W7_arr m ρ c 9).trans ((arr1_9 (V6 m ρ) c).trans ?_)
  show mlp3Arr (W6 m ρ c (Proc.devRef .tc main_v10)) (W6 m ρ c (Proc.devRef .tc main_v11)) (W6 m ρ c (Proc.devRef .tc main_arg3))
    (W6 m ρ c (Proc.devRef .tc main_v12)) (W6 m ρ c (Proc.devRef .tc main_v13)) (W6 m ρ c (Proc.devRef .tc main_v14))
    (W6 m ρ c (Proc.devRef .tc main_v15)) (W6 m ρ c (Proc.devRef .tc main_arg18)) (W6 m ρ c (Proc.devRef .tc main_v16)) = _
  rw [W6_v10 m ρ c hidx, W6_v11 m ρ c hidx, W6_arg3, W6_v12, W6_v13, W6_v14, W6_v15, W6_arg18, W6_v16]
  rfl

end HostA

variable (m : (ℓ : Loc nD τ sig) → Buf (Elt Ideal) ℓ) (ρ : Dev nD → PrngReg)

/-- Where the first edge network's region ends: the messages, the node-history results and the two endpoint index vectors,
    when every edge endpoint is a node index. -/
theorem at7 (c : Dev nD) (hidx : IdxOK (inpK m c).ei) : At7 m ρ c :=
  ⟨HostA.W7_v17 m ρ c hidx, HostA.W7_v5_0 m ρ c, HostA.W7_v5_1 m ρ c, HostA.W7_v7 m ρ c, HostA.W7_v9 m ρ c⟩

end Cert.KernelIdeal.KV
end
-- ==== Proof.K2.lean ====
/-
  Region 2: the edge-history LSTM cell, over 25 blocks of 2000 rows.

  At the ideal values the region's body, on one block of rows, is the cell's row function applied to every row of the
  block: the gates' pre-activation is the input rows times the input weights plus the hidden rows times the hidden
  weights (two products into zero accumulators, the narrowing casts being the identity) plus the bias row; the four
  gates are four stretches of 8 columns of it; the new cell state is σ(f)·c + σ(i)·tanh(g) and the new hidden state
  σ(o)·tanh(c'). The cell at a row reads that row of the three moving inputs only, and each point of the grid writes
  back its own 2000 rows, so the 25 blocks together are the cell applied to every row of the arrays the region finds.
-/
import proofs.«417163_j44495861187273_2_alg».proof.Proof.Gen.KernelIdeal.Frame
import proofs.«417163_j44495861187273_2_alg».proof.Proof.SpecArr
import proofs.«417163_j44495861187273_2_alg».proof.Proof.LibDot
import Idealize.ShloMosaic.Lib.ValueLayout
import Idealize.ShloMosaic.Lib.Pipeline.Value

noncomputable section
namespace Cert.KernelIdeal.KV
open Idealize.ShloMosaic Idealize.ShloMosaic.TcCoe Idealize.ShloMosaic.ValueIdx Idealize.SL.Sem Cert.KernelIdeal Cert.KernelIdeal.Gen Cert.GNN
open Idealize.ShloMosaic.Pipeline (Dat Cfg Window)

variable (V : (c : Dev nD) → (b : Ref sig .tc) → Buf (Elt Ideal) ((c : Thread nD τ).loc b))

/-! ## One block of rows: the body's result is the cell's row function -/

/-- A product of a block of rows against a weight matrix, into the zero accumulator, at an entry. -/
theorem mm2_32_apply (lhs : FVec Ideal S2000x32 .bf16) (rhs : FVec Ideal S32x32 .bf16) (p : Fin 2000) (q : Fin 32) :
    matmul dot_S2000x32_S32x32_S2000x32_1_0_0_1_n_n none lhs rhs (constant S2000x32 .f32 0x00000000#32) (ix2 p q)
      = ∑ k : Fin 32, lhs (ix2 p k) * rhs (ix2 k q) :=
  matmul_plain_zero_apply (M := 2000) (K := 32) (N := 32) none lhs rhs p q

/-- The same for the hidden rows against the hidden weights. -/
theorem mm2_8_apply (lhs : FVec Ideal S2000x8 .bf16) (rhs : FVec Ideal S8x32 .bf16) (p : Fin 2000) (q : Fin 32) :
    matmul dot_S2000x8_S8x32_S2000x32_1_0_0_1_n_n none lhs rhs (constant S2000x32 .f32 0x00000000#32) (ix2 p q)
      = ∑ k : Fin 8, lhs (ix2 p k) * rhs (ix2 k q) :=
  matmul_plain_zero_apply (M := 2000) (K := 8) (N := 32) none lhs rhs p q

/-- The gates' pre-activation at row p, column j: the two products added, plus the bias. -/
theorem pay2_1_apply (x0 : Vec Ideal S2000x32 .f32) (x1 : Vec Ideal S2000x8 .f32) (x3 : Vec Ideal S32x32 .f32)
    (x4 : Vec Ideal S8x32 .f32) (x5 : Vec Ideal S1x32 .f32) (p : Fin 2000) (j : Fin 32) :
    k2_pay1 (F := Ideal) x0 x1 x3 x4 x5 (ix2 p j)
      = lstmPre (rowOf x0 p) (rowOf x1 p) (mat x3) (mat x4) (rowOf x5 0) j := by
  unfold k2_pay1
  rw [addf_apply, addf_apply, broadcastTo_1b_ab_apply, mm2_32_apply, mm2_8_apply]
  simp only [shapeCast_self, truncf_apply]
  rfl

/-- The logistic function and the hyperbolic tangent of an array, at an entry. -/
theorem logistic2_apply {s : Shape} {φ : FTy} (a : FVec Ideal s φ) (i : s.Idx) : logistic a i = Ideal.logistic (a i) := rfl
theorem tanh2_apply {s : Shape} {φ : FTy} (a : FVec Ideal s φ) (i : s.Idx) : tanh a i = Ideal.tanh (a i) := rfl

/-- A stretch of 8 columns from column o, at an entry. -/
theorem gate2_at (o : Nat) (X : FVec Ideal S2000x32 .f32) (h : S2000x32.Slices ![0, o] S2000x8) (p : Fin 2000) (q : Fin 8)
    (ho : o + q.val < 32) : extractStridedSlice S2000x8 ![0, o] X h (ix2 p q) = X (ix2 p ⟨o + q.val, ho⟩) :=
  slice2_axis1_apply o X h p q ⟨o + q.val, ho⟩ rfl

/-- The first stretch of 8 columns, at an entry. -/
theorem gate2_first (X : FVec Ideal S2000x32 .f32) (h : S2000x32.Slices ![0, 0] S2000x8) (p : Fin 2000) (q : Fin 8)
    (ho : q.val < 32) : extractStridedSlice S2000x8 ![0, 0] X h (ix2 p q) = X (ix2 p ⟨q.val, ho⟩) :=
  slice2_axis1_apply 0 X h p q ⟨q.val, ho⟩ (Nat.zero_add _).symm

/-- The new cell state at row p, column q. -/
theorem pay2_2_apply (x0 : Vec Ideal S2000x32 .f32) (x1 x2 : Vec Ideal S2000x8 .f32) (x3 : Vec Ideal S32x32 .f32)
    (x4 : Vec Ideal S8x32 .f32) (x5 : Vec Ideal S1x32 .f32) (p : Fin 2000) (q : Fin 8) :
    k2_pay2 (F := Ideal) x0 x1 x2 x3 x4 x5 (ix2 p q)
      = lstmCell (lstmPre (rowOf x0 p) (rowOf x1 p) (mat x3) (mat x4) (rowOf x5 0)) (rowOf x2 p) (by norm_num) q := by
  unfold k2_pay2
  rw [addf_apply, mulf_apply, mulf_apply, logistic2_apply, logistic2_apply, tanh2_apply,
    gate2_at 8 _ _ p q (by omega), gate2_first _ _ p q (by omega), gate2_at 16 _ _ p q (by omega),
    pay2_1_apply, pay2_1_apply, pay2_1_apply]
  rfl

/-- The new hidden state at row p, column q. -/
theorem pay2_3_apply (x0 : Vec Ideal S2000x32 .f32) (x1 x2 : Vec Ideal S2000x8 .f32) (x3 : Vec Ideal S32x32 .f32)
    (x4 : Vec Ideal S8x32 .f32) (x5 : Vec Ideal S1x32 .f32) (p : Fin 2000) (q : Fin 8) :
    k2_pay3 (F := Ideal) x0 x1 x2 x3 x4 x5 (ix2 p q)
      = lstmHid (lstmPre (rowOf x0 p) (rowOf x1 p) (mat x3) (mat x4) (rowOf x5 0)) (rowOf x2 p) (by norm_num) q := by
  unfold k2_pay3
  rw [mulf_apply, logistic2_apply, tanh2_apply, gate2_at 24 _ _ p q (by omega), pay2_1_apply, pay2_2_apply]
  rfl

/-- The zero offsets, however spelt. -/
theorem hz2 : (![0, 0] : Fin 2 → Nat) = fun _ => 0 := funext fun a => by fin_cases a <;> rfl

/-- The block of new hidden states the body leaves is the cell at every row of the blocks it read. -/
theorem out2_6_eq (x0 : Vec Ideal S2000x32 .f32) (x1 x2 : Vec Ideal S2000x8 .f32) (x3 : Vec Ideal S32x32 .f32)
    (x4 : Vec Ideal S8x32 .f32) (x5 : Vec Ideal S1x32 .f32) :
    out2_6 (F := Ideal) x0 x1 x2 x3 x4 x5 = lstmHArr (by norm_num) x0 x1 x2 x3 x4 x5 := by
  unfold out2_6
  rw [View.canon_unit_zero hz2]
  simp only [View.ld_unit_zero (S := S2000x32) hz2, View.ld_unit_zero (S := S2000x8) hz2, View.ld_unit_zero (S := S32x32) hz2,
    View.ld_unit_zero (S := S8x32) hz2, View.ld_unit_zero (S := S1x32) hz2]
  funext j
  obtain ⟨p, q, rfl⟩ : ∃ p q, j = ix2 p q := ⟨j 0, j 1, eq_ix2 j⟩
  rw [pay2_3_apply]
  rfl

/-- The block of new cell states the body leaves, likewise. -/
theorem out2_7_eq (x0 : Vec Ideal S2000x32 .f32) (x1 x2 : Vec Ideal S2000x8 .f32) (x3 : Vec Ideal S32x32 .f32)
    (x4 : Vec Ideal S8x32 .f32) (x5 : Vec Ideal S1x32 .f32) :
    out2_7 (F := Ideal) x0 x1 x2 x3 x4 x5 = lstmCArr (by norm_num) x0 x1 x2 x3 x4 x5 := by
  unfold out2_7
  rw [View.canon_unit_zero hz2]
  simp only [View.ld_unit_zero (S := S2000x32) hz2, View.ld_unit_zero (S := S2000x8) hz2, View.ld_unit_zero (S := S32x32) hz2,
    View.ld_unit_zero (S := S8x32) hz2, View.ld_unit_zero (S := S1x32) hz2]
  funext j
  obtain ⟨p, q, rfl⟩ : ∃ p q, j = ix2 p q := ⟨j 0, j 1, eq_ix2 j⟩
  rw [pay2_2_apply]
  rfl

/-! ## All blocks together -/

/-- The cell's new hidden state at a row depends on that row of the three moving arrays only: two families of arrays
    that agree on a row (and have the same weights and bias) give the same state there. -/
theorem lstmHArr_at2 {n m i h f : ℕ} (hf : f = 4 * h) (X' : A2 m i) (H' C' : A2 m h) (X : A2 n i) (H C : A2 n h)
    (W1' W1 : A2 i f) (W2' W2 : A2 h f) (B' B : A2 1 f) (y : (⟨2, ![m, h]⟩ : Shape).Idx) (j : (⟨2, ![n, h]⟩ : Shape).Idx)
    (hX : ∀ k, X' (ix2 (y 0) k) = X (ix2 (j 0) k)) (hH : ∀ k, H' (ix2 (y 0) k) = H (ix2 (j 0) k))
    (hC : ∀ k, C' (ix2 (y 0) k) = C (ix2 (j 0) k)) (hW1 : W1' = W1) (hW2 : W2' = W2) (hB : B' = B)
    (hq : (y 1).val = (j 1).val) :
    lstmHArr hf X' H' C' W1' W2' B' y = lstmHArr hf X H C W1 W2 B j := by
  subst hW1 hW2 hB
  have hq' : (y 1 : Fin h) = j 1 := Fin.ext hq
  show lstmHid (lstmPre (rowOf X' (y 0)) (rowOf H' (y 0)) (mat W1') (mat W2') (rowOf B' 0)) (rowOf C' (y 0)) hf (y 1)
    = lstmHid (lstmPre (rowOf X (j 0)) (rowOf H (j 0)) (mat W1') (mat W2') (rowOf B' 0)) (rowOf C (j 0)) hf (j 1)
  rw [show rowOf X' (y 0) = rowOf X (j 0) from funext hX, show rowOf H' (y 0) = rowOf H (j 0) from funext hH,
    show rowOf C' (y 0) = rowOf C (j 0) from funext hC, hq']

/-- The same for the new cell state. -/
theorem lstmCArr_at2 {n m i h f : ℕ} (hf : f = 4 * h) (X' : A2 m i) (H' C' : A2 m h) (X : A2 n i) (H C : A2 n h)
    (W1' W1 : A2 i f) (W2' W2 : A2 h f) (B' B : A2 1 f) (y : (⟨2, ![m, h]⟩ : Shape).Idx) (j : (⟨2, ![n, h]⟩ : Shape).Idx)
    (hX : ∀ k, X' (ix2 (y 0) k) = X (ix2 (j 0) k)) (hH : ∀ k, H' (ix2 (y 0) k) = H (ix2 (j 0) k))
    (hC : ∀ k, C' (ix2 (y 0) k) = C (ix2 (j 0) k)) (hW1 : W1' = W1) (hW2 : W2' = W2) (hB : B' = B)
    (hq : (y 1).val = (j 1).val) :
    lstmCArr hf X' H' C' W1' W2' B' y = lstmCArr hf X H C W1 W2 B j := by
  subst hW1 hW2 hB
  have hq' : (y 1 : Fin h) = j 1 := Fin.ext hq
  show lstmCell (lstmPre (rowOf X' (y 0)) (rowOf H' (y 0)) (mat W1') (mat W2') (rowOf B' 0)) (rowOf C' (y 0)) hf (y 1)
    = lstmCell (lstmPre (rowOf X (j 0)) (rowOf H (j 0)) (mat W1') (mat W2') (rowOf B' 0)) (rowOf C (j 0)) hf (j 1)
  rw [show rowOf X' (y 0) = rowOf X (j 0) from funext hX, show rowOf H' (y 0) = rowOf H (j 0) from funext hH,
    show rowOf C' (y 0) = rowOf C (j 0) from funext hC, hq']

/-- The block index of every window at every point of the grid: the three row-block inputs and the two outputs move
    with the point along the rows; the weights and the bias stay at the one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- A block of 2000 rows of the mean messages, read at an entry, is the array at the block's row offset. -/
theorem blk2_0 (c : Dev nD) (t : Fin cfg2.N) (y : S2000x32.Idx) (i : S50000x32.Idx)
    (h0 : (i 0).val = t.val * 2000 + (y 0).val) (h1 : (i 1).val = (y 1).val) :
    iblk2 V c 0 t y = V c main_v28 i := by
  show V c main_v28 (((cfg2.win 0).blk t).view.emb y) = V c main_v28 i
  congr 1
  funext a; apply Fin.ext
  obtain ⟨e0, e1, -⟩ := idx_facts2 t
  match a with
  | ⟨0, _⟩ => show win2_0.index t (0 : Fin 2) * 2000 + 1 * (y 0).val = (i 0).val; omega
  | ⟨1, _⟩ => show win2_0.index t (1 : Fin 2) * 32 + 1 * (y 1).val = (i 1).val; omega

/-- The same for the hidden-state and cell-state blocks (8 columns). -/
theorem blk2_1 (c : Dev nD) (t : Fin cfg2.N) (y : S2000x8.Idx) (i : S50000x8.Idx)
    (h0 : (i 0).val = t.val * 2000 + (y 0).val) (h1 : (i 1).val = (y 1).val) :
    iblk2 V c 1 t y = V c main_arg6 i := by
  show V c main_arg6 (((cfg2.win 1).blk t).view.emb y) = V c main_arg6 i
  congr 1
  funext a; apply Fin.ext
  obtain ⟨-, -, e0, e1, -⟩ := idx_facts2 t
  match a with
  | ⟨0, _⟩ => show win2_1.index t (0 : Fin 2) * 2000 + 1 * (y 0).val = (i 0).val; omega
  | ⟨1, _⟩ => show win2_1.index t (1 : Fin 2) * 8 + 1 * (y 1).val = (i 1).val; omega

/-- The cell-state block. -/
theorem blk2_2 (c : Dev nD) (t : Fin cfg2.N) (y : S2000x8.Idx) (i : S50000x8.Idx)
    (h0 : (i 0).val = t.val * 2000 + (y 0).val) (h1 : (i 1).val = (y 1).val) :
    iblk2 V c 2 t y = V c main_arg7 i := by
  show V c main_arg7 (((cfg2.win 2).blk t).view.emb y) = V c main_arg7 i
  congr 1
  funext a; apply Fin.ext
  obtain ⟨-, -, -, -, e0, e1, -⟩ := idx_facts2 t
  match a with
  | ⟨0, _⟩ => show win2_2.index t (0 : Fin 2) * 2000 + 1 * (y 0).val = (i 0).val; omega
  | ⟨1, _⟩ => show win2_2.index t (1 : Fin 2) * 8 + 1 * (y 1).val = (i 1).val; omega

/-- A weight matrix's one block is the matrix. -/
theorem blk2_3 (c : Dev nD) (t : Fin cfg2.N) : (iblk2 V c 3 t : Vec Ideal S32x32 .f32) = V c main_v29 := by
  funext y
  show V c main_v29 (((cfg2.win 3).blk t).view.emb y) = V c main_v29 y
  congr 1
  funext a; apply Fin.ext
  obtain ⟨-, -, -, -, -, -, e0, e1, -⟩ := idx_facts2 t
  match a with
  | ⟨0, _⟩ => show win2_3.index t (0 : Fin 2) * 32 + 1 * (y 0).val = (y 0).val; omega
  | ⟨1, _⟩ => show win2_3.index t (1 : Fin 2) * 32 + 1 * (y 1).val = (y 1).val; omega

/-- The hidden weights' one block is the matrix. -/
theorem blk2_4 (c : Dev nD) (t : Fin cfg2.N) : (iblk2 V c 4 t : Vec Ideal S8x32 .f32) = V c main_v30 := by
  funext y
  show V c main_v30 (((cfg2.win 4).blk t).view.emb y) = V c main_v30 y
  congr 1
  funext a; apply Fin.ext
  obtain ⟨-, -, -, -, -, -, -, -, e0, e1, -⟩ := idx_facts2 t
  match a with
  | ⟨0, _⟩ => show win2_4.index t (0 : Fin 2) * 8 + 1 * (y 0).val = (y 0).val; omega
  | ⟨1, _⟩ => show win2_4.index t (1 : Fin 2) * 32 + 1 * (y 1).val = (y 1).val; omega

/-- The bias row's one block is the row. -/
theorem blk2_5 (c : Dev nD) (t : Fin cfg2.N) : (iblk2 V c 5 t : Vec Ideal S1x32 .f32) = V c main_v32 := by
  funext y
  show V c main_v32 (((cfg2.win 5).blk t).view.emb y) = V c main_v32 y
  congr 1
  funext a; apply Fin.ext
  obtain ⟨-, -, -, -, -, -, -, -, -, -, e0, e1, -⟩ := idx_facts2 t
  match a with
  | ⟨0, _⟩ => show win2_5.index t (0 : Fin 2) * 1 + 1 * (y 0).val = (y 0).val; omega
  | ⟨1, _⟩ => show win2_5.index t (1 : Fin 2) * 32 + 1 * (y 1).val = (y 1).val; omega

/-- What a point writes back to the hidden-state array is its block of rows of the cell applied to every row of the
    arrays the region finds. -/
theorem flushed2_6_eq (c : Dev nD) (t : Fin cfg2.N) :
    (dat2 (F := Ideal) V c).flushed 6 t = ((cfg2.win 6).blk t).view.read (Elt Ideal)
      (lstmHArr (by norm_num) (V c main_v28) (V c main_arg6) (V c main_arg7) (V c main_v29) (V c main_v30) (V c main_v32)) := by
  show (cfg2.win 6).cut (grid2.coords t) ((dat2 V c).after 6 t) = _
  rw [after2_6, out2_6_eq]
  funext y
  show lstmHArr (by norm_num) (iblk2 V c 0 t) (iblk2 V c 1 t) (iblk2 V c 2 t) (iblk2 V c 3 t) (iblk2 V c 4 t) (iblk2 V c 5 t) y
    = lstmHArr (by norm_num) (V c main_v28) (V c main_arg6) (V c main_arg7) (V c main_v29) (V c main_v30) (V c main_v32)
        (((cfg2.win 6).blk t).view.emb y)
  obtain ⟨-, -, -, -, -, -, -, -, -, -, -, -, e0, e1, -⟩ := idx_facts2 t
  have h0 : ((((cfg2.win 6).blk t).view.emb y) 0).val = t.val * 2000 + (y 0).val := by
    show win2_6.index t (0 : Fin 2) * 2000 + 1 * (y 0).val = _; omega
  have h1 : ((((cfg2.win 6).blk t).view.emb y) 1).val = (y 1).val := by
    show win2_6.index t (1 : Fin 2) * 8 + 1 * (y 1).val = _; omega
  exact lstmHArr_at2 _ _ _ _ _ _ _ _ _ _ _ _ _ y _ (fun k => blk2_0 V c t _ _ h0 rfl) (fun k => blk2_1 V c t _ _ h0 rfl)
    (fun k => blk2_2 V c t _ _ h0 rfl) (blk2_3 V c t) (blk2_4 V c t) (blk2_5 V c t) h1.symm

/-- The same for the cell-state array. -/
theorem flushed2_7_eq (c : Dev nD) (t : Fin cfg2.N) :
    (dat2 (F := Ideal) V c).flushed 7 t = ((cfg2.win 7).blk t).view.read (Elt Ideal)
      (lstmCArr (by norm_num) (V c main_v28) (V c main_arg6) (V c main_arg7) (V c main_v29) (V c main_v30) (V c main_v32)) := by
  show (cfg2.win 7).cut (grid2.coords t) ((dat2 V c).after 7 t) = _
  rw [after2_7, out2_7_eq]
  funext y
  show lstmCArr (by norm_num) (iblk2 V c 0 t) (iblk2 V c 1 t) (iblk2 V c 2 t) (iblk2 V c 3 t) (iblk2 V c 4 t) (iblk2 V c 5 t) y
    = lstmCArr (by norm_num) (V c main_v28) (V c main_arg6) (V c main_arg7) (V c main_v29) (V c main_v30) (V c main_v32)
        (((cfg2.win 7).blk t).view.emb y)
  obtain ⟨-, -, -, -, -, -, -, -, -, -, -, -, -, -, e0, e1⟩ := idx_facts2 t
  have h0 : ((((cfg2.win 7).blk t).view.emb y) 0).val = t.val * 2000 + (y 0).val := by
    show win2_7.index t (0 : Fin 2) * 2000 + 1 * (y 0).val = _; omega
  have h1 : ((((cfg2.win 7).blk t).view.emb y) 1).val = (y 1).val := by
    show win2_7.index t (1 : Fin 2) * 8 + 1 * (y 1).val = _; omega
  exact lstmCArr_at2 _ _ _ _ _ _ _ _ _ _ _ _ _ y _ (fun k => blk2_0 V c t _ _ h0 rfl) (fun k => blk2_1 V c t _ _ h0 rfl)
    (fun k => blk2_2 V c t _ _ h0 rfl) (blk2_3 V c t) (blk2_4 V c t) (blk2_5 V c t) h1.symm

/-- An index of the hidden-state array is in a point's block iff each coordinate is in the block's range on its axis. -/
theorem mem_blk2_6 (t : Fin cfg2.N) (i : S50000x8.Idx) :
    i ∈ ((cfg2.win 6).blk t).view.set ↔ ∀ a : Fin 2, win2_6.index t a * S2000x8.size a ≤ (i a).val
      ∧ (i a).val < win2_6.index t a * S2000x8.size a + S2000x8.size a := by
  show i ∈ ((View.whole main_v33_0).slice (win2_6.rect t)).set ↔ _
  rw [View.set_slice_whole, Rect.mem_set_unit]
  exact Iff.rfl

/-- The same for the cell-state array. -/
theorem mem_blk2_7 (t : Fin cfg2.N) (i : S50000x8.Idx) :
    i ∈ ((cfg2.win 7).blk t).view.set ↔ ∀ a : Fin 2, win2_7.index t a * S2000x8.size a ≤ (i a).val
      ∧ (i a).val < win2_7.index t a * S2000x8.size a + S2000x8.size a := by
  show i ∈ ((View.whole main_v33_1).slice (win2_7.rect t)).set ↔ _
  rw [View.set_slice_whole, Rect.mem_set_unit]
  exact Iff.rfl

/-- Row i of the array is in the block of the point i / 2000: the 25 blocks of 2000 rows fill the 50000 rows. -/
theorem cover2_6_arr (i : S50000x8.Idx) :
    ∃ t : Fin cfg2.N, (cfg2.win 6).flush t = true ∧ i ∈ ((cfg2.win 6).blk t).view.set := by
  have hi0 : (i 0).val < 50000 := (i 0).isLt
  have hi1 : (i 1).val < 8 := (i 1).isLt
  have hN : grid2.N = 25 := N_2
  obtain ⟨t, ht⟩ : ∃ t : Fin cfg2.N, t.val = (i 0).val / 2000 :=
    ⟨⟨(i 0).val / 2000, by show _ < grid2.N; omega⟩, rfl⟩
  refine ⟨t, flush2_6 t, ?_⟩
  rw [mem_blk2_6]
  obtain ⟨-, -, -, -, -, -, -, -, -, -, -, -, e0, e1, -⟩ := idx_facts2 t
  intro a
  match a with
  | ⟨0, _⟩ =>
    show win2_6.index t (0 : Fin 2) * 2000 ≤ (i 0).val ∧ (i 0).val < win2_6.index t (0 : Fin 2) * 2000 + 2000
    omega
  | ⟨1, _⟩ =>
    show win2_6.index t (1 : Fin 2) * 8 ≤ (i 1).val ∧ (i 1).val < win2_6.index t (1 : Fin 2) * 8 + 8
    omega

/-- The same for the cell-state array. -/
theorem cover2_7_arr (i : S50000x8.Idx) :
    ∃ t : Fin cfg2.N, (cfg2.win 7).flush t = true ∧ i ∈ ((cfg2.win 7).blk t).view.set := by
  have hi0 : (i 0).val < 50000 := (i 0).isLt
  have hi1 : (i 1).val < 8 := (i 1).isLt
  have hN : grid2.N = 25 := N_2
  obtain ⟨t, ht⟩ : ∃ t : Fin cfg2.N, t.val = (i 0).val / 2000 :=
    ⟨⟨(i 0).val / 2000, by show _ < grid2.N; omega⟩, rfl⟩
  refine ⟨t, flush2_7 t, ?_⟩
  rw [mem_blk2_7]
  obtain ⟨-, -, -, -, -, -, -, -, -, -, -, -, -, -, e0, e1⟩ := idx_facts2 t
  intro a
  match a with
  | ⟨0, _⟩ =>
    show win2_7.index t (0 : Fin 2) * 2000 ≤ (i 0).val ∧ (i 0).val < win2_7.index t (0 : Fin 2) * 2000 + 2000
    omega
  | ⟨1, _⟩ =>
    show win2_7.index t (1 : Fin 2) * 8 ≤ (i 1).val ∧ (i 1).val < win2_7.index t (1 : Fin 2) * 8 + 8
    omega

/-- The new hidden states of all nodes, after the region: the cell applied to every row of the arrays the region finds. -/
theorem arr2_6 (c : Dev nD) :
    (dat2 (F := Ideal) V c).arrAt 6 cfg2.N
      = lstmHArr (by norm_num) (V c main_v28) (V c main_arg6) (V c main_arg7) (V c main_v29) (V c main_v30) (V c main_v32) :=
  (dat2 V c).arrAt_eq_of_cover 6 _ (fun t _ => flushed2_6_eq V c t) cover2_6_arr

/-- The new cell states of all nodes, after the region. -/
theorem arr2_7 (c : Dev nD) :
    (dat2 (F := Ideal) V c).arrAt 7 cfg2.N
      = lstmCArr (by norm_num) (V c main_v28) (V c main_arg6) (V c main_arg7) (V c main_v29) (V c main_v30) (V c main_v32) :=
  (dat2 V c).arrAt_eq_of_cover 7 _ (fun t _ => flushed2_7_eq V c t) cover2_7_arr

end Cert.KernelIdeal.KV
end
-- ==== Proof.K3.lean ====
/-
  Region 3: the edge network of the output block over 200 blocks of 4000 edges.

  The region's body computes, for a block of 4000 edges, the two-layer edge network of the block's source rows,
  destination rows and attribute rows: three products against the three slabs of the first weight matrix added left to
  right, the bias row, the rectifier, the product against the second weight matrix, the second bias row. At the ideal
  values every format change is the identity and a product into a zero accumulator is the plain sum over the shared
  axis, so the body's result at row `p`, column `q` of a block is the row function `mlpOut (mlp3Hid …)` of row `p` of
  the three moving blocks (first part). Block `t` of a moving array is its rows `4000 t … 4000 t + 3999`, the weights and
  biases are read whole at every point, and the output's 200 blocks tile its 800000 rows: so after the region the
  output array is the edge network applied to every row of the arrays the region finds (second part).
-/
import proofs.«417163_j44495861187273_2_alg».proof.Proof.Gen.KernelIdeal.Frame
import proofs.«417163_j44495861187273_2_alg».proof.Proof.SpecArr
import proofs.«417163_j44495861187273_2_alg».proof.Proof.LibDot
import Idealize.ShloMosaic.Lib.ValueLayout
import Idealize.ShloMosaic.Lib.Pipeline.Value

noncomputable section
namespace Cert.KernelIdeal.KV
open Idealize.ShloMosaic Idealize.ShloMosaic.TcCoe Idealize.ShloMosaic.ValueIdx Idealize.SL.Sem Cert.KernelIdeal Cert.KernelIdeal.Gen Cert.GNN
open Idealize.ShloMosaic.Pipeline (Dat Cfg Window)

variable (V : (c : Dev nD) → (b : Ref sig .tc) → Buf (Elt Ideal) ((c : Thread nD τ).loc b))

/-! ## The body's result at one entry -/

/-- The zero offsets of a whole-block access, as the constant function. -/
theorem hz3 : (![0, 0] : Fin 2 → Nat) = fun _ => 0 := funext fun a => by fin_cases a <;> rfl

/-- A block of 4000 rows against a 28-row slab of the first weight matrix, into the zero accumulator, at an entry:
    the sum over the shared axis. -/
theorem mmA3 (l : FVec Ideal S4000x28 .bf16) (r : FVec Ideal S28x64 .bf16) (p : Fin 4000) (q : Fin 64) :
    matmul dot_S4000x28_S28x64_S4000x64_1_0_0_1_n_n none l r (constant (F := Ideal) S4000x64 .f32 0x00000000#32) (ix2 p q)
      = ∑ k : Fin 28, l (ix2 p k) * r (ix2 k q) :=
  matmul_plain_zero_apply none l r p q

/-- The attribute rows against their 4-row slab. -/
theorem mmB3 (l : FVec Ideal S4000x4 .bf16) (r : FVec Ideal S4x64 .bf16) (p : Fin 4000) (q : Fin 64) :
    matmul dot_S4000x4_S4x64_S4000x64_1_0_0_1_n_n none l r (constant (F := Ideal) S4000x64 .f32 0x00000000#32) (ix2 p q)
      = ∑ k : Fin 4, l (ix2 p k) * r (ix2 k q) :=
  matmul_plain_zero_apply none l r p q

/-- The hidden rows against the second weight matrix. -/
theorem mmC3 (l : FVec Ideal S4000x64 .bf16) (r : FVec Ideal S64x32 .bf16) (p : Fin 4000) (q : Fin 32) :
    matmul dot_S4000x64_S64x32_S4000x32_1_0_0_1_n_n none l r (constant (F := Ideal) S4000x32 .f32 0x00000000#32) (ix2 p q)
      = ∑ k : Fin 64, l (ix2 p k) * r (ix2 k q) :=
  matmul_plain_zero_apply none l r p q

/-- The body's value at row `p`, column `q` of a block: the format changes are the identity at the ideal values, each
    product into a zero accumulator is the plain sum, a broadcast bias row reads its one row, and what is left is the
    edge network's row function of row `p` of the three moving blocks. -/
theorem pay3_apply (x0 x1 : Vec Ideal S4000x28 .f32) (x2 : Vec Ideal S4000x4 .f32) (x3 x4 : Vec Ideal S28x64 .f32)
    (x5 : Vec Ideal S4x64 .f32) (x6 : Vec Ideal S1x64 .f32) (x7 : Vec Ideal S64x32 .f32) (x8 : Vec Ideal S1x32 .f32)
    (p : Fin 4000) (q : Fin 32) :
    k3_pay1 (F := Ideal) x0 x1 x2 x3 x4 x5 x6 x7 x8 (ix2 p q)
      = mlpOut (mlp3Hid (rowOf x0 p) (rowOf x1 p) (rowOf x2 p) (mat x3) (mat x4) (mat x5) (rowOf x6 0)) (mat x7) (rowOf x8 0) q := by
  unfold k3_pay1
  simp only [addf_apply, mmC3, truncf_apply, maximumf_apply, broadcast_apply, mmA3, mmB3, broadcastTo_1b_ab_apply, shapeCast_self]
  rfl

/-- What the body leaves in the output block: the edge network applied to every row of the input blocks. -/
theorem out3_9_eq (x0 x1 : Vec Ideal S4000x28 .f32) (x2 : Vec Ideal S4000x4 .f32) (x3 x4 : Vec Ideal S28x64 .f32)
    (x5 : Vec Ideal S4x64 .f32) (x6 : Vec Ideal S1x64 .f32) (x7 : Vec Ideal S64x32 .f32) (x8 : Vec Ideal S1x32 .f32) :
    out3_9 (F := Ideal) x0 x1 x2 x3 x4 x5 x6 x7 x8 = mlp3Arr x0 x1 x2 x3 x4 x5 x6 x7 x8 := by
  unfold out3_9
  rw [View.canon_unit_zero hz3]
  simp only [View.ld_unit_zero (S := S4000x28) hz3, View.ld_unit_zero (S := S4000x4) hz3, View.ld_unit_zero (S := S28x64) hz3,
    View.ld_unit_zero (S := S4x64) hz3, View.ld_unit_zero (S := S1x64) hz3, View.ld_unit_zero (S := S64x32) hz3,
    View.ld_unit_zero (S := S1x32) hz3]
  funext j
  obtain ⟨p, q, rfl⟩ : ∃ p q, j = ix2 p q := ⟨j 0, j 1, eq_ix2 j⟩
  rw [pay3_apply]
  rfl

/-! ## The blocks, read off their arrays -/

/-- The grid has 200 points. -/
theorem lt200_3 (t : Fin cfg3.N) : t.val < 200 := lt_of_lt_of_eq t.isLt N_3

/-- Row `p` of block `t`, as a row of an array of 800000 rows. -/
def row3 (t : Fin cfg3.N) (p : Fin 4000) : Fin 800000 :=
  ⟨t.val * 4000 + p.val, by have := lt200_3 t; have := p.isLt; omega⟩

/-- The index maps over the grid: a moving window's block index at point `t` is `(t, 0)`, a weight's or bias's `(0, 0)`. -/
theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = 0 ∧ win3_6.index t (1 : Fin 2) = 0 :=
  (by decide +kernel : ∀ t : Fin grid3.N, _)
theorem idx3_7 : ∀ t : Fin cfg3.N, win3_7.index t (0 : Fin 2) = 0 ∧ win3_7.index t (1 : Fin 2) = 0 :=
  (by decide +kernel : ∀ t : Fin grid3.N, _)
theorem idx3_8 : ∀ t : Fin cfg3.N, win3_8.index t (0 : Fin 2) = 0 ∧ win3_8.index t (1 : Fin 2) = 0 :=
  (by decide +kernel : ∀ t : Fin grid3.N, _)
theorem idx3_9 : ∀ t : Fin cfg3.N, win3_9.index t (0 : Fin 2) = t.val ∧ win3_9.index t (1 : Fin 2) = 0 :=
  (by decide +kernel : ∀ t : Fin grid3.N, _)

/-- Block `t` of the source rows at `(p, k)` is the array at `(4000 t + p, k)`: a block's coordinate is the block index
    times the block's size plus the coordinate inside the block. -/
theorem rd3_0 (c : Dev nD) (t : Fin cfg3.N) (p : Fin 4000) (k : Fin 28) :
    (iblk3 (F := Ideal) V c 0 t : Vec Ideal S4000x28 .f32) (ix2 p k)
      = (V c main_v35 : Vec Ideal S800000x28 .f32) (ix2 (row3 t p) k) := by
  show V c main_v35 (((cfg3.win 0).blk t).view.emb (ix2 p k)) = V c main_v35 (ix2 (row3 t p) k)
  refine congrArg (V c main_v35) ?_
  funext a; apply Fin.ext
  obtain ⟨e0, e1⟩ := idx3_0 t
  match a with
  | ⟨0, _⟩ => show win3_0.index t (0 : Fin 2) * 4000 + 1 * p.val = t.val * 4000 + p.val; omega
  | ⟨1, _⟩ => show win3_0.index t (1 : Fin 2) * 28 + 1 * k.val = k.val; omega

/-- Likewise the destination rows, -/
theorem rd3_1 (c : Dev nD) (t : Fin cfg3.N) (p : Fin 4000) (k : Fin 28) :
    (iblk3 (F := Ideal) V c 1 t : Vec Ideal S4000x28 .f32) (ix2 p k)
      = (V c main_v36 : Vec Ideal S800000x28 .f32) (ix2 (row3 t p) k) := by
  show V c main_v36 (((cfg3.win 1).blk t).view.emb (ix2 p k)) = V c main_v36 (ix2 (row3 t p) k)
  refine congrArg (V c main_v36) ?_
  funext a; apply Fin.ext
  obtain ⟨e0, e1⟩ := idx3_1 t
  match a with
  | ⟨0, _⟩ => show win3_1.index t (0 : Fin 2) * 4000 + 1 * p.val = t.val * 4000 + p.val; omega
  | ⟨1, _⟩ => show win3_1.index t (1 : Fin 2) * 28 + 1 * k.val = k.val; omega

/-- and the attribute rows. -/
theorem rd3_2 (c : Dev nD) (t : Fin cfg3.N) (p : Fin 4000) (k : Fin 4) :
    (iblk3 (F := Ideal) V c 2 t : Vec Ideal S4000x4 .f32) (ix2 p k)
      = (V c main_arg3 : Vec Ideal S800000x4 .f32) (ix2 (row3 t p) k) := by
  show V c main_arg3 (((cfg3.win 2).blk t).view.emb (ix2 p k)) = V c main_arg3 (ix2 (row3 t p) k)
  refine congrArg (V c main_arg3) ?_
  funext a; apply Fin.ext
  obtain ⟨e0, e1⟩ := idx3_2 t
  match a with
  | ⟨0, _⟩ => show win3_2.index t (0 : Fin 2) * 4000 + 1 * p.val = t.val * 4000 + p.val; omega
  | ⟨1, _⟩ => show win3_2.index t (1 : Fin 2) * 4 + 1 * k.val = k.val; omega

/-- A weight or bias window's block is the whole array at every point: its block index is `(0, 0)`. -/
theorem rdW3_3 (c : Dev nD) (t : Fin cfg3.N) : (iblk3 (F := Ideal) V c 3 t : Vec Ideal S28x64 .f32) = V c main_v37 := by
  funext y
  show V c main_v37 (((cfg3.win 3).blk t).view.emb y) = V c main_v37 y
  refine congrArg (V c main_v37) ?_
  funext a; apply Fin.ext
  obtain ⟨e0, e1⟩ := idx3_3 t
  match a with
  | ⟨0, _⟩ => show win3_3.index t (0 : Fin 2) * 28 + 1 * (y 0).val = (y 0).val; omega
  | ⟨1, _⟩ => show win3_3.index t (1 : Fin 2) * 64 + 1 * (y 1).val = (y 1).val; omega
theorem rdW3_4 (c : Dev nD) (t : Fin cfg3.N) : (iblk3 (F := Ideal) V c 4 t : Vec Ideal S28x64 .f32) = V c main_v38 := by
  funext y
  show V c main_v38 (((cfg3.win 4).blk t).view.emb y) = V c main_v38 y
  refine congrArg (V c main_v38) ?_
  funext a; apply Fin.ext
  obtain ⟨e0, e1⟩ := idx3_4 t
  match a with
  | ⟨0, _⟩ => show win3_4.index t (0 : Fin 2) * 28 + 1 * (y 0).val = (y 0).val; omega
  | ⟨1, _⟩ => show win3_4.index t (1 : Fin 2) * 64 + 1 * (y 1).val = (y 1).val; omega
theorem rdW3_5 (c : Dev nD) (t : Fin cfg3.N) : (iblk3 (F := Ideal) V c 5 t : Vec Ideal S4x64 .f32) = V c main_v39 := by
  funext y
  show V c main_v39 (((cfg3.win 5).blk t).view.emb y) = V c main_v39 y
  refine congrArg (V c main_v39) ?_
  funext a; apply Fin.ext
  obtain ⟨e0, e1⟩ := idx3_5 t
  match a with
  | ⟨0, _⟩ => show win3_5.index t (0 : Fin 2) * 4 + 1 * (y 0).val = (y 0).val; omega
  | ⟨1, _⟩ => show win3_5.index t (1 : Fin 2) * 64 + 1 * (y 1).val = (y 1).val; omega
theorem rdW3_6 (c : Dev nD) (t : Fin cfg3.N) : (iblk3 (F := Ideal) V c 6 t : Vec Ideal S1x64 .f32) = V c main_v40 := by
  funext y
  show V c main_v40 (((cfg3.win 6).blk t).view.emb y) = V c main_v40 y
  refine congrArg (V c main_v40) ?_
  funext a; apply Fin.ext
  obtain ⟨e0, e1⟩ := idx3_6 t
  match a with
  | ⟨0, _⟩ => show win3_6.index t (0 : Fin 2) * 1 + 1 * (y 0).val = (y 0).val; omega
  | ⟨1, _⟩ => show win3_6.index t (1 : Fin 2) * 64 + 1 * (y 1).val = (y 1).val; omega
theorem rdW3_7 (c : Dev nD) (t : Fin cfg3.N) : (iblk3 (F := Ideal) V c 7 t : Vec Ideal S64x32 .f32) = V c main_arg22 := by
  funext y
  show V c main_arg22 (((cfg3.win 7).blk t).view.emb y) = V c main_arg22 y
  refine congrArg (V c main_arg22) ?_
  funext a; apply Fin.ext
  obtain ⟨e0, e1⟩ := idx3_7 t
  match a with
  | ⟨0, _⟩ => show win3_7.index t (0 : Fin 2) * 64 + 1 * (y 0).val = (y 0).val; omega
  | ⟨1, _⟩ => show win3_7.index t (1 : Fin 2) * 32 + 1 * (y 1).val = (y 1).val; omega
theorem rdW3_8 (c : Dev nD) (t : Fin cfg3.N) : (iblk3 (F := Ideal) V c 8 t : Vec Ideal S1x32 .f32) = V c main_v41 := by
  funext y
  show V c main_v41 (((cfg3.win 8).blk t).view.emb y) = V c main_v41 y
  refine congrArg (V c main_v41) ?_
  funext a; apply Fin.ext
  obtain ⟨e0, e1⟩ := idx3_8 t
  match a with
  | ⟨0, _⟩ => show win3_8.index t (0 : Fin 2) * 1 + 1 * (y 0).val = (y 0).val; omega
  | ⟨1, _⟩ => show win3_8.index t (1 : Fin 2) * 32 + 1 * (y 1).val = (y 1).val; omega

/-- Where entry `(p, q)` of the output's block `t` sits in the output array: at `(4000 t + p, q)`. -/
theorem emb3_9 (t : Fin cfg3.N) (p : Fin 4000) (q : Fin 32) :
    ((cfg3.win 9).blk t).view.emb (ix2 p q) = (ix2 (row3 t p) q : S800000x32.Idx) := by
  funext a; apply Fin.ext
  obtain ⟨e0, e1⟩ := idx3_9 t
  match a with
  | ⟨0, _⟩ => show win3_9.index t (0 : Fin 2) * 4000 + 1 * p.val = t.val * 4000 + p.val; omega
  | ⟨1, _⟩ => show win3_9.index t (1 : Fin 2) * 32 + 1 * q.val = q.val; omega

/-- The edge network at a row reads only that row of its three moving inputs: two families of moving inputs that
    agree on a row give the same output row. -/
theorem mlp3Arr_row3 {n n' a b c o r : ℕ} (S : A2 n a) (S' : A2 n' a) (D : A2 n b) (D' : A2 n' b) (E : A2 n c) (E' : A2 n' c)
    (Wa : A2 a o) (Wb : A2 b o) (Wc : A2 c o) (B1 : A2 1 o) (W2 : A2 o r) (B2 : A2 1 r) (e : Fin n) (e' : Fin n') (q : Fin r)
    (hS : ∀ k, S (ix2 e k) = S' (ix2 e' k)) (hD : ∀ k, D (ix2 e k) = D' (ix2 e' k)) (hE : ∀ k, E (ix2 e k) = E' (ix2 e' k)) :
    mlp3Arr S D E Wa Wb Wc B1 W2 B2 (ix2 e q) = mlp3Arr S' D' E' Wa Wb Wc B1 W2 B2 (ix2 e' q) := by
  show mlpOut (mlp3Hid (rowOf S e) (rowOf D e) (rowOf E e) (mat Wa) (mat Wb) (mat Wc) (rowOf B1 0)) (mat W2) (rowOf B2 0) q
    = mlpOut (mlp3Hid (rowOf S' e') (rowOf D' e') (rowOf E' e') (mat Wa) (mat Wb) (mat Wc) (rowOf B1 0)) (mat W2) (rowOf B2 0) q
  rw [show rowOf S e = rowOf S' e' from funext hS, show rowOf D e = rowOf D' e' from funext hD,
    show rowOf E e = rowOf E' e' from funext hE]

/-! ## All blocks together -/

/-- What point `t` writes back is block `t` of the edge network applied to every row of the arrays the region finds. -/
theorem flushed3_9_eq (c : Dev nD) (t : Fin cfg3.N) :
    (dat3 (F := Ideal) V c).flushed 9 t = ((cfg3.win 9).blk t).view.read (Elt Ideal)
      (mlp3Arr (V c main_v35) (V c main_v36) (V c main_arg3) (V c main_v37) (V c main_v38) (V c main_v39) (V c main_v40) (V c main_arg22) (V c main_v41)) := by
  show (cfg3.win 9).cut (grid3.coords t) ((dat3 V c).after 9 t) = _
  rw [after3_9, out3_9_eq, rdW3_3, rdW3_4, rdW3_5, rdW3_6, rdW3_7, rdW3_8]
  refine funext fun (y : S4000x32.Idx) => ?_
  obtain ⟨p, q, rfl⟩ : ∃ p q, y = ix2 p q := ⟨y 0, y 1, eq_ix2 y⟩
  show mlp3Arr (iblk3 V c 0 t) (iblk3 V c 1 t) (iblk3 V c 2 t) (V c main_v37) (V c main_v38) (V c main_v39) (V c main_v40) (V c main_arg22) (V c main_v41) (ix2 p q)
    = mlp3Arr (V c main_v35) (V c main_v36) (V c main_arg3) (V c main_v37) (V c main_v38) (V c main_v39) (V c main_v40) (V c main_arg22) (V c main_v41)
        (((cfg3.win 9).blk t).view.emb (ix2 p q))
  rw [emb3_9 t p q]
  exact mlp3Arr_row3 _ _ _ _ _ _ _ _ _ _ _ _ p (row3 t p) q (rd3_0 V c t p) (rd3_1 V c t p) (rd3_2 V c t p)

/-- An index of the output array is in point `t`'s block iff each coordinate is in the block's range on its axis. -/
theorem mem_blk3_9 (t : Fin cfg3.N) (i : S800000x32.Idx) :
    i ∈ ((cfg3.win 9).blk t).view.set ↔ ∀ a : Fin 2, win3_9.index t a * S4000x32.size a ≤ (i a).val
      ∧ (i a).val < win3_9.index t a * S4000x32.size a + S4000x32.size a := by
  show i ∈ ((View.whole main_v42).slice (win3_9.rect t)).set ↔ _
  rw [View.set_slice_whole, Rect.mem_set_unit]
  exact Iff.rfl

/-- The output's blocks tile its array: row `i` is in block `i / 4000`, and every point writes its block back. -/
theorem cover3_9_all (i : S800000x32.Idx) :
    ∃ t : Fin cfg3.N, (cfg3.win 9).flush t = true ∧ i ∈ ((cfg3.win 9).blk t).view.set := by
  have hi0 : (i 0).val < 800000 := (i 0).isLt
  have hi1 : (i 1).val < 32 := (i 1).isLt
  have hN : (i 0).val / 4000 < cfg3.N := lt_of_lt_of_eq (b := 200) (by omega) N_3.symm
  refine ⟨⟨(i 0).val / 4000, hN⟩, flush3_9 _, ?_⟩
  rw [mem_blk3_9]
  obtain ⟨e0, e1⟩ := idx3_9 ⟨(i 0).val / 4000, hN⟩
  have ht : (⟨(i 0).val / 4000, hN⟩ : Fin cfg3.N).val = (i 0).val / 4000 := rfl
  intro a
  match a with
  | ⟨0, _⟩ =>
    show win3_9.index ⟨(i 0).val / 4000, hN⟩ (0 : Fin 2) * 4000 ≤ (i 0).val
      ∧ (i 0).val < win3_9.index ⟨(i 0).val / 4000, hN⟩ (0 : Fin 2) * 4000 + 4000
    omega
  | ⟨1, _⟩ =>
    show win3_9.index ⟨(i 0).val / 4000, hN⟩ (1 : Fin 2) * 32 ≤ (i 1).val
      ∧ (i 1).val < win3_9.index ⟨(i 0).val / 4000, hN⟩ (1 : Fin 2) * 32 + 32
    omega

/-- The edge rows of all edges, after the region: the edge network applied to every row of the arrays the region finds. -/
theorem arr3_9 (c : Dev nD) :
    (dat3 (F := Ideal) V c).arrAt 9 cfg3.N
      = mlp3Arr (V c main_v35) (V c main_v36) (V c main_arg3) (V c main_v37) (V c main_v38) (V c main_v39) (V c main_v40) (V c main_arg22) (V c main_v41) :=
  (dat3 (F := Ideal) V c).arrAt_eq_of_cover 9 _ (fun t _ => flushed3_9_eq V c t) cover3_9_all

end Cert.KernelIdeal.KV
end
-- ==== Proof.K4.lean ====
/- Region 4: the node network over 25 blocks of 2000 nodes. The body's one store is the network's two layers of its
   blocks' rows; the 25 blocks written back tile the output array, which so ends holding the network of the arrays. -/
import proofs.«417163_j44495861187273_2_alg».proof.Proof.Gen.KernelIdeal.Frame
import proofs.«417163_j44495861187273_2_alg».proof.Proof.SpecArr
import proofs.«417163_j44495861187273_2_alg».proof.Proof.LibDot
import Idealize.ShloMosaic.Lib.ValueLayout
import Idealize.ShloMosaic.Lib.Pipeline.Value

noncomputable section
namespace Cert.KernelIdeal.KV
open Idealize.ShloMosaic Idealize.ShloMosaic.TcCoe Idealize.ShloMosaic.ValueIdx Idealize.SL.Sem Cert.KernelIdeal Cert.KernelIdeal.Gen Cert.GNN
open Idealize.ShloMosaic.Pipeline (Dat Cfg Window)

variable (V : (c : Dev nD) → (b : Ref sig .tc) → Buf (Elt Ideal) ((c : Thread nD τ).loc b))

/-! ## The body's result is the row function -/

/-- A product of a 2000-row block against a weight matrix, into the zero accumulator, at an entry. -/
theorem mm4_a (lhs : FVec Ideal S2000x28 .bf16) (rhs : FVec Ideal S28x64 .bf16) (p : Fin 2000) (q : Fin 64) :
    matmul dot_S2000x28_S28x64_S2000x64_1_0_0_1_n_n none lhs rhs (constant S2000x64 .f32 0x00000000#32) (ix2 p q)
      = ∑ k : Fin 28, lhs (ix2 p k) * rhs (ix2 k q) :=
  matmul_plain_zero_apply (M := 2000) (K := 28) (N := 64) none lhs rhs p q

theorem mm4_b (lhs : FVec Ideal S2000x32 .bf16) (rhs : FVec Ideal S32x64 .bf16) (p : Fin 2000) (q : Fin 64) :
    matmul dot_S2000x32_S32x64_S2000x64_1_0_0_1_n_n none lhs rhs (constant S2000x64 .f32 0x00000000#32) (ix2 p q)
      = ∑ k : Fin 32, lhs (ix2 p k) * rhs (ix2 k q) :=
  matmul_plain_zero_apply (M := 2000) (K := 32) (N := 64) none lhs rhs p q

theorem mm4_c (lhs : FVec Ideal S2000x64 .bf16) (rhs : FVec Ideal S64x4 .bf16) (p : Fin 2000) (q : Fin 4) :
    matmul dot_S2000x64_S64x4_S2000x4_1_0_0_1_n_n none lhs rhs (constant S2000x4 .f32 0x00000000#32) (ix2 p q)
      = ∑ k : Fin 64, lhs (ix2 p k) * rhs (ix2 k q) :=
  matmul_plain_zero_apply (M := 2000) (K := 64) (N := 4) none lhs rhs p q

/-- The body's arithmetic at one entry of the block: the node network's two layers at row `p`, column `q`. -/
theorem pay4_apply (x0 : Vec Ideal S2000x28 .f32) (x1 : Vec Ideal S2000x32 .f32) (x2 : Vec Ideal S28x64 .f32) (x3 : Vec Ideal S32x64 .f32)
    (x4 : Vec Ideal S1x64 .f32) (x5 : Vec Ideal S64x4 .f32) (x6 : Vec Ideal S1x4 .f32) (p : Fin 2000) (q : Fin 4) :
    k4_pay1 (F := Ideal) x0 x1 x2 x3 x4 x5 x6 (ix2 p q)
      = mlpOut (mlp2Hid (rowOf x0 p) (rowOf x1 p) (mat x2) (mat x3) (rowOf x4 0)) (mat x5) (rowOf x6 0) q := by
  unfold k4_pay1
  simp only [shapeCast_self]
  rw [addf_apply, mm4_c, broadcastTo_1b_ab_apply]
  unfold mlpOut
  congr 1
  refine Finset.sum_congr rfl fun j _ => ?_
  rw [truncf_apply, truncf_apply, maximumf_apply, addf_apply, addf_apply, mm4_a, mm4_b, broadcastTo_1b_ab_apply, broadcast_apply]
  rfl

theorem hz4 : (![0, 0] : Fin 2 → Nat) = fun _ => 0 := funext fun a => by fin_cases a <;> rfl

theorem out4_7_eq (x0 : Vec Ideal S2000x28 .f32) (x1 : Vec Ideal S2000x32 .f32) (x2 : Vec Ideal S28x64 .f32) (x3 : Vec Ideal S32x64 .f32)
    (x4 : Vec Ideal S1x64 .f32) (x5 : Vec Ideal S64x4 .f32) (x6 : Vec Ideal S1x4 .f32) :
    out4_7 (F := Ideal) x0 x1 x2 x3 x4 x5 x6 = mlp2Arr x0 x1 x2 x3 x4 x5 x6 := by
  unfold out4_7
  rw [View.canon_unit_zero hz4]
  simp only [View.ld_unit_zero (S := S2000x28) hz4, View.ld_unit_zero (S := S2000x32) hz4, View.ld_unit_zero (S := S28x64) hz4,
    View.ld_unit_zero (S := S32x64) hz4, View.ld_unit_zero (S := S1x64) hz4, View.ld_unit_zero (S := S64x4) hz4,
    View.ld_unit_zero (S := S1x4) hz4]
  funext j
  obtain ⟨p, q, rfl⟩ : ∃ p q, j = ix2 p q := ⟨j 0, j 1, eq_ix2 j⟩
  rw [pay4_apply]
  rfl

/-! ## The blocks of the arrays

Point `t` of the 25 reads rows `2000 t … 2000 t + 1999` of the two feature arrays, all of the five weight and bias
arrays, and writes rows `2000 t … 2000 t + 1999` of the output. -/

theorem row_lt4 (t : Fin cfg4.N) (p : Fin 2000) : t.val * 2000 + p.val < 50000 := by
  have h := t.isLt; have h25 : cfg4.N = 25 := N_4; have := p.isLt; omega

/-- Row `p` of block `t` is row `2000 t + p` of the array. -/
abbrev rowAt4 (t : Fin cfg4.N) (p : Fin 2000) : Fin 50000 := ⟨t.val * 2000 + p.val, row_lt4 t p⟩

/-- The block index of every window at every point: `(t, 0)` for the three moving windows, `(0, 0)` for the rest. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Entry `(p, k)` of a moving window's block `t` is entry `(2000 t + p, k)` of its array. -/
theorem emb4_0 (t : Fin cfg4.N) (p : Fin 2000) (k : Fin 28) :
    ((cfg4.win 0).blk t).view.emb (ix2 p k) = ix2 (rowAt4 t p) k := by
  obtain ⟨e0, e1, -⟩ := idx_facts4 t
  funext a; apply Fin.ext
  match a with
  | ⟨0, _⟩ => show win4_0.index t (0 : Fin 2) * 2000 + 1 * p.val = t.val * 2000 + p.val; omega
  | ⟨1, _⟩ => show win4_0.index t (1 : Fin 2) * 28 + 1 * k.val = k.val; omega

theorem emb4_1 (t : Fin cfg4.N) (p : Fin 2000) (k : Fin 32) :
    ((cfg4.win 1).blk t).view.emb (ix2 p k) = ix2 (rowAt4 t p) k := by
  obtain ⟨-, -, e0, e1, -⟩ := idx_facts4 t
  funext a; apply Fin.ext
  match a with
  | ⟨0, _⟩ => show win4_1.index t (0 : Fin 2) * 2000 + 1 * p.val = t.val * 2000 + p.val; omega
  | ⟨1, _⟩ => show win4_1.index t (1 : Fin 2) * 32 + 1 * k.val = k.val; omega

theorem emb4_7 (t : Fin cfg4.N) (p : Fin 2000) (k : Fin 4) :
    ((cfg4.win 7).blk t).view.emb (ix2 p k) = ix2 (rowAt4 t p) k := by
  have e0 : win4_7.index t (0 : Fin 2) = t.val := (idx_facts4 t).2.2.2.2.2.2.2.2.2.2.2.2.2.2.1
  have e1 : win4_7.index t (1 : Fin 2) = 0 := (idx_facts4 t).2.2.2.2.2.2.2.2.2.2.2.2.2.2.2
  funext a; apply Fin.ext
  match a with
  | ⟨0, _⟩ => show win4_7.index t (0 : Fin 2) * 2000 + 1 * p.val = t.val * 2000 + p.val; omega
  | ⟨1, _⟩ => show win4_7.index t (1 : Fin 2) * 4 + 1 * k.val = k.val; omega

/-- A weight or bias window's one block is its whole array. -/
theorem emb4_2 (t : Fin cfg4.N) (y : S28x64.Idx) : ((cfg4.win 2).blk t).view.emb y = y := by
  have e0 : win4_2.index t (0 : Fin 2) = 0 := (idx_facts4 t).2.2.2.2.1
  have e1 : win4_2.index t (1 : Fin 2) = 0 := (idx_facts4 t).2.2.2.2.2.1
  funext a; apply Fin.ext
  match a with
  | ⟨0, _⟩ => show win4_2.index t (0 : Fin 2) * 28 + 1 * (y 0).val = (y 0).val; omega
  | ⟨1, _⟩ => show win4_2.index t (1 : Fin 2) * 64 + 1 * (y 1).val = (y 1).val; omega

theorem emb4_3 (t : Fin cfg4.N) (y : S32x64.Idx) : ((cfg4.win 3).blk t).view.emb y = y := by
  have e0 : win4_3.index t (0 : Fin 2) = 0 := (idx_facts4 t).2.2.2.2.2.2.1
  have e1 : win4_3.index t (1 : Fin 2) = 0 := (idx_facts4 t).2.2.2.2.2.2.2.1
  funext a; apply Fin.ext
  match a with
  | ⟨0, _⟩ => show win4_3.index t (0 : Fin 2) * 32 + 1 * (y 0).val = (y 0).val; omega
  | ⟨1, _⟩ => show win4_3.index t (1 : Fin 2) * 64 + 1 * (y 1).val = (y 1).val; omega

theorem emb4_4 (t : Fin cfg4.N) (y : S1x64.Idx) : ((cfg4.win 4).blk t).view.emb y = y := by
  have e0 : win4_4.index t (0 : Fin 2) = 0 := (idx_facts4 t).2.2.2.2.2.2.2.2.1
  have e1 : win4_4.index t (1 : Fin 2) = 0 := (idx_facts4 t).2.2.2.2.2.2.2.2.2.1
  funext a; apply Fin.ext
  match a with
  | ⟨0, _⟩ => show win4_4.index t (0 : Fin 2) * 1 + 1 * (y 0).val = (y 0).val; omega
  | ⟨1, _⟩ => show win4_4.index t (1 : Fin 2) * 64 + 1 * (y 1).val = (y 1).val; omega

theorem emb4_5 (t : Fin cfg4.N) (y : S64x4.Idx) : ((cfg4.win 5).blk t).view.emb y = y := by
  have e0 : win4_5.index t (0 : Fin 2) = 0 := (idx_facts4 t).2.2.2.2.2.2.2.2.2.2.1
  have e1 : win4_5.index t (1 : Fin 2) = 0 := (idx_facts4 t).2.2.2.2.2.2.2.2.2.2.2.1
  funext a; apply Fin.ext
  match a with
  | ⟨0, _⟩ => show win4_5.index t (0 : Fin 2) * 64 + 1 * (y 0).val = (y 0).val; omega
  | ⟨1, _⟩ => show win4_5.index t (1 : Fin 2) * 4 + 1 * (y 1).val = (y 1).val; omega

theorem emb4_6 (t : Fin cfg4.N) (y : S1x4.Idx) : ((cfg4.win 6).blk t).view.emb y = y := by
  have e0 : win4_6.index t (0 : Fin 2) = 0 := (idx_facts4 t).2.2.2.2.2.2.2.2.2.2.2.2.1
  have e1 : win4_6.index t (1 : Fin 2) = 0 := (idx_facts4 t).2.2.2.2.2.2.2.2.2.2.2.2.2.1
  funext a; apply Fin.ext
  match a with
  | ⟨0, _⟩ => show win4_6.index t (0 : Fin 2) * 1 + 1 * (y 0).val = (y 0).val; omega
  | ⟨1, _⟩ => show win4_6.index t (1 : Fin 2) * 4 + 1 * (y 1).val = (y 1).val; omega

/-- The blocks the body reads, off the arrays. -/
theorem iblk4_0_apply (c : Dev nD) (t : Fin cfg4.N) (p : Fin 2000) (k : Fin 28) :
    (iblk4 V c 0 t : Vec Ideal S2000x28 .f32) (ix2 p k) = (V c main_v34 : Vec Ideal S50000x28 .f32) (ix2 (rowAt4 t p) k) := by
  show V c main_v34 (((cfg4.win 0).blk t).view.emb (ix2 p k)) = _
  rw [emb4_0]

theorem iblk4_1_apply (c : Dev nD) (t : Fin cfg4.N) (p : Fin 2000) (k : Fin 32) :
    (iblk4 V c 1 t : Vec Ideal S2000x32 .f32) (ix2 p k) = (V c main_v47 : Vec Ideal S50000x32 .f32) (ix2 (rowAt4 t p) k) := by
  show V c main_v47 (((cfg4.win 1).blk t).view.emb (ix2 p k)) = _
  rw [emb4_1]

theorem iblk4_2_eq (c : Dev nD) (t : Fin cfg4.N) : (iblk4 V c 2 t : Vec Ideal S28x64 .f32) = V c main_v48 := by
  funext y
  show V c main_v48 (((cfg4.win 2).blk t).view.emb y) = V c main_v48 y
  rw [emb4_2]

theorem iblk4_3_eq (c : Dev nD) (t : Fin cfg4.N) : (iblk4 V c 3 t : Vec Ideal S32x64 .f32) = V c main_v49 := by
  funext y
  show V c main_v49 (((cfg4.win 3).blk t).view.emb y) = V c main_v49 y
  rw [emb4_3]

theorem iblk4_4_eq (c : Dev nD) (t : Fin cfg4.N) : (iblk4 V c 4 t : Vec Ideal S1x64 .f32) = V c main_v50 := by
  funext y
  show V c main_v50 (((cfg4.win 4).blk t).view.emb y) = V c main_v50 y
  rw [emb4_4]

theorem iblk4_5_eq (c : Dev nD) (t : Fin cfg4.N) : (iblk4 V c 5 t : Vec Ideal S64x4 .f32) = V c main_arg26 := by
  funext y
  show V c main_arg26 (((cfg4.win 5).blk t).view.emb y) = V c main_arg26 y
  rw [emb4_5]

theorem iblk4_6_eq (c : Dev nD) (t : Fin cfg4.N) : (iblk4 V c 6 t : Vec Ideal S1x4 .f32) = V c main_v51 := by
  funext y
  show V c main_v51 (((cfg4.win 6).blk t).view.emb y) = V c main_v51 y
  rw [emb4_6]

/-- The node network at a row depends only on that row of its two feature arrays. -/
theorem mlp2Arr_rows4 {n m a b o r : ℕ} (A : A2 n a) (Bv : A2 n b) (A' : A2 m a) (Bv' : A2 m b) (Wa : A2 a o) (Wb : A2 b o)
    (B1 : A2 1 o) (W2 : A2 o r) (B2 : A2 1 r) (p : Fin m) (e : Fin n)
    (hA : ∀ k, A' (ix2 p k) = A (ix2 e k)) (hB : ∀ k, Bv' (ix2 p k) = Bv (ix2 e k)) (q : Fin r) :
    mlp2Arr A' Bv' Wa Wb B1 W2 B2 (ix2 p q) = mlp2Arr A Bv Wa Wb B1 W2 B2 (ix2 e q) := by
  have eA : rowOf A' p = rowOf A e := funext hA
  have eB : rowOf Bv' p = rowOf Bv e := funext hB
  show mlpOut (mlp2Hid (rowOf A' p) (rowOf Bv' p) (mat Wa) (mat Wb) (rowOf B1 0)) (mat W2) (rowOf B2 0) q
    = mlpOut (mlp2Hid (rowOf A e) (rowOf Bv e) (mat Wa) (mat Wb) (rowOf B1 0)) (mat W2) (rowOf B2 0) q
  rw [eA, eB]

/-- What point `t` writes back is block `t` of the node network of the arrays. -/
theorem flushed4_7_eq (c : Dev nD) (t : Fin cfg4.N) :
    (dat4 (F := Ideal) V c).flushed 7 t = ((cfg4.win 7).blk t).view.read (Elt Ideal)
      (mlp2Arr (V c main_v34) (V c main_v47) (V c main_v48) (V c main_v49) (V c main_v50) (V c main_arg26) (V c main_v51)) := by
  show (cfg4.win 7).cut (grid4.coords t) ((dat4 V c).after 7 t) = _
  rw [after4_7, out4_7_eq, iblk4_2_eq, iblk4_3_eq, iblk4_4_eq, iblk4_5_eq, iblk4_6_eq]
  suffices h : ∀ y : S2000x4.Idx,
      mlp2Arr (iblk4 V c 0 t : Vec Ideal S2000x28 .f32) (iblk4 V c 1 t : Vec Ideal S2000x32 .f32) (V c main_v48) (V c main_v49) (V c main_v50) (V c main_arg26) (V c main_v51) y
        = mlp2Arr (V c main_v34) (V c main_v47) (V c main_v48) (V c main_v49) (V c main_v50) (V c main_arg26) (V c main_v51)
            (((cfg4.win 7).blk t).view.emb y) from funext h
  intro y
  obtain ⟨p, q, rfl⟩ : ∃ p q, y = ix2 p q := ⟨y 0, y 1, eq_ix2 y⟩
  rw [emb4_7]
  exact mlp2Arr_rows4 _ _ _ _ _ _ _ _ _ p (rowAt4 t p) (iblk4_0_apply V c t p) (iblk4_1_apply V c t p) q

/-- An index of the output array is in point `t`'s block iff each coordinate is in the block's range on its axis. -/
theorem mem_blk4_7 (t : Fin cfg4.N) (i : S50000x4.Idx) :
    i ∈ ((cfg4.win 7).blk t).view.set ↔ ∀ a : Fin 2, win4_7.index t a * S2000x4.size a ≤ (i a).val ∧ (i a).val < win4_7.index t a * S2000x4.size a + S2000x4.size a := by
  show i ∈ ((View.whole main_v52).slice (win4_7.rect t)).set ↔ _
  rw [View.set_slice_whole, Rect.mem_set_unit]
  exact Iff.rfl

/-- Row `i` of the output is in the block of point `i / 2000`. -/
theorem cover4_7_arr (i : S50000x4.Idx) :
    ∃ t : Fin cfg4.N, (cfg4.win 7).flush t = true ∧ i ∈ ((cfg4.win 7).blk t).view.set := by
  have hi0 : (i 0).val < 50000 := (i 0).isLt
  have hi1 : (i 1).val < 4 := (i 1).isLt
  have ht : (i 0).val / 2000 < cfg4.N := lt_of_lt_of_eq (by omega) N_4.symm
  have e0 : win4_7.index ⟨(i 0).val / 2000, ht⟩ (0 : Fin 2) = (i 0).val / 2000 := (idx_facts4 ⟨(i 0).val / 2000, ht⟩).2.2.2.2.2.2.2.2.2.2.2.2.2.2.1
  have e1 : win4_7.index ⟨(i 0).val / 2000, ht⟩ (1 : Fin 2) = 0 := (idx_facts4 ⟨(i 0).val / 2000, ht⟩).2.2.2.2.2.2.2.2.2.2.2.2.2.2.2
  refine ⟨⟨(i 0).val / 2000, ht⟩, flush4_7 _, ?_⟩
  rw [mem_blk4_7]
  intro a
  match a with
  | ⟨0, _⟩ =>
    show win4_7.index ⟨(i 0).val / 2000, ht⟩ (0 : Fin 2) * 2000 ≤ (i 0).val
      ∧ (i 0).val < win4_7.index ⟨(i 0).val / 2000, ht⟩ (0 : Fin 2) * 2000 + 2000
    omega
  | ⟨1, _⟩ =>
    show win4_7.index ⟨(i 0).val / 2000, ht⟩ (1 : Fin 2) * 4 ≤ (i 1).val
      ∧ (i 1).val < win4_7.index ⟨(i 0).val / 2000, ht⟩ (1 : Fin 2) * 4 + 4
    omega

/-- The network's output at all nodes, after the region. -/
theorem arr4_7 (c : Dev nD) :
    (dat4 (F := Ideal) V c).arrAt 7 cfg4.N
      = mlp2Arr (V c main_v34) (V c main_v47) (V c main_v48) (V c main_v49) (V c main_v50) (V c main_arg26) (V c main_v51) :=
  (dat4 (F := Ideal) V c).arrAt_eq_of_cover 7 _ (fun t _ => flushed4_7_eq V c t) cover4_7_arr

end Cert.KernelIdeal.KV
end
-- ==== Proof.KHostB.lean ====
/-
  The host operations and regions after the first edge network's region, read at the ideal values: the five results
  as functions of the argument arrays.

  From the messages, the two node-history states and the two endpoint index vectors: the mean message at every node
  (a scatter-add of the messages over the floored in-degree), the edge-history cell on it, both histories side by
  side, their rows at the edges' endpoints (every endpoint is a node index, so the printed guard around each gather
  selects the gathered row everywhere), the second edge network, its mean, and the node network. Each buffer a later
  stage reads is named at the segment boundary where it is read; a buffer no operation in between writes is carried
  across unchanged.
-/
import proofs.«417163_j44495861187273_2_alg».proof.Proof.KIface
import proofs.«417163_j44495861187273_2_alg».proof.Proof.K2
import proofs.«417163_j44495861187273_2_alg».proof.Proof.K3
import proofs.«417163_j44495861187273_2_alg».proof.Proof.K4
import Idealize.ShloMosaic.Lib.ValueLayout
import Idealize.ShloMosaic.Lib.ReduceAll
import Idealize.ShloMosaic.Lib.StableHlo.Predicate

noncomputable section
namespace Cert.KernelIdeal.KV
open Idealize.ShloMosaic Idealize.ShloMosaic.TcCoe Idealize.ShloMosaic.ValueIdx Idealize.SL.Sem Cert.KernelIdeal Cert.KernelIdeal.Gen Cert.GNN

namespace HostB

/-! ## Words: an index below 50000 is not negative, is in range, and is left alone by the wrap -/

theorem wrap_word (w : BitVec 32) (hw : w.toNat < 50000) :
    Scalar.select (IntOp.cmpi .slt w 0#32) (IntOp.addi w 50000#32) w = w := by
  have hne : ¬ IntOp.cmpi .slt w 0#32 = 1#1 := by
    intro h
    have h' := (StableHlo.Predicate.slt_iff_toNat (a := w) (b := 0#32) (by omega) (by decide)).1 h
    simp at h'
  rw [eq_zero_of_ne_one hne, select_zero]

theorem inrange_word (w : BitVec 32) (hw : w.toNat < 50000) :
    IntOp.andi (IntOp.cmpi .sge w 0#32) (IntOp.cmpi .sle w 49999#32) = 1#1 := by
  have h1 : IntOp.cmpi .sge w 0#32 = 1#1 :=
    (StableHlo.Predicate.sge_iff_toNat (a := w) (b := 0#32) (by omega) (by decide)).2 (by simp)
  have h2 : IntOp.cmpi .sle w 49999#32 = 1#1 :=
    (StableHlo.Predicate.sle_iff_toNat (a := w) (b := 49999#32) (by omega) (by decide)).2
      (by have : (49999#32 : BitVec 32).toNat = 49999 := by decide
          omega)
  rw [h1, h2]; decide

/-- A conjunction of ones, folded from one, is one. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    have h11 : IntOp.andi (1#1) (1#1) = 1#1 := by decide
    rw [h11]; exact foldl_andi_ones f hf l

/-! ## Index vectors -/

/-- The wrap of negative indices, as the kernel program spells it. -/
abbrev wrapK (idx : IVec S800000 32) : IVec S800000 32 :=
  select (cmpi .slt idx (broadcastInDim S800000 ![] bcast_S_S800000 (constantI S_ 32 0#32)))
    (addi idx (broadcastInDim S800000 ![] bcast_S_S800000 (constantI S_ 32 50000#32))) idx

theorem wrapK_apply (idx : IVec S800000 32) (hidx : ∀ e, (idx e).toNat < 50000) (e : S800000.Idx) :
    wrapK idx e = idx e := wrap_word _ (hidx e)

/-- The in-range mask of the (wrapped, column-shaped) indices, reduced over the unit axis. -/
abbrev maskK (v5 : IVec S800000x1 32) : IVec S800000 1 :=
  Host.reduce IntOp.andi
    (andi (cmpi .sge v5 (broadcastInDim S800000x1 ![] bcast_S_S800000x1 (constantI S_ 32 0#32)))
      (cmpi .sle v5 (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- When every index is below 50000 the mask is one everywhere. -/
theorem maskK_one (idx : IVec S800000 32) (hidx : ∀ e, (idx e).toNat < 50000) (e : S800000.Idx) :
    maskK (broadcastInDim S800000x1 ![0] bcast_S800000_S800000x1_0 idx) e = 1#1 := by
  show Host.reduce IntOp.andi _ _ _ _ e = 1#1
  rw [Host.reduce_eq_foldl]
  refine foldl_andi_ones _ (fun i => ?_) _
  exact inrange_word _ (hidx _)

/-- The row gather of a 28-column table at indices below 50000: the guarded gather the kernel program prints is the plain one. -/
theorem take28 (X : FVec Ideal S50000x28 .f32) (idx : IVec S800000 32) (hidx : ∀ e, (idx e).toNat < 50000) :
    select (broadcastInDim S800000x28 ![0] bcast_S800000_S800000x28_0
        (maskK (broadcastInDim S800000x1 ![0] bcast_S800000_S800000x1_0 (wrapK idx))))
      (Host.gather gather_S50000x28_S800000x1_S800000x28_1_0_n_n_0_1_128 X
        (broadcastInDim S800000x1 ![0] bcast_S800000_S800000x1_0 (wrapK idx)))
      (broadcastInDim S800000x28 ![] bcast_S_S800000x28 (constant (F := Ideal) S_ .f32 0x7FC00000#32))
    = gath28 X idx := by
  have hw : ∀ e, (wrapK idx e).toNat < 50000 := fun e => by rw [wrapK_apply idx hidx e]; exact hidx e
  funext j
  rw [select_apply]
  have hm : (broadcastInDim S800000x28 ![0] bcast_S800000_S800000x28_0
      (maskK (broadcastInDim S800000x1 ![0] bcast_S800000_S800000x1_0 (wrapK idx)))) j = 1#1 :=
    maskK_one (wrapK idx) hw _
  rw [hm, select_one]
  rfl

/-- Every entry of either endpoint vector is a word of the edge list. -/
theorem endIdx0_lt (ei : IVec S2x800000 32) (h : IdxOK ei) (e : S800000.Idx) : (endIdx0 ei e).toNat < 50000 := h _
theorem endIdx1_lt (ei : IVec S2x800000 32) (h : IdxOK ei) (e : S800000.Idx) : (endIdx1 ei e).toNat < 50000 := h _

/-! ## Weight preparation: a transposed matrix, a block of rows, a bias as one row -/

theorem tr_eq {a b : ℕ} (W : A2 a b) (h : (⟨2, ![a, b]⟩ : Shape).Transposes [1, 0] ⟨2, ![b, a]⟩) :
    transpose ⟨2, ![b, a]⟩ [1, 0] W h = tr W := by
  funext j; rw [eq_ix2 j]; exact transpose_ix2_apply W h _ _

theorem rowsFrom_eq {a b : ℕ} (o k : ℕ) (hk : o + k ≤ a) (W : A2 a b)
    (h : (⟨2, ![a, b]⟩ : Shape).Slices ![o, 0] ⟨2, ![k, b]⟩) :
    extractStridedSlice ⟨2, ![k, b]⟩ ![o, 0] W h = rowsFrom o k hk W := by
  funext j; rw [eq_ix2 j]; exact slice2_axis0_apply o W h _ _ _ rfl

theorem bias1_eq {f : ℕ} (b : A1 f) (h : (⟨1, ![f]⟩ : Shape).ShapeCasts ⟨2, ![1, f]⟩) :
    shapeCast ⟨2, ![1, f]⟩ b h = bias1 b := by
  funext j; rw [eq_ix2 j]; exact shapeCast_a_1a_apply b h _ _

theorem biasSum_eq {f : ℕ} (b1 b2 : FVec Ideal ⟨1, ![f]⟩ .f32) (h : (⟨1, ![f]⟩ : Shape).ShapeCasts ⟨2, ![1, f]⟩) :
    shapeCast ⟨2, ![1, f]⟩ (addf b1 b2) h = biasSum b1 b2 := by
  funext j; rw [eq_ix2 j]; exact shapeCast_a_1a_apply (addf b1 b2) h _ _

/-! ## A typed reference's transports are the identity -/

theorem ofBuf_toBuf {T : BufTy} (x : StableHlo.TRef sig T) (v : T.Contents (Elt Ideal)) : x.ofBuf (x.toBuf v) = v := by
  obtain ⟨r, h, p, q⟩ := x
  subst h
  rfl

theorem ofBuf_v7 (p : (main_v7 : Ref sig .tc).ty = ⟨S800000, .i32⟩) (q : (main_v7 : Ref sig .tc).space ≠ .host)
    (r : (main_v7 : Ref sig .tc).isScoped = false) (v : IVec S800000 32) :
    (StableHlo.TRef.of (T := ⟨S800000, .i32⟩) main_v7 p q r).ofBuf (Val := Elt Ideal) v = v := rfl
theorem ofBuf_v9 (p : (main_v9 : Ref sig .tc).ty = ⟨S800000, .i32⟩) (q : (main_v9 : Ref sig .tc).space ≠ .host)
    (r : (main_v9 : Ref sig .tc).isScoped = false) (v : IVec S800000 32) :
    (StableHlo.TRef.of (T := ⟨S800000, .i32⟩) main_v9 p q r).ofBuf (Val := Elt Ideal) v = v := rfl
theorem ofBuf_v34 (p : (main_v34 : Ref sig .tc).ty = ⟨S50000x28, .f32⟩) (q : (main_v34 : Ref sig .tc).space ≠ .host)
    (r : (main_v34 : Ref sig .tc).isScoped = false) (v : FVec Ideal S50000x28 .f32) :
    (StableHlo.TRef.of (T := ⟨S50000x28, .f32⟩) main_v34 p q r).ofBuf (Val := Elt Ideal) v = v := rfl
theorem toBuf_v35 (p : (main_v35 : Ref sig .tc).ty = ⟨S800000x28, .f32⟩) (q : (main_v35 : Ref sig .tc).space ≠ .host)
    (r : (main_v35 : Ref sig .tc).isScoped = false) (v : FVec Ideal S800000x28 .f32) :
    (StableHlo.TRef.of (T := ⟨S800000x28, .f32⟩) main_v35 p q r).toBuf (Val := Elt Ideal) v = v := rfl
theorem toBuf_v36 (p : (main_v36 : Ref sig .tc).ty = ⟨S800000x28, .f32⟩) (q : (main_v36 : Ref sig .tc).space ≠ .host)
    (r : (main_v36 : Ref sig .tc).isScoped = false) (v : FVec Ideal S800000x28 .f32) :
    (StableHlo.TRef.of (T := ⟨S800000x28, .f32⟩) main_v36 p q r).toBuf (Val := Elt Ideal) v = v := rfl

/-! ## A buffer that a stretch of host operations does not write holds afterwards what it held before -/

local macro "host_carry" b:ident ops:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg)
theorem arg12_walk (c : Dev nD) : W16 (F := Ideal) m ρ c (Proc.devRef .tc main_arg12) = W7 (F := Ideal) m ρ c (Proc.devRef .tc main_arg12) :=
  calc W16 (F := Ideal) m ρ c (Proc.devRef .tc main_arg12)
    _ = W15 (F := Ideal) m ρ c (Proc.devRef .tc main_arg12) := W16_of_ne m ρ c main_arg12 (by decide)
    _ = W14 (F := Ideal) m ρ c (Proc.devRef .tc main_arg12) := by host_carry main_arg12 hostOps4
    _ = W13 (F := Ideal) m ρ c (Proc.devRef .tc main_arg12) := W14_of_ne m ρ c main_arg12 (by decide)
    _ = W12 (F := Ideal) m ρ c (Proc.devRef .tc main_arg12) := by host_carry main_arg12 hostOps3_3
    _ = W11 (F := Ideal) m ρ c (Proc.devRef .tc main_arg12) := by host_carry main_arg12 hostOps3_2
    _ = W10 (F := Ideal) m ρ c (Proc.devRef .tc main_arg12) := by host_carry main_arg12 hostOps3_1
    _ = W9 (F := Ideal) m ρ c (Proc.devRef .tc main_arg12) := by host_carry main_arg12 hostOps3
    _ = W8 (F := Ideal) m ρ c (Proc.devRef .tc main_arg12) := W9_of_ne m ρ c main_arg12 (by decide)
    _ = W7 (F := Ideal) m ρ c (Proc.devRef .tc main_arg12) := by host_carry main_arg12 hostOps2
theorem arg12_7 (c : Dev nD) : W7 (F := Ideal) m ρ c (Proc.devRef .tc main_arg12) = m ((c : Thread nD τ).loc main_arg12) :=
  (arg12_walk m ρ c).symm.trans (W16_main_arg12 m ρ c)

theorem arg13_walk (c : Dev nD) : W16 (F := Ideal) m ρ c (Proc.devRef .tc main_arg13) = W7 (F := Ideal) m ρ c (Proc.devRef .tc main_arg13) :=
  calc W16 (F := Ideal) m ρ c (Proc.devRef .tc main_arg13)
    _ = W15 (F := Ideal) m ρ c (Proc.devRef .tc main_arg13) := W16_of_ne m ρ c main_arg13 (by decide)
    _ = W14 (F := Ideal) m ρ c (Proc.devRef .tc main_arg13) := by host_carry main_arg13 hostOps4
    _ = W13 (F := Ideal) m ρ c (Proc.devRef .tc main_arg13) := W14_of_ne m ρ c main_arg13 (by decide)
    _ = W12 (F := Ideal) m ρ c (Proc.devRef .tc main_arg13) := by host_carry main_arg13 hostOps3_3
    _ = W11 (F := Ideal) m ρ c (Proc.devRef .tc main_arg13) := by host_carry main_arg13 hostOps3_2
    _ = W10 (F := Ideal) m ρ c (Proc.devRef .tc main_arg13) := by host_carry main_arg13 hostOps3_1
    _ = W9 (F := Ideal) m ρ c (Proc.devRef .tc main_arg13) := by host_carry main_arg13 hostOps3
    _ = W8 (F := Ideal) m ρ c (Proc.devRef .tc main_arg13) := W9_of_ne m ρ c main_arg13 (by decide)
    _ = W7 (F := Ideal) m ρ c (Proc.devRef .tc main_arg13) := by host_carry main_arg13 hostOps2
theorem arg13_7 (c : Dev nD) : W7 (F := Ideal) m ρ c (Proc.devRef .tc main_arg13) = m ((c : Thread nD τ).loc main_arg13) :=
  (arg13_walk m ρ c).symm.trans (W16_main_arg13 m ρ c)

theorem arg14_walk (c : Dev nD) : W16 (F := Ideal) m ρ c (Proc.devRef .tc main_arg14) = W7 (F := Ideal) m ρ c (Proc.devRef .tc main_arg14) :=
  calc W16 (F := Ideal) m ρ c (Proc.devRef .tc main_arg14)
    _ = W15 (F := Ideal) m ρ c (Proc.devRef .tc main_arg14) := W16_of_ne m ρ c main_arg14 (by decide)
    _ = W14 (F := Ideal) m ρ c (Proc.devRef .tc main_arg14) := by host_carry main_arg14 hostOps4
    _ = W13 (F := Ideal) m ρ c (Proc.devRef .tc main_arg14) := W14_of_ne m ρ c main_arg14 (by decide)
    _ = W12 (F := Ideal) m ρ c (Proc.devRef .tc main_arg14) := by host_carry main_arg14 hostOps3_3
    _ = W11 (F := Ideal) m ρ c (Proc.devRef .tc main_arg14) := by host_carry main_arg14 hostOps3_2
    _ = W10 (F := Ideal) m ρ c (Proc.devRef .tc main_arg14) := by host_carry main_arg14 hostOps3_1
    _ = W9 (F := Ideal) m ρ c (Proc.devRef .tc main_arg14) := by host_carry main_arg14 hostOps3
    _ = W8 (F := Ideal) m ρ c (Proc.devRef .tc main_arg14) := W9_of_ne m ρ c main_arg14 (by decide)
    _ = W7 (F := Ideal) m ρ c (Proc.devRef .tc main_arg14) := by host_carry main_arg14 hostOps2
theorem arg14_7 (c : Dev nD) : W7 (F := Ideal) m ρ c (Proc.devRef .tc main_arg14) = m ((c : Thread nD τ).loc main_arg14) :=
  (arg14_walk m ρ c).symm.trans (W16_main_arg14 m ρ c)

theorem arg15_walk (c : Dev nD) : W16 (F := Ideal) m ρ c (Proc.devRef .tc main_arg15) = W7 (F := Ideal) m ρ c (Proc.devRef .tc main_arg15) :=
  calc W16 (F := Ideal) m ρ c (Proc.devRef .tc main_arg15)
    _ = W15 (F := Ideal) m ρ c (Proc.devRef .tc main_arg15) := W16_of_ne m ρ c main_arg15 (by decide)
    _ = W14 (F := Ideal) m ρ c (Proc.devRef .tc main_arg15) := by host_carry main_arg15 hostOps4
    _ = W13 (F := Ideal) m ρ c (Proc.devRef .tc main_arg15) := W14_of_ne m ρ c main_arg15 (by decide)
    _ = W12 (F := Ideal) m ρ c (Proc.devRef .tc main_arg15) := by host_carry main_arg15 hostOps3_3
    _ = W11 (F := Ideal) m ρ c (Proc.devRef .tc main_arg15) := by host_carry main_arg15 hostOps3_2
    _ = W10 (F := Ideal) m ρ c (Proc.devRef .tc main_arg15) := by host_carry main_arg15 hostOps3_1
    _ = W9 (F := Ideal) m ρ c (Proc.devRef .tc main_arg15) := by host_carry main_arg15 hostOps3
    _ = W8 (F := Ideal) m ρ c (Proc.devRef .tc main_arg15) := W9_of_ne m ρ c main_arg15 (by decide)
    _ = W7 (F := Ideal) m ρ c (Proc.devRef .tc main_arg15) := by host_carry main_arg15 hostOps2
theorem arg15_7 (c : Dev nD) : W7 (F := Ideal) m ρ c (Proc.devRef .tc main_arg15) = m ((c : Thread nD τ).loc main_arg15) :=
  (arg15_walk m ρ c).symm.trans (W16_main_arg15 m ρ c)

/-! ## After the host operations that follow the first edge network's region -/

theorem v23_8 (c : Dev nD) (h7 : At7 m ρ c) : W8 (F := Ideal) m ρ c (Proc.devRef .tc main_v23) = inDeg (endIdx1 (inpK m c).ei) := by
  have hcol := h7.col
  show StableHlo.after hostOps2 (W7 (F := Ideal) m ρ c) (Proc.devRef .tc main_v23) = _
  revert hcol
  generalize W7 (F := Ideal) m ρ c = G
  intro hcol
  simp only [hostOps2]
  after_results_simp
  rw [hcol]
  rfl

theorem v28_8 (c : Dev nD) (h7 : At7 m ρ c) : W8 (F := Ideal) m ρ c (Proc.devRef .tc main_v28) = AGG (inpK m c) := by
  have hcol := h7.col
  have hmsg := h7.msg
  show StableHlo.after hostOps2 (W7 (F := Ideal) m ρ c) (Proc.devRef .tc main_v28) = _
  revert hcol hmsg
  generalize W7 (F := Ideal) m ρ c = G
  intro hcol hmsg
  simp only [hostOps2]
  after_results_simp
  rw [hcol, hmsg]
  rfl

theorem v29_8 (c : Dev nD) : W8 (F := Ideal) m ρ c (Proc.devRef .tc main_v29) = tr (inpK m c).wihe := by
  have ha := arg12_7 m ρ c
  show StableHlo.after hostOps2 (W7 (F := Ideal) m ρ c) (Proc.devRef .tc main_v29) = _
  revert ha
  generalize W7 (F := Ideal) m ρ c = G
  intro ha
  simp only [hostOps2]
  after_results_simp
  rw [ha]
  exact tr_eq _ _

theorem v30_8 (c : Dev nD) : W8 (F := Ideal) m ρ c (Proc.devRef .tc main_v30) = tr (inpK m c).whhe := by
  have ha := arg13_7 m ρ c
  show StableHlo.after hostOps2 (W7 (F := Ideal) m ρ c) (Proc.devRef .tc main_v30) = _
  revert ha
  generalize W7 (F := Ideal) m ρ c = G
  intro ha
  simp only [hostOps2]
  after_results_simp
  rw [ha]
  exact tr_eq _ _

theorem v32_8 (c : Dev nD) : W8 (F := Ideal) m ρ c (Proc.devRef .tc main_v32) = biasSum (inpK m c).bihe (inpK m c).bhhe := by
  have ha := arg14_7 m ρ c
  have hb := arg15_7 m ρ c
  show StableHlo.after hostOps2 (W7 (F := Ideal) m ρ c) (Proc.devRef .tc main_v32) = _
  revert ha hb
  generalize W7 (F := Ideal) m ρ c = G
  intro ha hb
  simp only [hostOps2]
  after_results_simp
  rw [ha, hb]
  exact biasSum_eq (f := 32) (m ((c : Thread nD τ).loc main_arg14)) (m ((c : Thread nD τ).loc main_arg15)) shapeCasts_S32_S1x32

/-! ## The second LSTM region: the edge-history cell on the mean messages -/

theorem arg6_walk (c : Dev nD) : W16 (F := Ideal) m ρ c (Proc.devRef .tc main_arg6) = W8 (F := Ideal) m ρ c (Proc.devRef .tc main_arg6) :=
  calc W16 (F := Ideal) m ρ c (Proc.devRef .tc main_arg6)
    _ = W15 (F := Ideal) m ρ c (Proc.devRef .tc main_arg6) := W16_of_ne m ρ c main_arg6 (by decide)
    _ = W14 (F := Ideal) m ρ c (Proc.devRef .tc main_arg6) := by host_carry main_arg6 hostOps4
    _ = W13 (F := Ideal) m ρ c (Proc.devRef .tc main_arg6) := W14_of_ne m ρ c main_arg6 (by decide)
    _ = W12 (F := Ideal) m ρ c (Proc.devRef .tc main_arg6) := by host_carry main_arg6 hostOps3_3
    _ = W11 (F := Ideal) m ρ c (Proc.devRef .tc main_arg6) := by host_carry main_arg6 hostOps3_2
    _ = W10 (F := Ideal) m ρ c (Proc.devRef .tc main_arg6) := by host_carry main_arg6 hostOps3_1
    _ = W9 (F := Ideal) m ρ c (Proc.devRef .tc main_arg6) := by host_carry main_arg6 hostOps3
    _ = W8 (F := Ideal) m ρ c (Proc.devRef .tc main_arg6) := (W9_arr m ρ c 1).trans (((dat2 (V8 m ρ) c).arrAt_in 1 rfl _).trans (A_eq2 (V8 m ρ) c 1))
theorem arg6_8 (c : Dev nD) : W8 (F := Ideal) m ρ c (Proc.devRef .tc main_arg6) = m ((c : Thread nD τ).loc main_arg6) :=
  (arg6_walk m ρ c).symm.trans (W16_main_arg6 m ρ c)

theorem arg7_walk (c : Dev nD) : W16 (F := Ideal) m ρ c (Proc.devRef .tc main_arg7) = W8 (F := Ideal) m ρ c (Proc.devRef .tc main_arg7) :=
  calc W16 (F := Ideal) m ρ c (Proc.devRef .tc main_arg7)
    _ = W15 (F := Ideal) m ρ c (Proc.devRef .tc main_arg7) := W16_of_ne m ρ c main_arg7 (by decide)
    _ = W14 (F := Ideal) m ρ c (Proc.devRef .tc main_arg7) := by host_carry main_arg7 hostOps4
    _ = W13 (F := Ideal) m ρ c (Proc.devRef .tc main_arg7) := W14_of_ne m ρ c main_arg7 (by decide)
    _ = W12 (F := Ideal) m ρ c (Proc.devRef .tc main_arg7) := by host_carry main_arg7 hostOps3_3
    _ = W11 (F := Ideal) m ρ c (Proc.devRef .tc main_arg7) := by host_carry main_arg7 hostOps3_2
    _ = W10 (F := Ideal) m ρ c (Proc.devRef .tc main_arg7) := by host_carry main_arg7 hostOps3_1
    _ = W9 (F := Ideal) m ρ c (Proc.devRef .tc main_arg7) := by host_carry main_arg7 hostOps3
    _ = W8 (F := Ideal) m ρ c (Proc.devRef .tc main_arg7) := (W9_arr m ρ c 2).trans (((dat2 (V8 m ρ) c).arrAt_in 2 rfl _).trans (A_eq2 (V8 m ρ) c 2))
theorem arg7_8 (c : Dev nD) : W8 (F := Ideal) m ρ c (Proc.devRef .tc main_arg7) = m ((c : Thread nD τ).loc main_arg7) :=
  (arg7_walk m ρ c).symm.trans (W16_main_arg7 m ρ c)

theorem v33_0_9 (c : Dev nD) (h7 : At7 m ρ c) : W9 (F := Ideal) m ρ c (Proc.devRef .tc main_v33_0) = EH (inpK m c) := by
  have e1 : V8 (F := Ideal) m ρ c main_v28 = AGG (inpK m c) := v28_8 m ρ c h7
  have e2 : V8 (F := Ideal) m ρ c main_arg6 = (inpK m c).heh := arg6_8 m ρ c
  have e3 : V8 (F := Ideal) m ρ c main_arg7 = (inpK m c).hec := arg7_8 m ρ c
  have e4 : V8 (F := Ideal) m ρ c main_v29 = tr (inpK m c).wihe := v29_8 m ρ c
  have e5 : V8 (F := Ideal) m ρ c main_v30 = tr (inpK m c).whhe := v30_8 m ρ c
  have e6 : V8 (F := Ideal) m ρ c main_v32 = biasSum (inpK m c).bihe (inpK m c).bhhe := v32_8 m ρ c
  refine (W9_arr m ρ c 6).trans ((arr2_6 (V8 m ρ) c).trans ?_)
  rw [e1, e2, e3, e4, e5, e6]
  rfl

theorem v33_1_9 (c : Dev nD) (h7 : At7 m ρ c) : W9 (F := Ideal) m ρ c (Proc.devRef .tc main_v33_1) = EC (inpK m c) := by
  have e1 : V8 (F := Ideal) m ρ c main_v28 = AGG (inpK m c) := v28_8 m ρ c h7
  have e2 : V8 (F := Ideal) m ρ c main_arg6 = (inpK m c).heh := arg6_8 m ρ c
  have e3 : V8 (F := Ideal) m ρ c main_arg7 = (inpK m c).hec := arg7_8 m ρ c
  have e4 : V8 (F := Ideal) m ρ c main_v29 = tr (inpK m c).wihe := v29_8 m ρ c
  have e5 : V8 (F := Ideal) m ρ c main_v30 = tr (inpK m c).whhe := v30_8 m ρ c
  have e6 : V8 (F := Ideal) m ρ c main_v32 = biasSum (inpK m c).bihe (inpK m c).bhhe := v32_8 m ρ c
  refine (W9_arr m ρ c 7).trans ((arr2_7 (V8 m ρ) c).trans ?_)
  rw [e1, e2, e3, e4, e5, e6]
  rfl

theorem v5_0_walk9 (c : Dev nD) : W9 (F := Ideal) m ρ c (Proc.devRef .tc main_v5_0) = W7 (F := Ideal) m ρ c (Proc.devRef .tc main_v5_0) :=
  calc W9 (F := Ideal) m ρ c (Proc.devRef .tc main_v5_0)
    _ = W8 (F := Ideal) m ρ c (Proc.devRef .tc main_v5_0) := W9_of_ne m ρ c main_v5_0 (by decide)
    _ = W7 (F := Ideal) m ρ c (Proc.devRef .tc main_v5_0) := by host_carry main_v5_0 hostOps2

theorem v5_0_9 (c : Dev nD) (h7 : At7 m ρ c) : W9 (F := Ideal) m ρ c (Proc.devRef .tc main_v5_0) = NH (inpK m c) := (v5_0_walk9 m ρ c).trans h7.nh

/-! ## Both histories side by side, and their rows at the edges' endpoints -/

theorem v34_10 (c : Dev nD) (h7 : At7 m ρ c) : W10 (F := Ideal) m ρ c (Proc.devRef .tc main_v34) = FULL (inpK m c) := by
  have hnh := v5_0_9 m ρ c h7
  have heh := v33_0_9 m ρ c h7
  show StableHlo.after hostOps3 (W9 (F := Ideal) m ρ c) (Proc.devRef .tc main_v34) = _
  revert hnh heh
  generalize W9 (F := Ideal) m ρ c = G
  intro hnh heh
  simp only [hostOps3]
  after_results_simp
  rw [hnh, heh]
  rfl

theorem v7_walk10 (c : Dev nD) : W10 (F := Ideal) m ρ c (Proc.devRef .tc main_v7) = W7 (F := Ideal) m ρ c (Proc.devRef .tc main_v7) :=
  calc W10 (F := Ideal) m ρ c (Proc.devRef .tc main_v7)
    _ = W9 (F := Ideal) m ρ c (Proc.devRef .tc main_v7) := by host_carry main_v7 hostOps3
    _ = W8 (F := Ideal) m ρ c (Proc.devRef .tc main_v7) := W9_of_ne m ρ c main_v7 (by decide)
    _ = W7 (F := Ideal) m ρ c (Proc.devRef .tc main_v7) := by host_carry main_v7 hostOps2

theorem v7_10 (c : Dev nD) (h7 : At7 m ρ c) : W10 (F := Ideal) m ρ c (Proc.devRef .tc main_v7) = endIdx0 (inpK m c).ei := (v7_walk10 m ρ c).trans h7.row

theorem v35_11 (c : Dev nD) (hidx : IdxOK (inpK m c).ei) (h7 : At7 m ρ c) :
    W11 (F := Ideal) m ρ c (Proc.devRef .tc main_v35) = gath28 (FULL (inpK m c)) (endIdx0 (inpK m c).ei) := by
  have htab := v34_10 m ρ c h7
  have hix := v7_10 m ρ c h7
  show StableHlo.after hostOps3_1 (W10 (F := Ideal) m ρ c) (Proc.devRef .tc main_v35) = _
  revert htab hix
  generalize W10 (F := Ideal) m ρ c = G
  intro htab hix
  simp only [hostOps3_1]
  after_results_simp
  rw [htab, hix]
  simp only [ofBuf_toBuf, ofBuf_v7, ofBuf_v9, ofBuf_v34, toBuf_v35, toBuf_v36]
  exact take28 _ _ (endIdx0_lt _ hidx)
theorem v34_walk11 (c : Dev nD) : W11 (F := Ideal) m ρ c (Proc.devRef .tc main_v34) = W10 (F := Ideal) m ρ c (Proc.devRef .tc main_v34) :=
  calc W11 (F := Ideal) m ρ c (Proc.devRef .tc main_v34)
    _ = W10 (F := Ideal) m ρ c (Proc.devRef .tc main_v34) := by host_carry main_v34 hostOps3_1

theorem v34_11 (c : Dev nD) (h7 : At7 m ρ c) : W11 (F := Ideal) m ρ c (Proc.devRef .tc main_v34) = FULL (inpK m c) := (v34_walk11 m ρ c).trans (v34_10 m ρ c h7)
theorem v9_walk11 (c : Dev nD) : W11 (F := Ideal) m ρ c (Proc.devRef .tc main_v9) = W7 (F := Ideal) m ρ c (Proc.devRef .tc main_v9) :=
  calc W11 (F := Ideal) m ρ c (Proc.devRef .tc main_v9)
    _ = W10 (F := Ideal) m ρ c (Proc.devRef .tc main_v9) := by host_carry main_v9 hostOps3_1
    _ = W9 (F := Ideal) m ρ c (Proc.devRef .tc main_v9) := by host_carry main_v9 hostOps3
    _ = W8 (F := Ideal) m ρ c (Proc.devRef .tc main_v9) := W9_of_ne m ρ c main_v9 (by decide)
    _ = W7 (F := Ideal) m ρ c (Proc.devRef .tc main_v9) := by host_carry main_v9 hostOps2

theorem v9_11 (c : Dev nD) (h7 : At7 m ρ c) : W11 (F := Ideal) m ρ c (Proc.devRef .tc main_v9) = endIdx1 (inpK m c).ei := (v9_walk11 m ρ c).trans h7.col

theorem v36_12 (c : Dev nD) (hidx : IdxOK (inpK m c).ei) (h7 : At7 m ρ c) :
    W12 (F := Ideal) m ρ c (Proc.devRef .tc main_v36) = gath28 (FULL (inpK m c)) (endIdx1 (inpK m c).ei) := by
  have htab := v34_11 m ρ c h7
  have hix := v9_11 m ρ c h7
  show StableHlo.after hostOps3_2 (W11 (F := Ideal) m ρ c) (Proc.devRef .tc main_v36) = _
  revert htab hix
  generalize W11 (F := Ideal) m ρ c = G
  intro htab hix
  simp only [hostOps3_2]
  after_results_simp
  rw [htab, hix]
  simp only [ofBuf_toBuf, ofBuf_v7, ofBuf_v9, ofBuf_v34, toBuf_v35, toBuf_v36]
  exact take28 _ _ (endIdx1_lt _ hidx)
/-! ## The second edge network's operands -/

theorem arg20_walk (c : Dev nD) : W16 (F := Ideal) m ρ c (Proc.devRef .tc main_arg20) = W12 (F := Ideal) m ρ c (Proc.devRef .tc main_arg20) :=
  calc W16 (F := Ideal) m ρ c (Proc.devRef .tc main_arg20)
    _ = W15 (F := Ideal) m ρ c (Proc.devRef .tc main_arg20) := W16_of_ne m ρ c main_arg20 (by decide)
    _ = W14 (F := Ideal) m ρ c (Proc.devRef .tc main_arg20) := by host_carry main_arg20 hostOps4
    _ = W13 (F := Ideal) m ρ c (Proc.devRef .tc main_arg20) := W14_of_ne m ρ c main_arg20 (by decide)
    _ = W12 (F := Ideal) m ρ c (Proc.devRef .tc main_arg20) := by host_carry main_arg20 hostOps3_3
theorem arg20_12 (c : Dev nD) : W12 (F := Ideal) m ρ c (Proc.devRef .tc main_arg20) = m ((c : Thread nD τ).loc main_arg20) :=
  (arg20_walk m ρ c).symm.trans (W16_main_arg20 m ρ c)

theorem arg21_walk (c : Dev nD) : W16 (F := Ideal) m ρ c (Proc.devRef .tc main_arg21) = W12 (F := Ideal) m ρ c (Proc.devRef .tc main_arg21) :=
  calc W16 (F := Ideal) m ρ c (Proc.devRef .tc main_arg21)
    _ = W15 (F := Ideal) m ρ c (Proc.devRef .tc main_arg21) := W16_of_ne m ρ c main_arg21 (by decide)
    _ = W14 (F := Ideal) m ρ c (Proc.devRef .tc main_arg21) := by host_carry main_arg21 hostOps4
    _ = W13 (F := Ideal) m ρ c (Proc.devRef .tc main_arg21) := W14_of_ne m ρ c main_arg21 (by decide)
    _ = W12 (F := Ideal) m ρ c (Proc.devRef .tc main_arg21) := by host_carry main_arg21 hostOps3_3
theorem arg21_12 (c : Dev nD) : W12 (F := Ideal) m ρ c (Proc.devRef .tc main_arg21) = m ((c : Thread nD τ).loc main_arg21) :=
  (arg21_walk m ρ c).symm.trans (W16_main_arg21 m ρ c)

theorem arg23_walk (c : Dev nD) : W16 (F := Ideal) m ρ c (Proc.devRef .tc main_arg23) = W12 (F := Ideal) m ρ c (Proc.devRef .tc main_arg23) :=
  calc W16 (F := Ideal) m ρ c (Proc.devRef .tc main_arg23)
    _ = W15 (F := Ideal) m ρ c (Proc.devRef .tc main_arg23) := W16_of_ne m ρ c main_arg23 (by decide)
    _ = W14 (F := Ideal) m ρ c (Proc.devRef .tc main_arg23) := by host_carry main_arg23 hostOps4
    _ = W13 (F := Ideal) m ρ c (Proc.devRef .tc main_arg23) := W14_of_ne m ρ c main_arg23 (by decide)
    _ = W12 (F := Ideal) m ρ c (Proc.devRef .tc main_arg23) := by host_carry main_arg23 hostOps3_3
theorem arg23_12 (c : Dev nD) : W12 (F := Ideal) m ρ c (Proc.devRef .tc main_arg23) = m ((c : Thread nD τ).loc main_arg23) :=
  (arg23_walk m ρ c).symm.trans (W16_main_arg23 m ρ c)

theorem arg3_walk (c : Dev nD) : W16 (F := Ideal) m ρ c (Proc.devRef .tc main_arg3) = W13 (F := Ideal) m ρ c (Proc.devRef .tc main_arg3) :=
  calc W16 (F := Ideal) m ρ c (Proc.devRef .tc main_arg3)
    _ = W15 (F := Ideal) m ρ c (Proc.devRef .tc main_arg3) := W16_of_ne m ρ c main_arg3 (by decide)
    _ = W14 (F := Ideal) m ρ c (Proc.devRef .tc main_arg3) := by host_carry main_arg3 hostOps4
    _ = W13 (F := Ideal) m ρ c (Proc.devRef .tc main_arg3) := (W14_arr m ρ c 2).trans (((dat3 (V13 m ρ) c).arrAt_in 2 rfl _).trans (A_eq3 (V13 m ρ) c 2))
theorem arg3_13 (c : Dev nD) : W13 (F := Ideal) m ρ c (Proc.devRef .tc main_arg3) = m ((c : Thread nD τ).loc main_arg3) :=
  (arg3_walk m ρ c).symm.trans (W16_main_arg3 m ρ c)

theorem arg22_walk (c : Dev nD) : W16 (F := Ideal) m ρ c (Proc.devRef .tc main_arg22) = W13 (F := Ideal) m ρ c (Proc.devRef .tc main_arg22) :=
  calc W16 (F := Ideal) m ρ c (Proc.devRef .tc main_arg22)
    _ = W15 (F := Ideal) m ρ c (Proc.devRef .tc main_arg22) := W16_of_ne m ρ c main_arg22 (by decide)
    _ = W14 (F := Ideal) m ρ c (Proc.devRef .tc main_arg22) := by host_carry main_arg22 hostOps4
    _ = W13 (F := Ideal) m ρ c (Proc.devRef .tc main_arg22) := (W14_arr m ρ c 7).trans (((dat3 (V13 m ρ) c).arrAt_in 7 rfl _).trans (A_eq3 (V13 m ρ) c 7))
theorem arg22_13 (c : Dev nD) : W13 (F := Ideal) m ρ c (Proc.devRef .tc main_arg22) = m ((c : Thread nD τ).loc main_arg22) :=
  (arg22_walk m ρ c).symm.trans (W16_main_arg22 m ρ c)

theorem v35_walk13 (c : Dev nD) : W13 (F := Ideal) m ρ c (Proc.devRef .tc main_v35) = W11 (F := Ideal) m ρ c (Proc.devRef .tc main_v35) :=
  calc W13 (F := Ideal) m ρ c (Proc.devRef .tc main_v35)
    _ = W12 (F := Ideal) m ρ c (Proc.devRef .tc main_v35) := by host_carry main_v35 hostOps3_3
    _ = W11 (F := Ideal) m ρ c (Proc.devRef .tc main_v35) := by host_carry main_v35 hostOps3_2

theorem v36_walk13 (c : Dev nD) : W13 (F := Ideal) m ρ c (Proc.devRef .tc main_v36) = W12 (F := Ideal) m ρ c (Proc.devRef .tc main_v36) :=
  calc W13 (F := Ideal) m ρ c (Proc.devRef .tc main_v36)
    _ = W12 (F := Ideal) m ρ c (Proc.devRef .tc main_v36) := by host_carry main_v36 hostOps3_3

theorem v37_13 (c : Dev nD) : W13 (F := Ideal) m ρ c (Proc.devRef .tc main_v37) = rowsFrom 0 28 (by norm_num) (inpK m c).wo1 := by
  have ha := arg20_12 m ρ c
  show StableHlo.after hostOps3_3 (W12 (F := Ideal) m ρ c) (Proc.devRef .tc main_v37) = _
  revert ha
  generalize W12 (F := Ideal) m ρ c = G
  intro ha
  simp only [hostOps3_3]
  after_results_simp
  rw [ha]
  exact rowsFrom_eq 0 28 (by norm_num) (inpK m c).wo1 slices_S60x64_S28x64_0_0
theorem v38_13 (c : Dev nD) : W13 (F := Ideal) m ρ c (Proc.devRef .tc main_v38) = rowsFrom 28 28 (by norm_num) (inpK m c).wo1 := by
  have ha := arg20_12 m ρ c
  show StableHlo.after hostOps3_3 (W12 (F := Ideal) m ρ c) (Proc.devRef .tc main_v38) = _
  revert ha
  generalize W12 (F := Ideal) m ρ c = G
  intro ha
  simp only [hostOps3_3]
  after_results_simp
  rw [ha]
  exact rowsFrom_eq 28 28 (by norm_num) (inpK m c).wo1 slices_S60x64_S28x64_28_0
theorem v39_13 (c : Dev nD) : W13 (F := Ideal) m ρ c (Proc.devRef .tc main_v39) = rowsFrom 56 4 (by norm_num) (inpK m c).wo1 := by
  have ha := arg20_12 m ρ c
  show StableHlo.after hostOps3_3 (W12 (F := Ideal) m ρ c) (Proc.devRef .tc main_v39) = _
  revert ha
  generalize W12 (F := Ideal) m ρ c = G
  intro ha
  simp only [hostOps3_3]
  after_results_simp
  rw [ha]
  exact rowsFrom_eq 56 4 (by norm_num) (inpK m c).wo1 slices_S60x64_S4x64_56_0
theorem v40_13 (c : Dev nD) : W13 (F := Ideal) m ρ c (Proc.devRef .tc main_v40) = bias1 (inpK m c).bo1 := by
  have ha := arg21_12 m ρ c
  show StableHlo.after hostOps3_3 (W12 (F := Ideal) m ρ c) (Proc.devRef .tc main_v40) = _
  revert ha
  generalize W12 (F := Ideal) m ρ c = G
  intro ha
  simp only [hostOps3_3]
  after_results_simp
  rw [ha]
  exact bias1_eq (f := 64) (m ((c : Thread nD τ).loc main_arg21)) shapeCasts_S64_S1x64
theorem v41_13 (c : Dev nD) : W13 (F := Ideal) m ρ c (Proc.devRef .tc main_v41) = bias1 (inpK m c).bo2 := by
  have ha := arg23_12 m ρ c
  show StableHlo.after hostOps3_3 (W12 (F := Ideal) m ρ c) (Proc.devRef .tc main_v41) = _
  revert ha
  generalize W12 (F := Ideal) m ρ c = G
  intro ha
  simp only [hostOps3_3]
  after_results_simp
  rw [ha]
  exact bias1_eq (f := 32) (m ((c : Thread nD τ).loc main_arg23)) shapeCasts_S32_S1x32
/-! ## The second edge network's region -/

theorem v42_14 (c : Dev nD) (hidx : IdxOK (inpK m c).ei) (h7 : At7 m ρ c) : W14 (F := Ideal) m ρ c (Proc.devRef .tc main_v42) = E2 (inpK m c) := by
  have e1 : V13 (F := Ideal) m ρ c main_v35 = gath28 (FULL (inpK m c)) (endIdx0 (inpK m c).ei) := (v35_walk13 m ρ c).trans (v35_11 m ρ c hidx h7)
  have e2 : V13 (F := Ideal) m ρ c main_v36 = gath28 (FULL (inpK m c)) (endIdx1 (inpK m c).ei) := (v36_walk13 m ρ c).trans (v36_12 m ρ c hidx h7)
  have e3 : V13 (F := Ideal) m ρ c main_arg3 = (inpK m c).ea := arg3_13 m ρ c
  have e4 : V13 (F := Ideal) m ρ c main_v37 = rowsFrom 0 28 (by norm_num) (inpK m c).wo1 := v37_13 m ρ c
  have e5 : V13 (F := Ideal) m ρ c main_v38 = rowsFrom 28 28 (by norm_num) (inpK m c).wo1 := v38_13 m ρ c
  have e6 : V13 (F := Ideal) m ρ c main_v39 = rowsFrom 56 4 (by norm_num) (inpK m c).wo1 := v39_13 m ρ c
  have e7 : V13 (F := Ideal) m ρ c main_v40 = bias1 (inpK m c).bo1 := v40_13 m ρ c
  have e8 : V13 (F := Ideal) m ρ c main_arg22 = (inpK m c).wo2 := arg22_13 m ρ c
  have e9 : V13 (F := Ideal) m ρ c main_v41 = bias1 (inpK m c).bo2 := v41_13 m ρ c
  refine (W14_arr m ρ c 9).trans ((arr3_9 (V13 m ρ) c).trans ?_)
  rw [e1, e2, e3, e4, e5, e6, e7, e8, e9]
  rfl

/-! ## The mean of the second edge rows, and the node network's operands -/

theorem v9_walk14 (c : Dev nD) : W14 (F := Ideal) m ρ c (Proc.devRef .tc main_v9) = W11 (F := Ideal) m ρ c (Proc.devRef .tc main_v9) :=
  calc W14 (F := Ideal) m ρ c (Proc.devRef .tc main_v9)
    _ = W13 (F := Ideal) m ρ c (Proc.devRef .tc main_v9) := W14_of_ne m ρ c main_v9 (by decide)
    _ = W12 (F := Ideal) m ρ c (Proc.devRef .tc main_v9) := by host_carry main_v9 hostOps3_3
    _ = W11 (F := Ideal) m ρ c (Proc.devRef .tc main_v9) := by host_carry main_v9 hostOps3_2

theorem v23_walk14 (c : Dev nD) : W14 (F := Ideal) m ρ c (Proc.devRef .tc main_v23) = W8 (F := Ideal) m ρ c (Proc.devRef .tc main_v23) :=
  calc W14 (F := Ideal) m ρ c (Proc.devRef .tc main_v23)
    _ = W13 (F := Ideal) m ρ c (Proc.devRef .tc main_v23) := W14_of_ne m ρ c main_v23 (by decide)
    _ = W12 (F := Ideal) m ρ c (Proc.devRef .tc main_v23) := by host_carry main_v23 hostOps3_3
    _ = W11 (F := Ideal) m ρ c (Proc.devRef .tc main_v23) := by host_carry main_v23 hostOps3_2
    _ = W10 (F := Ideal) m ρ c (Proc.devRef .tc main_v23) := by host_carry main_v23 hostOps3_1
    _ = W9 (F := Ideal) m ρ c (Proc.devRef .tc main_v23) := by host_carry main_v23 hostOps3
    _ = W8 (F := Ideal) m ρ c (Proc.devRef .tc main_v23) := W9_of_ne m ρ c main_v23 (by decide)

theorem arg24_walk (c : Dev nD) : W16 (F := Ideal) m ρ c (Proc.devRef .tc main_arg24) = W14 (F := Ideal) m ρ c (Proc.devRef .tc main_arg24) :=
  calc W16 (F := Ideal) m ρ c (Proc.devRef .tc main_arg24)
    _ = W15 (F := Ideal) m ρ c (Proc.devRef .tc main_arg24) := W16_of_ne m ρ c main_arg24 (by decide)
    _ = W14 (F := Ideal) m ρ c (Proc.devRef .tc main_arg24) := by host_carry main_arg24 hostOps4
theorem arg24_14 (c : Dev nD) : W14 (F := Ideal) m ρ c (Proc.devRef .tc main_arg24) = m ((c : Thread nD τ).loc main_arg24) :=
  (arg24_walk m ρ c).symm.trans (W16_main_arg24 m ρ c)

theorem arg25_walk (c : Dev nD) : W16 (F := Ideal) m ρ c (Proc.devRef .tc main_arg25) = W14 (F := Ideal) m ρ c (Proc.devRef .tc main_arg25) :=
  calc W16 (F := Ideal) m ρ c (Proc.devRef .tc main_arg25)
    _ = W15 (F := Ideal) m ρ c (Proc.devRef .tc main_arg25) := W16_of_ne m ρ c main_arg25 (by decide)
    _ = W14 (F := Ideal) m ρ c (Proc.devRef .tc main_arg25) := by host_carry main_arg25 hostOps4
theorem arg25_14 (c : Dev nD) : W14 (F := Ideal) m ρ c (Proc.devRef .tc main_arg25) = m ((c : Thread nD τ).loc main_arg25) :=
  (arg25_walk m ρ c).symm.trans (W16_main_arg25 m ρ c)

theorem arg27_walk (c : Dev nD) : W16 (F := Ideal) m ρ c (Proc.devRef .tc main_arg27) = W14 (F := Ideal) m ρ c (Proc.devRef .tc main_arg27) :=
  calc W16 (F := Ideal) m ρ c (Proc.devRef .tc main_arg27)
    _ = W15 (F := Ideal) m ρ c (Proc.devRef .tc main_arg27) := W16_of_ne m ρ c main_arg27 (by decide)
    _ = W14 (F := Ideal) m ρ c (Proc.devRef .tc main_arg27) := by host_carry main_arg27 hostOps4
theorem arg27_14 (c : Dev nD) : W14 (F := Ideal) m ρ c (Proc.devRef .tc main_arg27) = m ((c : Thread nD τ).loc main_arg27) :=
  (arg27_walk m ρ c).symm.trans (W16_main_arg27 m ρ c)

theorem arg26_walk (c : Dev nD) : W16 (F := Ideal) m ρ c (Proc.devRef .tc main_arg26) = W15 (F := Ideal) m ρ c (Proc.devRef .tc main_arg26) :=
  calc W16 (F := Ideal) m ρ c (Proc.devRef .tc main_arg26)
    _ = W15 (F := Ideal) m ρ c (Proc.devRef .tc main_arg26) := (W16_arr m ρ c 5).trans (((dat4 (V15 m ρ) c).arrAt_in 5 rfl _).trans (A_eq4 (V15 m ρ) c 5))
theorem arg26_15 (c : Dev nD) : W15 (F := Ideal) m ρ c (Proc.devRef .tc main_arg26) = m ((c : Thread nD τ).loc main_arg26) :=
  (arg26_walk m ρ c).symm.trans (W16_main_arg26 m ρ c)

theorem v47_15 (c : Dev nD) (hidx : IdxOK (inpK m c).ei) (h7 : At7 m ρ c) : W15 (F := Ideal) m ρ c (Proc.devRef .tc main_v47) = AGG2 (inpK m c) := by
  have hcol := (v9_walk14 m ρ c).trans (v9_11 m ρ c h7)
  have he2 := v42_14 m ρ c hidx h7
  have hdeg := (v23_walk14 m ρ c).trans (v23_8 m ρ c h7)
  show StableHlo.after hostOps4 (W14 (F := Ideal) m ρ c) (Proc.devRef .tc main_v47) = _
  revert hcol he2 hdeg
  generalize W14 (F := Ideal) m ρ c = G
  intro hcol he2 hdeg
  simp only [hostOps4]
  after_results_simp
  rw [hcol, he2, hdeg]
  rfl

theorem v48_15 (c : Dev nD) : W15 (F := Ideal) m ρ c (Proc.devRef .tc main_v48) = rowsFrom 0 28 (by norm_num) (inpK m c).wn1 := by
  have ha := arg24_14 m ρ c
  show StableHlo.after hostOps4 (W14 (F := Ideal) m ρ c) (Proc.devRef .tc main_v48) = _
  revert ha
  generalize W14 (F := Ideal) m ρ c = G
  intro ha
  simp only [hostOps4]
  after_results_simp
  rw [ha]
  exact rowsFrom_eq 0 28 (by norm_num) (inpK m c).wn1 slices_S60x64_S28x64_0_0
theorem v49_15 (c : Dev nD) : W15 (F := Ideal) m ρ c (Proc.devRef .tc main_v49) = rowsFrom 28 32 (by norm_num) (inpK m c).wn1 := by
  have ha := arg24_14 m ρ c
  show StableHlo.after hostOps4 (W14 (F := Ideal) m ρ c) (Proc.devRef .tc main_v49) = _
  revert ha
  generalize W14 (F := Ideal) m ρ c = G
  intro ha
  simp only [hostOps4]
  after_results_simp
  rw [ha]
  exact rowsFrom_eq 28 32 (by norm_num) (inpK m c).wn1 slices_S60x64_S32x64_28_0
theorem v50_15 (c : Dev nD) : W15 (F := Ideal) m ρ c (Proc.devRef .tc main_v50) = bias1 (inpK m c).bn1 := by
  have ha := arg25_14 m ρ c
  show StableHlo.after hostOps4 (W14 (F := Ideal) m ρ c) (Proc.devRef .tc main_v50) = _
  revert ha
  generalize W14 (F := Ideal) m ρ c = G
  intro ha
  simp only [hostOps4]
  after_results_simp
  rw [ha]
  exact bias1_eq (f := 64) (m ((c : Thread nD τ).loc main_arg25)) shapeCasts_S64_S1x64
theorem v51_15 (c : Dev nD) : W15 (F := Ideal) m ρ c (Proc.devRef .tc main_v51) = bias1 (inpK m c).bn2 := by
  have ha := arg27_14 m ρ c
  show StableHlo.after hostOps4 (W14 (F := Ideal) m ρ c) (Proc.devRef .tc main_v51) = _
  revert ha
  generalize W14 (F := Ideal) m ρ c = G
  intro ha
  simp only [hostOps4]
  after_results_simp
  rw [ha]
  exact bias1_eq (f := 4) (m ((c : Thread nD τ).loc main_arg27)) shapeCasts_S4_S1x4
theorem v34_walk15 (c : Dev nD) : W15 (F := Ideal) m ρ c (Proc.devRef .tc main_v34) = W11 (F := Ideal) m ρ c (Proc.devRef .tc main_v34) :=
  calc W15 (F := Ideal) m ρ c (Proc.devRef .tc main_v34)
    _ = W14 (F := Ideal) m ρ c (Proc.devRef .tc main_v34) := by host_carry main_v34 hostOps4
    _ = W13 (F := Ideal) m ρ c (Proc.devRef .tc main_v34) := W14_of_ne m ρ c main_v34 (by decide)
    _ = W12 (F := Ideal) m ρ c (Proc.devRef .tc main_v34) := by host_carry main_v34 hostOps3_3
    _ = W11 (F := Ideal) m ρ c (Proc.devRef .tc main_v34) := by host_carry main_v34 hostOps3_2

/-! ## The node network's region, and the four states carried to the end -/

theorem v52_16 (c : Dev nD) (hidx : IdxOK (inpK m c).ei) (h7 : At7 m ρ c) : W16 (F := Ideal) m ρ c (Proc.devRef .tc main_v52) = OUT (inpK m c) := by
  have e1 : V15 (F := Ideal) m ρ c main_v34 = FULL (inpK m c) := (v34_walk15 m ρ c).trans (v34_11 m ρ c h7)
  have e2 : V15 (F := Ideal) m ρ c main_v47 = AGG2 (inpK m c) := v47_15 m ρ c hidx h7
  have e3 : V15 (F := Ideal) m ρ c main_v48 = rowsFrom 0 28 (by norm_num) (inpK m c).wn1 := v48_15 m ρ c
  have e4 : V15 (F := Ideal) m ρ c main_v49 = rowsFrom 28 32 (by norm_num) (inpK m c).wn1 := v49_15 m ρ c
  have e5 : V15 (F := Ideal) m ρ c main_v50 = bias1 (inpK m c).bn1 := v50_15 m ρ c
  have e6 : V15 (F := Ideal) m ρ c main_arg26 = (inpK m c).wn2 := arg26_15 m ρ c
  have e7 : V15 (F := Ideal) m ρ c main_v51 = bias1 (inpK m c).bn2 := v51_15 m ρ c
  refine (W16_arr m ρ c 7).trans ((arr4_7 (V15 m ρ) c).trans ?_)
  rw [e1, e2, e3, e4, e5, e6, e7]
  rfl

theorem v5_0_walk16 (c : Dev nD) : W16 (F := Ideal) m ρ c (Proc.devRef .tc main_v5_0) = W7 (F := Ideal) m ρ c (Proc.devRef .tc main_v5_0) :=
  calc W16 (F := Ideal) m ρ c (Proc.devRef .tc main_v5_0)
    _ = W15 (F := Ideal) m ρ c (Proc.devRef .tc main_v5_0) := W16_of_ne m ρ c main_v5_0 (by decide)
    _ = W14 (F := Ideal) m ρ c (Proc.devRef .tc main_v5_0) := by host_carry main_v5_0 hostOps4
    _ = W13 (F := Ideal) m ρ c (Proc.devRef .tc main_v5_0) := W14_of_ne m ρ c main_v5_0 (by decide)
    _ = W12 (F := Ideal) m ρ c (Proc.devRef .tc main_v5_0) := by host_carry main_v5_0 hostOps3_3
    _ = W11 (F := Ideal) m ρ c (Proc.devRef .tc main_v5_0) := by host_carry main_v5_0 hostOps3_2
    _ = W10 (F := Ideal) m ρ c (Proc.devRef .tc main_v5_0) := by host_carry main_v5_0 hostOps3_1
    _ = W9 (F := Ideal) m ρ c (Proc.devRef .tc main_v5_0) := by host_carry main_v5_0 hostOps3
    _ = W8 (F := Ideal) m ρ c (Proc.devRef .tc main_v5_0) := W9_of_ne m ρ c main_v5_0 (by decide)
    _ = W7 (F := Ideal) m ρ c (Proc.devRef .tc main_v5_0) := by host_carry main_v5_0 hostOps2

theorem v5_1_walk16 (c : Dev nD) : W16 (F := Ideal) m ρ c (Proc.devRef .tc main_v5_1) = W7 (F := Ideal) m ρ c (Proc.devRef .tc main_v5_1) :=
  calc W16 (F := Ideal) m ρ c (Proc.devRef .tc main_v5_1)
    _ = W15 (F := Ideal) m ρ c (Proc.devRef .tc main_v5_1) := W16_of_ne m ρ c main_v5_1 (by decide)
    _ = W14 (F := Ideal) m ρ c (Proc.devRef .tc main_v5_1) := by host_carry main_v5_1 hostOps4
    _ = W13 (F := Ideal) m ρ c (Proc.devRef .tc main_v5_1) := W14_of_ne m ρ c main_v5_1 (by decide)
    _ = W12 (F := Ideal) m ρ c (Proc.devRef .tc main_v5_1) := by host_carry main_v5_1 hostOps3_3
    _ = W11 (F := Ideal) m ρ c (Proc.devRef .tc main_v5_1) := by host_carry main_v5_1 hostOps3_2
    _ = W10 (F := Ideal) m ρ c (Proc.devRef .tc main_v5_1) := by host_carry main_v5_1 hostOps3_1
    _ = W9 (F := Ideal) m ρ c (Proc.devRef .tc main_v5_1) := by host_carry main_v5_1 hostOps3
    _ = W8 (F := Ideal) m ρ c (Proc.devRef .tc main_v5_1) := W9_of_ne m ρ c main_v5_1 (by decide)
    _ = W7 (F := Ideal) m ρ c (Proc.devRef .tc main_v5_1) := by host_carry main_v5_1 hostOps2

theorem v33_0_walk16 (c : Dev nD) : W16 (F := Ideal) m ρ c (Proc.devRef .tc main_v33_0) = W9 (F := Ideal) m ρ c (Proc.devRef .tc main_v33_0) :=
  calc W16 (F := Ideal) m ρ c (Proc.devRef .tc main_v33_0)
    _ = W15 (F := Ideal) m ρ c (Proc.devRef .tc main_v33_0) := W16_of_ne m ρ c main_v33_0 (by decide)
    _ = W14 (F := Ideal) m ρ c (Proc.devRef .tc main_v33_0) := by host_carry main_v33_0 hostOps4
    _ = W13 (F := Ideal) m ρ c (Proc.devRef .tc main_v33_0) := W14_of_ne m ρ c main_v33_0 (by decide)
    _ = W12 (F := Ideal) m ρ c (Proc.devRef .tc main_v33_0) := by host_carry main_v33_0 hostOps3_3
    _ = W11 (F := Ideal) m ρ c (Proc.devRef .tc main_v33_0) := by host_carry main_v33_0 hostOps3_2
    _ = W10 (F := Ideal) m ρ c (Proc.devRef .tc main_v33_0) := by host_carry main_v33_0 hostOps3_1
    _ = W9 (F := Ideal) m ρ c (Proc.devRef .tc main_v33_0) := by host_carry main_v33_0 hostOps3

theorem v33_1_walk16 (c : Dev nD) : W16 (F := Ideal) m ρ c (Proc.devRef .tc main_v33_1) = W9 (F := Ideal) m ρ c (Proc.devRef .tc main_v33_1) :=
  calc W16 (F := Ideal) m ρ c (Proc.devRef .tc main_v33_1)
    _ = W15 (F := Ideal) m ρ c (Proc.devRef .tc main_v33_1) := W16_of_ne m ρ c main_v33_1 (by decide)
    _ = W14 (F := Ideal) m ρ c (Proc.devRef .tc main_v33_1) := by host_carry main_v33_1 hostOps4
    _ = W13 (F := Ideal) m ρ c (Proc.devRef .tc main_v33_1) := W14_of_ne m ρ c main_v33_1 (by decide)
    _ = W12 (F := Ideal) m ρ c (Proc.devRef .tc main_v33_1) := by host_carry main_v33_1 hostOps3_3
    _ = W11 (F := Ideal) m ρ c (Proc.devRef .tc main_v33_1) := by host_carry main_v33_1 hostOps3_2
    _ = W10 (F := Ideal) m ρ c (Proc.devRef .tc main_v33_1) := by host_carry main_v33_1 hostOps3_1
    _ = W9 (F := Ideal) m ρ c (Proc.devRef .tc main_v33_1) := by host_carry main_v33_1 hostOps3

end HostB

variable (m : (ℓ : Loc nD τ sig) → Buf (Elt Ideal) ℓ) (ρ : Dev nD → PrngReg)

/-- The five results at the last segment boundary, from what the buffers hold where the first edge network's region ends. -/
theorem finals (c : Dev nD) (hidx : IdxOK (inpK m c).ei) (h7 : At7 m ρ c) :
    W16 (F := Ideal) m ρ c (Proc.devRef .tc main_v52) = OUT (inpK m c)
    ∧ W16 (F := Ideal) m ρ c (Proc.devRef .tc main_v5_0) = NH (inpK m c)
    ∧ W16 (F := Ideal) m ρ c (Proc.devRef .tc main_v5_1) = NC (inpK m c)
    ∧ W16 (F := Ideal) m ρ c (Proc.devRef .tc main_v33_0) = EH (inpK m c)
    ∧ W16 (F := Ideal) m ρ c (Proc.devRef .tc main_v33_1) = EC (inpK m c) :=
  ⟨HostB.v52_16 m ρ c hidx h7, (HostB.v5_0_walk16 m ρ c).trans h7.nh, (HostB.v5_1_walk16 m ρ c).trans h7.nc,
    (HostB.v33_0_walk16 m ρ c).trans (HostB.v33_0_9 m ρ c h7), (HostB.v33_1_walk16 m ρ c).trans (HostB.v33_1_9 m ρ c h7)⟩

end Cert.KernelIdeal.KV
end
-- ==== Proof.KAsm.lean ====
/-
  The kernel program at the ideal values: under the precondition every weakly fair execution terminates with the five
  results at the network's stage functions of the argument arrays, the arguments unchanged. The run names each result by
  what the last segment boundary holds; the host chain reads that as the stage functions.
-/
import proofs.«417163_j44495861187273_2_alg».proof.Proof.KRun
import proofs.«417163_j44495861187273_2_alg».proof.Proof.PreIdx
import proofs.«417163_j44495861187273_2_alg».proof.Proof.KHostA
import proofs.«417163_j44495861187273_2_alg».proof.Proof.KHostB

noncomputable section
namespace Cert.KernelIdeal.KV
open Idealize.ShloMosaic Idealize.ShloMosaic.TcCoe Idealize.SL.Sem Cert.KernelIdeal Cert.KernelIdeal.Gen Cert.GNN

theorem kernel_vals (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v52) = OUT (inpK m c)
      ∧       r.2.mem ((c.tc : Thread nD τ).loc main_v5_0) = NH (inpK m c)
      ∧       r.2.mem ((c.tc : Thread nD τ).loc main_v5_1) = NC (inpK m c)
      ∧       r.2.mem ((c.tc : Thread nD τ).loc main_v33_0) = EH (inpK m c)
      ∧       r.2.mem ((c.tc : Thread nD τ).loc main_v33_1) = EC (inpK m c)
      ∧       r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)
      ∧       r.2.mem ((c.tc : Thread nD τ).loc main_arg20) = m ((c.tc : Thread nD τ).loc main_arg20)
      ∧       r.2.mem ((c.tc : Thread nD τ).loc main_arg21) = m ((c.tc : Thread nD τ).loc main_arg21)
      ∧       r.2.mem ((c.tc : Thread nD τ).loc main_arg22) = m ((c.tc : Thread nD τ).loc main_arg22)
      ∧       r.2.mem ((c.tc : Thread nD τ).loc main_arg23) = m ((c.tc : Thread nD τ).loc main_arg23)
      ∧       r.2.mem ((c.tc : Thread nD τ).loc main_arg24) = m ((c.tc : Thread nD τ).loc main_arg24)
      ∧       r.2.mem ((c.tc : Thread nD τ).loc main_arg25) = m ((c.tc : Thread nD τ).loc main_arg25)
      ∧       r.2.mem ((c.tc : Thread nD τ).loc main_arg26) = m ((c.tc : Thread nD τ).loc main_arg26)
      ∧       r.2.mem ((c.tc : Thread nD τ).loc main_arg27) = m ((c.tc : Thread nD τ).loc main_arg27)) :=
  (θ_run defs _ _).mono (fun r h c => by
    obtain ⟨h0, h1, h2, h3, h4, hargs⟩ := h c
    obtain ⟨f0, f1, f2, f3, f4⟩ := finals m ρ c (idxOK_of_pre m hpre c) (at7 m ρ c (idxOK_of_pre m hpre c))
    exact ⟨h0.trans f0, h1.trans f1, h2.trans f2, h3.trans f3, h4.trans f4, hargs⟩)
    (run_vals (F := Ideal) m ρ)

end Cert.KernelIdeal.KV
end
-- ==== Proof.RS1.lean ====
/- The reference's node-history LSTM cell, read at the ideal values: its new hidden and cell states are the row
   functions `lstmHid` and `lstmCell` of the gate pre-activations at every node. The reference adds the two biases one
   after the other where the row function adds their sum (associativity of +), and spells the logistic function as
   one over one plus the exponential of the negation. -/
import proofs.«417163_j44495861187273_2_alg».proof.Proof.RRead
import proofs.«417163_j44495861187273_2_alg».proof.Proof.SpecArr
import proofs.«417163_j44495861187273_2_alg».proof.Proof.LibDot

noncomputable section
namespace Cert.ReferenceIdeal.RV
open Idealize.ShloMosaic Idealize.ShloMosaic.TcCoe Idealize.ShloMosaic.ValueIdx Idealize.SL.Sem Cert.ReferenceIdeal Cert.ReferenceIdeal.Gen Cert.GNN

namespace S1

/-- The word `0x3F800000` of f32 denotes one. -/
theorem n_one_word : Ideal.ofBits .f32 0x3F800000#32 = 1 := by
  simp [Ideal.ofBits, Ideal.ieee, -EReal.coe_mul]; norm_num

/-- One over one plus the exponential of the negation is the logistic function. -/
theorem n_sig_spelled (v : EReal) :
    Ideal.div (Ideal.ofBits .f32 0x3F800000#32) (Ideal.ofBits .f32 0x3F800000#32 + Ideal.exp (-v)) = Ideal.logistic v := by
  rw [n_one_word]; rfl

/-- The gate pre-activations with the two biases added one after the other are the pre-activations with the summed bias. -/
theorem n_pre_two_biases {i h f : ℕ} (xr : Fin i → EReal) (hr : Fin h → EReal) (wih : Fin i → Fin f → EReal)
    (whh : Fin h → Fin f → EReal) (b1 b2 : Fin f → EReal) (j : Fin f) :
    (((∑ k : Fin i, xr k * wih k j) + (∑ k : Fin h, hr k * whh k j)) + b1 j) + b2 j
      = lstmPre xr hr wih whh (fun j => b1 j + b2 j) j := by
  unfold lstmPre; rw [add_assoc]

section
variable (x0 : (⟨S50000x5, .f32⟩ : BufTy).Contents (Elt Ideal)) (x1 : (⟨S50000x32, .f32⟩ : BufTy).Contents (Elt Ideal)) (x4 : (⟨S50000x20, .f32⟩ : BufTy).Contents (Elt Ideal)) (x5 : (⟨S50000x20, .f32⟩ : BufTy).Contents (Elt Ideal)) (x8 : (⟨S80x37, .f32⟩ : BufTy).Contents (Elt Ideal)) (x9 : (⟨S80x20, .f32⟩ : BufTy).Contents (Elt Ideal)) (x10 : (⟨S80, .f32⟩ : BufTy).Contents (Elt Ideal)) (x11 : (⟨S80, .f32⟩ : BufTy).Contents (Elt Ideal))

/-- The four gates' pre-activations at node `p`, column `j`. -/
theorem n_pre (p : Fin 50000) (j : Fin 80) :
    ReadC.val_main_v11 (F := Ideal) x0 x1 x4 x8 x9 x10 x11 (ix2 p j)
      = lstmPre (rowOf (ReadC.val_main_v0 (F := Ideal) x0 x1) p) (rowOf x4 p) (mat (tr x8)) (mat (tr x9)) (rowOf (biasSum x10 x11) 0) j := by
  rw [ReadC.val_main_v11_apply, ReadC.val_main_v8_apply, ReadC.val_main_v5_apply, ReadC.val_main_v2_apply,
    ReadC.val_main_v4_apply, ReadC.val_main_v7_apply, ReadC.val_main_v6_apply, ReadC.val_main_v10_apply,
    ReadC.val_main_v9_apply]
  simp only [ReadC.val_main_v1_apply, ReadC.val_main_v3_apply, Ideal.addf_def]
  have e1 : ∀ k : Fin 37, ReadC.lidx_main_v2 (ix2 p j) k = ix2 p k := fun k =>
    funext fun a => by match a with | ⟨0, _⟩ => rfl | ⟨1, _⟩ => rfl
  have e2 : ∀ k : Fin 37, ReadC.idx_main_v1 (ReadC.ridx_main_v2 (ix2 p j) k) = ix2 j k := fun k =>
    funext fun a => by match a with | ⟨0, _⟩ => rfl | ⟨1, _⟩ => rfl
  have e3 : ∀ k : Fin 20, ReadC.lidx_main_v4 (ix2 p j) k = ix2 p k := fun k =>
    funext fun a => by match a with | ⟨0, _⟩ => rfl | ⟨1, _⟩ => rfl
  have e4 : ∀ k : Fin 20, ReadC.idx_main_v3 (ReadC.ridx_main_v4 (ix2 p j) k) = ix2 j k := fun k =>
    funext fun a => by match a with | ⟨0, _⟩ => rfl | ⟨1, _⟩ => rfl
  have e5 : ReadC.idx_main_v6 (ReadC.idx_main_v7 (ix2 p j)) = ix1 j :=
    funext fun a => by match a with | ⟨0, _⟩ => rfl
  have e6 : ReadC.idx_main_v9 (ReadC.idx_main_v10 (ix2 p j)) = ix1 j :=
    funext fun a => by match a with | ⟨0, _⟩ => rfl
  simp only [e1, e2, e3, e4, e5, e6]
  exact n_pre_two_biases (rowOf (ReadC.val_main_v0 (F := Ideal) x0 x1) p) (rowOf x4 p) (mat (tr x8)) (mat (tr x9))
    (fun j => x10 (ix1 j)) (fun j => x11 (ix1 j)) j

/-- The four gate slices read the pre-activations at column offsets 0, 20, 40, 60. -/
theorem n_i12 (p : Fin 50000) (q : Fin 20) :
    ReadC.idx_main_v12 (ix2 p q) = ix2 p (⟨q.val, by have := q.isLt; omega⟩ : Fin 80) :=
  funext fun a => by match a with | ⟨0, _⟩ => rfl | ⟨1, _⟩ => rfl
theorem n_i13 (p : Fin 50000) (q : Fin 20) :
    ReadC.idx_main_v13 (ix2 p q) = ix2 p (⟨20 + q.val, by have := q.isLt; omega⟩ : Fin 80) :=
  funext fun a => by match a with | ⟨0, _⟩ => rfl | ⟨1, _⟩ => rfl
theorem n_i14 (p : Fin 50000) (q : Fin 20) :
    ReadC.idx_main_v14 (ix2 p q) = ix2 p (⟨40 + q.val, by have := q.isLt; omega⟩ : Fin 80) :=
  funext fun a => by match a with | ⟨0, _⟩ => rfl | ⟨1, _⟩ => rfl
theorem n_i15 (p : Fin 50000) (q : Fin 20) :
    ReadC.idx_main_v15 (ix2 p q) = ix2 p (⟨60 + q.val, by have := q.isLt; omega⟩ : Fin 80) :=
  funext fun a => by match a with | ⟨0, _⟩ => rfl | ⟨1, _⟩ => rfl

/-- The new cell state at node `p`, unit `q`: forget gate times old cell state plus input gate times candidate. -/
theorem n_cell (p : Fin 50000) (q : Fin 20) :
    ReadC.val_main_v31 (F := Ideal) x0 x1 x4 x5 x8 x9 x10 x11 (ix2 p q)
      = lstmCell (lstmPre (rowOf (ReadC.val_main_v0 (F := Ideal) x0 x1) p) (rowOf x4 p) (mat (tr x8)) (mat (tr x9)) (rowOf (biasSum x10 x11) 0)) (rowOf x5 p) (by norm_num : 80 = 4 * 20) q := by
  rw [ReadC.val_main_v31_apply, ReadC.val_main_v22_apply, ReadC.val_main_v30_apply,
    ReadC.val_main_v21_apply, ReadC.val_main_v20_apply, ReadC.val_main_cst_0_apply, ReadC.val_main_v19_apply,
    ReadC.val_main_v18_apply, ReadC.val_main_cst_apply, ReadC.val_main_v17_apply, ReadC.val_main_v16_apply,
    ReadC.val_main_v13_apply, n_i13, n_pre,
    ReadC.val_main_v28_apply, ReadC.val_main_v27_apply, ReadC.val_main_cst_2_apply, ReadC.val_main_v26_apply,
    ReadC.val_main_v25_apply, ReadC.val_main_cst_1_apply, ReadC.val_main_v24_apply, ReadC.val_main_v23_apply,
    ReadC.val_main_v12_apply, n_i12, n_pre,
    ReadC.val_main_v29_apply, ReadC.val_main_v14_apply, n_i14, n_pre]
  generalize lstmPre (rowOf (ReadC.val_main_v0 (F := Ideal) x0 x1) p) (rowOf x4 p) (mat (tr x8)) (mat (tr x9)) (rowOf (biasSum x10 x11) 0) = pre
  simp only [Ideal.addf_def, Ideal.mulf_def, Ideal.hostDivf_def, Ideal.hostUnary_exp_def, Ideal.hostUnary_tanh_def,
    Ideal.hostNegf_def, Ideal.negf_def, Ideal.ofBits_def, n_sig_spelled]
  rfl

/-- The new hidden state at node `p`, unit `q`: output gate times the hyperbolic tangent of the new cell state. -/
theorem n_hid (p : Fin 50000) (q : Fin 20) :
    ReadC.val_main_v39 (F := Ideal) x0 x1 x4 x5 x8 x9 x10 x11 (ix2 p q)
      = lstmHid (lstmPre (rowOf (ReadC.val_main_v0 (F := Ideal) x0 x1) p) (rowOf x4 p) (mat (tr x8)) (mat (tr x9)) (rowOf (biasSum x10 x11) 0)) (rowOf x5 p) (by norm_num : 80 = 4 * 20) q := by
  rw [ReadC.val_main_v39_apply, ReadC.val_main_v38_apply, n_cell,
    ReadC.val_main_v37_apply, ReadC.val_main_v36_apply, ReadC.val_main_cst_4_apply, ReadC.val_main_v35_apply,
    ReadC.val_main_v34_apply, ReadC.val_main_cst_3_apply, ReadC.val_main_v33_apply, ReadC.val_main_v32_apply,
    ReadC.val_main_v15_apply, n_i15, n_pre]
  generalize lstmPre (rowOf (ReadC.val_main_v0 (F := Ideal) x0 x1) p) (rowOf x4 p) (mat (tr x8)) (mat (tr x9)) (rowOf (biasSum x10 x11) 0) = pre
  simp only [Ideal.addf_def, Ideal.mulf_def, Ideal.hostDivf_def, Ideal.hostUnary_exp_def, Ideal.hostUnary_tanh_def,
    Ideal.hostNegf_def, Ideal.negf_def, Ideal.ofBits_def, n_sig_spelled]
  rfl

end
end S1

theorem r_nh (x0 : (⟨S50000x5, .f32⟩ : BufTy).Contents (Elt Ideal)) (x1 : (⟨S50000x32, .f32⟩ : BufTy).Contents (Elt Ideal)) (x4 : (⟨S50000x20, .f32⟩ : BufTy).Contents (Elt Ideal)) (x5 : (⟨S50000x20, .f32⟩ : BufTy).Contents (Elt Ideal)) (x8 : (⟨S80x37, .f32⟩ : BufTy).Contents (Elt Ideal)) (x9 : (⟨S80x20, .f32⟩ : BufTy).Contents (Elt Ideal)) (x10 : (⟨S80, .f32⟩ : BufTy).Contents (Elt Ideal)) (x11 : (⟨S80, .f32⟩ : BufTy).Contents (Elt Ideal)) :
    ReadC.val_main_v39 (F := Ideal) x0 x1 x4 x5 x8 x9 x10 x11 = lstmHArr (by norm_num) (ReadC.val_main_v0 (F := Ideal) x0 x1) x4 x5 (tr x8) (tr x9) (biasSum x10 x11) := by
  funext i
  obtain ⟨p, q, rfl⟩ : ∃ p q, i = ix2 p q := ⟨i 0, i 1, eq_ix2 i⟩
  rw [S1.n_hid]
  rfl

theorem r_nc (x0 : (⟨S50000x5, .f32⟩ : BufTy).Contents (Elt Ideal)) (x1 : (⟨S50000x32, .f32⟩ : BufTy).Contents (Elt Ideal)) (x4 : (⟨S50000x20, .f32⟩ : BufTy).Contents (Elt Ideal)) (x5 : (⟨S50000x20, .f32⟩ : BufTy).Contents (Elt Ideal)) (x8 : (⟨S80x37, .f32⟩ : BufTy).Contents (Elt Ideal)) (x9 : (⟨S80x20, .f32⟩ : BufTy).Contents (Elt Ideal)) (x10 : (⟨S80, .f32⟩ : BufTy).Contents (Elt Ideal)) (x11 : (⟨S80, .f32⟩ : BufTy).Contents (Elt Ideal)) :
    ReadC.val_main_v31 (F := Ideal) x0 x1 x4 x5 x8 x9 x10 x11 = lstmCArr (by norm_num) (ReadC.val_main_v0 (F := Ideal) x0 x1) x4 x5 (tr x8) (tr x9) (biasSum x10 x11) := by
  funext i
  obtain ⟨p, q, rfl⟩ : ∃ p q, i = ix2 p q := ⟨i 0, i 1, eq_ix2 i⟩
  rw [S1.n_cell]
  rfl

end Cert.ReferenceIdeal.RV
end
-- ==== Proof.RS2.lean ====
/-
  The reference's message edge network, read at the ideal values.

  For every edge the source row, the destination row and the attribute row are laid side by side (37 + 37 + 4 = 78
  columns); the joined row is multiplied by the first weight matrix, the first bias is added, the result is rectified,
  multiplied by the second weight matrix, and the second bias is added. A product over the joined row is the sum of the
  three products over its stretches, each against the matching rows of the weight matrix: that regrouping of a finite
  sum is all that separates this arrangement from the row formula `mlp3Hid`, whose first matrix is split by input rows.
-/
import proofs.«417163_j44495861187273_2_alg».proof.Proof.RRead
import proofs.«417163_j44495861187273_2_alg».proof.Proof.SpecArr
import proofs.«417163_j44495861187273_2_alg».proof.Proof.LibDot
import Idealize.ShloMosaic.Lib.Pipeline.Value

noncomputable section
namespace Cert.ReferenceIdeal.RV
open Idealize.ShloMosaic Idealize.ShloMosaic.TcCoe Idealize.ShloMosaic.ValueIdx Idealize.SL.Sem Cert.ReferenceIdeal Cert.ReferenceIdeal.Gen Cert.GNN

namespace S2

/-! ## The joined row -/

/-- The three rows side by side: source (37 columns), destination (37), attributes (4). -/
abbrev cat78 (s d : A2 800000 37) (e : A2 800000 4) : A2 800000 78 :=
  concatenate S800000x78 1 [⟨S800000x37, s⟩, ⟨S800000x37, d⟩, ⟨S800000x4, e⟩]
    concatenates_S800000x37_S800000x37_S800000x4_S800000x78_d1

/-- A column of the first stretch of the joined row is the source row's. -/
theorem cat78_src (s d : A2 800000 37) (e : A2 800000 4) (p : Fin 800000) (k : Fin 37) :
    cat78 s d e (ix2 p ⟨k.val, by omega⟩) = s (ix2 p k) := by
  refine concatenate_apply_piece (t := S800000x78) (1 : Fin 2) [⟨S800000x37, s⟩, ⟨S800000x37, d⟩, ⟨S800000x4, e⟩] _ _ 0
    (by show (0 : Nat) < 3; omega) S800000x37 s rfl rfl 0 rfl (ix2 p k) ?_ ?_
  · intro b hb
    match b, hb with
    | ⟨0, _⟩, _ => rfl
    | ⟨1, _⟩, hb => exact absurd rfl hb
  · exact Nat.zero_add _

/-- A column of the second stretch is the destination row's. -/
theorem cat78_dst (s d : A2 800000 37) (e : A2 800000 4) (p : Fin 800000) (k : Fin 37) :
    cat78 s d e (ix2 p ⟨37 + k.val, by omega⟩) = d (ix2 p k) := by
  refine concatenate_apply_piece (t := S800000x78) (1 : Fin 2) [⟨S800000x37, s⟩, ⟨S800000x37, d⟩, ⟨S800000x4, e⟩] _ _ 1
    (by show (1 : Nat) < 3; omega) S800000x37 d rfl rfl 37 rfl (ix2 p k) ?_ ?_
  · intro b hb
    match b, hb with
    | ⟨0, _⟩, _ => rfl
    | ⟨1, _⟩, hb => exact absurd rfl hb
  · rfl

/-- A column of the third stretch is the attribute row's. -/
theorem cat78_att (s d : A2 800000 37) (e : A2 800000 4) (p : Fin 800000) (k : Fin 4) :
    cat78 s d e (ix2 p ⟨37 + 37 + k.val, by omega⟩) = e (ix2 p k) := by
  refine concatenate_apply_piece (t := S800000x78) (1 : Fin 2) [⟨S800000x37, s⟩, ⟨S800000x37, d⟩, ⟨S800000x4, e⟩] _ _ 2
    (by show (2 : Nat) < 3; omega) S800000x4 e rfl rfl (37 + 37) rfl (ix2 p k) ?_ ?_
  · intro b hb
    match b, hb with
    | ⟨0, _⟩, _ => rfl
    | ⟨1, _⟩, hb => exact absurd rfl hb
  · rfl

/-- The product of the joined row with a column of the first matrix is the sum of the three partial products: the
    source row against the matrix's rows 0–36, the destination row against rows 37–73, the attribute row against
    rows 74–77. -/
theorem cat78_dot (s d : A2 800000 37) (e : A2 800000 4) (W : A2 78 64) (p : Fin 800000) (j : Fin 64) :
    (∑ k : Fin 78, cat78 s d e (ix2 p k) * W (ix2 k j))
      = ((∑ k : Fin 37, s (ix2 p k) * rowsFrom 0 37 (by norm_num) W (ix2 k j))
          + (∑ k : Fin 37, d (ix2 p k) * rowsFrom 37 37 (by norm_num) W (ix2 k j)))
        + (∑ k : Fin 4, e (ix2 p k) * rowsFrom 74 4 (by norm_num) W (ix2 k j)) := by
  rw [sum_split3 37 37 4 fun k : Fin (37 + 37 + 4) => cat78 s d e (ix2 p k) * W (ix2 k j)]
  simp only [cat78_src, cat78_dst, cat78_att]
  refine congrArg₂ (· + ·) (congrArg₂ (· + ·) ?_ ?_) ?_
  · refine Finset.sum_congr rfl fun k _ => ?_
    refine congrArg (s (ix2 p k) * ·) (congrArg W ?_)
    funext a
    match a with
    | ⟨0, _⟩ => exact Fin.ext (Nat.zero_add _).symm
    | ⟨1, _⟩ => rfl
  · rfl
  · rfl

/-- The hidden layer at edge `p`, column `j`, with one product over the joined row, is the row formula. -/
theorem hid78 (s d : A2 800000 37) (e : A2 800000 4) (W : A2 78 64) (b : A1 64) (p : Fin 800000) (j : Fin 64) :
    max ((∑ k : Fin 78, cat78 s d e (ix2 p k) * W (ix2 k j)) + b (ix1 j)) Z
      = mlp3Hid (rowOf s p) (rowOf d p) (rowOf e p) (mat (rowsFrom 0 37 (by norm_num) W))
          (mat (rowsFrom 37 37 (by norm_num) W)) (mat (rowsFrom 74 4 (by norm_num) W)) (rowOf (bias1 b) 0) j := by
  rw [cat78_dot]
  rfl

/-! ## The operations' index functions at an entry -/

theorem lidx59 (p : Fin 800000) (j : Fin 64) (k : Fin 78) : ReadC.lidx_main_v59 (ix2 p j) k = ix2 p k :=
  funext fun a => Fin.ext (by match a with | ⟨0, _⟩ => rfl | ⟨1, _⟩ => rfl)
theorem ridx59 (p : Fin 800000) (j : Fin 64) (k : Fin 78) : ReadC.ridx_main_v59 (ix2 p j) k = ix2 k j :=
  funext fun a => Fin.ext (by match a with | ⟨0, _⟩ => rfl | ⟨1, _⟩ => rfl)
theorem bidx61 (p : Fin 800000) (j : Fin 64) : ReadC.idx_main_v60 (ReadC.idx_main_v61 (ix2 p j)) = ix1 j :=
  funext fun a => Fin.ext (by match a with | ⟨0, _⟩ => rfl)
theorem lidx64 (p : Fin 800000) (q : Fin 32) (k : Fin 64) : ReadC.lidx_main_v64 (ix2 p q) k = ix2 p k :=
  funext fun a => Fin.ext (by match a with | ⟨0, _⟩ => rfl | ⟨1, _⟩ => rfl)
theorem ridx64 (p : Fin 800000) (q : Fin 32) (k : Fin 64) : ReadC.ridx_main_v64 (ix2 p q) k = ix2 k q :=
  funext fun a => Fin.ext (by match a with | ⟨0, _⟩ => rfl | ⟨1, _⟩ => rfl)
theorem bidx66 (p : Fin 800000) (q : Fin 32) : ReadC.idx_main_v65 (ReadC.idx_main_v66 (ix2 p q)) = ix1 q :=
  funext fun a => Fin.ext (by match a with | ⟨0, _⟩ => rfl)

/-! ## The stage -/

/-- The rectified hidden layer (operation 63) at edge `p`, column `j`. -/
theorem msg_hid (x0 : (⟨S50000x5, .f32⟩ : BufTy).Contents (Elt Ideal)) (x1 : (⟨S50000x32, .f32⟩ : BufTy).Contents (Elt Ideal)) (x2 : (⟨S2x800000, .i32⟩ : BufTy).Contents (Elt Ideal)) (x3 : (⟨S800000x4, .f32⟩ : BufTy).Contents (Elt Ideal)) (x16 : (⟨S78x64, .f32⟩ : BufTy).Contents (Elt Ideal)) (x17 : (⟨S64, .f32⟩ : BufTy).Contents (Elt Ideal)) (p : Fin 800000) (j : Fin 64) :
    ReadC.val_main_v63 (F := Ideal) x0 x1 x2 x3 x16 x17 (ix2 p j)
      = mlp3Hid (rowOf (ReadC.val_main_v50 (F := Ideal) x0 x1 x2) p) (rowOf (ReadC.val_main_v57 (F := Ideal) x0 x1 x2) p) (rowOf x3 p)
          (mat (rowsFrom 0 37 (by norm_num) x16)) (mat (rowsFrom 37 37 (by norm_num) x16)) (mat (rowsFrom 74 4 (by norm_num) x16))
          (rowOf (bias1 x17) 0) j := by
  rw [ReadC.val_main_v63_apply, ReadC.val_main_v62_apply, ReadC.val_main_v59_apply, ReadC.val_main_v61_apply,
    ReadC.val_main_v60_apply, ReadC.val_main_call0_v0_apply, ReadC.val_main_call0_cst_apply, bidx61,
    Finset.sum_congr rfl fun k _ => by rw [lidx59, ridx59]]
  exact hid78 (ReadC.val_main_v50 (F := Ideal) x0 x1 x2) (ReadC.val_main_v57 (F := Ideal) x0 x1 x2) x3 x16 x17 p j

end S2

open S2 in
theorem r_msg (x0 : (⟨S50000x5, .f32⟩ : BufTy).Contents (Elt Ideal)) (x1 : (⟨S50000x32, .f32⟩ : BufTy).Contents (Elt Ideal)) (x2 : (⟨S2x800000, .i32⟩ : BufTy).Contents (Elt Ideal)) (x3 : (⟨S800000x4, .f32⟩ : BufTy).Contents (Elt Ideal)) (x16 : (⟨S78x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal)) :
    ReadC.val_main_v67 (F := Ideal) x0 x1 x2 x3 x16 x17 x18 x19 = mlp3Arr (ReadC.val_main_v50 (F := Ideal) x0 x1 x2) (ReadC.val_main_v57 (F := Ideal) x0 x1 x2) x3
      (rowsFrom 0 37 (by norm_num) x16) (rowsFrom 37 37 (by norm_num) x16) (rowsFrom 74 4 (by norm_num) x16) (bias1 x17) x18 (bias1 x19) := by
  funext i
  obtain ⟨p, q, rfl⟩ : ∃ p q, i = ix2 p q := ⟨i 0, i 1, eq_ix2 i⟩
  rw [ReadC.val_main_v67_apply, ReadC.val_main_v64_apply, ReadC.val_main_v66_apply, ReadC.val_main_v65_apply, bidx66,
    Finset.sum_congr rfl fun k _ => by rw [lidx64, ridx64, msg_hid]]
  rfl

end Cert.ReferenceIdeal.RV
end
-- ==== Proof.RS3.lean ====
/- The reference's edge-history LSTM cell, read at the ideal values: its new hidden and cell states are the row
   functions `lstmHid` and `lstmCell` of the gate pre-activations at every node. The reference adds the two biases one
   after the other where the row function adds their sum (associativity of +), and spells the logistic function as
   one over one plus the exponential of the negation. -/
import proofs.«417163_j44495861187273_2_alg».proof.Proof.RRead
import proofs.«417163_j44495861187273_2_alg».proof.Proof.SpecArr
import proofs.«417163_j44495861187273_2_alg».proof.Proof.LibDot

noncomputable section
namespace Cert.ReferenceIdeal.RV
open Idealize.ShloMosaic Idealize.ShloMosaic.TcCoe Idealize.ShloMosaic.ValueIdx Idealize.SL.Sem Cert.ReferenceIdeal Cert.ReferenceIdeal.Gen Cert.GNN

namespace S3

/-- The word `0x3F800000` of f32 denotes one. -/
theorem e_one_word : Ideal.ofBits .f32 0x3F800000#32 = 1 := by
  simp [Ideal.ofBits, Ideal.ieee, -EReal.coe_mul]; norm_num

/-- One over one plus the exponential of the negation is the logistic function. -/
theorem e_sig_spelled (v : EReal) :
    Ideal.div (Ideal.ofBits .f32 0x3F800000#32) (Ideal.ofBits .f32 0x3F800000#32 + Ideal.exp (-v)) = Ideal.logistic v := by
  rw [e_one_word]; rfl

/-- The gate pre-activations with the two biases added one after the other are the pre-activations with the summed bias. -/
theorem e_pre_two_biases {i h f : ℕ} (xr : Fin i → EReal) (hr : Fin h → EReal) (wih : Fin i → Fin f → EReal)
    (whh : Fin h → Fin f → EReal) (b1 b2 : Fin f → EReal) (j : Fin f) :
    (((∑ k : Fin i, xr k * wih k j) + (∑ k : Fin h, hr k * whh k j)) + b1 j) + b2 j
      = lstmPre xr hr wih whh (fun j => b1 j + b2 j) j := by
  unfold lstmPre; rw [add_assoc]

section
variable (x0 : (⟨S50000x5, .f32⟩ : BufTy).Contents (Elt Ideal)) (x1 : (⟨S50000x32, .f32⟩ : BufTy).Contents (Elt Ideal)) (x2 : (⟨S2x800000, .i32⟩ : BufTy).Contents (Elt Ideal)) (x3 : (⟨S800000x4, .f32⟩ : BufTy).Contents (Elt Ideal)) (x6 : (⟨S50000x8, .f32⟩ : BufTy).Contents (Elt Ideal)) (x7 : (⟨S50000x8, .f32⟩ : BufTy).Contents (Elt Ideal)) (x12 : (⟨S32x32, .f32⟩ : BufTy).Contents (Elt Ideal)) (x13 : (⟨S32x8, .f32⟩ : BufTy).Contents (Elt Ideal)) (x14 : (⟨S32, .f32⟩ : BufTy).Contents (Elt Ideal)) (x15 : (⟨S32, .f32⟩ : BufTy).Contents (Elt Ideal)) (x16 : (⟨S78x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal))

/-- The four gates' pre-activations at node `p`, column `j`. -/
theorem e_pre (p : Fin 50000) (j : Fin 32) :
    ReadC.val_main_v89 (F := Ideal) x0 x1 x2 x3 x6 x12 x13 x14 x15 x16 x17 x18 x19 (ix2 p j)
      = lstmPre (rowOf (ReadC.val_main_v78 (F := Ideal) x0 x1 x2 x3 x16 x17 x18 x19) p) (rowOf x6 p) (mat (tr x12)) (mat (tr x13)) (rowOf (biasSum x14 x15) 0) j := by
  rw [ReadC.val_main_v89_apply, ReadC.val_main_v86_apply, ReadC.val_main_v83_apply, ReadC.val_main_v80_apply,
    ReadC.val_main_v82_apply, ReadC.val_main_v85_apply, ReadC.val_main_v84_apply, ReadC.val_main_v88_apply,
    ReadC.val_main_v87_apply]
  simp only [ReadC.val_main_v79_apply, ReadC.val_main_v81_apply, Ideal.addf_def]
  have e1 : ∀ k : Fin 32, ReadC.lidx_main_v80 (ix2 p j) k = ix2 p k := fun k =>
    funext fun a => by match a with | ⟨0, _⟩ => rfl | ⟨1, _⟩ => rfl
  have e2 : ∀ k : Fin 32, ReadC.idx_main_v79 (ReadC.ridx_main_v80 (ix2 p j) k) = ix2 j k := fun k =>
    funext fun a => by match a with | ⟨0, _⟩ => rfl | ⟨1, _⟩ => rfl
  have e3 : ∀ k : Fin 8, ReadC.lidx_main_v82 (ix2 p j) k = ix2 p k := fun k =>
    funext fun a => by match a with | ⟨0, _⟩ => rfl | ⟨1, _⟩ => rfl
  have e4 : ∀ k : Fin 8, ReadC.idx_main_v81 (ReadC.ridx_main_v82 (ix2 p j) k) = ix2 j k := fun k =>
    funext fun a => by match a with | ⟨0, _⟩ => rfl | ⟨1, _⟩ => rfl
  have e5 : ReadC.idx_main_v84 (ReadC.idx_main_v85 (ix2 p j)) = ix1 j :=
    funext fun a => by match a with | ⟨0, _⟩ => rfl
  have e6 : ReadC.idx_main_v87 (ReadC.idx_main_v88 (ix2 p j)) = ix1 j :=
    funext fun a => by match a with | ⟨0, _⟩ => rfl
  simp only [e1, e2, e3, e4, e5, e6]
  exact e_pre_two_biases (rowOf (ReadC.val_main_v78 (F := Ideal) x0 x1 x2 x3 x16 x17 x18 x19) p) (rowOf x6 p) (mat (tr x12)) (mat (tr x13))
    (fun j => x14 (ix1 j)) (fun j => x15 (ix1 j)) j

/-- The four gate slices read the pre-activations at column offsets 0, 8, 16, 24. -/
theorem e_i12 (p : Fin 50000) (q : Fin 8) :
    ReadC.idx_main_v90 (ix2 p q) = ix2 p (⟨q.val, by have := q.isLt; omega⟩ : Fin 32) :=
  funext fun a => by match a with | ⟨0, _⟩ => rfl | ⟨1, _⟩ => rfl
theorem e_i13 (p : Fin 50000) (q : Fin 8) :
    ReadC.idx_main_v91 (ix2 p q) = ix2 p (⟨8 + q.val, by have := q.isLt; omega⟩ : Fin 32) :=
  funext fun a => by match a with | ⟨0, _⟩ => rfl | ⟨1, _⟩ => rfl
theorem e_i14 (p : Fin 50000) (q : Fin 8) :
    ReadC.idx_main_v92 (ix2 p q) = ix2 p (⟨16 + q.val, by have := q.isLt; omega⟩ : Fin 32) :=
  funext fun a => by match a with | ⟨0, _⟩ => rfl | ⟨1, _⟩ => rfl
theorem e_i15 (p : Fin 50000) (q : Fin 8) :
    ReadC.idx_main_v93 (ix2 p q) = ix2 p (⟨24 + q.val, by have := q.isLt; omega⟩ : Fin 32) :=
  funext fun a => by match a with | ⟨0, _⟩ => rfl | ⟨1, _⟩ => rfl

/-- The new cell state at node `p`, unit `q`: forget gate times old cell state plus input gate times candidate. -/
theorem e_cell (p : Fin 50000) (q : Fin 8) :
    ReadC.val_main_v109 (F := Ideal) x0 x1 x2 x3 x6 x7 x12 x13 x14 x15 x16 x17 x18 x19 (ix2 p q)
      = lstmCell (lstmPre (rowOf (ReadC.val_main_v78 (F := Ideal) x0 x1 x2 x3 x16 x17 x18 x19) p) (rowOf x6 p) (mat (tr x12)) (mat (tr x13)) (rowOf (biasSum x14 x15) 0)) (rowOf x7 p) (by norm_num : 32 = 4 * 8) q := by
  rw [ReadC.val_main_v109_apply, ReadC.val_main_v100_apply, ReadC.val_main_v108_apply,
    ReadC.val_main_v99_apply, ReadC.val_main_v98_apply, ReadC.val_main_cst_13_apply, ReadC.val_main_v97_apply,
    ReadC.val_main_v96_apply, ReadC.val_main_cst_12_apply, ReadC.val_main_v95_apply, ReadC.val_main_v94_apply,
    ReadC.val_main_v91_apply, e_i13, e_pre,
    ReadC.val_main_v106_apply, ReadC.val_main_v105_apply, ReadC.val_main_cst_15_apply, ReadC.val_main_v104_apply,
    ReadC.val_main_v103_apply, ReadC.val_main_cst_14_apply, ReadC.val_main_v102_apply, ReadC.val_main_v101_apply,
    ReadC.val_main_v90_apply, e_i12, e_pre,
    ReadC.val_main_v107_apply, ReadC.val_main_v92_apply, e_i14, e_pre]
  generalize lstmPre (rowOf (ReadC.val_main_v78 (F := Ideal) x0 x1 x2 x3 x16 x17 x18 x19) p) (rowOf x6 p) (mat (tr x12)) (mat (tr x13)) (rowOf (biasSum x14 x15) 0) = pre
  simp only [Ideal.addf_def, Ideal.mulf_def, Ideal.hostDivf_def, Ideal.hostUnary_exp_def, Ideal.hostUnary_tanh_def,
    Ideal.hostNegf_def, Ideal.negf_def, Ideal.ofBits_def, e_sig_spelled]
  rfl

/-- The new hidden state at node `p`, unit `q`: output gate times the hyperbolic tangent of the new cell state. -/
theorem e_hid (p : Fin 50000) (q : Fin 8) :
    ReadC.val_main_v117 (F := Ideal) x0 x1 x2 x3 x6 x7 x12 x13 x14 x15 x16 x17 x18 x19 (ix2 p q)
      = lstmHid (lstmPre (rowOf (ReadC.val_main_v78 (F := Ideal) x0 x1 x2 x3 x16 x17 x18 x19) p) (rowOf x6 p) (mat (tr x12)) (mat (tr x13)) (rowOf (biasSum x14 x15) 0)) (rowOf x7 p) (by norm_num : 32 = 4 * 8) q := by
  rw [ReadC.val_main_v117_apply, ReadC.val_main_v116_apply, e_cell,
    ReadC.val_main_v115_apply, ReadC.val_main_v114_apply, ReadC.val_main_cst_17_apply, ReadC.val_main_v113_apply,
    ReadC.val_main_v112_apply, ReadC.val_main_cst_16_apply, ReadC.val_main_v111_apply, ReadC.val_main_v110_apply,
    ReadC.val_main_v93_apply, e_i15, e_pre]
  generalize lstmPre (rowOf (ReadC.val_main_v78 (F := Ideal) x0 x1 x2 x3 x16 x17 x18 x19) p) (rowOf x6 p) (mat (tr x12)) (mat (tr x13)) (rowOf (biasSum x14 x15) 0) = pre
  simp only [Ideal.addf_def, Ideal.mulf_def, Ideal.hostDivf_def, Ideal.hostUnary_exp_def, Ideal.hostUnary_tanh_def,
    Ideal.hostNegf_def, Ideal.negf_def, Ideal.ofBits_def, e_sig_spelled]
  rfl

end
end S3

theorem r_eh (x0 : (⟨S50000x5, .f32⟩ : BufTy).Contents (Elt Ideal)) (x1 : (⟨S50000x32, .f32⟩ : BufTy).Contents (Elt Ideal)) (x2 : (⟨S2x800000, .i32⟩ : BufTy).Contents (Elt Ideal)) (x3 : (⟨S800000x4, .f32⟩ : BufTy).Contents (Elt Ideal)) (x6 : (⟨S50000x8, .f32⟩ : BufTy).Contents (Elt Ideal)) (x7 : (⟨S50000x8, .f32⟩ : BufTy).Contents (Elt Ideal)) (x12 : (⟨S32x32, .f32⟩ : BufTy).Contents (Elt Ideal)) (x13 : (⟨S32x8, .f32⟩ : BufTy).Contents (Elt Ideal)) (x14 : (⟨S32, .f32⟩ : BufTy).Contents (Elt Ideal)) (x15 : (⟨S32, .f32⟩ : BufTy).Contents (Elt Ideal)) (x16 : (⟨S78x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal)) :
    ReadC.val_main_v117 (F := Ideal) x0 x1 x2 x3 x6 x7 x12 x13 x14 x15 x16 x17 x18 x19 = lstmHArr (by norm_num) (ReadC.val_main_v78 (F := Ideal) x0 x1 x2 x3 x16 x17 x18 x19) x6 x7 (tr x12) (tr x13) (biasSum x14 x15) := by
  funext i
  obtain ⟨p, q, rfl⟩ : ∃ p q, i = ix2 p q := ⟨i 0, i 1, eq_ix2 i⟩
  rw [S3.e_hid]
  rfl

theorem r_ec (x0 : (⟨S50000x5, .f32⟩ : BufTy).Contents (Elt Ideal)) (x1 : (⟨S50000x32, .f32⟩ : BufTy).Contents (Elt Ideal)) (x2 : (⟨S2x800000, .i32⟩ : BufTy).Contents (Elt Ideal)) (x3 : (⟨S800000x4, .f32⟩ : BufTy).Contents (Elt Ideal)) (x6 : (⟨S50000x8, .f32⟩ : BufTy).Contents (Elt Ideal)) (x7 : (⟨S50000x8, .f32⟩ : BufTy).Contents (Elt Ideal)) (x12 : (⟨S32x32, .f32⟩ : BufTy).Contents (Elt Ideal)) (x13 : (⟨S32x8, .f32⟩ : BufTy).Contents (Elt Ideal)) (x14 : (⟨S32, .f32⟩ : BufTy).Contents (Elt Ideal)) (x15 : (⟨S32, .f32⟩ : BufTy).Contents (Elt Ideal)) (x16 : (⟨S78x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal)) :
    ReadC.val_main_v109 (F := Ideal) x0 x1 x2 x3 x6 x7 x12 x13 x14 x15 x16 x17 x18 x19 = lstmCArr (by norm_num) (ReadC.val_main_v78 (F := Ideal) x0 x1 x2 x3 x16 x17 x18 x19) x6 x7 (tr x12) (tr x13) (biasSum x14 x15) := by
  funext i
  obtain ⟨p, q, rfl⟩ : ∃ p q, i = ix2 p q := ⟨i 0, i 1, eq_ix2 i⟩
  rw [S3.e_cell]
  rfl

end Cert.ReferenceIdeal.RV
end
-- ==== Proof.RS4.lean ====
/-
  The reference's output-block edge network, read at the ideal values.

  For every edge the source row and the destination row of the joined histories and the attribute row are laid side by
  side (28 + 28 + 4 = 60 columns); the joined row is multiplied by the first weight matrix, the first bias is added, the
  result is rectified, multiplied by the second weight matrix, and the second bias is added. A product over the joined
  row is the sum of the three products over its stretches, each against the matching rows of the weight matrix: that
  regrouping of a finite sum is all that separates this arrangement from the row formula `mlp3Hid`, whose first matrix
  is split by input rows.
-/
import proofs.«417163_j44495861187273_2_alg».proof.Proof.RRead
import proofs.«417163_j44495861187273_2_alg».proof.Proof.SpecArr
import proofs.«417163_j44495861187273_2_alg».proof.Proof.LibDot
import Idealize.ShloMosaic.Lib.Pipeline.Value

noncomputable section
namespace Cert.ReferenceIdeal.RV
open Idealize.ShloMosaic Idealize.ShloMosaic.TcCoe Idealize.ShloMosaic.ValueIdx Idealize.SL.Sem Cert.ReferenceIdeal Cert.ReferenceIdeal.Gen Cert.GNN

namespace S4

/-! ## The joined row -/

/-- The three rows side by side: source (28 columns), destination (28), attributes (4). -/
abbrev e2cat (s d : A2 800000 28) (e : A2 800000 4) : A2 800000 60 :=
  concatenate S800000x60 1 [⟨S800000x28, s⟩, ⟨S800000x28, d⟩, ⟨S800000x4, e⟩]
    concatenates_S800000x28_S800000x28_S800000x4_S800000x60_d1

/-- A column of the first stretch of the joined row is the source row's. -/
theorem e2cat_src (s d : A2 800000 28) (e : A2 800000 4) (p : Fin 800000) (k : Fin 28) :
    e2cat s d e (ix2 p ⟨k.val, by omega⟩) = s (ix2 p k) := by
  refine concatenate_apply_piece (t := S800000x60) (1 : Fin 2) [⟨S800000x28, s⟩, ⟨S800000x28, d⟩, ⟨S800000x4, e⟩] _ _ 0
    (by show (0 : Nat) < 3; omega) S800000x28 s rfl rfl 0 rfl (ix2 p k) ?_ ?_
  · intro b hb
    match b, hb with
    | ⟨0, _⟩, _ => rfl
    | ⟨1, _⟩, hb => exact absurd rfl hb
  · exact Nat.zero_add _

/-- A column of the second stretch is the destination row's. -/
theorem e2cat_dst (s d : A2 800000 28) (e : A2 800000 4) (p : Fin 800000) (k : Fin 28) :
    e2cat s d e (ix2 p ⟨28 + k.val, by omega⟩) = d (ix2 p k) := by
  refine concatenate_apply_piece (t := S800000x60) (1 : Fin 2) [⟨S800000x28, s⟩, ⟨S800000x28, d⟩, ⟨S800000x4, e⟩] _ _ 1
    (by show (1 : Nat) < 3; omega) S800000x28 d rfl rfl 28 rfl (ix2 p k) ?_ ?_
  · intro b hb
    match b, hb with
    | ⟨0, _⟩, _ => rfl
    | ⟨1, _⟩, hb => exact absurd rfl hb
  · rfl

/-- A column of the third stretch is the attribute row's. -/
theorem e2cat_att (s d : A2 800000 28) (e : A2 800000 4) (p : Fin 800000) (k : Fin 4) :
    e2cat s d e (ix2 p ⟨28 + 28 + k.val, by omega⟩) = e (ix2 p k) := by
  refine concatenate_apply_piece (t := S800000x60) (1 : Fin 2) [⟨S800000x28, s⟩, ⟨S800000x28, d⟩, ⟨S800000x4, e⟩] _ _ 2
    (by show (2 : Nat) < 3; omega) S800000x4 e rfl rfl (28 + 28) rfl (ix2 p k) ?_ ?_
  · intro b hb
    match b, hb with
    | ⟨0, _⟩, _ => rfl
    | ⟨1, _⟩, hb => exact absurd rfl hb
  · rfl

/-- The product of the joined row with a column of the first matrix is the sum of the three partial products: the
    source row against the matrix's rows 0–27, the destination row against rows 28–55, the attribute row against
    rows 56–59. -/
theorem e2cat_dot (s d : A2 800000 28) (e : A2 800000 4) (W : A2 60 64) (p : Fin 800000) (j : Fin 64) :
    (∑ k : Fin 60, e2cat s d e (ix2 p k) * W (ix2 k j))
      = ((∑ k : Fin 28, s (ix2 p k) * rowsFrom 0 28 (by norm_num) W (ix2 k j))
          + (∑ k : Fin 28, d (ix2 p k) * rowsFrom 28 28 (by norm_num) W (ix2 k j)))
        + (∑ k : Fin 4, e (ix2 p k) * rowsFrom 56 4 (by norm_num) W (ix2 k j)) := by
  rw [sum_split3 28 28 4 fun k : Fin (28 + 28 + 4) => e2cat s d e (ix2 p k) * W (ix2 k j)]
  simp only [e2cat_src, e2cat_dst, e2cat_att]
  refine congrArg₂ (· + ·) (congrArg₂ (· + ·) ?_ ?_) ?_
  · refine Finset.sum_congr rfl fun k _ => ?_
    refine congrArg (s (ix2 p k) * ·) (congrArg W ?_)
    funext a
    match a with
    | ⟨0, _⟩ => exact Fin.ext (Nat.zero_add _).symm
    | ⟨1, _⟩ => rfl
  · rfl
  · rfl

/-- The hidden layer at edge `p`, column `j`, with one product over the joined row, is the row formula. -/
theorem e2hid60 (s d : A2 800000 28) (e : A2 800000 4) (W : A2 60 64) (b : A1 64) (p : Fin 800000) (j : Fin 64) :
    max ((∑ k : Fin 60, e2cat s d e (ix2 p k) * W (ix2 k j)) + b (ix1 j)) Z
      = mlp3Hid (rowOf s p) (rowOf d p) (rowOf e p) (mat (rowsFrom 0 28 (by norm_num) W))
          (mat (rowsFrom 28 28 (by norm_num) W)) (mat (rowsFrom 56 4 (by norm_num) W)) (rowOf (bias1 b) 0) j := by
  rw [e2cat_dot]
  rfl

/-! ## The operations' index functions at an entry -/

theorem lidx134 (p : Fin 800000) (j : Fin 64) (k : Fin 60) : ReadC.lidx_main_v134 (ix2 p j) k = ix2 p k :=
  funext fun a => Fin.ext (by match a with | ⟨0, _⟩ => rfl | ⟨1, _⟩ => rfl)
theorem ridx134 (p : Fin 800000) (j : Fin 64) (k : Fin 60) : ReadC.ridx_main_v134 (ix2 p j) k = ix2 k j :=
  funext fun a => Fin.ext (by match a with | ⟨0, _⟩ => rfl | ⟨1, _⟩ => rfl)
theorem bidx136 (p : Fin 800000) (j : Fin 64) : ReadC.idx_main_v135 (ReadC.idx_main_v136 (ix2 p j)) = ix1 j :=
  funext fun a => Fin.ext (by match a with | ⟨0, _⟩ => rfl)
theorem lidx139 (p : Fin 800000) (q : Fin 32) (k : Fin 64) : ReadC.lidx_main_v139 (ix2 p q) k = ix2 p k :=
  funext fun a => Fin.ext (by match a with | ⟨0, _⟩ => rfl | ⟨1, _⟩ => rfl)
theorem ridx139 (p : Fin 800000) (q : Fin 32) (k : Fin 64) : ReadC.ridx_main_v139 (ix2 p q) k = ix2 k q :=
  funext fun a => Fin.ext (by match a with | ⟨0, _⟩ => rfl | ⟨1, _⟩ => rfl)
theorem bidx141 (p : Fin 800000) (q : Fin 32) : ReadC.idx_main_v140 (ReadC.idx_main_v141 (ix2 p q)) = ix1 q :=
  funext fun a => Fin.ext (by match a with | ⟨0, _⟩ => rfl)

/-! ## The stage -/

/-- The rectified hidden layer (operation 138) at edge `p`, column `j`. -/
theorem e2_hid (x0 : (⟨S50000x5, .f32⟩ : BufTy).Contents (Elt Ideal)) (x1 : (⟨S50000x32, .f32⟩ : BufTy).Contents (Elt Ideal)) (x2 : (⟨S2x800000, .i32⟩ : BufTy).Contents (Elt Ideal)) (x3 : (⟨S800000x4, .f32⟩ : BufTy).Contents (Elt Ideal)) (x4 : (⟨S50000x20, .f32⟩ : BufTy).Contents (Elt Ideal)) (x5 : (⟨S50000x20, .f32⟩ : BufTy).Contents (Elt Ideal)) (x6 : (⟨S50000x8, .f32⟩ : BufTy).Contents (Elt Ideal)) (x7 : (⟨S50000x8, .f32⟩ : BufTy).Contents (Elt Ideal)) (x8 : (⟨S80x37, .f32⟩ : BufTy).Contents (Elt Ideal)) (x9 : (⟨S80x20, .f32⟩ : BufTy).Contents (Elt Ideal)) (x10 : (⟨S80, .f32⟩ : BufTy).Contents (Elt Ideal)) (x11 : (⟨S80, .f32⟩ : BufTy).Contents (Elt Ideal)) (x12 : (⟨S32x32, .f32⟩ : BufTy).Contents (Elt Ideal)) (x13 : (⟨S32x8, .f32⟩ : BufTy).Contents (Elt Ideal)) (x14 : (⟨S32, .f32⟩ : BufTy).Contents (Elt Ideal)) (x15 : (⟨S32, .f32⟩ : BufTy).Contents (Elt Ideal)) (x16 : (⟨S78x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal)) (x20 : (⟨S60x64, .f32⟩ : BufTy).Contents (Elt Ideal)) (x21 : (⟨S64, .f32⟩ : BufTy).Contents (Elt Ideal)) (p : Fin 800000) (j : Fin 64) :
    ReadC.val_main_v138 (F := Ideal) x0 x1 x2 x3 x4 x5 x6 x7 x8 x9 x10 x11 x12 x13 x14 x15 x16 x17 x18 x19 x20 x21 (ix2 p j)
      = mlp3Hid (rowOf (ReadC.val_main_v125 (F := Ideal) x0 x1 x2 x3 x4 x5 x6 x7 x8 x9 x10 x11 x12 x13 x14 x15 x16 x17 x18 x19) p) (rowOf (ReadC.val_main_v132 (F := Ideal) x0 x1 x2 x3 x4 x5 x6 x7 x8 x9 x10 x11 x12 x13 x14 x15 x16 x17 x18 x19) p) (rowOf x3 p)
          (mat (rowsFrom 0 28 (by norm_num) x20)) (mat (rowsFrom 28 28 (by norm_num) x20)) (mat (rowsFrom 56 4 (by norm_num) x20))
          (rowOf (bias1 x21) 0) j := by
  rw [ReadC.val_main_v138_apply, ReadC.val_main_v137_apply, ReadC.val_main_v134_apply, ReadC.val_main_v136_apply,
    ReadC.val_main_v135_apply, ReadC.val_main_call1_v0_apply, ReadC.val_main_call1_cst_apply, bidx136,
    Finset.sum_congr rfl fun k _ => by rw [lidx134, ridx134]]
  exact e2hid60 (ReadC.val_main_v125 (F := Ideal) x0 x1 x2 x3 x4 x5 x6 x7 x8 x9 x10 x11 x12 x13 x14 x15 x16 x17 x18 x19) (ReadC.val_main_v132 (F := Ideal) x0 x1 x2 x3 x4 x5 x6 x7 x8 x9 x10 x11 x12 x13 x14 x15 x16 x17 x18 x19) x3 x20 x21 p j

end S4

open S4 in
theorem r_e2 (x0 : (⟨S50000x5, .f32⟩ : BufTy).Contents (Elt Ideal)) (x1 : (⟨S50000x32, .f32⟩ : BufTy).Contents (Elt Ideal)) (x2 : (⟨S2x800000, .i32⟩ : BufTy).Contents (Elt Ideal)) (x3 : (⟨S800000x4, .f32⟩ : BufTy).Contents (Elt Ideal)) (x4 : (⟨S50000x20, .f32⟩ : BufTy).Contents (Elt Ideal)) (x5 : (⟨S50000x20, .f32⟩ : BufTy).Contents (Elt Ideal)) (x6 : (⟨S50000x8, .f32⟩ : BufTy).Contents (Elt Ideal)) (x7 : (⟨S50000x8, .f32⟩ : BufTy).Contents (Elt Ideal)) (x8 : (⟨S80x37, .f32⟩ : BufTy).Contents (Elt Ideal)) (x9 : (⟨S80x20, .f32⟩ : BufTy).Contents (Elt Ideal)) (x10 : (⟨S80, .f32⟩ : BufTy).Contents (Elt Ideal)) (x11 : (⟨S80, .f32⟩ : BufTy).Contents (Elt Ideal)) (x12 : (⟨S32x32, .f32⟩ : BufTy).Contents (Elt Ideal)) (x13 : (⟨S32x8, .f32⟩ : BufTy).Contents (Elt Ideal)) (x14 : (⟨S32, .f32⟩ : BufTy).Contents (Elt Ideal)) (x15 : (⟨S32, .f32⟩ : BufTy).Contents (Elt Ideal)) (x16 : (⟨S78x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal)) (x20 : (⟨S60x64, .f32⟩ : BufTy).Contents (Elt Ideal)) (x21 : (⟨S64, .f32⟩ : BufTy).Contents (Elt Ideal)) (x22 : (⟨S64x32, .f32⟩ : BufTy).Contents (Elt Ideal)) (x23 : (⟨S32, .f32⟩ : BufTy).Contents (Elt Ideal)) :
    ReadC.val_main_v142 (F := Ideal) x0 x1 x2 x3 x4 x5 x6 x7 x8 x9 x10 x11 x12 x13 x14 x15 x16 x17 x18 x19 x20 x21 x22 x23 = mlp3Arr (ReadC.val_main_v125 (F := Ideal) x0 x1 x2 x3 x4 x5 x6 x7 x8 x9 x10 x11 x12 x13 x14 x15 x16 x17 x18 x19) (ReadC.val_main_v132 (F := Ideal) x0 x1 x2 x3 x4 x5 x6 x7 x8 x9 x10 x11 x12 x13 x14 x15 x16 x17 x18 x19) x3
      (rowsFrom 0 28 (by norm_num) x20) (rowsFrom 28 28 (by norm_num) x20) (rowsFrom 56 4 (by norm_num) x20) (bias1 x21) x22 (bias1 x23) := by
  funext i
  obtain ⟨p, q, rfl⟩ : ∃ p q, i = ix2 p q := ⟨i 0, i 1, eq_ix2 i⟩
  rw [ReadC.val_main_v142_apply, ReadC.val_main_v139_apply, ReadC.val_main_v141_apply, ReadC.val_main_v140_apply, bidx141,
    Finset.sum_congr rfl fun k _ => by rw [lidx139, ridx139, e2_hid]]
  rfl

end Cert.ReferenceIdeal.RV
end
-- ==== Proof.RS5.lean ====
/-
  The reference's node network, read at the ideal values.

  The reference joins the two feature arrays (28 and 32 columns) into one 60-column array, multiplies it by the whole
  first weight matrix, adds the bias, rectifies, multiplies by the second matrix and adds its bias. At one entry
  (p, q) that is a sum over the 64 hidden units of a rectified sum over the 60 joined columns. A sum over 60 terms is
  the sum of its first 28 and its last 32; in the first stretch the joined array reads the first feature array and
  the matrix its first 28 rows, in the second stretch the second feature array and the matrix's last 32 rows. That is
  the row formula of the node network, with the first matrix split by input rows.
-/
import proofs.«417163_j44495861187273_2_alg».proof.Proof.RRead
import proofs.«417163_j44495861187273_2_alg».proof.Proof.SpecArr
import proofs.«417163_j44495861187273_2_alg».proof.Proof.LibDot
import Idealize.ShloMosaic.Lib.Pipeline.Value

noncomputable section
namespace Cert.ReferenceIdeal.RV
open Idealize.ShloMosaic Idealize.ShloMosaic.TcCoe Idealize.ShloMosaic.ValueIdx Idealize.SL.Sem Cert.ReferenceIdeal Cert.ReferenceIdeal.Gen Cert.GNN

namespace S5

/-! ## The mathematics: the joined arrangement is the split one -/

/-- The rows of a matrix from row `o` on, read at an entry. -/
theorem rowsFrom_apply5 {a b : ℕ} (o m : ℕ) (h : o + m ≤ a) (W : A2 a b) (k : Fin m) (j : Fin b) :
    rowsFrom o m h W (ix2 k j) = W (ix2 ⟨o + k.val, by omega⟩ j) := rfl

/-- Two blocks of columns side by side, read at a column of the first block. -/
theorem cat60_left (A : A2 50000 28) (B : A2 50000 32) (p : Fin 50000) (k : Fin 28) :
    concatenate S50000x60 1 [⟨S50000x28, A⟩, ⟨S50000x32, B⟩] concatenates_S50000x28_S50000x32_S50000x60_d1
      (ix2 p (⟨k.val, by omega⟩ : Fin 60)) = A (ix2 p k) :=
  concatenate_pair_apply_left (1 : Fin S50000x60.rank) A B concatenates_S50000x28_S50000x32_S50000x60_d1 _ rfl (ix2 p k)
    (fun b => match b with | ⟨0, _⟩ => rfl | ⟨1, _⟩ => rfl)

/-- Two blocks of columns side by side, read at a column of the second block. -/
theorem cat60_right (A : A2 50000 28) (B : A2 50000 32) (p : Fin 50000) (k : Fin 32) :
    concatenate S50000x60 1 [⟨S50000x28, A⟩, ⟨S50000x32, B⟩] concatenates_S50000x28_S50000x32_S50000x60_d1
      (ix2 p (⟨28 + k.val, by omega⟩ : Fin 60)) = B (ix2 p k) :=
  concatenate_pair_apply_right (1 : Fin S50000x60.rank) A B concatenates_S50000x28_S50000x32_S50000x60_d1 _ rfl rfl (ix2 p k)
    (fun b => match b with | ⟨0, _⟩ => fun _ => rfl | ⟨1, _⟩ => fun h => absurd rfl h)
    (show k.val + 28 = 28 + k.val from Nat.add_comm _ _)

/-- A row of the joined array against the whole first matrix is the first block's row against the matrix's first 28
    rows plus the second block's row against its last 32 rows. -/
theorem first_split (A : A2 50000 28) (B : A2 50000 32) (W : A2 60 64) (p : Fin 50000) (j : Fin 64) :
    (∑ t : Fin 60, concatenate S50000x60 1 [⟨S50000x28, A⟩, ⟨S50000x32, B⟩] concatenates_S50000x28_S50000x32_S50000x60_d1 (ix2 p t) * W (ix2 t j))
      = (∑ k : Fin 28, A (ix2 p k) * rowsFrom 0 28 (by norm_num) W (ix2 k j))
        + ∑ k : Fin 32, B (ix2 p k) * rowsFrom 28 32 (by norm_num) W (ix2 k j) := by
  refine (sum_split2 28 32 (fun t : Fin 60 => concatenate S50000x60 1 [⟨S50000x28, A⟩, ⟨S50000x32, B⟩] concatenates_S50000x28_S50000x32_S50000x60_d1 (ix2 p t) * W (ix2 t j))).trans ?_
  congr 1
  · refine Finset.sum_congr rfl fun k _ => ?_
    rw [rowsFrom_apply5]
    show concatenate S50000x60 1 [⟨S50000x28, A⟩, ⟨S50000x32, B⟩] concatenates_S50000x28_S50000x32_S50000x60_d1 (ix2 p (⟨k.val, by omega⟩ : Fin 60)) * W (ix2 (⟨k.val, by omega⟩ : Fin 60) j) = _
    rw [cat60_left]
    simp only [Nat.zero_add]
  · refine Finset.sum_congr rfl fun k _ => ?_
    rw [rowsFrom_apply5]
    show concatenate S50000x60 1 [⟨S50000x28, A⟩, ⟨S50000x32, B⟩] concatenates_S50000x28_S50000x32_S50000x60_d1 (ix2 p (⟨28 + k.val, by omega⟩ : Fin 60)) * W (ix2 (⟨28 + k.val, by omega⟩ : Fin 60) j) = _
    rw [cat60_right]

/-- The node network at one entry, in the arrangement that joins the two feature rows first. -/
theorem node_net_point (A : A2 50000 28) (B : A2 50000 32) (W1 : A2 60 64) (b1 : A1 64) (W2 : A2 64 4) (b2 : A1 4)
    (p : Fin 50000) (q : Fin 4) :
    (∑ k : Fin 64, max ((∑ t : Fin 60, concatenate S50000x60 1 [⟨S50000x28, A⟩, ⟨S50000x32, B⟩] concatenates_S50000x28_S50000x32_S50000x60_d1 (ix2 p t) * W1 (ix2 t k)) + b1 (ix1 k)) Z * W2 (ix2 k q)) + b2 (ix1 q)
      = mlp2Arr A B (rowsFrom 0 28 (by norm_num) W1) (rowsFrom 28 32 (by norm_num) W1) (bias1 b1) W2 (bias1 b2) (ix2 p q) := by
  show _ = mlpOut (mlp2Hid (rowOf A p) (rowOf B p) (mat (rowsFrom 0 28 (by norm_num) W1)) (mat (rowsFrom 28 32 (by norm_num) W1)) (rowOf (bias1 b1) 0)) (mat W2) (rowOf (bias1 b2) 0) q
  unfold mlpOut mlp2Hid
  simp only [first_split]
  rfl

/-! ## The reference's operations at an entry -/

theorem ix_l160 (p : Fin 50000) (q : Fin 4) (k : Fin 64) : ReadC.lidx_main_v160 (ix2 p q) k = ix2 p k :=
  funext fun a => Fin.ext (by match a with | ⟨0, _⟩ => rfl | ⟨1, _⟩ => rfl)
theorem ix_r160 (p : Fin 50000) (q : Fin 4) (k : Fin 64) : ReadC.ridx_main_v160 (ix2 p q) k = ix2 k q :=
  funext fun a => Fin.ext (by match a with | ⟨0, _⟩ => rfl | ⟨1, _⟩ => rfl)
theorem ix_l155 (p : Fin 50000) (k : Fin 64) (t : Fin 60) : ReadC.lidx_main_v155 (ix2 p k) t = ix2 p t :=
  funext fun a => Fin.ext (by match a with | ⟨0, _⟩ => rfl | ⟨1, _⟩ => rfl)
theorem ix_r155 (p : Fin 50000) (k : Fin 64) (t : Fin 60) : ReadC.ridx_main_v155 (ix2 p k) t = ix2 t k :=
  funext fun a => Fin.ext (by match a with | ⟨0, _⟩ => rfl | ⟨1, _⟩ => rfl)
theorem ix_b1 (p : Fin 50000) (k : Fin 64) : ReadC.idx_main_v156 (ReadC.idx_main_v157 (ix2 p k)) = ix1 k :=
  funext fun a => Fin.ext (by match a with | ⟨0, _⟩ => rfl)
theorem ix_b2 (p : Fin 50000) (q : Fin 4) : ReadC.idx_main_v161 (ReadC.idx_main_v162 (ix2 p q)) = ix1 q :=
  funext fun a => Fin.ext (by match a with | ⟨0, _⟩ => rfl)

/-- The first bias, spread over the rows, at an entry. -/
theorem v157_point (x25 : (⟨S64, .f32⟩ : BufTy).Contents (Elt Ideal)) (p : Fin 50000) (k : Fin 64) :
    ReadC.val_main_v157 (F := Ideal) x25 (ix2 p k) = x25 (ix1 k) := by
  rw [ReadC.val_main_v157_apply, ReadC.val_main_v156_apply, ix_b1]

/-- The second bias, spread over the rows, at an entry. -/
theorem v162_point (x27 : (⟨S4, .f32⟩ : BufTy).Contents (Elt Ideal)) (p : Fin 50000) (q : Fin 4) :
    ReadC.val_main_v162 (F := Ideal) x27 (ix2 p q) = x27 (ix1 q) := by
  rw [ReadC.val_main_v162_apply, ReadC.val_main_v161_apply, ix_b2]

/-- The first product at an entry: the joined row against a column of the first matrix. -/
theorem v155_point (x0 : (⟨S50000x5, .f32⟩ : BufTy).Contents (Elt Ideal)) (x1 : (⟨S50000x32, .f32⟩ : BufTy).Contents (Elt Ideal)) (x2 : (⟨S2x800000, .i32⟩ : BufTy).Contents (Elt Ideal)) (x3 : (⟨S800000x4, .f32⟩ : BufTy).Contents (Elt Ideal)) (x4 : (⟨S50000x20, .f32⟩ : BufTy).Contents (Elt Ideal)) (x5 : (⟨S50000x20, .f32⟩ : BufTy).Contents (Elt Ideal)) (x6 : (⟨S50000x8, .f32⟩ : BufTy).Contents (Elt Ideal)) (x7 : (⟨S50000x8, .f32⟩ : BufTy).Contents (Elt Ideal)) (x8 : (⟨S80x37, .f32⟩ : BufTy).Contents (Elt Ideal)) (x9 : (⟨S80x20, .f32⟩ : BufTy).Contents (Elt Ideal)) (x10 : (⟨S80, .f32⟩ : BufTy).Contents (Elt Ideal)) (x11 : (⟨S80, .f32⟩ : BufTy).Contents (Elt Ideal)) (x12 : (⟨S32x32, .f32⟩ : BufTy).Contents (Elt Ideal)) (x13 : (⟨S32x8, .f32⟩ : BufTy).Contents (Elt Ideal)) (x14 : (⟨S32, .f32⟩ : BufTy).Contents (Elt Ideal)) (x15 : (⟨S32, .f32⟩ : BufTy).Contents (Elt Ideal)) (x16 : (⟨S78x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal)) (x20 : (⟨S60x64, .f32⟩ : BufTy).Contents (Elt Ideal)) (x21 : (⟨S64, .f32⟩ : BufTy).Contents (Elt Ideal)) (x22 : (⟨S64x32, .f32⟩ : BufTy).Contents (Elt Ideal)) (x23 : (⟨S32, .f32⟩ : BufTy).Contents (Elt Ideal)) (x24 : (⟨S60x64, .f32⟩ : BufTy).Contents (Elt Ideal)) (p : Fin 50000) (k : Fin 64) :
    ReadC.val_main_v155 (F := Ideal) x0 x1 x2 x3 x4 x5 x6 x7 x8 x9 x10 x11 x12 x13 x14 x15 x16 x17 x18 x19 x20 x21 x22 x23 x24 (ix2 p k)
      = ∑ t : Fin 60, ReadC.val_main_v154 (F := Ideal) x0 x1 x2 x3 x4 x5 x6 x7 x8 x9 x10 x11 x12 x13 x14 x15 x16 x17 x18 x19 x20 x21 x22 x23 (ix2 p t) * x24 (ix2 t k) := by
  rw [ReadC.val_main_v155_apply]
  refine Finset.sum_congr rfl fun t _ => ?_
  rw [ix_l155, ix_r155]

/-- The hidden layer at an entry: the first product plus the bias, floored at the zero word. -/
theorem hid_point (x0 : (⟨S50000x5, .f32⟩ : BufTy).Contents (Elt Ideal)) (x1 : (⟨S50000x32, .f32⟩ : BufTy).Contents (Elt Ideal)) (x2 : (⟨S2x800000, .i32⟩ : BufTy).Contents (Elt Ideal)) (x3 : (⟨S800000x4, .f32⟩ : BufTy).Contents (Elt Ideal)) (x4 : (⟨S50000x20, .f32⟩ : BufTy).Contents (Elt Ideal)) (x5 : (⟨S50000x20, .f32⟩ : BufTy).Contents (Elt Ideal)) (x6 : (⟨S50000x8, .f32⟩ : BufTy).Contents (Elt Ideal)) (x7 : (⟨S50000x8, .f32⟩ : BufTy).Contents (Elt Ideal)) (x8 : (⟨S80x37, .f32⟩ : BufTy).Contents (Elt Ideal)) (x9 : (⟨S80x20, .f32⟩ : BufTy).Contents (Elt Ideal)) (x10 : (⟨S80, .f32⟩ : BufTy).Contents (Elt Ideal)) (x11 : (⟨S80, .f32⟩ : BufTy).Contents (Elt Ideal)) (x12 : (⟨S32x32, .f32⟩ : BufTy).Contents (Elt Ideal)) (x13 : (⟨S32x8, .f32⟩ : BufTy).Contents (Elt Ideal)) (x14 : (⟨S32, .f32⟩ : BufTy).Contents (Elt Ideal)) (x15 : (⟨S32, .f32⟩ : BufTy).Contents (Elt Ideal)) (x16 : (⟨S78x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal)) (x20 : (⟨S60x64, .f32⟩ : BufTy).Contents (Elt Ideal)) (x21 : (⟨S64, .f32⟩ : BufTy).Contents (Elt Ideal)) (x22 : (⟨S64x32, .f32⟩ : BufTy).Contents (Elt Ideal)) (x23 : (⟨S32, .f32⟩ : BufTy).Contents (Elt Ideal)) (x24 : (⟨S60x64, .f32⟩ : BufTy).Contents (Elt Ideal)) (x25 : (⟨S64, .f32⟩ : BufTy).Contents (Elt Ideal)) (p : Fin 50000) (k : Fin 64) :
    ReadC.val_main_v159 (F := Ideal) x0 x1 x2 x3 x4 x5 x6 x7 x8 x9 x10 x11 x12 x13 x14 x15 x16 x17 x18 x19 x20 x21 x22 x23 x24 x25 (ix2 p k)
      = max ((∑ t : Fin 60, concatenate S50000x60 1 [⟨S50000x28, (ReadC.val_main_v118 (F := Ideal) x0 x1 x2 x3 x4 x5 x6 x7 x8 x9 x10 x11 x12 x13 x14 x15 x16 x17 x18 x19)⟩, ⟨S50000x32, (ReadC.val_main_v153 (F := Ideal) x0 x1 x2 x3 x4 x5 x6 x7 x8 x9 x10 x11 x12 x13 x14 x15 x16 x17 x18 x19 x20 x21 x22 x23)⟩] concatenates_S50000x28_S50000x32_S50000x60_d1 (ix2 p t) * x24 (ix2 t k)) + x25 (ix1 k)) Z := by
  rw [ReadC.val_main_v159_apply, ReadC.val_main_v158_apply, v155_point, v157_point, ReadC.val_main_call2_v0_apply,
    ReadC.val_main_call2_cst_apply, Ideal.maximumf_def, Ideal.addf_def, Ideal.ofBits_def]
  rfl

/-- The second product at an entry: the hidden row against a column of the second matrix. -/
theorem v160_point (x0 : (⟨S50000x5, .f32⟩ : BufTy).Contents (Elt Ideal)) (x1 : (⟨S50000x32, .f32⟩ : BufTy).Contents (Elt Ideal)) (x2 : (⟨S2x800000, .i32⟩ : BufTy).Contents (Elt Ideal)) (x3 : (⟨S800000x4, .f32⟩ : BufTy).Contents (Elt Ideal)) (x4 : (⟨S50000x20, .f32⟩ : BufTy).Contents (Elt Ideal)) (x5 : (⟨S50000x20, .f32⟩ : BufTy).Contents (Elt Ideal)) (x6 : (⟨S50000x8, .f32⟩ : BufTy).Contents (Elt Ideal)) (x7 : (⟨S50000x8, .f32⟩ : BufTy).Contents (Elt Ideal)) (x8 : (⟨S80x37, .f32⟩ : BufTy).Contents (Elt Ideal)) (x9 : (⟨S80x20, .f32⟩ : BufTy).Contents (Elt Ideal)) (x10 : (⟨S80, .f32⟩ : BufTy).Contents (Elt Ideal)) (x11 : (⟨S80, .f32⟩ : BufTy).Contents (Elt Ideal)) (x12 : (⟨S32x32, .f32⟩ : BufTy).Contents (Elt Ideal)) (x13 : (⟨S32x8, .f32⟩ : BufTy).Contents (Elt Ideal)) (x14 : (⟨S32, .f32⟩ : BufTy).Contents (Elt Ideal)) (x15 : (⟨S32, .f32⟩ : BufTy).Contents (Elt Ideal)) (x16 : (⟨S78x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal)) (x20 : (⟨S60x64, .f32⟩ : BufTy).Contents (Elt Ideal)) (x21 : (⟨S64, .f32⟩ : BufTy).Contents (Elt Ideal)) (x22 : (⟨S64x32, .f32⟩ : BufTy).Contents (Elt Ideal)) (x23 : (⟨S32, .f32⟩ : BufTy).Contents (Elt Ideal)) (x24 : (⟨S60x64, .f32⟩ : BufTy).Contents (Elt Ideal)) (x25 : (⟨S64, .f32⟩ : BufTy).Contents (Elt Ideal)) (x26 : (⟨S64x4, .f32⟩ : BufTy).Contents (Elt Ideal)) (p : Fin 50000) (q : Fin 4) :
    ReadC.val_main_v160 (F := Ideal) x0 x1 x2 x3 x4 x5 x6 x7 x8 x9 x10 x11 x12 x13 x14 x15 x16 x17 x18 x19 x20 x21 x22 x23 x24 x25 x26 (ix2 p q)
      = ∑ k : Fin 64, ReadC.val_main_v159 (F := Ideal) x0 x1 x2 x3 x4 x5 x6 x7 x8 x9 x10 x11 x12 x13 x14 x15 x16 x17 x18 x19 x20 x21 x22 x23 x24 x25 (ix2 p k) * x26 (ix2 k q) := by
  rw [ReadC.val_main_v160_apply]
  refine Finset.sum_congr rfl fun k _ => ?_
  rw [ix_l160, ix_r160]

end S5

open S5 in
theorem r_out (x0 : (⟨S50000x5, .f32⟩ : BufTy).Contents (Elt Ideal)) (x1 : (⟨S50000x32, .f32⟩ : BufTy).Contents (Elt Ideal)) (x2 : (⟨S2x800000, .i32⟩ : BufTy).Contents (Elt Ideal)) (x3 : (⟨S800000x4, .f32⟩ : BufTy).Contents (Elt Ideal)) (x4 : (⟨S50000x20, .f32⟩ : BufTy).Contents (Elt Ideal)) (x5 : (⟨S50000x20, .f32⟩ : BufTy).Contents (Elt Ideal)) (x6 : (⟨S50000x8, .f32⟩ : BufTy).Contents (Elt Ideal)) (x7 : (⟨S50000x8, .f32⟩ : BufTy).Contents (Elt Ideal)) (x8 : (⟨S80x37, .f32⟩ : BufTy).Contents (Elt Ideal)) (x9 : (⟨S80x20, .f32⟩ : BufTy).Contents (Elt Ideal)) (x10 : (⟨S80, .f32⟩ : BufTy).Contents (Elt Ideal)) (x11 : (⟨S80, .f32⟩ : BufTy).Contents (Elt Ideal)) (x12 : (⟨S32x32, .f32⟩ : BufTy).Contents (Elt Ideal)) (x13 : (⟨S32x8, .f32⟩ : BufTy).Contents (Elt Ideal)) (x14 : (⟨S32, .f32⟩ : BufTy).Contents (Elt Ideal)) (x15 : (⟨S32, .f32⟩ : BufTy).Contents (Elt Ideal)) (x16 : (⟨S78x64, .f32⟩ : BufTy).Contents (Elt Ideal)) (x17 : (⟨S64, .f32⟩ : BufTy).Contents (Elt Ideal)) (x18 : (⟨S64x32, .f32⟩ : BufTy).Contents (Elt Ideal)) (x19 : (⟨S32, .f32⟩ : BufTy).Contents (Elt Ideal)) (x20 : (⟨S60x64, .f32⟩ : BufTy).Contents (Elt Ideal)) (x21 : (⟨S64, .f32⟩ : BufTy).Contents (Elt Ideal)) (x22 : (⟨S64x32, .f32⟩ : BufTy).Contents (Elt Ideal)) (x23 : (⟨S32, .f32⟩ : BufTy).Contents (Elt Ideal)) (x24 : (⟨S60x64, .f32⟩ : BufTy).Contents (Elt Ideal)) (x25 : (⟨S64, .f32⟩ : BufTy).Contents (Elt Ideal)) (x26 : (⟨S64x4, .f32⟩ : BufTy).Contents (Elt Ideal)) (x27 : (⟨S4, .f32⟩ : BufTy).Contents (Elt Ideal)) :
    ReadC.val_main_v163 (F := Ideal) x0 x1 x2 x3 x4 x5 x6 x7 x8 x9 x10 x11 x12 x13 x14 x15 x16 x17 x18 x19 x20 x21 x22 x23 x24 x25 x26 x27 = mlp2Arr (ReadC.val_main_v118 (F := Ideal) x0 x1 x2 x3 x4 x5 x6 x7 x8 x9 x10 x11 x12 x13 x14 x15 x16 x17 x18 x19) (ReadC.val_main_v153 (F := Ideal) x0 x1 x2 x3 x4 x5 x6 x7 x8 x9 x10 x11 x12 x13 x14 x15 x16 x17 x18 x19 x20 x21 x22 x23)
      (rowsFrom 0 28 (by norm_num) x24) (rowsFrom 28 32 (by norm_num) x24) (bias1 x25) x26 (bias1 x27) := by
  funext i
  obtain ⟨p, q, rfl⟩ : ∃ p q, i = ix2 p q := ⟨i 0, i 1, eq_ix2 i⟩
  rw [ReadC.val_main_v163_apply, v160_point, v162_point, Ideal.addf_def]
  simp only [hid_point]
  generalize ReadC.val_main_v118 (F := Ideal) x0 x1 x2 x3 x4 x5 x6 x7 x8 x9 x10 x11 x12 x13 x14 x15 x16 x17 x18 x19 = A
  generalize ReadC.val_main_v153 (F := Ideal) x0 x1 x2 x3 x4 x5 x6 x7 x8 x9 x10 x11 x12 x13 x14 x15 x16 x17 x18 x19 x20 x21 x22 x23 = B
  exact node_net_point A B x24 x25 x26 x27 p q

end Cert.ReferenceIdeal.RV
end
-- ==== Proof.RRunA.lean ====
/-
  The reference program's run, first part: its operations %0 to %57 cut into two stretches (the first recurrent cell
  on the nodes; the two endpoint index vectors and the two gathers), and for each stretch what it leaves in the
  buffers later operations read, as that operation's value in the arguments, given the same of the buffers it reads.
-/
import proofs.«417163_j44495861187273_2_alg».proof.Proof.RRead
import Idealize.ShloMosaic.Lib.StableHlo.Run
import Idealize.ShloMosaic.Lib.Pipeline.Frame

noncomputable section
namespace Cert.ReferenceIdeal.RV
open Idealize.ShloMosaic Idealize.ShloMosaic.TcCoe Idealize.SL.Sem Cert.ReferenceIdeal Cert.ReferenceIdeal.Gen Idealize.ShloMosaic.StableHlo

variable {F : FTy → Type} [FloatOps F]

/-! ## Operations %0 to %39: the first recurrent cell on the nodes -/

/-- Operations %0 to %39, in order. -/
abbrev c1 : List (HloOp τ sig (Elt F)) :=
  [ binary main_arg0 main_arg1 main_v0 ((fun a b => concatenate S50000x37 1 [⟨S50000x5, a⟩, ⟨S50000x32, b⟩] concatenates_S50000x5_S50000x32_S50000x37_d1) : (⟨S50000x5, .f32⟩ : BufTy).Contents (Elt F) → (⟨S50000x32, .f32⟩ : BufTy).Contents (Elt F) → (⟨S50000x37, .f32⟩ : BufTy).Contents (Elt F)),
    unary main_arg8 main_v1 ((transpose S37x80 [1, 0] · transposes_S80x37_S37x80_1_0) : (⟨S80x37, .f32⟩ : BufTy).Contents (Elt F) → (⟨S37x80, .f32⟩ : BufTy).Contents (Elt F)),
    binary main_v0 main_v1 main_v2 ((fun l r => Host.dotGeneral dot_S50000x37_S37x80_S50000x80_1_0_0_1_n_n none l r) : (⟨S50000x37, .f32⟩ : BufTy).Contents (Elt F) → (⟨S37x80, .f32⟩ : BufTy).Contents (Elt F) → (⟨S50000x80, .f32⟩ : BufTy).Contents (Elt F)),
    unary main_arg9 main_v3 ((transpose S20x80 [1, 0] · transposes_S80x20_S20x80_1_0) : (⟨S80x20, .f32⟩ : BufTy).Contents (Elt F) → (⟨S20x80, .f32⟩ : BufTy).Contents (Elt F)),
    binary main_arg4 main_v3 main_v4 ((fun l r => Host.dotGeneral dot_S50000x20_S20x80_S50000x80_1_0_0_1_n_n none l r) : (⟨S50000x20, .f32⟩ : BufTy).Contents (Elt F) → (⟨S20x80, .f32⟩ : BufTy).Contents (Elt F) → (⟨S50000x80, .f32⟩ : BufTy).Contents (Elt F)),
    binary main_v2 main_v4 main_v5 (addf : (⟨S50000x80, .f32⟩ : BufTy).Contents (Elt F) → (⟨S50000x80, .f32⟩ : BufTy).Contents (Elt F) → (⟨S50000x80, .f32⟩ : BufTy).Contents (Elt F)),
    unary main_arg10 main_v6 (broadcastInDim S1x80 ![1] bcast_S80_S1x80_1 : (⟨S80, .f32⟩ : BufTy).Contents (Elt F) → (⟨S1x80, .f32⟩ : BufTy).Contents (Elt F)),
    unary main_v6 main_v7 (broadcastInDim S50000x80 ![0, 1] bcast_S1x80_S50000x80_0_1 : (⟨S1x80, .f32⟩ : BufTy).Contents (Elt F) → (⟨S50000x80, .f32⟩ : BufTy).Contents (Elt F)),
    binary main_v5 main_v7 main_v8 (addf : (⟨S50000x80, .f32⟩ : BufTy).Contents (Elt F) → (⟨S50000x80, .f32⟩ : BufTy).Contents (Elt F) → (⟨S50000x80, .f32⟩ : BufTy).Contents (Elt F)),
    unary main_arg11 main_v9 (broadcastInDim S1x80 ![1] bcast_S80_S1x80_1 : (⟨S80, .f32⟩ : BufTy).Contents (Elt F) → (⟨S1x80, .f32⟩ : BufTy).Contents (Elt F)),
    unary main_v9 main_v10 (broadcastInDim S50000x80 ![0, 1] bcast_S1x80_S50000x80_0_1 : (⟨S1x80, .f32⟩ : BufTy).Contents (Elt F) → (⟨S50000x80, .f32⟩ : BufTy).Contents (Elt F)),
    binary main_v8 main_v10 main_v11 (addf : (⟨S50000x80, .f32⟩ : BufTy).Contents (Elt F) → (⟨S50000x80, .f32⟩ : BufTy).Contents (Elt F) → (⟨S50000x80, .f32⟩ : BufTy).Contents (Elt F)),
    unary main_v11 main_v12 ((extractStridedSlice S50000x20 ![0, 0] · slices_S50000x80_S50000x20_0_0) : (⟨S50000x80, .f32⟩ : BufTy).Contents (Elt F) → (⟨S50000x20, .f32⟩ : BufTy).Contents (Elt F)),
    unary main_v11 main_v13 ((extractStridedSlice S50000x20 ![0, 20] · slices_S50000x80_S50000x20_0_20) : (⟨S50000x80, .f32⟩ : BufTy).Contents (Elt F) → (⟨S50000x20, .f32⟩ : BufTy).Contents (Elt F)),
    unary main_v11 main_v14 ((extractStridedSlice S50000x20 ![0, 40] · slices_S50000x80_S50000x20_0_40) : (⟨S50000x80, .f32⟩ : BufTy).Contents (Elt F) → (⟨S50000x20, .f32⟩ : BufTy).Contents (Elt F)),
    unary main_v11 main_v15 ((extractStridedSlice S50000x20 ![0, 60] · slices_S50000x80_S50000x20_0_60) : (⟨S50000x80, .f32⟩ : BufTy).Contents (Elt F) → (⟨S50000x20, .f32⟩ : BufTy).Contents (Elt F)),
    unary main_v13 main_v16 (Host.negf : (⟨S50000x20, .f32⟩ : BufTy).Contents (Elt F) → (⟨S50000x20, .f32⟩ : BufTy).Contents (Elt F)),
    unary main_v16 main_v17 (Host.exp : (⟨S50000x20, .f32⟩ : BufTy).Contents (Elt F) → (⟨S50000x20, .f32⟩ : BufTy).Contents (Elt F)),
    nullary main_cst (constant S_ .f32 0x3F800000#32),
    unary main_cst main_v18 (broadcastInDim S50000x20 ![] bcast_S_S50000x20 : (⟨S_, .f32⟩ : BufTy).Contents (Elt F) → (⟨S50000x20, .f32⟩ : BufTy).Contents (Elt F)),
    binary main_v18 main_v17 main_v19 (addf : (⟨S50000x20, .f32⟩ : BufTy).Contents (Elt F) → (⟨S50000x20, .f32⟩ : BufTy).Contents (Elt F) → (⟨S50000x20, .f32⟩ : BufTy).Contents (Elt F)),
    nullary main_cst_0 (constant S_ .f32 0x3F800000#32),
    unary main_cst_0 main_v20 (broadcastInDim S50000x20 ![] bcast_S_S50000x20 : (⟨S_, .f32⟩ : BufTy).Contents (Elt F) → (⟨S50000x20, .f32⟩ : BufTy).Contents (Elt F)),
    binary main_v20 main_v19 main_v21 (Host.divf : (⟨S50000x20, .f32⟩ : BufTy).Contents (Elt F) → (⟨S50000x20, .f32⟩ : BufTy).Contents (Elt F) → (⟨S50000x20, .f32⟩ : BufTy).Contents (Elt F)),
    binary main_v21 main_arg5 main_v22 (mulf : (⟨S50000x20, .f32⟩ : BufTy).Contents (Elt F) → (⟨S50000x20, .f32⟩ : BufTy).Contents (Elt F) → (⟨S50000x20, .f32⟩ : BufTy).Contents (Elt F)),
    unary main_v12 main_v23 (Host.negf : (⟨S50000x20, .f32⟩ : BufTy).Contents (Elt F) → (⟨S50000x20, .f32⟩ : BufTy).Contents (Elt F)),
    unary main_v23 main_v24 (Host.exp : (⟨S50000x20, .f32⟩ : BufTy).Contents (Elt F) → (⟨S50000x20, .f32⟩ : BufTy).Contents (Elt F)),
    nullary main_cst_1 (constant S_ .f32 0x3F800000#32),
    unary main_cst_1 main_v25 (broadcastInDim S50000x20 ![] bcast_S_S50000x20 : (⟨S_, .f32⟩ : BufTy).Contents (Elt F) → (⟨S50000x20, .f32⟩ : BufTy).Contents (Elt F)),
    binary main_v25 main_v24 main_v26 (addf : (⟨S50000x20, .f32⟩ : BufTy).Contents (Elt F) → (⟨S50000x20, .f32⟩ : BufTy).Contents (Elt F) → (⟨S50000x20, .f32⟩ : BufTy).Contents (Elt F)),
    nullary main_cst_2 (constant S_ .f32 0x3F800000#32),
    unary main_cst_2 main_v27 (broadcastInDim S50000x20 ![] bcast_S_S50000x20 : (⟨S_, .f32⟩ : BufTy).Contents (Elt F) → (⟨S50000x20, .f32⟩ : BufTy).Contents (Elt F)),
    binary main_v27 main_v26 main_v28 (Host.divf : (⟨S50000x20, .f32⟩ : BufTy).Contents (Elt F) → (⟨S50000x20, .f32⟩ : BufTy).Contents (Elt F) → (⟨S50000x20, .f32⟩ : BufTy).Contents (Elt F)),
    unary main_v14 main_v29 (Host.tanh : (⟨S50000x20, .f32⟩ : BufTy).Contents (Elt F) → (⟨S50000x20, .f32⟩ : BufTy).Contents (Elt F)),
    binary main_v28 main_v29 main_v30 (mulf : (⟨S50000x20, .f32⟩ : BufTy).Contents (Elt F) → (⟨S50000x20, .f32⟩ : BufTy).Contents (Elt F) → (⟨S50000x20, .f32⟩ : BufTy).Contents (Elt F)),
    binary main_v22 main_v30 main_v31 (addf : (⟨S50000x20, .f32⟩ : BufTy).Contents (Elt F) → (⟨S50000x20, .f32⟩ : BufTy).Contents (Elt F) → (⟨S50000x20, .f32⟩ : BufTy).Contents (Elt F)),
    unary main_v15 main_v32 (Host.negf : (⟨S50000x20, .f32⟩ : BufTy).Contents (Elt F) → (⟨S50000x20, .f32⟩ : BufTy).Contents (Elt F)),
    unary main_v32 main_v33 (Host.exp : (⟨S50000x20, .f32⟩ : BufTy).Contents (Elt F) → (⟨S50000x20, .f32⟩ : BufTy).Contents (Elt F)),
    nullary main_cst_3 (constant S_ .f32 0x3F800000#32),
    unary main_cst_3 main_v34 (broadcastInDim S50000x20 ![] bcast_S_S50000x20 : (⟨S_, .f32⟩ : BufTy).Contents (Elt F) → (⟨S50000x20, .f32⟩ : BufTy).Contents (Elt F)),
    binary main_v34 main_v33 main_v35 (addf : (⟨S50000x20, .f32⟩ : BufTy).Contents (Elt F) → (⟨S50000x20, .f32⟩ : BufTy).Contents (Elt F) → (⟨S50000x20, .f32⟩ : BufTy).Contents (Elt F)),
    nullary main_cst_4 (constant S_ .f32 0x3F800000#32),
    unary main_cst_4 main_v36 (broadcastInDim S50000x20 ![] bcast_S_S50000x20 : (⟨S_, .f32⟩ : BufTy).Contents (Elt F) → (⟨S50000x20, .f32⟩ : BufTy).Contents (Elt F)),
    binary main_v36 main_v35 main_v37 (Host.divf : (⟨S50000x20, .f32⟩ : BufTy).Contents (Elt F) → (⟨S50000x20, .f32⟩ : BufTy).Contents (Elt F) → (⟨S50000x20, .f32⟩ : BufTy).Contents (Elt F)),
    unary main_v31 main_v38 (Host.tanh : (⟨S50000x20, .f32⟩ : BufTy).Contents (Elt F) → (⟨S50000x20, .f32⟩ : BufTy).Contents (Elt F)),
    binary main_v37 main_v38 main_v39 (mulf : (⟨S50000x20, .f32⟩ : BufTy).Contents (Elt F) → (⟨S50000x20, .f32⟩ : BufTy).Contents (Elt F) → (⟨S50000x20, .f32⟩ : BufTy).Contents (Elt F)) ]

/-- The buffers the operations of `c1` write. -/
abbrev outs1 : List (Ref sig .tc) :=
  [main_v0, main_v1, main_v2, main_v3, main_v4, main_v5, main_v6, main_v7, main_v8, main_v9, main_v10, main_v11, main_v12,
   main_v13, main_v14, main_v15, main_v16, main_v17, main_cst, main_v18, main_v19, main_cst_0, main_v20, main_v21, main_v22,
   main_v23, main_v24, main_cst_1, main_v25, main_v26, main_cst_2, main_v27, main_v28, main_v29, main_v30, main_v31, main_v32,
   main_v33, main_cst_3, main_v34, main_v35, main_cst_4, main_v36, main_v37, main_v38, main_v39]

/-- Every operation of `c1` touches TensorCore buffers only. -/
theorem c1_sub : (c1 : List (HloOp τ sig (Elt F))).Forall fun op => op.bufs ⊆ tcRefs τ sig :=
  ⟨binary_bufs_sub .., unary_bufs_sub .., binary_bufs_sub .., unary_bufs_sub .., binary_bufs_sub .., binary_bufs_sub ..,
   unary_bufs_sub .., unary_bufs_sub .., binary_bufs_sub .., unary_bufs_sub .., unary_bufs_sub .., binary_bufs_sub ..,
   unary_bufs_sub .., unary_bufs_sub .., unary_bufs_sub .., unary_bufs_sub .., unary_bufs_sub .., unary_bufs_sub ..,
   nullary_bufs_sub .., unary_bufs_sub .., binary_bufs_sub .., nullary_bufs_sub .., unary_bufs_sub .., binary_bufs_sub ..,
   binary_bufs_sub .., unary_bufs_sub .., unary_bufs_sub .., nullary_bufs_sub .., unary_bufs_sub .., binary_bufs_sub ..,
   nullary_bufs_sub .., unary_bufs_sub .., binary_bufs_sub .., unary_bufs_sub .., binary_bufs_sub .., binary_bufs_sub ..,
   unary_bufs_sub .., unary_bufs_sub .., nullary_bufs_sub .., unary_bufs_sub .., binary_bufs_sub .., nullary_bufs_sub ..,
   unary_bufs_sub .., binary_bufs_sub .., unary_bufs_sub .., binary_bufs_sub ..⟩

/-- Every operation of `c1` determines what it writes. -/
theorem c1_fresh : ∀ op ∈ (c1 : List (HloOp τ sig (Elt F))), op.fresh = ∅ := by
  intro _ h; (repeat (cases h with | head => rfl | tail _ h => ?_)); exact nomatch h

/-- A buffer none of `c1`'s operations writes keeps its contents. -/
theorem keep1 (W : Valuation τ sig (Elt F)) (r : Ref sig .tc) (hr : r ∉ outs1) :
    after c1 W (Proc.devRef .tc r) = W (Proc.devRef .tc r) :=
  after_of_forall_not_mem (b := Proc.devRef .tc r) _ _ (List.forall_iff_forall_mem.mp (by
    simp only [c1, List.Forall, nullary_writes, unary_writes, binary_writes, Finset.mem_singleton]
    repeat' apply And.intro
    all_goals exact devRef_ne_of_ne (fun e => hr (e ▸ by decide))))

section facts1
variable (W : Valuation τ sig (Elt F))
variable (x0 : (⟨S50000x5, .f32⟩ : BufTy).Contents (Elt F)) (x1 : (⟨S50000x32, .f32⟩ : BufTy).Contents (Elt F))
  (x4 x5 : (⟨S50000x20, .f32⟩ : BufTy).Contents (Elt F))
  (x8 : (⟨S80x37, .f32⟩ : BufTy).Contents (Elt F)) (x9 : (⟨S80x20, .f32⟩ : BufTy).Contents (Elt F))
  (x10 x11 : (⟨S80, .f32⟩ : BufTy).Contents (Elt F))

/-- After `c1`, %0 holds the node features joined: its value in the arguments. -/
theorem c1_v0 (h0 : W (Proc.devRef .tc main_arg0) = x0) (h1 : W (Proc.devRef .tc main_arg1) = x1) :
    after c1 W (Proc.devRef .tc main_v0) = ReadC.val_main_v0 (F := F) x0 x1 := by
  after_results_simp
  rw [h0, h1]
  rfl

/-- After `c1`, %31 holds the first cell's new cell state: its value in the arguments. -/
theorem c1_v31 (h0 : W (Proc.devRef .tc main_arg0) = x0) (h1 : W (Proc.devRef .tc main_arg1) = x1)
    (h4 : W (Proc.devRef .tc main_arg4) = x4) (h5 : W (Proc.devRef .tc main_arg5) = x5)
    (h8 : W (Proc.devRef .tc main_arg8) = x8) (h9 : W (Proc.devRef .tc main_arg9) = x9)
    (h10 : W (Proc.devRef .tc main_arg10) = x10) (h11 : W (Proc.devRef .tc main_arg11) = x11) :
    after c1 W (Proc.devRef .tc main_v31) = ReadC.val_main_v31 (F := F) x0 x1 x4 x5 x8 x9 x10 x11 := by
  after_results_simp
  rw [h0, h1, h4, h5, h8, h9, h10, h11]
  rfl

/-- After `c1`, %39 holds the first cell's new hidden state: its value in the arguments. -/
theorem c1_v39 (h0 : W (Proc.devRef .tc main_arg0) = x0) (h1 : W (Proc.devRef .tc main_arg1) = x1)
    (h4 : W (Proc.devRef .tc main_arg4) = x4) (h5 : W (Proc.devRef .tc main_arg5) = x5)
    (h8 : W (Proc.devRef .tc main_arg8) = x8) (h9 : W (Proc.devRef .tc main_arg9) = x9)
    (h10 : W (Proc.devRef .tc main_arg10) = x10) (h11 : W (Proc.devRef .tc main_arg11) = x11) :
    after c1 W (Proc.devRef .tc main_v39) = ReadC.val_main_v39 (F := F) x0 x1 x4 x5 x8 x9 x10 x11 := by
  after_results_simp
  rw [h0, h1, h4, h5, h8, h9, h10, h11]
  rfl

end facts1

/-! ## Operations %40 to %57: the two endpoint index vectors and the two gathers of node rows -/

/-- Operations %40 to %57, in order. -/
abbrev c2 : List (HloOp τ sig (Elt F)) :=
  [ unary main_arg2 main_v40 ((extractStridedSlice S1x800000 ![0, 0] · slices_S2x800000_S1x800000_0_0) : (⟨S2x800000, .i32⟩ : BufTy).Contents (Elt F) → (⟨S1x800000, .i32⟩ : BufTy).Contents (Elt F)),
    reshape main_v40 main_v41 rfl shapeCasts_S1x800000_S800000,
    unary main_arg2 main_v42 ((extractStridedSlice S1x800000 ![1, 0] · slices_S2x800000_S1x800000_1_0) : (⟨S2x800000, .i32⟩ : BufTy).Contents (Elt F) → (⟨S1x800000, .i32⟩ : BufTy).Contents (Elt F)),
    reshape main_v42 main_v43 rfl shapeCasts_S1x800000_S800000,
    nullary main_c (constantI S_ 32 0#32),
    unary main_c main_v44 (broadcastInDim S800000 ![] bcast_S_S800000 : (⟨S_, .i32⟩ : BufTy).Contents (Elt F) → (⟨S800000, .i32⟩ : BufTy).Contents (Elt F)),
    binary main_v41 main_v44 main_v45 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v46 (broadcastInDim S800000 ![] bcast_S_S800000 : (⟨S_, .i32⟩ : BufTy).Contents (Elt F) → (⟨S800000, .i32⟩ : BufTy).Contents (Elt F)),
    binary main_v41 main_v46 main_v47 (addi : (⟨S800000, .i32⟩ : BufTy).Contents (Elt F) → (⟨S800000, .i32⟩ : BufTy).Contents (Elt F) → (⟨S800000, .i32⟩ : BufTy).Contents (Elt F)),
    ternary main_v45 main_v47 main_v41 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v48 main_v49 (broadcastInDim S800000x1 ![0] bcast_S800000_S800000x1_0 : (⟨S800000, .i32⟩ : BufTy).Contents (Elt F) → (⟨S800000x1, .i32⟩ : BufTy).Contents (Elt F)),
    binary main_v0 main_v49 main_v50 ((fun x i => Host.gather gather_S50000x37_S800000x1_S800000x37_1_0_n_n_0_1_137 x i) : (⟨S50000x37, .f32⟩ : BufTy).Contents (Elt F) → (⟨S800000x1, .i32⟩ : BufTy).Contents (Elt F) → (⟨S800000x37, .f32⟩ : BufTy).Contents (Elt F)),
    nullary main_c_6 (constantI S_ 32 0#32),
    unary main_c_6 main_v51 (broadcastInDim S800000 ![] bcast_S_S800000 : (⟨S_, .i32⟩ : BufTy).Contents (Elt F) → (⟨S800000, .i32⟩ : BufTy).Contents (Elt F)),
    binary main_v43 main_v51 main_v52 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v53 (broadcastInDim S800000 ![] bcast_S_S800000 : (⟨S_, .i32⟩ : BufTy).Contents (Elt F) → (⟨S800000, .i32⟩ : BufTy).Contents (Elt F)),
    binary main_v43 main_v53 main_v54 (addi : (⟨S800000, .i32⟩ : BufTy).Contents (Elt F) → (⟨S800000, .i32⟩ : BufTy).Contents (Elt F) → (⟨S800000, .i32⟩ : BufTy).Contents (Elt F)),
    ternary main_v52 main_v54 main_v43 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v55 main_v56 (broadcastInDim S800000x1 ![0] bcast_S800000_S800000x1_0 : (⟨S800000, .i32⟩ : BufTy).Contents (Elt F) → (⟨S800000x1, .i32⟩ : BufTy).Contents (Elt F)),
    binary main_v0 main_v56 main_v57 ((fun x i => Host.gather gather_S50000x37_S800000x1_S800000x37_1_0_n_n_0_1_137 x i) : (⟨S50000x37, .f32⟩ : BufTy).Contents (Elt F) → (⟨S800000x1, .i32⟩ : BufTy).Contents (Elt F) → (⟨S800000x37, .f32⟩ : BufTy).Contents (Elt F)) ]

/-- The buffers the operations of `c2` write. -/
abbrev outs2 : List (Ref sig .tc) :=
  [main_v40, main_v41, main_v42, main_v43, main_c, main_v44, main_v45, main_c_5, main_v46, main_v47, main_v48, main_v49,
   main_v50, main_c_6, main_v51, main_v52, main_c_7, main_v53, main_v54, main_v55, main_v56, main_v57]

/-- Every operation of `c2` touches TensorCore buffers only. -/
theorem c2_sub : (c2 : List (HloOp τ sig (Elt F))).Forall fun op => op.bufs ⊆ tcRefs τ sig :=
  ⟨unary_bufs_sub .., reshape_bufs_sub .., unary_bufs_sub .., reshape_bufs_sub .., nullary_bufs_sub .., unary_bufs_sub ..,
   binary_bufs_sub .., nullary_bufs_sub .., unary_bufs_sub .., binary_bufs_sub .., ternary_bufs_sub .., unary_bufs_sub ..,
   binary_bufs_sub .., nullary_bufs_sub .., unary_bufs_sub .., binary_bufs_sub .., nullary_bufs_sub .., unary_bufs_sub ..,
   binary_bufs_sub .., ternary_bufs_sub .., unary_bufs_sub .., binary_bufs_sub ..⟩

/-- Every operation of `c2` determines what it writes. -/
theorem c2_fresh : ∀ op ∈ (c2 : List (HloOp τ sig (Elt F))), op.fresh = ∅ := by
  intro _ h; (repeat (cases h with | head => rfl | tail _ h => ?_)); exact nomatch h

/-- A buffer none of `c2`'s operations writes keeps its contents. -/
theorem keep2 (W : Valuation τ sig (Elt F)) (r : Ref sig .tc) (hr : r ∉ outs2) :
    after c2 W (Proc.devRef .tc r) = W (Proc.devRef .tc r) :=
  after_of_forall_not_mem (b := Proc.devRef .tc r) _ _ (List.forall_iff_forall_mem.mp (by
    simp only [c2, List.Forall, nullary_writes, unary_writes, binary_writes, ternary_writes, reshape_writes,
      Finset.mem_singleton]
    repeat' apply And.intro
    all_goals exact devRef_ne_of_ne (fun e => hr (e ▸ by decide))))

section facts2
variable (W : Valuation τ sig (Elt F))
variable (x0 : (⟨S50000x5, .f32⟩ : BufTy).Contents (Elt F)) (x1 : (⟨S50000x32, .f32⟩ : BufTy).Contents (Elt F))
  (x2 : (⟨S2x800000, .i32⟩ : BufTy).Contents (Elt F))

/-- After `c2`, %41 holds the first row of the edge list as a vector. -/
theorem c2_v41 (h2 : W (Proc.devRef .tc main_arg2) = x2) :
    after c2 W (Proc.devRef .tc main_v41) = ReadC.val_main_v41 (F := F) x2 := by
  after_results_simp
  rw [h2]
  rfl

/-- After `c2`, %43 holds the second row of the edge list as a vector. -/
theorem c2_v43 (h2 : W (Proc.devRef .tc main_arg2) = x2) :
    after c2 W (Proc.devRef .tc main_v43) = ReadC.val_main_v43 (F := F) x2 := by
  after_results_simp
  rw [h2]
  rfl

/-- After `c2`, %50 holds the joined node features gathered at the edges' first endpoints. -/
theorem c2_v50 (hv0 : W (Proc.devRef .tc main_v0) = ReadC.val_main_v0 (F := F) x0 x1)
    (h2 : W (Proc.devRef .tc main_arg2) = x2) :
    after c2 W (Proc.devRef .tc main_v50) = ReadC.val_main_v50 (F := F) x0 x1 x2 := by
  after_results_simp
  rw [hv0, h2]
  rfl

/-- After `c2`, %57 holds the joined node features gathered at the edges' second endpoints. -/
theorem c2_v57 (hv0 : W (Proc.devRef .tc main_v0) = ReadC.val_main_v0 (F := F) x0 x1)
    (h2 : W (Proc.devRef .tc main_arg2) = x2) :
    after c2 W (Proc.devRef .tc main_v57) = ReadC.val_main_v57 (F := F) x0 x1 x2 := by
  after_results_simp
  rw [hv0, h2]
  rfl

end facts2

end Cert.ReferenceIdeal.RV
end
-- ==== Proof.RRunC.lean ====
/-
  A stretch of the reference program, operations 58 to 78: every edge's source row, destination row and attribute row
  side by side; the message network's two layers over the joined rows; the sum of the messages over each node's incoming
  edges divided by the number of those edges floored at one. The stretch's last value is the mean message at every node
  as a function of the program's arguments, given what the buffers it reads from before hold.
  The list entries follow this unit's printed operation list.
-/
import proofs.«417163_j44495861187273_2_alg».proof.Proof.RRead
import Idealize.ShloMosaic.Lib.StableHlo.Run
import Idealize.ShloMosaic.Lib.Pipeline.Frame

noncomputable section
namespace Cert.ReferenceIdeal.RV
open Idealize.ShloMosaic Idealize.ShloMosaic.TcCoe Idealize.SL.Sem Cert.ReferenceIdeal Cert.ReferenceIdeal.Gen Idealize.ShloMosaic.StableHlo

variable {F : FTy → Type} [FloatOps F]

/-- Operations 58 to 78, in order. -/
abbrev c3 : List (HloOp τ sig (Elt F)) :=
  [ nary ![main_v50, main_v57, main_arg3] main_v58 (fun u => concatenate S800000x78 1 [⟨S800000x37, u 0⟩, ⟨S800000x37, u 1⟩, ⟨S800000x4, u 2⟩] concatenates_S800000x37_S800000x37_S800000x4_S800000x78_d1),
    binary main_v58 main_arg16 main_v59 ((fun l r => Host.dotGeneral dot_S800000x78_S78x64_S800000x64_1_0_0_1_n_n none l r) : (⟨S800000x78, .f32⟩ : BufTy).Contents (Elt F) → (⟨S78x64, .f32⟩ : BufTy).Contents (Elt F) → (⟨S800000x64, .f32⟩ : BufTy).Contents (Elt F)),
    unary main_arg17 main_v60 (broadcastInDim S1x64 ![1] bcast_S64_S1x64_1 : (⟨S64, .f32⟩ : BufTy).Contents (Elt F) → (⟨S1x64, .f32⟩ : BufTy).Contents (Elt F)),
    unary main_v60 main_v61 (broadcastInDim S800000x64 ![0, 1] bcast_S1x64_S800000x64_0_1 : (⟨S1x64, .f32⟩ : BufTy).Contents (Elt F) → (⟨S800000x64, .f32⟩ : BufTy).Contents (Elt F)),
    binary main_v59 main_v61 main_v62 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S800000x64, .f32⟩) main_call0_v0) (broadcastInDim S800000x64 ![] bcast_S_S800000x64),
    TRef.binary (TRef.of (T := ⟨S800000x64, .f32⟩) main_v62) (TRef.of (T := ⟨S800000x64, .f32⟩) main_call0_v0) (TRef.of (T := ⟨S800000x64, .f32⟩) main_v63) maximumf,
    binary main_v63 main_arg18 main_v64 ((fun l r => Host.dotGeneral dot_S800000x64_S64x32_S800000x32_1_0_0_1_n_n none l r) : (⟨S800000x64, .f32⟩ : BufTy).Contents (Elt F) → (⟨S64x32, .f32⟩ : BufTy).Contents (Elt F) → (⟨S800000x32, .f32⟩ : BufTy).Contents (Elt F)),
    unary main_arg19 main_v65 (broadcastInDim S1x32 ![1] bcast_S32_S1x32_1 : (⟨S32, .f32⟩ : BufTy).Contents (Elt F) → (⟨S1x32, .f32⟩ : BufTy).Contents (Elt F)),
    unary main_v65 main_v66 (broadcastInDim S800000x32 ![0, 1] bcast_S1x32_S800000x32_0_1 : (⟨S1x32, .f32⟩ : BufTy).Contents (Elt F) → (⟨S800000x32, .f32⟩ : BufTy).Contents (Elt F)),
    binary main_v64 main_v66 main_v67 (addf : (⟨S800000x32, .f32⟩ : BufTy).Contents (Elt F) → (⟨S800000x32, .f32⟩ : BufTy).Contents (Elt F) → (⟨S800000x32, .f32⟩ : BufTy).Contents (Elt F)),
    nullary main_cst_8 (constant S_ .f32 0x00000000#32),
    unary main_cst_8 main_v68 (broadcastInDim S50000x32 ![] bcast_S_S50000x32 : (⟨S_, .f32⟩ : BufTy).Contents (Elt F) → (⟨S50000x32, .f32⟩ : BufTy).Contents (Elt F)),
    unary main_v43 main_v69 (broadcastInDim S800000x1 ![0] bcast_S800000_S800000x1_0 : (⟨S800000, .i32⟩ : BufTy).Contents (Elt F) → (⟨S800000x1, .i32⟩ : BufTy).Contents (Elt F)),
    ternary main_v68 main_v69 main_v67 main_v70 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    nullary main_cst_9 (constant S_ .f32 0x3F800000#32),
    unary main_cst_9 main_v71 (broadcastInDim S800000x1 ![] bcast_S_S800000x1 : (⟨S_, .f32⟩ : BufTy).Contents (Elt F) → (⟨S800000x1, .f32⟩ : BufTy).Contents (Elt F)),
    nullary main_cst_10 (constant S_ .f32 0x00000000#32),
    unary main_cst_10 main_v72 (broadcastInDim S50000x1 ![] bcast_S_S50000x1 : (⟨S_, .f32⟩ : BufTy).Contents (Elt F) → (⟨S50000x1, .f32⟩ : BufTy).Contents (Elt F)),
    unary main_v43 main_v73 (broadcastInDim S800000x1 ![0] bcast_S800000_S800000x1_0 : (⟨S800000, .i32⟩ : BufTy).Contents (Elt F) → (⟨S800000x1, .i32⟩ : BufTy).Contents (Elt F)),
    ternary main_v72 main_v73 main_v71 main_v74 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_11 (constant S_ .f32 0x3F800000#32),
    unary main_cst_11 main_v75 (broadcastInDim S50000x1 ![] bcast_S_S50000x1 : (⟨S_, .f32⟩ : BufTy).Contents (Elt F) → (⟨S50000x1, .f32⟩ : BufTy).Contents (Elt F)),
    binary main_v74 main_v75 main_v76 (maximumf : (⟨S50000x1, .f32⟩ : BufTy).Contents (Elt F) → (⟨S50000x1, .f32⟩ : BufTy).Contents (Elt F) → (⟨S50000x1, .f32⟩ : BufTy).Contents (Elt F)),
    unary main_v76 main_v77 (broadcastInDim S50000x32 ![0, 1] bcast_S50000x1_S50000x32_0_1 : (⟨S50000x1, .f32⟩ : BufTy).Contents (Elt F) → (⟨S50000x32, .f32⟩ : BufTy).Contents (Elt F)),
    binary main_v70 main_v77 main_v78 (Host.divf : (⟨S50000x32, .f32⟩ : BufTy).Contents (Elt F) → (⟨S50000x32, .f32⟩ : BufTy).Contents (Elt F) → (⟨S50000x32, .f32⟩ : BufTy).Contents (Elt F)) ]

/-- The buffers they write, in order. -/
abbrev outs3 : List (Ref sig .tc) :=
  [main_v58, main_v59, main_v60, main_v61, main_v62, main_call0_cst, main_call0_v0, main_v63, main_v64, main_v65, main_v66, main_v67, main_cst_8, main_v68, main_v69, main_v70, main_cst_9, main_v71, main_cst_10, main_v72, main_v73, main_v74, main_cst_11, main_v75, main_v76, main_v77, main_v78]

theorem c3_sub : (c3 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩

theorem c3_fresh : ∀ op ∈ (c3 : List (HloOp τ sig (Elt F))), op.fresh = ∅ := by
  intro _ h; (repeat (cases h with | head => rfl | tail _ h => ?_)); exact nomatch h

/-- A buffer the stretch does not write keeps its contents. -/
theorem keep3 (W : Valuation τ sig (Elt F)) (r : Ref sig .tc) (hr : r ∉ outs3) :
    after c3 W (Proc.devRef .tc r) = W (Proc.devRef .tc r) :=
  after_of_forall_not_mem (b := Proc.devRef .tc r) _ _ (List.forall_iff_forall_mem.mp (by
    simp only [c3, List.Forall, nullary_writes, unary_writes, binary_writes, ternary_writes, nary_writes, Finset.mem_singleton]
    repeat' apply And.intro
    all_goals exact devRef_ne_of_ne (fun e => hr (e ▸ by decide))))

/-- An operation over a literal family of three buffers leaves its function of the three buffers' contents, each at its
    own buffer. -/
theorem c3_nary3_result {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The mean message at every node, after the stretch. -/
theorem c3_v78 (W : Valuation τ sig (Elt F))
    (x0 : (⟨S50000x5, .f32⟩ : BufTy).Contents (Elt F)) (x1 : (⟨S50000x32, .f32⟩ : BufTy).Contents (Elt F))
    (x2 : (⟨S2x800000, .i32⟩ : BufTy).Contents (Elt F)) (x3 : (⟨S800000x4, .f32⟩ : BufTy).Contents (Elt F))
    (x16 : (⟨S78x64, .f32⟩ : BufTy).Contents (Elt F)) (x17 : (⟨S64, .f32⟩ : BufTy).Contents (Elt F))
    (x18 : (⟨S64x32, .f32⟩ : BufTy).Contents (Elt F)) (x19 : (⟨S32, .f32⟩ : BufTy).Contents (Elt F))
    (h43 : W (Proc.devRef .tc main_v43) = ReadC.val_main_v43 (F := F) x2)
    (h50 : W (Proc.devRef .tc main_v50) = ReadC.val_main_v50 (F := F) x0 x1 x2)
    (h57 : W (Proc.devRef .tc main_v57) = ReadC.val_main_v57 (F := F) x0 x1 x2)
    (h3 : W (Proc.devRef .tc main_arg3) = x3) (h16 : W (Proc.devRef .tc main_arg16) = x16)
    (h17 : W (Proc.devRef .tc main_arg17) = x17) (h18 : W (Proc.devRef .tc main_arg18) = x18)
    (h19 : W (Proc.devRef .tc main_arg19) = x19) :
    after c3 W (Proc.devRef .tc main_v78) = ReadC.val_main_v78 (F := F) x0 x1 x2 x3 x16 x17 x18 x19 := by
  simp only [after_cons, after_nil]
  repeat (first
    | rw [c3_nary3_result] | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide)
    | (rw [nary_result_ne]; rotate_left; decide))
  rw [h43, h50, h57, h3, h16, h17, h18, h19]
  simp only [TRef.ofBuf, TRef.toBuf, cast_eq]
  rfl

end Cert.ReferenceIdeal.RV
end
-- ==== Proof.RRunD.lean ====
/-
  The reference program's run, one stretch: operations 79 to 117, the second recurrent cell (on the mean messages).

  The stretch is forty-five host operations (the four constants `1` of the two sigmoid gates and the output gate
  included). Run in order from any buffer contents `W`, they leave every buffer they do not write as it was, and they
  leave the new cell state (operation 109) and the new hidden state (operation 117) at those operations' values as
  functions of the program's arguments, provided `W` holds the mean messages (operation 78) and the six arguments the
  stretch reads. The list entries follow the reference program's printed operations, in order.
-/
import proofs.«417163_j44495861187273_2_alg».proof.Proof.RRead
import Idealize.ShloMosaic.Lib.StableHlo.Run
import Idealize.ShloMosaic.Lib.Pipeline.Frame

noncomputable section
namespace Cert.ReferenceIdeal.RV
open Idealize.ShloMosaic Idealize.ShloMosaic.TcCoe Idealize.SL.Sem Cert.ReferenceIdeal Cert.ReferenceIdeal.Gen Idealize.ShloMosaic.StableHlo

variable {F : FTy → Type} [FloatOps F]

/-- Operations 79 to 117 (the second recurrent cell), in order. -/
abbrev c4 : List (HloOp τ sig (Elt F)) :=
  [ unary main_arg12 main_v79 ((transpose S32x32 [1, 0] · transposes_S32x32_S32x32_1_0) : (⟨S32x32, .f32⟩ : BufTy).Contents (Elt F) → (⟨S32x32, .f32⟩ : BufTy).Contents (Elt F)),
    binary main_v78 main_v79 main_v80 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_arg13 main_v81 ((transpose S8x32 [1, 0] · transposes_S32x8_S8x32_1_0) : (⟨S32x8, .f32⟩ : BufTy).Contents (Elt F) → (⟨S8x32, .f32⟩ : BufTy).Contents (Elt F)),
    binary main_arg6 main_v81 main_v82 ((fun l r => Host.dotGeneral dot_S50000x8_S8x32_S50000x32_1_0_0_1_n_n none l r) : (⟨S50000x8, .f32⟩ : BufTy).Contents (Elt F) → (⟨S8x32, .f32⟩ : BufTy).Contents (Elt F) → (⟨S50000x32, .f32⟩ : BufTy).Contents (Elt F)),
    binary main_v80 main_v82 main_v83 (addf : (⟨S50000x32, .f32⟩ : BufTy).Contents (Elt F) → (⟨S50000x32, .f32⟩ : BufTy).Contents (Elt F) → (⟨S50000x32, .f32⟩ : BufTy).Contents (Elt F)),
    unary main_arg14 main_v84 (broadcastInDim S1x32 ![1] bcast_S32_S1x32_1 : (⟨S32, .f32⟩ : BufTy).Contents (Elt F) → (⟨S1x32, .f32⟩ : BufTy).Contents (Elt F)),
    unary main_v84 main_v85 (broadcastInDim S50000x32 ![0, 1] bcast_S1x32_S50000x32_0_1 : (⟨S1x32, .f32⟩ : BufTy).Contents (Elt F) → (⟨S50000x32, .f32⟩ : BufTy).Contents (Elt F)),
    binary main_v83 main_v85 main_v86 (addf : (⟨S50000x32, .f32⟩ : BufTy).Contents (Elt F) → (⟨S50000x32, .f32⟩ : BufTy).Contents (Elt F) → (⟨S50000x32, .f32⟩ : BufTy).Contents (Elt F)),
    unary main_arg15 main_v87 (broadcastInDim S1x32 ![1] bcast_S32_S1x32_1 : (⟨S32, .f32⟩ : BufTy).Contents (Elt F) → (⟨S1x32, .f32⟩ : BufTy).Contents (Elt F)),
    unary main_v87 main_v88 (broadcastInDim S50000x32 ![0, 1] bcast_S1x32_S50000x32_0_1 : (⟨S1x32, .f32⟩ : BufTy).Contents (Elt F) → (⟨S50000x32, .f32⟩ : BufTy).Contents (Elt F)),
    binary main_v86 main_v88 main_v89 (addf : (⟨S50000x32, .f32⟩ : BufTy).Contents (Elt F) → (⟨S50000x32, .f32⟩ : BufTy).Contents (Elt F) → (⟨S50000x32, .f32⟩ : BufTy).Contents (Elt F)),
    unary main_v89 main_v90 ((extractStridedSlice S50000x8 ![0, 0] · slices_S50000x32_S50000x8_0_0) : (⟨S50000x32, .f32⟩ : BufTy).Contents (Elt F) → (⟨S50000x8, .f32⟩ : BufTy).Contents (Elt F)),
    unary main_v89 main_v91 ((extractStridedSlice S50000x8 ![0, 8] · slices_S50000x32_S50000x8_0_8) : (⟨S50000x32, .f32⟩ : BufTy).Contents (Elt F) → (⟨S50000x8, .f32⟩ : BufTy).Contents (Elt F)),
    unary main_v89 main_v92 ((extractStridedSlice S50000x8 ![0, 16] · slices_S50000x32_S50000x8_0_16) : (⟨S50000x32, .f32⟩ : BufTy).Contents (Elt F) → (⟨S50000x8, .f32⟩ : BufTy).Contents (Elt F)),
    unary main_v89 main_v93 ((extractStridedSlice S50000x8 ![0, 24] · slices_S50000x32_S50000x8_0_24) : (⟨S50000x32, .f32⟩ : BufTy).Contents (Elt F) → (⟨S50000x8, .f32⟩ : BufTy).Contents (Elt F)),
    unary main_v91 main_v94 (Host.negf : (⟨S50000x8, .f32⟩ : BufTy).Contents (Elt F) → (⟨S50000x8, .f32⟩ : BufTy).Contents (Elt F)),
    unary main_v94 main_v95 (Host.exp : (⟨S50000x8, .f32⟩ : BufTy).Contents (Elt F) → (⟨S50000x8, .f32⟩ : BufTy).Contents (Elt F)),
    nullary main_cst_12 (constant S_ .f32 0x3F800000#32),
    unary main_cst_12 main_v96 (broadcastInDim S50000x8 ![] bcast_S_S50000x8 : (⟨S_, .f32⟩ : BufTy).Contents (Elt F) → (⟨S50000x8, .f32⟩ : BufTy).Contents (Elt F)),
    binary main_v96 main_v95 main_v97 (addf : (⟨S50000x8, .f32⟩ : BufTy).Contents (Elt F) → (⟨S50000x8, .f32⟩ : BufTy).Contents (Elt F) → (⟨S50000x8, .f32⟩ : BufTy).Contents (Elt F)),
    nullary main_cst_13 (constant S_ .f32 0x3F800000#32),
    unary main_cst_13 main_v98 (broadcastInDim S50000x8 ![] bcast_S_S50000x8 : (⟨S_, .f32⟩ : BufTy).Contents (Elt F) → (⟨S50000x8, .f32⟩ : BufTy).Contents (Elt F)),
    binary main_v98 main_v97 main_v99 (Host.divf : (⟨S50000x8, .f32⟩ : BufTy).Contents (Elt F) → (⟨S50000x8, .f32⟩ : BufTy).Contents (Elt F) → (⟨S50000x8, .f32⟩ : BufTy).Contents (Elt F)),
    binary main_v99 main_arg7 main_v100 (mulf : (⟨S50000x8, .f32⟩ : BufTy).Contents (Elt F) → (⟨S50000x8, .f32⟩ : BufTy).Contents (Elt F) → (⟨S50000x8, .f32⟩ : BufTy).Contents (Elt F)),
    unary main_v90 main_v101 (Host.negf : (⟨S50000x8, .f32⟩ : BufTy).Contents (Elt F) → (⟨S50000x8, .f32⟩ : BufTy).Contents (Elt F)),
    unary main_v101 main_v102 (Host.exp : (⟨S50000x8, .f32⟩ : BufTy).Contents (Elt F) → (⟨S50000x8, .f32⟩ : BufTy).Contents (Elt F)),
    nullary main_cst_14 (constant S_ .f32 0x3F800000#32),
    unary main_cst_14 main_v103 (broadcastInDim S50000x8 ![] bcast_S_S50000x8 : (⟨S_, .f32⟩ : BufTy).Contents (Elt F) → (⟨S50000x8, .f32⟩ : BufTy).Contents (Elt F)),
    binary main_v103 main_v102 main_v104 (addf : (⟨S50000x8, .f32⟩ : BufTy).Contents (Elt F) → (⟨S50000x8, .f32⟩ : BufTy).Contents (Elt F) → (⟨S50000x8, .f32⟩ : BufTy).Contents (Elt F)),
    nullary main_cst_15 (constant S_ .f32 0x3F800000#32),
    unary main_cst_15 main_v105 (broadcastInDim S50000x8 ![] bcast_S_S50000x8 : (⟨S_, .f32⟩ : BufTy).Contents (Elt F) → (⟨S50000x8, .f32⟩ : BufTy).Contents (Elt F)),
    binary main_v105 main_v104 main_v106 (Host.divf : (⟨S50000x8, .f32⟩ : BufTy).Contents (Elt F) → (⟨S50000x8, .f32⟩ : BufTy).Contents (Elt F) → (⟨S50000x8, .f32⟩ : BufTy).Contents (Elt F)),
    unary main_v92 main_v107 (Host.tanh : (⟨S50000x8, .f32⟩ : BufTy).Contents (Elt F) → (⟨S50000x8, .f32⟩ : BufTy).Contents (Elt F)),
    binary main_v106 main_v107 main_v108 (mulf : (⟨S50000x8, .f32⟩ : BufTy).Contents (Elt F) → (⟨S50000x8, .f32⟩ : BufTy).Contents (Elt F) → (⟨S50000x8, .f32⟩ : BufTy).Contents (Elt F)),
    binary main_v100 main_v108 main_v109 (addf : (⟨S50000x8, .f32⟩ : BufTy).Contents (Elt F) → (⟨S50000x8, .f32⟩ : BufTy).Contents (Elt F) → (⟨S50000x8, .f32⟩ : BufTy).Contents (Elt F)),
    unary main_v93 main_v110 (Host.negf : (⟨S50000x8, .f32⟩ : BufTy).Contents (Elt F) → (⟨S50000x8, .f32⟩ : BufTy).Contents (Elt F)),
    unary main_v110 main_v111 (Host.exp : (⟨S50000x8, .f32⟩ : BufTy).Contents (Elt F) → (⟨S50000x8, .f32⟩ : BufTy).Contents (Elt F)),
    nullary main_cst_16 (constant S_ .f32 0x3F800000#32),
    unary main_cst_16 main_v112 (broadcastInDim S50000x8 ![] bcast_S_S50000x8 : (⟨S_, .f32⟩ : BufTy).Contents (Elt F) → (⟨S50000x8, .f32⟩ : BufTy).Contents (Elt F)),
    binary main_v112 main_v111 main_v113 (addf : (⟨S50000x8, .f32⟩ : BufTy).Contents (Elt F) → (⟨S50000x8, .f32⟩ : BufTy).Contents (Elt F) → (⟨S50000x8, .f32⟩ : BufTy).Contents (Elt F)),
    nullary main_cst_17 (constant S_ .f32 0x3F800000#32),
    unary main_cst_17 main_v114 (broadcastInDim S50000x8 ![] bcast_S_S50000x8 : (⟨S_, .f32⟩ : BufTy).Contents (Elt F) → (⟨S50000x8, .f32⟩ : BufTy).Contents (Elt F)),
    binary main_v114 main_v113 main_v115 (Host.divf : (⟨S50000x8, .f32⟩ : BufTy).Contents (Elt F) → (⟨S50000x8, .f32⟩ : BufTy).Contents (Elt F) → (⟨S50000x8, .f32⟩ : BufTy).Contents (Elt F)),
    unary main_v109 main_v116 (Host.tanh : (⟨S50000x8, .f32⟩ : BufTy).Contents (Elt F) → (⟨S50000x8, .f32⟩ : BufTy).Contents (Elt F)),
    binary main_v115 main_v116 main_v117 (mulf : (⟨S50000x8, .f32⟩ : BufTy).Contents (Elt F) → (⟨S50000x8, .f32⟩ : BufTy).Contents (Elt F) → (⟨S50000x8, .f32⟩ : BufTy).Contents (Elt F)) ]

/-- The buffers the operations of `c4` write, in order. -/
abbrev outs4 : List (Ref sig .tc) :=
  [main_v79, main_v80, main_v81, main_v82, main_v83, main_v84, main_v85, main_v86, main_v87, main_v88, main_v89, main_v90,
   main_v91, main_v92, main_v93, main_v94, main_v95, main_cst_12, main_v96, main_v97, main_cst_13, main_v98, main_v99, main_v100,
   main_v101, main_v102, main_cst_14, main_v103, main_v104, main_cst_15, main_v105, main_v106, main_v107, main_v108, main_v109, main_v110,
   main_v111, main_cst_16, main_v112, main_v113, main_cst_17, main_v114, main_v115, main_v116, main_v117]

/-- Every operation of the stretch touches TensorCore references only. -/
theorem c4_sub : (c4 : List (HloOp τ sig (Elt F))).Forall fun op => op.bufs ⊆ tcRefs τ sig :=
  ⟨unary_bufs_sub .., binary_bufs_sub .., unary_bufs_sub .., binary_bufs_sub .., binary_bufs_sub .., unary_bufs_sub ..,
   unary_bufs_sub .., binary_bufs_sub .., unary_bufs_sub .., unary_bufs_sub .., binary_bufs_sub .., unary_bufs_sub ..,
   unary_bufs_sub .., unary_bufs_sub .., unary_bufs_sub .., unary_bufs_sub .., unary_bufs_sub .., nullary_bufs_sub ..,
   unary_bufs_sub .., binary_bufs_sub .., nullary_bufs_sub .., unary_bufs_sub .., binary_bufs_sub .., binary_bufs_sub ..,
   unary_bufs_sub .., unary_bufs_sub .., nullary_bufs_sub .., unary_bufs_sub .., binary_bufs_sub .., nullary_bufs_sub ..,
   unary_bufs_sub .., binary_bufs_sub .., unary_bufs_sub .., binary_bufs_sub .., binary_bufs_sub .., unary_bufs_sub ..,
   unary_bufs_sub .., nullary_bufs_sub .., unary_bufs_sub .., binary_bufs_sub .., nullary_bufs_sub .., unary_bufs_sub ..,
   binary_bufs_sub .., unary_bufs_sub .., binary_bufs_sub ..⟩

/-- No operation of the stretch allocates. -/
theorem c4_fresh : ∀ op ∈ (c4 : List (HloOp τ sig (Elt F))), op.fresh = ∅ := by
  intro _ h; (repeat (cases h with | head => rfl | tail _ h => ?_)); exact nomatch h

/-- A buffer none of `c4`'s operations writes keeps its contents. -/
theorem keep4 (W : Valuation τ sig (Elt F)) (r : Ref sig .tc) (hr : r ∉ outs4) :
    after c4 W (Proc.devRef .tc r) = W (Proc.devRef .tc r) :=
  after_of_forall_not_mem (b := Proc.devRef .tc r) _ _ (List.forall_iff_forall_mem.mp (by
    simp only [c4, List.Forall, nullary_writes, unary_writes, binary_writes, Finset.mem_singleton]
    repeat' apply And.intro
    all_goals exact devRef_ne_of_ne (fun e => hr (e ▸ by decide))))

/-- The new hidden state of the second cell (operation 117) after the stretch. -/
theorem c4_v117 (W : Valuation τ sig (Elt F)) (x0 : (⟨S50000x5, .f32⟩ : BufTy).Contents (Elt F)) (x1 : (⟨S50000x32, .f32⟩ : BufTy).Contents (Elt F)) (x2 : (⟨S2x800000, .i32⟩ : BufTy).Contents (Elt F)) (x3 : (⟨S800000x4, .f32⟩ : BufTy).Contents (Elt F)) (x6 : (⟨S50000x8, .f32⟩ : BufTy).Contents (Elt F)) (x7 : (⟨S50000x8, .f32⟩ : BufTy).Contents (Elt F)) (x12 : (⟨S32x32, .f32⟩ : BufTy).Contents (Elt F)) (x13 : (⟨S32x8, .f32⟩ : BufTy).Contents (Elt F)) (x14 : (⟨S32, .f32⟩ : BufTy).Contents (Elt F)) (x15 : (⟨S32, .f32⟩ : BufTy).Contents (Elt F)) (x16 : (⟨S78x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F))
    (h78 : W (Proc.devRef .tc main_v78) = ReadC.val_main_v78 (F := F) x0 x1 x2 x3 x16 x17 x18 x19)
    (h6 : W (Proc.devRef .tc main_arg6) = x6) (h7 : W (Proc.devRef .tc main_arg7) = x7)
    (h12 : W (Proc.devRef .tc main_arg12) = x12) (h13 : W (Proc.devRef .tc main_arg13) = x13)
    (h14 : W (Proc.devRef .tc main_arg14) = x14) (h15 : W (Proc.devRef .tc main_arg15) = x15) :
    after c4 W (Proc.devRef .tc main_v117) = ReadC.val_main_v117 (F := F) x0 x1 x2 x3 x6 x7 x12 x13 x14 x15 x16 x17 x18 x19 := by
  after_results_simp
  rw [h78, h6, h7, h12, h13, h14, h15]
  rfl

/-- The new cell state of the second cell (operation 109) after the stretch. -/
theorem c4_v109 (W : Valuation τ sig (Elt F)) (x0 : (⟨S50000x5, .f32⟩ : BufTy).Contents (Elt F)) (x1 : (⟨S50000x32, .f32⟩ : BufTy).Contents (Elt F)) (x2 : (⟨S2x800000, .i32⟩ : BufTy).Contents (Elt F)) (x3 : (⟨S800000x4, .f32⟩ : BufTy).Contents (Elt F)) (x6 : (⟨S50000x8, .f32⟩ : BufTy).Contents (Elt F)) (x7 : (⟨S50000x8, .f32⟩ : BufTy).Contents (Elt F)) (x12 : (⟨S32x32, .f32⟩ : BufTy).Contents (Elt F)) (x13 : (⟨S32x8, .f32⟩ : BufTy).Contents (Elt F)) (x14 : (⟨S32, .f32⟩ : BufTy).Contents (Elt F)) (x15 : (⟨S32, .f32⟩ : BufTy).Contents (Elt F)) (x16 : (⟨S78x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F))
    (h78 : W (Proc.devRef .tc main_v78) = ReadC.val_main_v78 (F := F) x0 x1 x2 x3 x16 x17 x18 x19)
    (h6 : W (Proc.devRef .tc main_arg6) = x6) (h7 : W (Proc.devRef .tc main_arg7) = x7)
    (h12 : W (Proc.devRef .tc main_arg12) = x12) (h13 : W (Proc.devRef .tc main_arg13) = x13)
    (h14 : W (Proc.devRef .tc main_arg14) = x14) (h15 : W (Proc.devRef .tc main_arg15) = x15) :
    after c4 W (Proc.devRef .tc main_v109) = ReadC.val_main_v109 (F := F) x0 x1 x2 x3 x6 x7 x12 x13 x14 x15 x16 x17 x18 x19 := by
  after_results_simp
  rw [h78, h6, h7, h12, h13, h14, h15]
  rfl

end Cert.ReferenceIdeal.RV
end
-- ==== Proof.RRunB.lean ====
/-
  The reference program's last three stretches of host operations, read back: what each stretch leaves in the buffers
  it writes, as the operations' values of the launch arrays, given what the stretches before it left in the buffers it
  reads; and that a stretch leaves every buffer it does not write as it was.

  A stretch is a list of operations; running it from contents `W` rewrites, operation by operation, the buffer each
  operation writes to its function's value of the buffers it reads. So the contents of a written buffer after the
  stretch are the composed term of `W` at the buffers read from outside the stretch, and that term, with those
  replaced by the earlier operations' values, is the operation's value by definition.
-/
import proofs.«417163_j44495861187273_2_alg».proof.Proof.RRead
import Idealize.ShloMosaic.Lib.StableHlo.Run
import Idealize.ShloMosaic.Lib.Pipeline.Frame

noncomputable section
namespace Cert.ReferenceIdeal.RV
open Idealize.ShloMosaic Idealize.ShloMosaic.TcCoe Idealize.SL.Sem Cert.ReferenceIdeal Cert.ReferenceIdeal.Gen Idealize.ShloMosaic.StableHlo

variable {F : FTy → Type} [FloatOps F]

/-! ## The stretch of operations %118–%132 -/

/-- Both histories side by side, and its rows gathered at the edges' two endpoints. -/
abbrev c5 : List (HloOp τ sig (Elt F)) :=
  [ binary main_v39 main_v117 main_v118 ((fun a b => concatenate S50000x28 1 [⟨S50000x20, a⟩, ⟨S50000x8, b⟩] concatenates_S50000x20_S50000x8_S50000x28_d1) : (⟨S50000x20, .f32⟩ : BufTy).Contents (Elt F) → (⟨S50000x8, .f32⟩ : BufTy).Contents (Elt F) → (⟨S50000x28, .f32⟩ : BufTy).Contents (Elt F)),
    nullary main_c_18 (constantI S_ 32 0#32),
    unary main_c_18 main_v119 (broadcastInDim S800000 ![] bcast_S_S800000 : (⟨S_, .i32⟩ : BufTy).Contents (Elt F) → (⟨S800000, .i32⟩ : BufTy).Contents (Elt F)),
    binary main_v41 main_v119 main_v120 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v121 (broadcastInDim S800000 ![] bcast_S_S800000 : (⟨S_, .i32⟩ : BufTy).Contents (Elt F) → (⟨S800000, .i32⟩ : BufTy).Contents (Elt F)),
    binary main_v41 main_v121 main_v122 (addi : (⟨S800000, .i32⟩ : BufTy).Contents (Elt F) → (⟨S800000, .i32⟩ : BufTy).Contents (Elt F) → (⟨S800000, .i32⟩ : BufTy).Contents (Elt F)),
    ternary main_v120 main_v122 main_v41 main_v123 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v123 main_v124 (broadcastInDim S800000x1 ![0] bcast_S800000_S800000x1_0 : (⟨S800000, .i32⟩ : BufTy).Contents (Elt F) → (⟨S800000x1, .i32⟩ : BufTy).Contents (Elt F)),
    binary main_v118 main_v124 main_v125 ((fun x i => Host.gather gather_S50000x28_S800000x1_S800000x28_1_0_n_n_0_1_128 x i) : (⟨S50000x28, .f32⟩ : BufTy).Contents (Elt F) → (⟨S800000x1, .i32⟩ : BufTy).Contents (Elt F) → (⟨S800000x28, .f32⟩ : BufTy).Contents (Elt F)),
    nullary main_c_20 (constantI S_ 32 0#32),
    unary main_c_20 main_v126 (broadcastInDim S800000 ![] bcast_S_S800000 : (⟨S_, .i32⟩ : BufTy).Contents (Elt F) → (⟨S800000, .i32⟩ : BufTy).Contents (Elt F)),
    binary main_v43 main_v126 main_v127 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v128 (broadcastInDim S800000 ![] bcast_S_S800000 : (⟨S_, .i32⟩ : BufTy).Contents (Elt F) → (⟨S800000, .i32⟩ : BufTy).Contents (Elt F)),
    binary main_v43 main_v128 main_v129 (addi : (⟨S800000, .i32⟩ : BufTy).Contents (Elt F) → (⟨S800000, .i32⟩ : BufTy).Contents (Elt F) → (⟨S800000, .i32⟩ : BufTy).Contents (Elt F)),
    ternary main_v127 main_v129 main_v43 main_v130 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v130 main_v131 (broadcastInDim S800000x1 ![0] bcast_S800000_S800000x1_0 : (⟨S800000, .i32⟩ : BufTy).Contents (Elt F) → (⟨S800000x1, .i32⟩ : BufTy).Contents (Elt F)),
    binary main_v118 main_v131 main_v132 ((fun x i => Host.gather gather_S50000x28_S800000x1_S800000x28_1_0_n_n_0_1_128 x i) : (⟨S50000x28, .f32⟩ : BufTy).Contents (Elt F) → (⟨S800000x1, .i32⟩ : BufTy).Contents (Elt F) → (⟨S800000x28, .f32⟩ : BufTy).Contents (Elt F)) ]

/-- The buffers the stretch writes, in order. -/
abbrev outs5 : List (Ref sig .tc) :=
  [main_v118, main_c_18, main_v119, main_v120, main_c_19, main_v121, main_v122, main_v123, main_v124, main_v125, main_c_20, main_v126, main_v127, main_c_21, main_v128, main_v129, main_v130, main_v131, main_v132]

theorem c5_sub : (c5 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

theorem c5_fresh : ∀ op ∈ (c5 : List (HloOp τ sig (Elt F))), op.fresh = ∅ := by
  intro _ h; (repeat (cases h with | head => rfl | tail _ h => ?_)); exact nomatch h

/-- A buffer the stretch does not write keeps its contents. -/
theorem keep5 (W : Valuation τ sig (Elt F)) (r : Ref sig .tc) (hr : r ∉ outs5) :
    after (c5 (F := F)) W (Proc.devRef .tc r) = W (Proc.devRef .tc r) :=
  after_of_forall_not_mem (b := Proc.devRef .tc r) _ _ (List.forall_iff_forall_mem.mp (by
    simp only [c5, List.Forall, TRef.nullary, TRef.unary, TRef.binary, nullary_writes, unary_writes, binary_writes, ternary_writes, nary_writes, Finset.mem_singleton]
    repeat' apply And.intro
    all_goals exact devRef_ne_of_ne (fun e => hr (e ▸ by decide))))

theorem c5_v118 (W : Valuation τ sig (Elt F)) (x0 : (⟨S50000x5, .f32⟩ : BufTy).Contents (Elt F)) (x1 : (⟨S50000x32, .f32⟩ : BufTy).Contents (Elt F)) (x2 : (⟨S2x800000, .i32⟩ : BufTy).Contents (Elt F)) (x3 : (⟨S800000x4, .f32⟩ : BufTy).Contents (Elt F)) (x4 : (⟨S50000x20, .f32⟩ : BufTy).Contents (Elt F)) (x5 : (⟨S50000x20, .f32⟩ : BufTy).Contents (Elt F)) (x6 : (⟨S50000x8, .f32⟩ : BufTy).Contents (Elt F)) (x7 : (⟨S50000x8, .f32⟩ : BufTy).Contents (Elt F)) (x8 : (⟨S80x37, .f32⟩ : BufTy).Contents (Elt F)) (x9 : (⟨S80x20, .f32⟩ : BufTy).Contents (Elt F)) (x10 : (⟨S80, .f32⟩ : BufTy).Contents (Elt F)) (x11 : (⟨S80, .f32⟩ : BufTy).Contents (Elt F)) (x12 : (⟨S32x32, .f32⟩ : BufTy).Contents (Elt F)) (x13 : (⟨S32x8, .f32⟩ : BufTy).Contents (Elt F)) (x14 : (⟨S32, .f32⟩ : BufTy).Contents (Elt F)) (x15 : (⟨S32, .f32⟩ : BufTy).Contents (Elt F)) (x16 : (⟨S78x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F))
    (h39 : W (Proc.devRef .tc main_v39) = ReadC.val_main_v39 (F := F) x0 x1 x4 x5 x8 x9 x10 x11)
    (h117 : W (Proc.devRef .tc main_v117) = ReadC.val_main_v117 (F := F) x0 x1 x2 x3 x6 x7 x12 x13 x14 x15 x16 x17 x18 x19) :
    after (c5 (F := F)) W (Proc.devRef .tc main_v118) = ReadC.val_main_v118 (F := F) x0 x1 x2 x3 x4 x5 x6 x7 x8 x9 x10 x11 x12 x13 x14 x15 x16 x17 x18 x19 := by
  after_results
  rw [h39, h117]
  rfl

theorem c5_v125 (W : Valuation τ sig (Elt F)) (x0 : (⟨S50000x5, .f32⟩ : BufTy).Contents (Elt F)) (x1 : (⟨S50000x32, .f32⟩ : BufTy).Contents (Elt F)) (x2 : (⟨S2x800000, .i32⟩ : BufTy).Contents (Elt F)) (x3 : (⟨S800000x4, .f32⟩ : BufTy).Contents (Elt F)) (x4 : (⟨S50000x20, .f32⟩ : BufTy).Contents (Elt F)) (x5 : (⟨S50000x20, .f32⟩ : BufTy).Contents (Elt F)) (x6 : (⟨S50000x8, .f32⟩ : BufTy).Contents (Elt F)) (x7 : (⟨S50000x8, .f32⟩ : BufTy).Contents (Elt F)) (x8 : (⟨S80x37, .f32⟩ : BufTy).Contents (Elt F)) (x9 : (⟨S80x20, .f32⟩ : BufTy).Contents (Elt F)) (x10 : (⟨S80, .f32⟩ : BufTy).Contents (Elt F)) (x11 : (⟨S80, .f32⟩ : BufTy).Contents (Elt F)) (x12 : (⟨S32x32, .f32⟩ : BufTy).Contents (Elt F)) (x13 : (⟨S32x8, .f32⟩ : BufTy).Contents (Elt F)) (x14 : (⟨S32, .f32⟩ : BufTy).Contents (Elt F)) (x15 : (⟨S32, .f32⟩ : BufTy).Contents (Elt F)) (x16 : (⟨S78x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F))
    (h39 : W (Proc.devRef .tc main_v39) = ReadC.val_main_v39 (F := F) x0 x1 x4 x5 x8 x9 x10 x11)
    (h41 : W (Proc.devRef .tc main_v41) = ReadC.val_main_v41 (F := F) x2)
    (h117 : W (Proc.devRef .tc main_v117) = ReadC.val_main_v117 (F := F) x0 x1 x2 x3 x6 x7 x12 x13 x14 x15 x16 x17 x18 x19) :
    after (c5 (F := F)) W (Proc.devRef .tc main_v125) = ReadC.val_main_v125 (F := F) x0 x1 x2 x3 x4 x5 x6 x7 x8 x9 x10 x11 x12 x13 x14 x15 x16 x17 x18 x19 := by
  after_results
  rw [h39, h41, h117]
  rfl

theorem c5_v132 (W : Valuation τ sig (Elt F)) (x0 : (⟨S50000x5, .f32⟩ : BufTy).Contents (Elt F)) (x1 : (⟨S50000x32, .f32⟩ : BufTy).Contents (Elt F)) (x2 : (⟨S2x800000, .i32⟩ : BufTy).Contents (Elt F)) (x3 : (⟨S800000x4, .f32⟩ : BufTy).Contents (Elt F)) (x4 : (⟨S50000x20, .f32⟩ : BufTy).Contents (Elt F)) (x5 : (⟨S50000x20, .f32⟩ : BufTy).Contents (Elt F)) (x6 : (⟨S50000x8, .f32⟩ : BufTy).Contents (Elt F)) (x7 : (⟨S50000x8, .f32⟩ : BufTy).Contents (Elt F)) (x8 : (⟨S80x37, .f32⟩ : BufTy).Contents (Elt F)) (x9 : (⟨S80x20, .f32⟩ : BufTy).Contents (Elt F)) (x10 : (⟨S80, .f32⟩ : BufTy).Contents (Elt F)) (x11 : (⟨S80, .f32⟩ : BufTy).Contents (Elt F)) (x12 : (⟨S32x32, .f32⟩ : BufTy).Contents (Elt F)) (x13 : (⟨S32x8, .f32⟩ : BufTy).Contents (Elt F)) (x14 : (⟨S32, .f32⟩ : BufTy).Contents (Elt F)) (x15 : (⟨S32, .f32⟩ : BufTy).Contents (Elt F)) (x16 : (⟨S78x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F))
    (h39 : W (Proc.devRef .tc main_v39) = ReadC.val_main_v39 (F := F) x0 x1 x4 x5 x8 x9 x10 x11)
    (h43 : W (Proc.devRef .tc main_v43) = ReadC.val_main_v43 (F := F) x2)
    (h117 : W (Proc.devRef .tc main_v117) = ReadC.val_main_v117 (F := F) x0 x1 x2 x3 x6 x7 x12 x13 x14 x15 x16 x17 x18 x19) :
    after (c5 (F := F)) W (Proc.devRef .tc main_v132) = ReadC.val_main_v132 (F := F) x0 x1 x2 x3 x4 x5 x6 x7 x8 x9 x10 x11 x12 x13 x14 x15 x16 x17 x18 x19 := by
  after_results
  rw [h39, h43, h117]
  rfl

/-! ## The stretch of operations %133–%153 -/

/-- An operation over a literal family of three buffers (a three-piece concatenation): its result with each operand's
    contents at its own buffer. -/
theorem c6_nary3_result {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The contents of one buffer after a stretch that holds a three-piece concatenation, operation by operation. -/
macro "c6_after_results" : tactic =>
  `(tactic| (simp only [after_cons, after_nil]
             repeat (first
               | rw [nullary_result] | rw [unary_result] | rw [binary_result] | rw [ternary_result]
               | rw [c6_nary3_result]
               | (rw [nullary_result_ne]; rotate_left; decide)
               | (rw [unary_result_ne]; rotate_left; decide)
               | (rw [binary_result_ne]; rotate_left; decide)
               | (rw [ternary_result_ne]; rotate_left; decide)
               | (rw [nary_result_ne]; rotate_left; decide))))

/-- The output block's edge network on the gathered rows and the edge attributes, and its mean over each node's incoming edges. -/
abbrev c6 : List (HloOp τ sig (Elt F)) :=
  [ nary ![main_v125, main_v132, main_arg3] main_v133 (fun u => concatenate S800000x60 1 [⟨S800000x28, u 0⟩, ⟨S800000x28, u 1⟩, ⟨S800000x4, u 2⟩] concatenates_S800000x28_S800000x28_S800000x4_S800000x60_d1),
    binary main_v133 main_arg20 main_v134 ((fun l r => Host.dotGeneral dot_S800000x60_S60x64_S800000x64_1_0_0_1_n_n none l r) : (⟨S800000x60, .f32⟩ : BufTy).Contents (Elt F) → (⟨S60x64, .f32⟩ : BufTy).Contents (Elt F) → (⟨S800000x64, .f32⟩ : BufTy).Contents (Elt F)),
    unary main_arg21 main_v135 (broadcastInDim S1x64 ![1] bcast_S64_S1x64_1 : (⟨S64, .f32⟩ : BufTy).Contents (Elt F) → (⟨S1x64, .f32⟩ : BufTy).Contents (Elt F)),
    unary main_v135 main_v136 (broadcastInDim S800000x64 ![0, 1] bcast_S1x64_S800000x64_0_1 : (⟨S1x64, .f32⟩ : BufTy).Contents (Elt F) → (⟨S800000x64, .f32⟩ : BufTy).Contents (Elt F)),
    binary main_v134 main_v136 main_v137 (addf : (⟨S800000x64, .f32⟩ : BufTy).Contents (Elt F) → (⟨S800000x64, .f32⟩ : BufTy).Contents (Elt F) → (⟨S800000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S800000x64, .f32⟩) main_call1_v0) (broadcastInDim S800000x64 ![] bcast_S_S800000x64),
    TRef.binary (TRef.of (T := ⟨S800000x64, .f32⟩) main_v137) (TRef.of (T := ⟨S800000x64, .f32⟩) main_call1_v0) (TRef.of (T := ⟨S800000x64, .f32⟩) main_v138) maximumf,
    binary main_v138 main_arg22 main_v139 ((fun l r => Host.dotGeneral dot_S800000x64_S64x32_S800000x32_1_0_0_1_n_n none l r) : (⟨S800000x64, .f32⟩ : BufTy).Contents (Elt F) → (⟨S64x32, .f32⟩ : BufTy).Contents (Elt F) → (⟨S800000x32, .f32⟩ : BufTy).Contents (Elt F)),
    unary main_arg23 main_v140 (broadcastInDim S1x32 ![1] bcast_S32_S1x32_1 : (⟨S32, .f32⟩ : BufTy).Contents (Elt F) → (⟨S1x32, .f32⟩ : BufTy).Contents (Elt F)),
    unary main_v140 main_v141 (broadcastInDim S800000x32 ![0, 1] bcast_S1x32_S800000x32_0_1 : (⟨S1x32, .f32⟩ : BufTy).Contents (Elt F) → (⟨S800000x32, .f32⟩ : BufTy).Contents (Elt F)),
    binary main_v139 main_v141 main_v142 (addf : (⟨S800000x32, .f32⟩ : BufTy).Contents (Elt F) → (⟨S800000x32, .f32⟩ : BufTy).Contents (Elt F) → (⟨S800000x32, .f32⟩ : BufTy).Contents (Elt F)),
    nullary main_cst_22 (constant S_ .f32 0x00000000#32),
    unary main_cst_22 main_v143 (broadcastInDim S50000x32 ![] bcast_S_S50000x32 : (⟨S_, .f32⟩ : BufTy).Contents (Elt F) → (⟨S50000x32, .f32⟩ : BufTy).Contents (Elt F)),
    unary main_v43 main_v144 (broadcastInDim S800000x1 ![0] bcast_S800000_S800000x1_0 : (⟨S800000, .i32⟩ : BufTy).Contents (Elt F) → (⟨S800000x1, .i32⟩ : BufTy).Contents (Elt F)),
    ternary main_v143 main_v144 main_v142 main_v145 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    nullary main_cst_23 (constant S_ .f32 0x3F800000#32),
    unary main_cst_23 main_v146 (broadcastInDim S800000x1 ![] bcast_S_S800000x1 : (⟨S_, .f32⟩ : BufTy).Contents (Elt F) → (⟨S800000x1, .f32⟩ : BufTy).Contents (Elt F)),
    nullary main_cst_24 (constant S_ .f32 0x00000000#32),
    unary main_cst_24 main_v147 (broadcastInDim S50000x1 ![] bcast_S_S50000x1 : (⟨S_, .f32⟩ : BufTy).Contents (Elt F) → (⟨S50000x1, .f32⟩ : BufTy).Contents (Elt F)),
    unary main_v43 main_v148 (broadcastInDim S800000x1 ![0] bcast_S800000_S800000x1_0 : (⟨S800000, .i32⟩ : BufTy).Contents (Elt F) → (⟨S800000x1, .i32⟩ : BufTy).Contents (Elt F)),
    ternary main_v147 main_v148 main_v146 main_v149 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_25 (constant S_ .f32 0x3F800000#32),
    unary main_cst_25 main_v150 (broadcastInDim S50000x1 ![] bcast_S_S50000x1 : (⟨S_, .f32⟩ : BufTy).Contents (Elt F) → (⟨S50000x1, .f32⟩ : BufTy).Contents (Elt F)),
    binary main_v149 main_v150 main_v151 (maximumf : (⟨S50000x1, .f32⟩ : BufTy).Contents (Elt F) → (⟨S50000x1, .f32⟩ : BufTy).Contents (Elt F) → (⟨S50000x1, .f32⟩ : BufTy).Contents (Elt F)),
    unary main_v151 main_v152 (broadcastInDim S50000x32 ![0, 1] bcast_S50000x1_S50000x32_0_1 : (⟨S50000x1, .f32⟩ : BufTy).Contents (Elt F) → (⟨S50000x32, .f32⟩ : BufTy).Contents (Elt F)),
    binary main_v145 main_v152 main_v153 (Host.divf : (⟨S50000x32, .f32⟩ : BufTy).Contents (Elt F) → (⟨S50000x32, .f32⟩ : BufTy).Contents (Elt F) → (⟨S50000x32, .f32⟩ : BufTy).Contents (Elt F)) ]

/-- The buffers the stretch writes, in order. -/
abbrev outs6 : List (Ref sig .tc) :=
  [main_v133, main_v134, main_v135, main_v136, main_v137, main_call1_cst, main_call1_v0, main_v138, main_v139, main_v140, main_v141, main_v142, main_cst_22, main_v143, main_v144, main_v145, main_cst_23, main_v146, main_cst_24, main_v147, main_v148, main_v149, main_cst_25, main_v150, main_v151, main_v152, main_v153]

theorem c6_sub : (c6 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub ..⟩

theorem c6_fresh : ∀ op ∈ (c6 : List (HloOp τ sig (Elt F))), op.fresh = ∅ := by
  intro _ h; (repeat (cases h with | head => rfl | tail _ h => ?_)); exact nomatch h

/-- A buffer the stretch does not write keeps its contents. -/
theorem keep6 (W : Valuation τ sig (Elt F)) (r : Ref sig .tc) (hr : r ∉ outs6) :
    after (c6 (F := F)) W (Proc.devRef .tc r) = W (Proc.devRef .tc r) :=
  after_of_forall_not_mem (b := Proc.devRef .tc r) _ _ (List.forall_iff_forall_mem.mp (by
    simp only [c6, List.Forall, TRef.nullary, TRef.unary, TRef.binary, nullary_writes, unary_writes, binary_writes, ternary_writes, nary_writes, Finset.mem_singleton]
    repeat' apply And.intro
    all_goals exact devRef_ne_of_ne (fun e => hr (e ▸ by decide))))

theorem c6_v153 (W : Valuation τ sig (Elt F)) (x0 : (⟨S50000x5, .f32⟩ : BufTy).Contents (Elt F)) (x1 : (⟨S50000x32, .f32⟩ : BufTy).Contents (Elt F)) (x2 : (⟨S2x800000, .i32⟩ : BufTy).Contents (Elt F)) (x3 : (⟨S800000x4, .f32⟩ : BufTy).Contents (Elt F)) (x4 : (⟨S50000x20, .f32⟩ : BufTy).Contents (Elt F)) (x5 : (⟨S50000x20, .f32⟩ : BufTy).Contents (Elt F)) (x6 : (⟨S50000x8, .f32⟩ : BufTy).Contents (Elt F)) (x7 : (⟨S50000x8, .f32⟩ : BufTy).Contents (Elt F)) (x8 : (⟨S80x37, .f32⟩ : BufTy).Contents (Elt F)) (x9 : (⟨S80x20, .f32⟩ : BufTy).Contents (Elt F)) (x10 : (⟨S80, .f32⟩ : BufTy).Contents (Elt F)) (x11 : (⟨S80, .f32⟩ : BufTy).Contents (Elt F)) (x12 : (⟨S32x32, .f32⟩ : BufTy).Contents (Elt F)) (x13 : (⟨S32x8, .f32⟩ : BufTy).Contents (Elt F)) (x14 : (⟨S32, .f32⟩ : BufTy).Contents (Elt F)) (x15 : (⟨S32, .f32⟩ : BufTy).Contents (Elt F)) (x16 : (⟨S78x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S60x64, .f32⟩ : BufTy).Contents (Elt F)) (x21 : (⟨S64, .f32⟩ : BufTy).Contents (Elt F)) (x22 : (⟨S64x32, .f32⟩ : BufTy).Contents (Elt F)) (x23 : (⟨S32, .f32⟩ : BufTy).Contents (Elt F))
    (h43 : W (Proc.devRef .tc main_v43) = ReadC.val_main_v43 (F := F) x2)
    (h125 : W (Proc.devRef .tc main_v125) = ReadC.val_main_v125 (F := F) x0 x1 x2 x3 x4 x5 x6 x7 x8 x9 x10 x11 x12 x13 x14 x15 x16 x17 x18 x19)
    (h132 : W (Proc.devRef .tc main_v132) = ReadC.val_main_v132 (F := F) x0 x1 x2 x3 x4 x5 x6 x7 x8 x9 x10 x11 x12 x13 x14 x15 x16 x17 x18 x19)
    (h3 : W (Proc.devRef .tc main_arg3) = x3)
    (h20 : W (Proc.devRef .tc main_arg20) = x20)
    (h21 : W (Proc.devRef .tc main_arg21) = x21)
    (h22 : W (Proc.devRef .tc main_arg22) = x22)
    (h23 : W (Proc.devRef .tc main_arg23) = x23) :
    after (c6 (F := F)) W (Proc.devRef .tc main_v153) = ReadC.val_main_v153 (F := F) x0 x1 x2 x3 x4 x5 x6 x7 x8 x9 x10 x11 x12 x13 x14 x15 x16 x17 x18 x19 x20 x21 x22 x23 := by
  c6_after_results
  rw [h43, h125, h132, h3, h20, h21, h22, h23]
  simp only [TRef.ofBuf, TRef.toBuf, cast_eq]
  rfl

/-! ## The stretch of operations %154–%163 -/

/-- The node network on both histories and the mean. -/
abbrev c7 : List (HloOp τ sig (Elt F)) :=
  [ binary main_v118 main_v153 main_v154 ((fun a b => concatenate S50000x60 1 [⟨S50000x28, a⟩, ⟨S50000x32, b⟩] concatenates_S50000x28_S50000x32_S50000x60_d1) : (⟨S50000x28, .f32⟩ : BufTy).Contents (Elt F) → (⟨S50000x32, .f32⟩ : BufTy).Contents (Elt F) → (⟨S50000x60, .f32⟩ : BufTy).Contents (Elt F)),
    binary main_v154 main_arg24 main_v155 ((fun l r => Host.dotGeneral dot_S50000x60_S60x64_S50000x64_1_0_0_1_n_n none l r) : (⟨S50000x60, .f32⟩ : BufTy).Contents (Elt F) → (⟨S60x64, .f32⟩ : BufTy).Contents (Elt F) → (⟨S50000x64, .f32⟩ : BufTy).Contents (Elt F)),
    unary main_arg25 main_v156 (broadcastInDim S1x64 ![1] bcast_S64_S1x64_1 : (⟨S64, .f32⟩ : BufTy).Contents (Elt F) → (⟨S1x64, .f32⟩ : BufTy).Contents (Elt F)),
    unary main_v156 main_v157 (broadcastInDim S50000x64 ![0, 1] bcast_S1x64_S50000x64_0_1 : (⟨S1x64, .f32⟩ : BufTy).Contents (Elt F) → (⟨S50000x64, .f32⟩ : BufTy).Contents (Elt F)),
    binary main_v155 main_v157 main_v158 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v158) (TRef.of (T := ⟨S50000x64, .f32⟩) main_call2_v0) (TRef.of (T := ⟨S50000x64, .f32⟩) main_v159) maximumf,
    binary main_v159 main_arg26 main_v160 ((fun l r => Host.dotGeneral dot_S50000x64_S64x4_S50000x4_1_0_0_1_n_n none l r) : (⟨S50000x64, .f32⟩ : BufTy).Contents (Elt F) → (⟨S64x4, .f32⟩ : BufTy).Contents (Elt F) → (⟨S50000x4, .f32⟩ : BufTy).Contents (Elt F)),
    unary main_arg27 main_v161 (broadcastInDim S1x4 ![1] bcast_S4_S1x4_1 : (⟨S4, .f32⟩ : BufTy).Contents (Elt F) → (⟨S1x4, .f32⟩ : BufTy).Contents (Elt F)),
    unary main_v161 main_v162 (broadcastInDim S50000x4 ![0, 1] bcast_S1x4_S50000x4_0_1 : (⟨S1x4, .f32⟩ : BufTy).Contents (Elt F) → (⟨S50000x4, .f32⟩ : BufTy).Contents (Elt F)),
    binary main_v160 main_v162 main_v163 (addf : (⟨S50000x4, .f32⟩ : BufTy).Contents (Elt F) → (⟨S50000x4, .f32⟩ : BufTy).Contents (Elt F) → (⟨S50000x4, .f32⟩ : BufTy).Contents (Elt F)) ]

/-- The buffers the stretch writes, in order. -/
abbrev outs7 : List (Ref sig .tc) :=
  [main_v154, main_v155, main_v156, main_v157, main_v158, main_call2_cst, main_call2_v0, main_v159, main_v160, main_v161, main_v162, main_v163]

theorem c7_sub : (c7 : List (HloOp τ sig (Elt F))).Forall fun op => op.bufs ⊆ tcRefs τ sig :=
  ⟨binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem c7_fresh : ∀ op ∈ (c7 : List (HloOp τ sig (Elt F))), op.fresh = ∅ := by
  intro _ h; (repeat (cases h with | head => rfl | tail _ h => ?_)); exact nomatch h

/-- A buffer the stretch does not write keeps its contents. -/
theorem keep7 (W : Valuation τ sig (Elt F)) (r : Ref sig .tc) (hr : r ∉ outs7) :
    after (c7 (F := F)) W (Proc.devRef .tc r) = W (Proc.devRef .tc r) :=
  after_of_forall_not_mem (b := Proc.devRef .tc r) _ _ (List.forall_iff_forall_mem.mp (by
    simp only [c7, List.Forall, TRef.nullary, TRef.unary, TRef.binary, nullary_writes, unary_writes, binary_writes, ternary_writes, nary_writes, Finset.mem_singleton]
    repeat' apply And.intro
    all_goals exact devRef_ne_of_ne (fun e => hr (e ▸ by decide))))

theorem c7_v163 (W : Valuation τ sig (Elt F)) (x0 : (⟨S50000x5, .f32⟩ : BufTy).Contents (Elt F)) (x1 : (⟨S50000x32, .f32⟩ : BufTy).Contents (Elt F)) (x2 : (⟨S2x800000, .i32⟩ : BufTy).Contents (Elt F)) (x3 : (⟨S800000x4, .f32⟩ : BufTy).Contents (Elt F)) (x4 : (⟨S50000x20, .f32⟩ : BufTy).Contents (Elt F)) (x5 : (⟨S50000x20, .f32⟩ : BufTy).Contents (Elt F)) (x6 : (⟨S50000x8, .f32⟩ : BufTy).Contents (Elt F)) (x7 : (⟨S50000x8, .f32⟩ : BufTy).Contents (Elt F)) (x8 : (⟨S80x37, .f32⟩ : BufTy).Contents (Elt F)) (x9 : (⟨S80x20, .f32⟩ : BufTy).Contents (Elt F)) (x10 : (⟨S80, .f32⟩ : BufTy).Contents (Elt F)) (x11 : (⟨S80, .f32⟩ : BufTy).Contents (Elt F)) (x12 : (⟨S32x32, .f32⟩ : BufTy).Contents (Elt F)) (x13 : (⟨S32x8, .f32⟩ : BufTy).Contents (Elt F)) (x14 : (⟨S32, .f32⟩ : BufTy).Contents (Elt F)) (x15 : (⟨S32, .f32⟩ : BufTy).Contents (Elt F)) (x16 : (⟨S78x64, .f32⟩ : BufTy).Contents (Elt F)) (x17 : (⟨S64, .f32⟩ : BufTy).Contents (Elt F)) (x18 : (⟨S64x32, .f32⟩ : BufTy).Contents (Elt F)) (x19 : (⟨S32, .f32⟩ : BufTy).Contents (Elt F)) (x20 : (⟨S60x64, .f32⟩ : BufTy).Contents (Elt F)) (x21 : (⟨S64, .f32⟩ : BufTy).Contents (Elt F)) (x22 : (⟨S64x32, .f32⟩ : BufTy).Contents (Elt F)) (x23 : (⟨S32, .f32⟩ : BufTy).Contents (Elt F)) (x24 : (⟨S60x64, .f32⟩ : BufTy).Contents (Elt F)) (x25 : (⟨S64, .f32⟩ : BufTy).Contents (Elt F)) (x26 : (⟨S64x4, .f32⟩ : BufTy).Contents (Elt F)) (x27 : (⟨S4, .f32⟩ : BufTy).Contents (Elt F))
    (h118 : W (Proc.devRef .tc main_v118) = ReadC.val_main_v118 (F := F) x0 x1 x2 x3 x4 x5 x6 x7 x8 x9 x10 x11 x12 x13 x14 x15 x16 x17 x18 x19)
    (h153 : W (Proc.devRef .tc main_v153) = ReadC.val_main_v153 (F := F) x0 x1 x2 x3 x4 x5 x6 x7 x8 x9 x10 x11 x12 x13 x14 x15 x16 x17 x18 x19 x20 x21 x22 x23)
    (h24 : W (Proc.devRef .tc main_arg24) = x24)
    (h25 : W (Proc.devRef .tc main_arg25) = x25)
    (h26 : W (Proc.devRef .tc main_arg26) = x26)
    (h27 : W (Proc.devRef .tc main_arg27) = x27) :
    after (c7 (F := F)) W (Proc.devRef .tc main_v163) = ReadC.val_main_v163 (F := F) x0 x1 x2 x3 x4 x5 x6 x7 x8 x9 x10 x11 x12 x13 x14 x15 x16 x17 x18 x19 x20 x21 x22 x23 x24 x25 x26 x27 := by
  after_results
  rw [h118, h153, h24, h25, h26, h27]
  simp only [TRef.ofBuf, TRef.toBuf, cast_eq]
  rfl

end Cert.ReferenceIdeal.RV
end
-- ==== Proof.RRun.lean ====
/-
  The reference program's run, read back: every weakly fair execution of its @main terminates with each of the five
  results at that operation's value as a function of the launch arrays, the arguments unchanged.
  @main is one line of 198 operations; the line is cut into seven stretches; the fold of the operations' results over
  the whole line is the fold over the stretches one after the other; after each stretch every buffer a later stretch or
  a result reads holds its operation's value in the arguments at the start, and a buffer no stretch writes holds what
  it held at the start.
-/
import proofs.«417163_j44495861187273_2_alg».proof.Proof.RRead
import proofs.«417163_j44495861187273_2_alg».proof.Proof.RRunA
import proofs.«417163_j44495861187273_2_alg».proof.Proof.RRunC
import proofs.«417163_j44495861187273_2_alg».proof.Proof.RRunD
import proofs.«417163_j44495861187273_2_alg».proof.Proof.RRunB
import Idealize.ShloMosaic.Lib.StableHlo.Run
import Idealize.ShloMosaic.Lib.Pipeline.Frame

noncomputable section
namespace Cert.ReferenceIdeal.RV
open Idealize.ShloMosaic Idealize.ShloMosaic.TcCoe Idealize.SL.Sem Cert.ReferenceIdeal Cert.ReferenceIdeal.Gen Idealize.ShloMosaic.StableHlo

variable {F : FTy → Type} [FloatOps F]

/-! ## @main as one line of operations -/

/-- @main's 198 operations: the seven stretches, in order. -/
abbrev ops : List (HloOp τ sig (Elt F)) := c1 ++ (c2 ++ (c3 ++ (c4 ++ (c5 ++ (c6 ++ c7)))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only: stretch by stretch. -/
theorem ops_sub : (ops : List (HloOp τ sig (Elt F))).Forall fun op => op.bufs ⊆ tcRefs τ sig := by
  rw [List.forall_iff_forall_mem]
  intro op h
  rcases List.mem_append.1 h with h | h
  · exact List.forall_iff_forall_mem.1 c1_sub op h
  rcases List.mem_append.1 h with h | h
  · exact List.forall_iff_forall_mem.1 c2_sub op h
  rcases List.mem_append.1 h with h | h
  · exact List.forall_iff_forall_mem.1 c3_sub op h
  rcases List.mem_append.1 h with h | h
  · exact List.forall_iff_forall_mem.1 c4_sub op h
  rcases List.mem_append.1 h with h | h
  · exact List.forall_iff_forall_mem.1 c5_sub op h
  rcases List.mem_append.1 h with h | h
  · exact List.forall_iff_forall_mem.1 c6_sub op h
  · exact List.forall_iff_forall_mem.1 c7_sub op h

/-- Every operation determines what it writes: stretch by stretch. -/
theorem ops_fresh : ∀ op ∈ (ops : List (HloOp τ sig (Elt F))), op.fresh = ∅ := by
  intro op h
  rcases List.mem_append.1 h with h | h
  · exact c1_fresh op h
  rcases List.mem_append.1 h with h | h
  · exact c2_fresh op h
  rcases List.mem_append.1 h with h | h
  · exact c3_fresh op h
  rcases List.mem_append.1 h with h | h
  · exact c4_fresh op h
  rcases List.mem_append.1 h with h | h
  · exact c5_fresh op h
  rcases List.mem_append.1 h with h | h
  · exact c6_fresh op h
  · exact c7_fresh op h

/-! ## The buffer contents after each stretch -/

/-- The buffer contents after the first stretch, the first two, … from contents `V`. -/
def W1 (V : Valuation τ sig (Elt F)) : Valuation τ sig (Elt F) := after c1 V
def W2 (V : Valuation τ sig (Elt F)) : Valuation τ sig (Elt F) := after c2 (W1 V)
def W3 (V : Valuation τ sig (Elt F)) : Valuation τ sig (Elt F) := after c3 (W2 V)
def W4 (V : Valuation τ sig (Elt F)) : Valuation τ sig (Elt F) := after c4 (W3 V)
def W5 (V : Valuation τ sig (Elt F)) : Valuation τ sig (Elt F) := after c5 (W4 V)
def W6 (V : Valuation τ sig (Elt F)) : Valuation τ sig (Elt F) := after c6 (W5 V)
def W7 (V : Valuation τ sig (Elt F)) : Valuation τ sig (Elt F) := after c7 (W6 V)

/-- The fold over the whole line is the fold over the stretches one after the other. -/
theorem after_ops (V : Valuation τ sig (Elt F)) (b : DevRef τ sig) : after ops V b = W7 V b := by
  show after (c1 ++ (c2 ++ (c3 ++ (c4 ++ (c5 ++ (c6 ++ c7)))))) V b = _
  rw [StableHlo.after_append, StableHlo.after_append, StableHlo.after_append, StableHlo.after_append,
    StableHlo.after_append, StableHlo.after_append]
  rfl

/-- Every buffer any operation writes. -/
abbrev allOuts : List (Ref sig .tc) := outs1 ++ (outs2 ++ (outs3 ++ (outs4 ++ (outs5 ++ (outs6 ++ outs7)))))

section chain
variable (V : Valuation τ sig (Elt F))

/-! ### A buffer no operation writes holds, after every stretch, what it held at the start -/

theorem W1_keep {r : Ref sig .tc} (h : r ∉ allOuts) : W1 V (Proc.devRef .tc r) = V (Proc.devRef .tc r) :=
  keep1 V r fun hm => h (List.mem_append_left _ hm)
theorem W2_keep {r : Ref sig .tc} (h : r ∉ allOuts) : W2 V (Proc.devRef .tc r) = V (Proc.devRef .tc r) :=
  (keep2 (W1 V) r fun hm => h (List.mem_append_right _ (List.mem_append_left _ hm))).trans (W1_keep V h)
theorem W3_keep {r : Ref sig .tc} (h : r ∉ allOuts) : W3 V (Proc.devRef .tc r) = V (Proc.devRef .tc r) :=
  (keep3 (W2 V) r fun hm => h (List.mem_append_right _ (List.mem_append_right _ (List.mem_append_left _ hm)))).trans
    (W2_keep V h)
theorem W4_keep {r : Ref sig .tc} (h : r ∉ allOuts) : W4 V (Proc.devRef .tc r) = V (Proc.devRef .tc r) :=
  (keep4 (W3 V) r fun hm => h (List.mem_append_right _ (List.mem_append_right _ (List.mem_append_right _
    (List.mem_append_left _ hm))))).trans (W3_keep V h)
theorem W5_keep {r : Ref sig .tc} (h : r ∉ allOuts) : W5 V (Proc.devRef .tc r) = V (Proc.devRef .tc r) :=
  (keep5 (W4 V) r fun hm => h (List.mem_append_right _ (List.mem_append_right _ (List.mem_append_right _
    (List.mem_append_right _ (List.mem_append_left _ hm)))))).trans (W4_keep V h)
theorem W6_keep {r : Ref sig .tc} (h : r ∉ allOuts) : W6 V (Proc.devRef .tc r) = V (Proc.devRef .tc r) :=
  (keep6 (W5 V) r fun hm => h (List.mem_append_right _ (List.mem_append_right _ (List.mem_append_right _
    (List.mem_append_right _ (List.mem_append_right _ (List.mem_append_left _ hm))))))).trans (W5_keep V h)
theorem W7_keep {r : Ref sig .tc} (h : r ∉ allOuts) : W7 V (Proc.devRef .tc r) = V (Proc.devRef .tc r) :=
  (keep7 (W6 V) r fun hm => h (List.mem_append_right _ (List.mem_append_right _ (List.mem_append_right _
    (List.mem_append_right _ (List.mem_append_right _ (List.mem_append_right _ hm))))))).trans (W6_keep V h)

/-! ### No operation writes an argument -/

theorem nw0 : main_arg0 ∉ allOuts := by decide
theorem nw1 : main_arg1 ∉ allOuts := by decide
theorem nw2 : main_arg2 ∉ allOuts := by decide
theorem nw3 : main_arg3 ∉ allOuts := by decide
theorem nw4 : main_arg4 ∉ allOuts := by decide
theorem nw5 : main_arg5 ∉ allOuts := by decide
theorem nw6 : main_arg6 ∉ allOuts := by decide
theorem nw7 : main_arg7 ∉ allOuts := by decide
theorem nw8 : main_arg8 ∉ allOuts := by decide
theorem nw9 : main_arg9 ∉ allOuts := by decide
theorem nw10 : main_arg10 ∉ allOuts := by decide
theorem nw11 : main_arg11 ∉ allOuts := by decide
theorem nw12 : main_arg12 ∉ allOuts := by decide
theorem nw13 : main_arg13 ∉ allOuts := by decide
theorem nw14 : main_arg14 ∉ allOuts := by decide
theorem nw15 : main_arg15 ∉ allOuts := by decide
theorem nw16 : main_arg16 ∉ allOuts := by decide
theorem nw17 : main_arg17 ∉ allOuts := by decide
theorem nw18 : main_arg18 ∉ allOuts := by decide
theorem nw19 : main_arg19 ∉ allOuts := by decide
theorem nw20 : main_arg20 ∉ allOuts := by decide
theorem nw21 : main_arg21 ∉ allOuts := by decide
theorem nw22 : main_arg22 ∉ allOuts := by decide
theorem nw23 : main_arg23 ∉ allOuts := by decide
theorem nw24 : main_arg24 ∉ allOuts := by decide
theorem nw25 : main_arg25 ∉ allOuts := by decide
theorem nw26 : main_arg26 ∉ allOuts := by decide
theorem nw27 : main_arg27 ∉ allOuts := by decide

/-! ### What each stretch leaves in the buffers later stretches (or the results) read, in the arguments at the start -/

local notation "a0" => V (Proc.devRef Proc.tc main_arg0)
local notation "a1" => V (Proc.devRef Proc.tc main_arg1)
local notation "a2" => V (Proc.devRef Proc.tc main_arg2)
local notation "a3" => V (Proc.devRef Proc.tc main_arg3)
local notation "a4" => V (Proc.devRef Proc.tc main_arg4)
local notation "a5" => V (Proc.devRef Proc.tc main_arg5)
local notation "a6" => V (Proc.devRef Proc.tc main_arg6)
local notation "a7" => V (Proc.devRef Proc.tc main_arg7)
local notation "a8" => V (Proc.devRef Proc.tc main_arg8)
local notation "a9" => V (Proc.devRef Proc.tc main_arg9)
local notation "a10" => V (Proc.devRef Proc.tc main_arg10)
local notation "a11" => V (Proc.devRef Proc.tc main_arg11)
local notation "a12" => V (Proc.devRef Proc.tc main_arg12)
local notation "a13" => V (Proc.devRef Proc.tc main_arg13)
local notation "a14" => V (Proc.devRef Proc.tc main_arg14)
local notation "a15" => V (Proc.devRef Proc.tc main_arg15)
local notation "a16" => V (Proc.devRef Proc.tc main_arg16)
local notation "a17" => V (Proc.devRef Proc.tc main_arg17)
local notation "a18" => V (Proc.devRef Proc.tc main_arg18)
local notation "a19" => V (Proc.devRef Proc.tc main_arg19)
local notation "a20" => V (Proc.devRef Proc.tc main_arg20)
local notation "a21" => V (Proc.devRef Proc.tc main_arg21)
local notation "a22" => V (Proc.devRef Proc.tc main_arg22)
local notation "a23" => V (Proc.devRef Proc.tc main_arg23)
local notation "a24" => V (Proc.devRef Proc.tc main_arg24)
local notation "a25" => V (Proc.devRef Proc.tc main_arg25)
local notation "a26" => V (Proc.devRef Proc.tc main_arg26)
local notation "a27" => V (Proc.devRef Proc.tc main_arg27)

-- after the first stretch
theorem W1_v0 : W1 V (Proc.devRef .tc main_v0) = ReadC.val_main_v0 (F := F) a0 a1 :=
  c1_v0 V a0 a1 rfl rfl
theorem W1_v31 : W1 V (Proc.devRef .tc main_v31) = ReadC.val_main_v31 (F := F) a0 a1 a4 a5 a8 a9 a10 a11 :=
  c1_v31 V a0 a1 a4 a5 a8 a9 a10 a11 rfl rfl rfl rfl rfl rfl rfl rfl
theorem W1_v39 : W1 V (Proc.devRef .tc main_v39) = ReadC.val_main_v39 (F := F) a0 a1 a4 a5 a8 a9 a10 a11 :=
  c1_v39 V a0 a1 a4 a5 a8 a9 a10 a11 rfl rfl rfl rfl rfl rfl rfl rfl

-- after the second
theorem W2_v41 : W2 V (Proc.devRef .tc main_v41) = ReadC.val_main_v41 (F := F) a2 :=
  c2_v41 (W1 V) a2 (W1_keep V nw2)
theorem W2_v43 : W2 V (Proc.devRef .tc main_v43) = ReadC.val_main_v43 (F := F) a2 :=
  c2_v43 (W1 V) a2 (W1_keep V nw2)
theorem W2_v50 : W2 V (Proc.devRef .tc main_v50) = ReadC.val_main_v50 (F := F) a0 a1 a2 :=
  c2_v50 (W1 V) a0 a1 a2 (W1_v0 V) (W1_keep V nw2)
theorem W2_v57 : W2 V (Proc.devRef .tc main_v57) = ReadC.val_main_v57 (F := F) a0 a1 a2 :=
  c2_v57 (W1 V) a0 a1 a2 (W1_v0 V) (W1_keep V nw2)
theorem W2_v31 : W2 V (Proc.devRef .tc main_v31) = ReadC.val_main_v31 (F := F) a0 a1 a4 a5 a8 a9 a10 a11 :=
  (keep2 (W1 V) main_v31 (by decide)).trans (W1_v31 V)
theorem W2_v39 : W2 V (Proc.devRef .tc main_v39) = ReadC.val_main_v39 (F := F) a0 a1 a4 a5 a8 a9 a10 a11 :=
  (keep2 (W1 V) main_v39 (by decide)).trans (W1_v39 V)

-- after the third
theorem W3_v78 : W3 V (Proc.devRef .tc main_v78) = ReadC.val_main_v78 (F := F) a0 a1 a2 a3 a16 a17 a18 a19 :=
  c3_v78 (W2 V) a0 a1 a2 a3 a16 a17 a18 a19 (W2_v43 V) (W2_v50 V) (W2_v57 V)
    (W2_keep V nw3) (W2_keep V nw16) (W2_keep V nw17) (W2_keep V nw18) (W2_keep V nw19)
theorem W3_v31 : W3 V (Proc.devRef .tc main_v31) = ReadC.val_main_v31 (F := F) a0 a1 a4 a5 a8 a9 a10 a11 :=
  (keep3 (W2 V) main_v31 (by decide)).trans (W2_v31 V)
theorem W3_v39 : W3 V (Proc.devRef .tc main_v39) = ReadC.val_main_v39 (F := F) a0 a1 a4 a5 a8 a9 a10 a11 :=
  (keep3 (W2 V) main_v39 (by decide)).trans (W2_v39 V)
theorem W3_v41 : W3 V (Proc.devRef .tc main_v41) = ReadC.val_main_v41 (F := F) a2 :=
  (keep3 (W2 V) main_v41 (by decide)).trans (W2_v41 V)
theorem W3_v43 : W3 V (Proc.devRef .tc main_v43) = ReadC.val_main_v43 (F := F) a2 :=
  (keep3 (W2 V) main_v43 (by decide)).trans (W2_v43 V)

-- after the fourth
theorem W4_v117 : W4 V (Proc.devRef .tc main_v117)
    = ReadC.val_main_v117 (F := F) a0 a1 a2 a3 a6 a7 a12 a13 a14 a15 a16 a17 a18 a19 :=
  c4_v117 (W3 V) a0 a1 a2 a3 a6 a7 a12 a13 a14 a15 a16 a17 a18 a19 (W3_v78 V)
    (W3_keep V nw6) (W3_keep V nw7) (W3_keep V nw12) (W3_keep V nw13) (W3_keep V nw14) (W3_keep V nw15)
theorem W4_v109 : W4 V (Proc.devRef .tc main_v109)
    = ReadC.val_main_v109 (F := F) a0 a1 a2 a3 a6 a7 a12 a13 a14 a15 a16 a17 a18 a19 :=
  c4_v109 (W3 V) a0 a1 a2 a3 a6 a7 a12 a13 a14 a15 a16 a17 a18 a19 (W3_v78 V)
    (W3_keep V nw6) (W3_keep V nw7) (W3_keep V nw12) (W3_keep V nw13) (W3_keep V nw14) (W3_keep V nw15)
theorem W4_v31 : W4 V (Proc.devRef .tc main_v31) = ReadC.val_main_v31 (F := F) a0 a1 a4 a5 a8 a9 a10 a11 :=
  (keep4 (W3 V) main_v31 (by decide)).trans (W3_v31 V)
theorem W4_v39 : W4 V (Proc.devRef .tc main_v39) = ReadC.val_main_v39 (F := F) a0 a1 a4 a5 a8 a9 a10 a11 :=
  (keep4 (W3 V) main_v39 (by decide)).trans (W3_v39 V)
theorem W4_v41 : W4 V (Proc.devRef .tc main_v41) = ReadC.val_main_v41 (F := F) a2 :=
  (keep4 (W3 V) main_v41 (by decide)).trans (W3_v41 V)
theorem W4_v43 : W4 V (Proc.devRef .tc main_v43) = ReadC.val_main_v43 (F := F) a2 :=
  (keep4 (W3 V) main_v43 (by decide)).trans (W3_v43 V)

-- after the fifth
theorem W5_v118 : W5 V (Proc.devRef .tc main_v118)
    = ReadC.val_main_v118 (F := F) a0 a1 a2 a3 a4 a5 a6 a7 a8 a9 a10 a11 a12 a13 a14 a15 a16 a17 a18 a19 :=
  c5_v118 (W4 V) a0 a1 a2 a3 a4 a5 a6 a7 a8 a9 a10 a11 a12 a13 a14 a15 a16 a17 a18 a19 (W4_v39 V) (W4_v117 V)
theorem W5_v125 : W5 V (Proc.devRef .tc main_v125)
    = ReadC.val_main_v125 (F := F) a0 a1 a2 a3 a4 a5 a6 a7 a8 a9 a10 a11 a12 a13 a14 a15 a16 a17 a18 a19 :=
  c5_v125 (W4 V) a0 a1 a2 a3 a4 a5 a6 a7 a8 a9 a10 a11 a12 a13 a14 a15 a16 a17 a18 a19 (W4_v39 V) (W4_v41 V) (W4_v117 V)
theorem W5_v132 : W5 V (Proc.devRef .tc main_v132)
    = ReadC.val_main_v132 (F := F) a0 a1 a2 a3 a4 a5 a6 a7 a8 a9 a10 a11 a12 a13 a14 a15 a16 a17 a18 a19 :=
  c5_v132 (W4 V) a0 a1 a2 a3 a4 a5 a6 a7 a8 a9 a10 a11 a12 a13 a14 a15 a16 a17 a18 a19 (W4_v39 V) (W4_v43 V) (W4_v117 V)
theorem W5_v31 : W5 V (Proc.devRef .tc main_v31) = ReadC.val_main_v31 (F := F) a0 a1 a4 a5 a8 a9 a10 a11 :=
  (keep5 (W4 V) main_v31 (by decide)).trans (W4_v31 V)
theorem W5_v39 : W5 V (Proc.devRef .tc main_v39) = ReadC.val_main_v39 (F := F) a0 a1 a4 a5 a8 a9 a10 a11 :=
  (keep5 (W4 V) main_v39 (by decide)).trans (W4_v39 V)
theorem W5_v43 : W5 V (Proc.devRef .tc main_v43) = ReadC.val_main_v43 (F := F) a2 :=
  (keep5 (W4 V) main_v43 (by decide)).trans (W4_v43 V)
theorem W5_v109 : W5 V (Proc.devRef .tc main_v109)
    = ReadC.val_main_v109 (F := F) a0 a1 a2 a3 a6 a7 a12 a13 a14 a15 a16 a17 a18 a19 :=
  (keep5 (W4 V) main_v109 (by decide)).trans (W4_v109 V)
theorem W5_v117 : W5 V (Proc.devRef .tc main_v117)
    = ReadC.val_main_v117 (F := F) a0 a1 a2 a3 a6 a7 a12 a13 a14 a15 a16 a17 a18 a19 :=
  (keep5 (W4 V) main_v117 (by decide)).trans (W4_v117 V)

-- after the sixth
theorem W6_v153 : W6 V (Proc.devRef .tc main_v153)
    = ReadC.val_main_v153 (F := F) a0 a1 a2 a3 a4 a5 a6 a7 a8 a9 a10 a11 a12 a13 a14 a15 a16 a17 a18 a19 a20 a21 a22 a23 :=
  c6_v153 (W5 V) a0 a1 a2 a3 a4 a5 a6 a7 a8 a9 a10 a11 a12 a13 a14 a15 a16 a17 a18 a19 a20 a21 a22 a23
    (W5_v43 V) (W5_v125 V) (W5_v132 V)
    (W5_keep V nw3) (W5_keep V nw20) (W5_keep V nw21) (W5_keep V nw22) (W5_keep V nw23)
theorem W6_v31 : W6 V (Proc.devRef .tc main_v31) = ReadC.val_main_v31 (F := F) a0 a1 a4 a5 a8 a9 a10 a11 :=
  (keep6 (W5 V) main_v31 (by decide)).trans (W5_v31 V)
theorem W6_v39 : W6 V (Proc.devRef .tc main_v39) = ReadC.val_main_v39 (F := F) a0 a1 a4 a5 a8 a9 a10 a11 :=
  (keep6 (W5 V) main_v39 (by decide)).trans (W5_v39 V)
theorem W6_v109 : W6 V (Proc.devRef .tc main_v109)
    = ReadC.val_main_v109 (F := F) a0 a1 a2 a3 a6 a7 a12 a13 a14 a15 a16 a17 a18 a19 :=
  (keep6 (W5 V) main_v109 (by decide)).trans (W5_v109 V)
theorem W6_v117 : W6 V (Proc.devRef .tc main_v117)
    = ReadC.val_main_v117 (F := F) a0 a1 a2 a3 a6 a7 a12 a13 a14 a15 a16 a17 a18 a19 :=
  (keep6 (W5 V) main_v117 (by decide)).trans (W5_v117 V)
theorem W6_v118 : W6 V (Proc.devRef .tc main_v118)
    = ReadC.val_main_v118 (F := F) a0 a1 a2 a3 a4 a5 a6 a7 a8 a9 a10 a11 a12 a13 a14 a15 a16 a17 a18 a19 :=
  (keep6 (W5 V) main_v118 (by decide)).trans (W5_v118 V)

-- after the seventh: the five results
theorem W7_v163 : W7 V (Proc.devRef .tc main_v163)
    = ReadC.val_main_v163 (F := F) a0 a1 a2 a3 a4 a5 a6 a7 a8 a9 a10 a11 a12 a13 a14 a15 a16 a17 a18 a19 a20 a21 a22 a23
        a24 a25 a26 a27 :=
  c7_v163 (W6 V) a0 a1 a2 a3 a4 a5 a6 a7 a8 a9 a10 a11 a12 a13 a14 a15 a16 a17 a18 a19 a20 a21 a22 a23 a24 a25 a26 a27
    (W6_v118 V) (W6_v153 V) (W6_keep V nw24) (W6_keep V nw25) (W6_keep V nw26) (W6_keep V nw27)
theorem W7_v31 : W7 V (Proc.devRef .tc main_v31) = ReadC.val_main_v31 (F := F) a0 a1 a4 a5 a8 a9 a10 a11 :=
  (keep7 (W6 V) main_v31 (by decide)).trans (W6_v31 V)
theorem W7_v39 : W7 V (Proc.devRef .tc main_v39) = ReadC.val_main_v39 (F := F) a0 a1 a4 a5 a8 a9 a10 a11 :=
  (keep7 (W6 V) main_v39 (by decide)).trans (W6_v39 V)
theorem W7_v109 : W7 V (Proc.devRef .tc main_v109)
    = ReadC.val_main_v109 (F := F) a0 a1 a2 a3 a6 a7 a12 a13 a14 a15 a16 a17 a18 a19 :=
  (keep7 (W6 V) main_v109 (by decide)).trans (W6_v109 V)
theorem W7_v117 : W7 V (Proc.devRef .tc main_v117)
    = ReadC.val_main_v117 (F := F) a0 a1 a2 a3 a6 a7 a12 a13 a14 a15 a16 a17 a18 a19 :=
  (keep7 (W6 V) main_v117 (by decide)).trans (W6_v117 V)

end chain

/-! ## The run -/

theorem run_vals (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v163) = ReadC.val_main_v163 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))
      ∧       r.2.mem ((c.tc : Thread nD τ).loc main_v39) = ReadC.val_main_v39 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11))
      ∧       r.2.mem ((c.tc : Thread nD τ).loc main_v31) = ReadC.val_main_v31 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) (m ((c.tc : Thread nD τ).loc main_arg11))
      ∧       r.2.mem ((c.tc : Thread nD τ).loc main_v117) = ReadC.val_main_v117 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧       r.2.mem ((c.tc : Thread nD τ).loc main_v109) = ReadC.val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧       r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)
      ∧       r.2.mem ((c.tc : Thread nD τ).loc main_arg20) = m ((c.tc : Thread nD τ).loc main_arg20)
      ∧       r.2.mem ((c.tc : Thread nD τ).loc main_arg21) = m ((c.tc : Thread nD τ).loc main_arg21)
      ∧       r.2.mem ((c.tc : Thread nD τ).loc main_arg22) = m ((c.tc : Thread nD τ).loc main_arg22)
      ∧       r.2.mem ((c.tc : Thread nD τ).loc main_arg23) = m ((c.tc : Thread nD τ).loc main_arg23)
      ∧       r.2.mem ((c.tc : Thread nD τ).loc main_arg24) = m ((c.tc : Thread nD τ).loc main_arg24)
      ∧       r.2.mem ((c.tc : Thread nD τ).loc main_arg25) = m ((c.tc : Thread nD τ).loc main_arg25)
      ∧       r.2.mem ((c.tc : Thread nD τ).loc main_arg26) = m ((c.tc : Thread nD τ).loc main_arg26)
      ∧       r.2.mem ((c.tc : Thread nD τ).loc main_arg27) = m ((c.tc : Thread nD τ).loc main_arg27)) :=
  (θ_run (defs (F := Ideal)) _ _).mono (fun _ h c =>
    ⟨(h c main_v163).trans ((after_ops _ _).trans (W7_v163 (launchContents m c))),
     (h c main_v39).trans ((after_ops _ _).trans (W7_v39 (launchContents m c))),
     (h c main_v31).trans ((after_ops _ _).trans (W7_v31 (launchContents m c))),
     (h c main_v117).trans ((after_ops _ _).trans (W7_v117 (launchContents m c))),
     (h c main_v109).trans ((after_ops _ _).trans (W7_v109 (launchContents m c))),
     (h c main_arg0).trans ((after_ops _ _).trans (W7_keep (launchContents m c) nw0)),
     (h c main_arg1).trans ((after_ops _ _).trans (W7_keep (launchContents m c) nw1)),
     (h c main_arg2).trans ((after_ops _ _).trans (W7_keep (launchContents m c) nw2)),
     (h c main_arg3).trans ((after_ops _ _).trans (W7_keep (launchContents m c) nw3)),
     (h c main_arg4).trans ((after_ops _ _).trans (W7_keep (launchContents m c) nw4)),
     (h c main_arg5).trans ((after_ops _ _).trans (W7_keep (launchContents m c) nw5)),
     (h c main_arg6).trans ((after_ops _ _).trans (W7_keep (launchContents m c) nw6)),
     (h c main_arg7).trans ((after_ops _ _).trans (W7_keep (launchContents m c) nw7)),
     (h c main_arg8).trans ((after_ops _ _).trans (W7_keep (launchContents m c) nw8)),
     (h c main_arg9).trans ((after_ops _ _).trans (W7_keep (launchContents m c) nw9)),
     (h c main_arg10).trans ((after_ops _ _).trans (W7_keep (launchContents m c) nw10)),
     (h c main_arg11).trans ((after_ops _ _).trans (W7_keep (launchContents m c) nw11)),
     (h c main_arg12).trans ((after_ops _ _).trans (W7_keep (launchContents m c) nw12)),
     (h c main_arg13).trans ((after_ops _ _).trans (W7_keep (launchContents m c) nw13)),
     (h c main_arg14).trans ((after_ops _ _).trans (W7_keep (launchContents m c) nw14)),
     (h c main_arg15).trans ((after_ops _ _).trans (W7_keep (launchContents m c) nw15)),
     (h c main_arg16).trans ((after_ops _ _).trans (W7_keep (launchContents m c) nw16)),
     (h c main_arg17).trans ((after_ops _ _).trans (W7_keep (launchContents m c) nw17)),
     (h c main_arg18).trans ((after_ops _ _).trans (W7_keep (launchContents m c) nw18)),
     (h c main_arg19).trans ((after_ops _ _).trans (W7_keep (launchContents m c) nw19)),
     (h c main_arg20).trans ((after_ops _ _).trans (W7_keep (launchContents m c) nw20)),
     (h c main_arg21).trans ((after_ops _ _).trans (W7_keep (launchContents m c) nw21)),
     (h c main_arg22).trans ((after_ops _ _).trans (W7_keep (launchContents m c) nw22)),
     (h c main_arg23).trans ((after_ops _ _).trans (W7_keep (launchContents m c) nw23)),
     (h c main_arg24).trans ((after_ops _ _).trans (W7_keep (launchContents m c) nw24)),
     (h c main_arg25).trans ((after_ops _ _).trans (W7_keep (launchContents m c) nw25)),
     (h c main_arg26).trans ((after_ops _ _).trans (W7_keep (launchContents m c) nw26)),
     (h c main_arg27).trans ((after_ops _ _).trans (W7_keep (launchContents m c) nw27))⟩)
    (run_seq scopedRefs_eq scopedSems_eq (defs (F := Ideal)) (main (F := Ideal)) (fun _ => ops) main_eq (fun _ => ops_sub) m ρ
      (fun _ => ops_fresh))

end Cert.ReferenceIdeal.RV
end
-- ==== Proof.RAsm.lean ====
/-
  The reference program at the ideal values: every weakly fair execution terminates with the five results at the
  network's stage functions of the argument arrays, the arguments unchanged. The generated run states each result as
  the host operations' composed term; stage by stage that term is the stage function (the dense stages by the stage
  lemmas, the irregular stages because they are those very host operations).
-/
import proofs.«417163_j44495861187273_2_alg».proof.Proof.RRead
import proofs.«417163_j44495861187273_2_alg».proof.Proof.SpecArr
import proofs.«417163_j44495861187273_2_alg».proof.Proof.LibDot
import proofs.«417163_j44495861187273_2_alg».proof.Proof.RS1
import proofs.«417163_j44495861187273_2_alg».proof.Proof.RS2
import proofs.«417163_j44495861187273_2_alg».proof.Proof.RS3
import proofs.«417163_j44495861187273_2_alg».proof.Proof.RS4
import proofs.«417163_j44495861187273_2_alg».proof.Proof.RS5
import proofs.«417163_j44495861187273_2_alg».proof.Proof.RRun

noncomputable section
namespace Cert.ReferenceIdeal.RV
open Idealize.ShloMosaic Idealize.ShloMosaic.TcCoe Idealize.ShloMosaic.ValueIdx Idealize.SL.Sem Cert.ReferenceIdeal Cert.ReferenceIdeal.Gen Cert.GNN

/-- The reference program's argument arrays on device `c`, as launched. -/
def inpR (m : (ℓ : Loc nD τ sig) → Buf (Elt Ideal) ℓ) (c : Dev nD) : Inp where
  x := m ((c.tc : Thread nD τ).loc main_arg0)
  u := m ((c.tc : Thread nD τ).loc main_arg1)
  ei := m ((c.tc : Thread nD τ).loc main_arg2)
  ea := m ((c.tc : Thread nD τ).loc main_arg3)
  hnh := m ((c.tc : Thread nD τ).loc main_arg4)
  hnc := m ((c.tc : Thread nD τ).loc main_arg5)
  heh := m ((c.tc : Thread nD τ).loc main_arg6)
  hec := m ((c.tc : Thread nD τ).loc main_arg7)
  wihn := m ((c.tc : Thread nD τ).loc main_arg8)
  whhn := m ((c.tc : Thread nD τ).loc main_arg9)
  bihn := m ((c.tc : Thread nD τ).loc main_arg10)
  bhhn := m ((c.tc : Thread nD τ).loc main_arg11)
  wihe := m ((c.tc : Thread nD τ).loc main_arg12)
  whhe := m ((c.tc : Thread nD τ).loc main_arg13)
  bihe := m ((c.tc : Thread nD τ).loc main_arg14)
  bhhe := m ((c.tc : Thread nD τ).loc main_arg15)
  we1 := m ((c.tc : Thread nD τ).loc main_arg16)
  be1 := m ((c.tc : Thread nD τ).loc main_arg17)
  we2 := m ((c.tc : Thread nD τ).loc main_arg18)
  be2 := m ((c.tc : Thread nD τ).loc main_arg19)
  wo1 := m ((c.tc : Thread nD τ).loc main_arg20)
  bo1 := m ((c.tc : Thread nD τ).loc main_arg21)
  wo2 := m ((c.tc : Thread nD τ).loc main_arg22)
  bo2 := m ((c.tc : Thread nD τ).loc main_arg23)
  wn1 := m ((c.tc : Thread nD τ).loc main_arg24)
  bn1 := m ((c.tc : Thread nD τ).loc main_arg25)
  wn2 := m ((c.tc : Thread nD τ).loc main_arg26)
  bn2 := m ((c.tc : Thread nD τ).loc main_arg27)

variable (I : Inp)

/-! ## The irregular stages are the host operations themselves -/

/-- Node features: the same concatenation. -/
theorem e_xu : ReadC.val_main_v0 (F := Ideal) I.x I.u = XU I := rfl

/-- The two rows of the edge list, as vectors of node indices. -/
theorem e_idx0 (ei : IVec S2x800000 32) : ReadC.val_main_v41 (F := Ideal) ei = endIdx0 ei := rfl
theorem e_idx1 (ei : IVec S2x800000 32) : ReadC.val_main_v43 (F := Ideal) ei = endIdx1 ei := rfl

/-- The wrapped indices (a negative index counts from the end), at each of their four occurrences. -/
theorem e_wrap48 (ei : IVec S2x800000 32) : ReadC.val_main_v48 (F := Ideal) ei = wrapIdx (endIdx0 ei) := rfl
theorem e_wrap55 (ei : IVec S2x800000 32) : ReadC.val_main_v55 (F := Ideal) ei = wrapIdx (endIdx1 ei) := rfl
theorem e_wrap123 (ei : IVec S2x800000 32) : ReadC.val_main_v123 (F := Ideal) ei = wrapIdx (endIdx0 ei) := rfl
theorem e_wrap130 (ei : IVec S2x800000 32) : ReadC.val_main_v130 (F := Ideal) ei = wrapIdx (endIdx1 ei) := rfl

/-- The node features at the edges' sources and at their destinations. -/
theorem e_g50 : ReadC.val_main_v50 (F := Ideal) I.x I.u I.ei = gath37 (XU I) (endIdx0 I.ei) := by
  unfold ReadC.val_main_v50 ReadC.val_main_v49 gath37
  rw [e_xu, e_wrap48]
theorem e_g57 : ReadC.val_main_v57 (F := Ideal) I.x I.u I.ei = gath37 (XU I) (endIdx1 I.ei) := by
  unfold ReadC.val_main_v57 ReadC.val_main_v56 gath37
  rw [e_xu, e_wrap55]

/-- Each node's number of incoming edges, floored at one, at both of its occurrences. -/
theorem e_deg76 (ei : IVec S2x800000 32) : ReadC.val_main_v76 (F := Ideal) ei = inDeg (endIdx1 ei) := rfl
theorem e_deg151 (ei : IVec S2x800000 32) : ReadC.val_main_v151 (F := Ideal) ei = inDeg (endIdx1 ei) := rfl

/-- The mean over each node's incoming edges, of any edge rows, at both of its occurrences. -/
theorem e_seg78 (ei : IVec S2x800000 32) (msg : FVec Ideal S800000x32 .f32) :
    Host.divf (Host.scatterAdd scatter_S50000x32_S800000x1_S800000x32_1_0_0_1 (ReadC.val_main_v68 (F := Ideal)) (ReadC.val_main_v69 (F := Ideal) ei) msg)
      (ReadC.val_main_v77 (F := Ideal) ei) = segMean (endIdx1 ei) msg := by
  unfold ReadC.val_main_v77 segMean
  rw [e_deg76]
  rfl
theorem e_seg153 (ei : IVec S2x800000 32) (msg : FVec Ideal S800000x32 .f32) :
    Host.divf (Host.scatterAdd scatter_S50000x32_S800000x1_S800000x32_1_0_0_1 (ReadC.val_main_v143 (F := Ideal)) (ReadC.val_main_v144 (F := Ideal) ei) msg)
      (ReadC.val_main_v152 (F := Ideal) ei) = segMean (endIdx1 ei) msg := by
  unfold ReadC.val_main_v152 segMean
  rw [e_deg151]
  rfl

/-! ## The stages, in order -/

theorem g_nh : ReadC.val_main_v39 (F := Ideal) I.x I.u I.hnh I.hnc I.wihn I.whhn I.bihn I.bhhn = NH I := by
  rw [r_nh, e_xu]; rfl
theorem g_nc : ReadC.val_main_v31 (F := Ideal) I.x I.u I.hnh I.hnc I.wihn I.whhn I.bihn I.bhhn = NC I := by
  rw [r_nc, e_xu]; rfl

/-- The message of every edge. -/
theorem e_msg : ReadC.val_main_v67 (F := Ideal) I.x I.u I.ei I.ea I.we1 I.be1 I.we2 I.be2 = MSG I := by
  rw [r_msg, e_g50, e_g57]; rfl

/-- The mean message at every node. -/
theorem e_agg : ReadC.val_main_v78 (F := Ideal) I.x I.u I.ei I.ea I.we1 I.be1 I.we2 I.be2 = AGG I := by
  unfold ReadC.val_main_v78 ReadC.val_main_v70
  rw [e_msg]
  exact e_seg78 I.ei (MSG I)

theorem g_eh : ReadC.val_main_v117 (F := Ideal) I.x I.u I.ei I.ea I.heh I.hec I.wihe I.whhe I.bihe I.bhhe I.we1 I.be1 I.we2 I.be2 = EH I := by
  rw [r_eh, e_agg]; rfl
theorem g_ec : ReadC.val_main_v109 (F := Ideal) I.x I.u I.ei I.ea I.heh I.hec I.wihe I.whhe I.bihe I.bhhe I.we1 I.be1 I.we2 I.be2 = EC I := by
  rw [r_ec, e_agg]; rfl

/-- Both histories side by side. -/
theorem e_full : ReadC.val_main_v118 (F := Ideal) I.x I.u I.ei I.ea I.hnh I.hnc I.heh I.hec I.wihn I.whhn I.bihn I.bhhn I.wihe I.whhe I.bihe I.bhhe I.we1 I.be1 I.we2 I.be2 = FULL I := by
  unfold ReadC.val_main_v118
  rw [g_nh, g_eh]; rfl

/-- The histories at the edges' sources and at their destinations. -/
theorem e_g125 : ReadC.val_main_v125 (F := Ideal) I.x I.u I.ei I.ea I.hnh I.hnc I.heh I.hec I.wihn I.whhn I.bihn I.bhhn I.wihe I.whhe I.bihe I.bhhe I.we1 I.be1 I.we2 I.be2 = gath28 (FULL I) (endIdx0 I.ei) := by
  unfold ReadC.val_main_v125 ReadC.val_main_v124 gath28
  rw [e_full, e_wrap123]
theorem e_g132 : ReadC.val_main_v132 (F := Ideal) I.x I.u I.ei I.ea I.hnh I.hnc I.heh I.hec I.wihn I.whhn I.bihn I.bhhn I.wihe I.whhe I.bihe I.bhhe I.we1 I.be1 I.we2 I.be2 = gath28 (FULL I) (endIdx1 I.ei) := by
  unfold ReadC.val_main_v132 ReadC.val_main_v131 gath28
  rw [e_full, e_wrap130]

/-- The output block's edge rows. -/
theorem e_e2 : ReadC.val_main_v142 (F := Ideal) I.x I.u I.ei I.ea I.hnh I.hnc I.heh I.hec I.wihn I.whhn I.bihn I.bhhn I.wihe I.whhe I.bihe I.bhhe I.we1 I.be1 I.we2 I.be2 I.wo1 I.bo1 I.wo2 I.bo2 = E2 I := by
  rw [r_e2, e_g125, e_g132]; rfl

/-- Their mean at every node. -/
theorem e_agg2 : ReadC.val_main_v153 (F := Ideal) I.x I.u I.ei I.ea I.hnh I.hnc I.heh I.hec I.wihn I.whhn I.bihn I.bhhn I.wihe I.whhe I.bihe I.bhhe I.we1 I.be1 I.we2 I.be2 I.wo1 I.bo1 I.wo2 I.bo2 = AGG2 I := by
  unfold ReadC.val_main_v153 ReadC.val_main_v145
  rw [e_e2]
  exact e_seg153 I.ei (E2 I)

theorem g_out : ReadC.val_main_v163 (F := Ideal) I.x I.u I.ei I.ea I.hnh I.hnc I.heh I.hec I.wihn I.whhn I.bihn I.bhhn I.wihe I.whhe I.bihe I.bhhe I.we1 I.be1 I.we2 I.be2 I.wo1 I.bo1 I.wo2 I.bo2 I.wn1 I.bn1 I.wn2 I.bn2 = OUT I := by
  rw [r_out, e_full, e_agg2]; rfl

theorem ref_vals (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v163) = OUT (inpR m c)
      ∧       r.2.mem ((c.tc : Thread nD τ).loc main_v39) = NH (inpR m c)
      ∧       r.2.mem ((c.tc : Thread nD τ).loc main_v31) = NC (inpR m c)
      ∧       r.2.mem ((c.tc : Thread nD τ).loc main_v117) = EH (inpR m c)
      ∧       r.2.mem ((c.tc : Thread nD τ).loc main_v109) = EC (inpR m c)
      ∧       r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)
      ∧       r.2.mem ((c.tc : Thread nD τ).loc main_arg15) = m ((c.tc : Thread nD τ).loc main_arg15)
      ∧       r.2.mem ((c.tc : Thread nD τ).loc main_arg16) = m ((c.tc : Thread nD τ).loc main_arg16)
      ∧       r.2.mem ((c.tc : Thread nD τ).loc main_arg17) = m ((c.tc : Thread nD τ).loc main_arg17)
      ∧       r.2.mem ((c.tc : Thread nD τ).loc main_arg18) = m ((c.tc : Thread nD τ).loc main_arg18)
      ∧       r.2.mem ((c.tc : Thread nD τ).loc main_arg19) = m ((c.tc : Thread nD τ).loc main_arg19)
      ∧       r.2.mem ((c.tc : Thread nD τ).loc main_arg20) = m ((c.tc : Thread nD τ).loc main_arg20)
      ∧       r.2.mem ((c.tc : Thread nD τ).loc main_arg21) = m ((c.tc : Thread nD τ).loc main_arg21)
      ∧       r.2.mem ((c.tc : Thread nD τ).loc main_arg22) = m ((c.tc : Thread nD τ).loc main_arg22)
      ∧       r.2.mem ((c.tc : Thread nD τ).loc main_arg23) = m ((c.tc : Thread nD τ).loc main_arg23)
      ∧       r.2.mem ((c.tc : Thread nD τ).loc main_arg24) = m ((c.tc : Thread nD τ).loc main_arg24)
      ∧       r.2.mem ((c.tc : Thread nD τ).loc main_arg25) = m ((c.tc : Thread nD τ).loc main_arg25)
      ∧       r.2.mem ((c.tc : Thread nD τ).loc main_arg26) = m ((c.tc : Thread nD τ).loc main_arg26)
      ∧       r.2.mem ((c.tc : Thread nD τ).loc main_arg27) = m ((c.tc : Thread nD τ).loc main_arg27)) :=
  (θ_run defs _ _).mono (fun r h c => by
    obtain ⟨h163, h39, h31, h117, h109, hrest⟩ := h c
    exact ⟨h163.trans (g_out (inpR m c)), h39.trans (g_nh (inpR m c)), h31.trans (g_nc (inpR m c)),
      h117.trans (g_eh (inpR m c)), h109.trans (g_ec (inpR m c)), hrest⟩) (run_vals m ρ)

end Cert.ReferenceIdeal.RV
end
-- ==== Proof.lean ====
/-
  One step of a recurrent graph network, as five tiled dense kernels among gathers and segment means, against its plain
  array-language reference: equal results at the ideal values, for finite inputs whose edge endpoints are node indices.

  Both programs compute, from node features `xu = [x | u]`: an LSTM cell on the nodes; for every edge a two-layer
  network of the endpoint rows and the edge's attributes; the mean of those messages over each node's incoming edges;
  a second LSTM cell on the means; `full = [node history | edge history]`; a second edge network and mean; and a
  two-layer network of `[full | mean]` at every node. They differ in arrangement only: the kernel adds the two LSTM
  biases before adding them to the gates where the reference adds them one after the other (associativity of `+`), and
  it multiplies the endpoint rows and the attributes against three slabs of the first weight matrix where the reference
  multiplies their concatenation against the whole matrix (a finite sum regrouped). Casts to a narrower float format are
  the identity at the ideal values and a matrix product is the exact sum, so no rounding and no order of accumulation is
  left; the sigmoid is one function however it is spelled. No law used needs finiteness. The one place the programs
  part is an out-of-range edge endpoint, where the reference's indexing is not defined: the precondition's last
  conjunct keeps every endpoint in `[0, 50000)`, and under it the kernel's fill of out-of-range rows never fires.

  The frames of the two kernel programs are the generated ones; the reference's is its run, read back, with the results dropped; the ideal pass
  recorded no rewrite, so `preserves` asks nothing; `algebraic` puts the two value runs side by side over one record of
  the argument arrays.
-/
import proofs.«417163_j44495861187273_2_alg».proof.Defs
import proofs.«417163_j44495861187273_2_alg».proof.Proof.Gen.Kernel
import proofs.«417163_j44495861187273_2_alg».proof.Proof.Gen.Kernel.Skeleton
import proofs.«417163_j44495861187273_2_alg».proof.Proof.Gen.Kernel.Launch
import proofs.«417163_j44495861187273_2_alg».proof.Proof.Gen.Kernel.Points
import proofs.«417163_j44495861187273_2_alg».proof.Proof.Gen.Kernel.Frame
import proofs.«417163_j44495861187273_2_alg».proof.Proof.Gen.KernelIdeal
import proofs.«417163_j44495861187273_2_alg».proof.Proof.Gen.KernelIdeal.Skeleton
import proofs.«417163_j44495861187273_2_alg».proof.Proof.Gen.KernelIdeal.Launch
import proofs.«417163_j44495861187273_2_alg».proof.Proof.Gen.KernelIdeal.Points
import proofs.«417163_j44495861187273_2_alg».proof.Proof.Gen.KernelIdeal.Frame
import proofs.«417163_j44495861187273_2_alg».proof.Proof.Gen.ReferenceIdeal
import proofs.«417163_j44495861187273_2_alg».proof.Proof.Gen.Pre_finite_inputs
import proofs.«417163_j44495861187273_2_alg».proof.Proof.KAsm
import proofs.«417163_j44495861187273_2_alg».proof.Proof.RAsm
import Idealize.ShloMosaic.Adequacy
import Idealize.ShloMosaic.Init

noncomputable section

namespace Cert.Proof

open Idealize.ShloMosaic Idealize.SL.Sem Cert.GNN

/-- Memories that agree on the arguments give the two programs one record of argument arrays. -/
theorem inp_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧       m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧       m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧       m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧       m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧       m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧       m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧       m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧       m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧       m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧       m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧       m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧       m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧       m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧       m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧       m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧       m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧       m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧       m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧       m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧       m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧       m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧       m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧       m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧       m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧       m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧       m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧       m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) :
    Cert.ReferenceIdeal.RV.inpR m' c = Cert.KernelIdeal.KV.inpK m c := by
  obtain ⟨h0, h1, h2, h3, h4, h5, h6, h7, h8, h9, h10, h11, h12, h13, h14, h15, h16, h17, h18, h19, h20, h21, h22, h23, h24, h25, h26, h27⟩ := hagree
  unfold Cert.ReferenceIdeal.RV.inpR Cert.KernelIdeal.KV.inpK
  rw [h0, h1, h2, h3, h4, h5, h6, h7, h8, h9, h10, h11, h12, h13, h14, h15, h16, h17, h18, h19, h20, h21, h22, h23, h24, h25, h26, h27]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2.2) (Cert.ReferenceIdeal.RV.run_vals m ρ)

/-- The ideal pass recorded no rewrite. -/
theorem preserves : Cert.preserves_Kernel_KernelIdeal := trivial

/-- Both programs end with the five stage functions of the shared argument record. -/
theorem algebraic : Cert.algebraic_KernelIdeal_ReferenceIdeal := by
  intro m ρ m' ρ' hpre hagree
  refine ⟨fun c => OUT (Cert.KernelIdeal.KV.inpK m c), fun c => NH (Cert.KernelIdeal.KV.inpK m c),
    fun c => NC (Cert.KernelIdeal.KV.inpK m c), fun c => EH (Cert.KernelIdeal.KV.inpK m c),
    fun c => EC (Cert.KernelIdeal.KV.inpK m c), Cert.KernelIdeal.KV.kernel_vals m ρ hpre, ?_⟩
  refine (θ_run Cert.ReferenceIdeal.defs _ _).mono (fun r h c => ?_) (Cert.ReferenceIdeal.RV.ref_vals m' ρ')
  obtain ⟨r0, r1, r2, r3, r4, rargs⟩ := h c
  have hI := inp_eq m m' c (hagree c)
  rw [hI] at r0 r1 r2 r3 r4
  exact ⟨r0, r1, r2, r3, r4, rargs⟩

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
